-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1x256 : Shape := ⟨2, ![1, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S8x16 : Shape := ⟨2, ![8, 16]⟩
abbrev S256x256 : Shape := ⟨2, ![256, 256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1x256 : S_.BroadcastsInDim S1x256 (![] : Fin 0 → Fin S1x256.rank)
  reducesTo_S1x256_S_d0_1 : S1x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S8x16 : S_.BroadcastsInDim S8x16 (![] : Fin 0 → Fin S8x16.rank)
  reducesTo_S8x16_S_d0_1 : S8x16.ReducesTo [0, 1] S_
  bcast_S_S256x256 : S_.BroadcastsInDim S256x256 (![] : Fin 0 → Fin S256x256.rank)
  reducesTo_S256x256_S_d0_1 : S256x256.ReducesTo [0, 1] S_

variable [Facts]

def fn_part7 {F : FTy → Type} [FloatOps F] (main_arg25 : FVec F S256x256 .f32) (main_arg26 : FVec F S256 .f32) (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  let main_v124 : FVec F S256x256 .f32 := Host.absf main_arg25
  let main_cst_48 : FVec F S_ .f32 := constant S_ .f32 0x7F800000#32
  let main_v125 : FVec F S256x256 .f32 := broadcastInDim S256x256 ![] bcast_S_S256x256 main_cst_48
  let main_v126 : IVec S256x256 1 := cmpf .olt main_v124 main_v125
  let main_c_49 : IVec S_ 1 := constantI S_ 1 1#1
  let main_v127 : IVec S_ 1 := (fun x v => Host.reduce IntOp.andi x v reducesTo_S256x256_S_d0_1 h_S_) main_v126 main_c_49
  let main_v128 : IVec S_ 1 := andi main_v123 main_v127
  let main_v129 : FVec F S256 .f32 := Host.absf main_arg26
  let main_cst_50 : FVec F S_ .f32 := constant S_ .f32 0x7F800000#32
  let main_v130 : FVec F S256 .f32 := broadcastInDim S256 ![] bcast_S_S256 main_cst_50
  let main_v131 : IVec S256 1 := cmpf .olt main_v129 main_v130
  let main_c_51 : IVec S_ 1 := constantI S_ 1 1#1
  let main_v132 : IVec S_ 1 := (fun x v => Host.reduce IntOp.andi x v reducesTo_S256_S_d0 h_S_) main_v131 main_c_51
  let main_v133 : IVec S_ 1 := andi main_v128 main_v132
  main_v133

def fn_part6 {F : FTy → Type} [FloatOps F] (main_arg21 : FVec F S8x16 .f32) (main_arg22 : FVec F S128 .f32) (main_arg23 : FVec F S256 .f32) (main_arg24 : FVec F S256 .f32) (main_arg25 : FVec F S256x256 .f32) (main_arg26 : FVec F S256 .f32) (main_v98 : IVec S_ 1) (main_v101 : IVec S128 1) (main_c_39 : IVec S_ 1) : IVec S_ 1 :=
  let main_v102 : IVec S_ 1 := (fun x v => Host.reduce IntOp.andi x v reducesTo_S128_S_d0 h_S_) main_v101 main_c_39
  let main_v103 : IVec S_ 1 := andi main_v98 main_v102
  let main_v104 : FVec F S8x16 .f32 := Host.absf main_arg21
  let main_cst_40 : FVec F S_ .f32 := constant S_ .f32 0x7F800000#32
  let main_v105 : FVec F S8x16 .f32 := broadcastInDim S8x16 ![] bcast_S_S8x16 main_cst_40
  let main_v106 : IVec S8x16 1 := cmpf .olt main_v104 main_v105
  let main_c_41 : IVec S_ 1 := constantI S_ 1 1#1
  let main_v107 : IVec S_ 1 := (fun x v => Host.reduce IntOp.andi x v reducesTo_S8x16_S_d0_1 h_S_) main_v106 main_c_41
  let main_v108 : IVec S_ 1 := andi main_v103 main_v107
  let main_v109 : FVec F S128 .f32 := Host.absf main_arg22
  let main_cst_42 : FVec F S_ .f32 := constant S_ .f32 0x7F800000#32
  let main_v110 : FVec F S128 .f32 := broadcastInDim S128 ![] bcast_S_S128 main_cst_42
  let main_v111 : IVec S128 1 := cmpf .olt main_v109 main_v110
  let main_c_43 : IVec S_ 1 := constantI S_ 1 1#1
  let main_v112 : IVec S_ 1 := (fun x v => Host.reduce IntOp.andi x v reducesTo_S128_S_d0 h_S_) main_v111 main_c_43
  let main_v113 : IVec S_ 1 := andi main_v108 main_v112
  let main_v114 : FVec F S256 .f32 := Host.absf main_arg23
  let main_cst_44 : FVec F S_ .f32 := constant S_ .f32 0x7F800000#32
  let main_v115 : FVec F S256 .f32 := broadcastInDim S256 ![] bcast_S_S256 main_cst_44
  let main_v116 : IVec S256 1 := cmpf .olt main_v114 main_v115
  let main_c_45 : IVec S_ 1 := constantI S_ 1 1#1
  let main_v117 : IVec S_ 1 := (fun x v => Host.reduce IntOp.andi x v reducesTo_S256_S_d0 h_S_) main_v116 main_c_45
  let main_v118 : IVec S_ 1 := andi main_v113 main_v117
  let main_v119 : FVec F S256 .f32 := Host.absf main_arg24
  fn_part7 (F := F) main_arg25 main_arg26 main_v118 main_v119

def fn_part5 {F : FTy → Type} [FloatOps F] (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg18
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S128x128 .f32 := Host.absf main_arg19
  let main_cst_36 : FVec F S_ .f32 := constant S_ .f32 0x7F800000#32
  let main_v95 : FVec F S128x128 .f32 := broadcastInDim S128x128 ![] bcast_S_S128x128 main_cst_36
  let main_v96 : IVec S128x128 1 := cmpf .olt main_v94 main_v95
  let main_c_37 : IVec S_ 1 := constantI S_ 1 1#1
  let main_v97 : IVec S_ 1 := (fun x v => Host.reduce IntOp.andi x v reducesTo_S128x128_S_d0_1 h_S_) main_v96 main_c_37
  let main_v98 : IVec S_ 1 := andi main_v93 main_v97
  let main_v99 : FVec F S128 .f32 := Host.absf main_arg20
  let main_cst_38 : FVec F S_ .f32 := constant S_ .f32 0x7F800000#32
  let main_v100 : FVec F S128 .f32 := broadcastInDim S128 ![] bcast_S_S128 main_cst_38
  let main_v101 : IVec S128 1 := cmpf .olt main_v99 main_v100
  let main_c_39 : IVec S_ 1 := constantI S_ 1 1#1
  fn_part6 (F := F) main_arg21 main_arg22 main_arg23 main_arg24 main_arg25 main_arg26 main_v98 main_v101 main_c_39

def fn_part4 {F : FTy → Type} [FloatOps F] (main_arg14 : FVec F S256 .f32) (main_arg15 : FVec F S256x128 .f32) (main_arg16 : FVec F S128 .f32) (main_arg17 : FVec F S128x128 .f32) (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x128 .f32 := Host.absf main_arg15
  let main_cst_28 : FVec F S_ .f32 := constant S_ .f32 0x7F800000#32
  let main_v75 : FVec F S256x128 .f32 := broadcastInDim S256x128 ![] bcast_S_S256x128 main_cst_28
  let main_v76 : IVec S256x128 1 := cmpf .olt main_v74 main_v75
  let main_c_29 : IVec S_ 1 := constantI S_ 1 1#1
  let main_v77 : IVec S_ 1 := (fun x v => Host.reduce IntOp.andi x v reducesTo_S256x128_S_d0_1 h_S_) main_v76 main_c_29
  let main_v78 : IVec S_ 1 := andi main_v73 main_v77
  let main_v79 : FVec F S128 .f32 := Host.absf main_arg16
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_v83 main_v84 main_cst_32

def fn_part3 {F : FTy → Type} [FloatOps F] (main_arg11 : FVec F S8x16 .f32) (main_arg12 : FVec F S128 .f32) (main_arg13 : FVec F S256 .f32) (main_arg14 : FVec F S256 .f32) (main_arg15 : FVec F S256x128 .f32) (main_arg16 : FVec F S128 .f32) (main_arg17 : FVec F S128x128 .f32) (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S8x16 .f32 := Host.absf main_arg11
  let main_cst_20 : FVec F S_ .f32 := constant S_ .f32 0x7F800000#32
  let main_v55 : FVec F S8x16 .f32 := broadcastInDim S8x16 ![] bcast_S_S8x16 main_cst_20
  let main_v56 : IVec S8x16 1 := cmpf .olt main_v54 main_v55
  let main_c_21 : IVec S_ 1 := constantI S_ 1 1#1
  let main_v57 : IVec S_ 1 := (fun x v => Host.reduce IntOp.andi x v reducesTo_S8x16_S_d0_1 h_S_) main_v56 main_c_21
  let main_v58 : IVec S_ 1 := andi main_v53 main_v57
  let main_v59 : FVec F S128 .f32 := Host.absf main_arg12
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S256 .f32 := Host.absf main_arg13
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg14 main_arg15 main_arg16 main_arg17 main_arg18 main_arg19 main_arg20 main_arg21 main_arg22 main_arg23 main_arg24 main_arg25 main_arg26 main_v63 main_v67

def fn_part2 {F : FTy → Type} [FloatOps F] (main_arg7 : FVec F S128x128 .f32) (main_arg8 : FVec F S128 .f32) (main_arg9 : FVec F S128x128 .f32) (main_arg10 : FVec F S128 .f32) (main_arg11 : FVec F S8x16 .f32) (main_arg12 : FVec F S128 .f32) (main_arg13 : FVec F S256 .f32) (main_arg14 : FVec F S256 .f32) (main_arg15 : FVec F S256x128 .f32) (main_arg16 : FVec F S128 .f32) (main_arg17 : FVec F S128x128 .f32) (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) (main_v33 : IVec S_ 1) : IVec S_ 1 :=
  let main_v34 : FVec F S128x128 .f32 := Host.absf main_arg7
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg9
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_arg23 main_arg24 main_arg25 main_arg26 main_v48 main_v49 main_v50

def fn_part1 {F : FTy → Type} [FloatOps F] (main_arg4 : FVec F S256 .f32) (main_arg5 : FVec F S256x128 .f32) (main_arg6 : FVec F S128 .f32) (main_arg7 : FVec F S128x128 .f32) (main_arg8 : FVec F S128 .f32) (main_arg9 : FVec F S128x128 .f32) (main_arg10 : FVec F S128 .f32) (main_arg11 : FVec F S8x16 .f32) (main_arg12 : FVec F S128 .f32) (main_arg13 : FVec F S256 .f32) (main_arg14 : FVec F S256 .f32) (main_arg15 : FVec F S256x128 .f32) (main_arg16 : FVec F S128 .f32) (main_arg17 : FVec F S128x128 .f32) (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_v33

def fn {F : FTy → Type} [FloatOps F] (main_arg0 : FVec F S100000x128 .f32) (main_arg1 : FVec F S100000x128 .f32) (main_arg2 : FVec F S1x256 .f32) (main_arg3 : FVec F S256 .f32) (main_arg4 : FVec F S256 .f32) (main_arg5 : FVec F S256x128 .f32) (main_arg6 : FVec F S128 .f32) (main_arg7 : FVec F S128x128 .f32) (main_arg8 : FVec F S128 .f32) (main_arg9 : FVec F S128x128 .f32) (main_arg10 : FVec F S128 .f32) (main_arg11 : FVec F S8x16 .f32) (main_arg12 : FVec F S128 .f32) (main_arg13 : FVec F S256 .f32) (main_arg14 : FVec F S256 .f32) (main_arg15 : FVec F S256x128 .f32) (main_arg16 : FVec F S128 .f32) (main_arg17 : FVec F S128x128 .f32) (main_arg18 : FVec F S128 .f32) (main_arg19 : FVec F S128x128 .f32) (main_arg20 : FVec F S128 .f32) (main_arg21 : FVec F S8x16 .f32) (main_arg22 : FVec F S128 .f32) (main_arg23 : FVec F S256 .f32) (main_arg24 : FVec F S256 .f32) (main_arg25 : FVec F S256x256 .f32) (main_arg26 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S1x256 .f32 := Host.absf main_arg2
  let main_cst_2 : FVec F S_ .f32 := constant S_ .f32 0x7F800000#32
  let main_v10 : FVec F S1x256 .f32 := broadcastInDim S1x256 ![] bcast_S_S1x256 main_cst_2
  let main_v11 : IVec S1x256 1 := cmpf .olt main_v9 main_v10
  let main_c_3 : IVec S_ 1 := constantI S_ 1 1#1
  let main_v12 : IVec S_ 1 := (fun x v => Host.reduce IntOp.andi x v reducesTo_S1x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S100000x128 : Shape := ⟨2, ![100000, 128]⟩
abbrev S1x256 : Shape := ⟨2, ![1, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S8x16 : Shape := ⟨2, ![8, 16]⟩
abbrev S256x256 : Shape := ⟨2, ![256, 256]⟩
abbrev S_ : Shape := ⟨0, ![]⟩
abbrev S128x1 : Shape := ⟨2, ![128, 1]⟩
abbrev S1x128 : Shape := ⟨2, ![1, 128]⟩
abbrev S1x5000 : Shape := ⟨2, ![1, 5000]⟩
abbrev S5000x128 : Shape := ⟨2, ![5000, 128]⟩
abbrev S1 : Shape := ⟨1, ![1]⟩
abbrev S1x1 : Shape := ⟨2, ![1, 1]⟩

abbrev nBuf : Space → Nat
  | .hbm => 80
  | .vmem => 39
  | .smem => 0
  | _ => 0

abbrev bufTy : (tb : Table) → Fin (tcTables nBuf tb) → BufTy
  | .hbm, ⟨0, _⟩ => ⟨S100000x128, .f32⟩
  | .hbm, ⟨1, _⟩ => ⟨S100000x128, .f32⟩
  | .hbm, ⟨2, _⟩ => ⟨S1x256, .f32⟩
  | .hbm, ⟨3, _⟩ => ⟨S256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S8x16, .f32⟩
  | .hbm, ⟨12, _⟩ => ⟨S128, .f32⟩
  | .hbm, ⟨13, _⟩ => ⟨S256, .f32⟩
  | .hbm, ⟨14, _⟩ => ⟨S256, .f32⟩
  | .hbm, ⟨15, _⟩ => ⟨S256x128, .f32⟩
  | .hbm, ⟨16, _⟩ => ⟨S128, .f32⟩
  | .hbm, ⟨17, _⟩ => ⟨S128x128, .f32⟩
  | .hbm, ⟨18, _⟩ => ⟨S128, .f32⟩
  | .hbm, ⟨19, _⟩ => ⟨S128x128, .f32⟩
  | .hbm, ⟨20, _⟩ => ⟨S128, .f32⟩
  | .hbm, ⟨21, _⟩ => ⟨S8x16, .f32⟩
  | .hbm, ⟨22, _⟩ => ⟨S128, .f32⟩
  | .hbm, ⟨23, _⟩ => ⟨S256, .f32⟩
  | .hbm, ⟨24, _⟩ => ⟨S256, .f32⟩
  | .hbm, ⟨25, _⟩ => ⟨S256x256, .f32⟩
  | .hbm, ⟨26, _⟩ => ⟨S256, .f32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S128x1, .i32⟩
  | .hbm, ⟨47, _⟩ => ⟨S1x128, .i32⟩
  | .hbm, ⟨48, _⟩ => ⟨S128x128, .i32⟩
  | .hbm, ⟨49, _⟩ => ⟨S128x128, .i32⟩
  | .hbm, ⟨50, _⟩ => ⟨S128x128, .i1⟩
  | .hbm, ⟨51, _⟩ => ⟨S128x128, .f32⟩
  | .hbm, ⟨52, _⟩ => ⟨S128, .f32⟩
  | .hbm, ⟨53, _⟩ => ⟨S128x1, .f32⟩
  | .hbm, ⟨54, _⟩ => ⟨S128x128, .f32⟩
  | .hbm, ⟨55, _⟩ => ⟨S128x128, .f32⟩
  | .hbm, ⟨56, _⟩ => ⟨S128, .f32⟩
  | .hbm, ⟨57, _⟩ => ⟨S128x1, .f32⟩
  | .hbm, ⟨58, _⟩ => ⟨S128x128, .f32⟩
  | .hbm, ⟨59, _⟩ => ⟨S128x128, .f32⟩
  | .hbm, ⟨60, _⟩ => ⟨S128, .f32⟩
  | .hbm, ⟨61, _⟩ => ⟨S1x128, .f32⟩
  | .hbm, ⟨62, _⟩ => ⟨S128, .f32⟩
  | .hbm, ⟨63, _⟩ => ⟨S1x128, .f32⟩
  | .hbm, ⟨64, _⟩ => ⟨S1x256, .f32⟩
  | .hbm, ⟨65, _⟩ => ⟨S1x256, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S1x256, .f32⟩
  | .hbm, ⟨70, _⟩ => ⟨S1x256, .f32⟩
  | .hbm, ⟨71, _⟩ => ⟨S1x128, .f32⟩
  | .hbm, ⟨72, _⟩ => ⟨S1x128, .f32⟩
  | .hbm, ⟨73, _⟩ => ⟨S1x128, .f32⟩
  | .hbm, ⟨74, _⟩ => ⟨S1x256, .f32⟩
  | .hbm, ⟨75, _⟩ => ⟨S1x256, .f32⟩
  | .hbm, ⟨76, _⟩ => ⟨S1x256, .f32⟩
  | .hbm, ⟨77, _⟩ => ⟨S_, .f32⟩
  | .hbm, ⟨78, _⟩ => ⟨S1x5000, .f32⟩
  | .hbm, ⟨79, _⟩ => ⟨S1x256, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S1x256, .f32⟩
  | .local _ .vmem, ⟨5, _⟩ => ⟨S1x256, .f32⟩
  | .local _ .vmem, ⟨6, _⟩ => ⟨S1x256, .f32⟩
  | .local _ .vmem, ⟨7, _⟩ => ⟨S256x128, .f32⟩
  | .local _ .vmem, ⟨8, _⟩ => ⟨S1x128, .f32⟩
  | .local _ .vmem, ⟨9, _⟩ => ⟨S128x128, .f32⟩
  | .local _ .vmem, ⟨10, _⟩ => ⟨S1x128, .f32⟩
  | .local _ .vmem, ⟨11, _⟩ => ⟨S128x128, .f32⟩
  | .local _ .vmem, ⟨12, _⟩ => ⟨S1x128, .f32⟩
  | .local _ .vmem, ⟨13, _⟩ => ⟨S128x128, .f32⟩
  | .local _ .vmem, ⟨14, _⟩ => ⟨S1x128, .f32⟩
  | .local _ .vmem, ⟨15, _⟩ => ⟨S1x256, .f32⟩
  | .local _ .vmem, ⟨16, _⟩ => ⟨S1x256, .f32⟩
  | .local _ .vmem, ⟨17, _⟩ => ⟨S256x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S128x128, .f32⟩
  | .local _ .vmem, ⟨24, _⟩ => ⟨S1x128, .f32⟩
  | .local _ .vmem, ⟨25, _⟩ => ⟨S1x256, .f32⟩
  | .local _ .vmem, ⟨26, _⟩ => ⟨S1x256, .f32⟩
  | .local _ .vmem, ⟨27, _⟩ => ⟨S256x256, .f32⟩
  | .local _ .vmem, ⟨28, _⟩ => ⟨S1x256, .f32⟩
  | .local _ .vmem, ⟨29, _⟩ => ⟨S1x5000, .f32⟩
  | .local _ .vmem, ⟨30, _⟩ => ⟨S1x256, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S1x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S1x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_v0 : Ref sig .tc := ⟨.hbm, 27, rfl⟩
abbrev main_c : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_call0_v5 : Ref sig .tc := ⟨.hbm, 34, rfl⟩
abbrev main_call0_v6 : Ref sig .tc := ⟨.hbm, 35, rfl⟩
abbrev main_call0_v7 : Ref sig .tc := ⟨.hbm, 36, rfl⟩
abbrev main_call0_v8 : Ref sig .tc := ⟨.hbm, 37, rfl⟩
abbrev main_call0_c : Ref sig .tc := ⟨.hbm, 38, rfl⟩
abbrev main_call0_v9 : Ref sig .tc := ⟨.hbm, 39, rfl⟩
abbrev main_call0_v10 : Ref sig .tc := ⟨.hbm, 40, rfl⟩
abbrev main_call0_v11 : Ref sig .tc := ⟨.hbm, 41, rfl⟩
abbrev main_call0_c_0 : Ref sig .tc := ⟨.hbm, 42, rfl⟩
abbrev main_call0_v12 : Ref sig .tc := ⟨.hbm, 43, rfl⟩
abbrev main_call0_v13 : Ref sig .tc := ⟨.hbm, 44, rfl⟩
abbrev main_v1 : Ref sig .tc := ⟨.hbm, 45, rfl⟩
abbrev main_v2 : Ref sig .tc := ⟨.hbm, 46, rfl⟩
abbrev main_v3 : Ref sig .tc := ⟨.hbm, 47, rfl⟩
abbrev main_v4 : Ref sig .tc := ⟨.hbm, 48, rfl⟩
abbrev main_v5 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_cst : Ref sig .tc := ⟨.hbm, 77, rfl⟩
abbrev main_v33 : Ref sig .tc := ⟨.hbm, 78, rfl⟩
abbrev main_v34 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_scratch0 : Ref sig .tc := ⟨.vmem, 31, rfl⟩
abbrev cc0_scratch1 : Ref sig .tc := ⟨.vmem, 32, rfl⟩
abbrev cc0_scratch2 : Ref sig .tc := ⟨.vmem, 33, rfl⟩
abbrev cc0_scratch3 : Ref sig .tc := ⟨.vmem, 34, rfl⟩
abbrev cc0_scratch4 : Ref sig .tc := ⟨.vmem, 35, rfl⟩
abbrev cc0_scratch5 : Ref sig .tc := ⟨.vmem, 36, rfl⟩
abbrev cc0_scratch6 : Ref sig .tc := ⟨.vmem, 37, rfl⟩
abbrev cc0_scratch7 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v85 : BitVec 1 := Scalar.cmpi .eq arg0 c19_i32
  let v86 : BitVec 32 := Scalar.extui v85
  let c0_i32_51 : BitVec 32 := 0#32
  let v87 : BitVec 1 := Scalar.cmpi .ne v86 c0_i32_51
  v87

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S1x256 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S1x256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S256x256 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S1x256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S1x5000 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S1x256 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

class Facts₀ : Prop where
  bcast_S_S128 : S_.BroadcastsInDim S128 (![] : Fin 0 → Fin S128.rank)
  bcast_S128_S128x1_0 : S128.BroadcastsInDim S128x1 (![0] : Fin 1 → Fin S128x1.rank)
  bcast_S128_S1x128_1 : S128.BroadcastsInDim S1x128 (![1] : Fin 1 → Fin S1x128.rank)
  bcast_S128x1_S128x128_0_1 : S128x1.BroadcastsInDim S128x128 (![0, 1] : Fin 2 → Fin S128x128.rank)
  bcast_S1x128_S128x128_0_1 : S1x128.BroadcastsInDim S128x128 (![0, 1] : Fin 2 → Fin S128x128.rank)
  shapeCasts_S8x16_S128 : S8x16.ShapeCasts S128
  shapeCasts_S128_S1x128 : S128.ShapeCasts S1x128
  shapeCasts_S256_S1x256 : S256.ShapeCasts S1x256
  bcast_S_S1x5000 : S_.BroadcastsInDim S1x5000 (![] : Fin 0 → Fin S1x5000.rank)
  inb_S1x256_S1x256_0_0 : ∀ a, (![0, 0] : Fin 2 → Nat) a + S1x256.size a ≤ S1x256.size a
  h_S1x256 : 0 < S1x256.numel
  shapeCasts_S1x256_S1x256 : S1x256.ShapeCasts S1x256
  reduces_S1x256_S1 : S1x256.Reduces [1] S1
  shapeCasts_S1_S1x1 : S1.ShapeCasts S1x1
  broadcasts_S1x1_S1x256 : S1x1.Broadcasts S1x256
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x128_S128x128_0_0 : ∀ a, (![0, 0] : Fin 2 → Nat) a + S128x128.size a ≤ S128x128.size a
  h_S128x128 : 0 < S128x128.numel
  inb_S5000x128_S5000x128_0_0 : ∀ a, (![0, 0] : Fin 2 → Nat) a + S5000x128.size a ≤ S5000x128.size a
  h_S5000x128 : 0 < S5000x128.numel
  broadcasts_S1x128_S5000x128 : S1x128.Broadcasts S5000x128
  shapeCasts_S128x128_S128x128 : S128x128.ShapeCasts S128x128
  reduces_S5000x128_S128 : S5000x128.Reduces [0] S128
  concatenates_S1x128_S1x128_S1x256_d1 : Shape.Concatenates [S1x128, S1x128] S1x256 1
  inb_S256x256_S256x256_0_0 : ∀ a, (![0, 0] : Fin 2 → Nat) a + S256x256.size a ≤ S256x256.size a
  h_S256x256 : 0 < S256x256.numel
  dot_S1x256_S256x128_S1x128_1_0_0_1_n_n_wf : DotDims.WF S1x256 S256x128 S1x128 [1] [0] [0] [1] [] []
  dot_S1x128_S128x128_S1x128_1_0_0_1_n_n_wf : DotDims.WF S1x128 S128x128 S1x128 [1] [0] [0] [1] [] []
  dot_S5000x128_S128x128_S5000x128_1_0_0_1_n_n_wf : DotDims.WF S5000x128 S128x128 S5000x128 [1] [0] [0] [1] [] []
  dot_S1x256_S256x256_S1x256_1_0_0_1_n_n_wf : DotDims.WF S1x256 S256x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .f32 = 32 ∨ (Rect.block (s := S128x128) S128x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128x128.size a ≤ S128x128.size a
  hwx0_9 : ∀ i : grid0.Coords, EltTy.bits .f32 = 32 ∨ (Rect.block (s := S128x128) S128x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S128x128.size a ≤ S128x128.size a
  hwx0_11 : ∀ i : grid0.Coords, EltTy.bits .f32 = 32 ∨ (Rect.block (s := S128x128) S128x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x128.size a ≤ S1x128.size a
  hwx0_12 : ∀ i : grid0.Coords, EltTy.bits .f32 = 32 ∨ (Rect.block (s := S1x128) S1x128.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x256.size a
  hwx0_13 : ∀ i : grid0.Coords, EltTy.bits .f32 = 32 ∨ (Rect.block (s := S1x256) S1x256.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x256.size a
  hwx0_14 : ∀ i : grid0.Coords, EltTy.bits .f32 = 32 ∨ (Rect.block (s := S1x256) S1x256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x128.size a ≤ S256x128.size a
  hwx0_15 : ∀ i : grid0.Coords, EltTy.bits .f32 = 32 ∨ (Rect.block (s := S256x128) S256x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x128.size a ≤ S1x128.size a
  hwx0_16 : ∀ i : grid0.Coords, EltTy.bits .f32 = 32 ∨ (Rect.block (s := S1x128) S1x128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x128.size a ≤ S128x128.size a
  hwx0_17 : ∀ i : grid0.Coords, EltTy.bits .f32 = 32 ∨ (Rect.block (s := S128x128) S128x128.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S1x128.size a ≤ S1x128.size a
  hwx0_18 : ∀ i : grid0.Coords, EltTy.bits .f32 = 32 ∨ (Rect.block (s := S1x128) S1x128.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S128x128.size a ≤ S128x128.size a
  hwx0_19 : ∀ i : grid0.Coords, EltTy.bits .f32 = 32 ∨ (Rect.block (s := S128x128) S128x128.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S1x128.size a ≤ S1x128.size a
  hwx0_20 : ∀ i : grid0.Coords, EltTy.bits .f32 = 32 ∨ (Rect.block (s := S1x128) S1x128.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S128x128.size a ≤ S128x128.size a
  hwx0_21 : ∀ i : grid0.Coords, EltTy.bits .f32 = 32 ∨ (Rect.block (s := S128x128) S128x128.size (cc0_transform_21 i) (hinb0_21 i)).WholeWords (EltTy.packing .f32)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S1x128.size a ≤ S1x128.size a
  hwx0_22 : ∀ i : grid0.Coords, EltTy.bits .f32 = 32 ∨ (Rect.block (s := S1x128) S1x128.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S1x256.size a ≤ S1x256.size a
  hwx0_23 : ∀ i : grid0.Coords, EltTy.bits .f32 = 32 ∨ (Rect.block (s := S1x256) S1x256.size (cc0_transform_23 i) (hinb0_23 i)).WholeWords (EltTy.packing .f32)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S1x256.size a ≤ S1x256.size a
  hwx0_24 : ∀ i : grid0.Coords, EltTy.bits .f32 = 32 ∨ (Rect.block (s := S1x256) S1x256.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S256x256.size a ≤ S256x256.size a
  hwx0_25 : ∀ i : grid0.Coords, EltTy.bits .f32 = 32 ∨ (Rect.block (s := S256x256) S256x256.size (cc0_transform_25 i) (hinb0_25 i)).WholeWords (EltTy.packing .f32)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S1x256.size a ≤ S1x256.size a
  hwx0_26 : ∀ i : grid0.Coords, EltTy.bits .f32 = 32 ∨ (Rect.block (s := S1x256) S1x256.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S1x5000.size a ≤ S1x5000.size a
  hwx0_27 : ∀ i : grid0.Coords, EltTy.bits .f32 = 32 ∨ (Rect.block (s := S1x5000) S1x5000.size (cc0_transform_27 i) (hinb0_27 i)).WholeWords (EltTy.packing .f32)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S1x256.size a ≤ S1x256.size a
  hwx0_28 : ∀ i : grid0.Coords, EltTy.bits .f32 = 32 ∨ (Rect.block (s := S1x256) S1x256.size (cc0_transform_28 i) (hinb0_28 i)).WholeWords (EltTy.packing .f32)

variable [Facts₀]

def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v23) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v24) S1x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v11) S128x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v17) S1x128.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v25) S1x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v26) S1x256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S256x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v27) S1x128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S128x128.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_v28) S1x128.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg19) S128x128.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_v29) S1x128.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v15) S128x128.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_v19) S1x128.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v30) S1x256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_v31) S1x256.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_arg25) S256x256.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_v32) S1x256.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v33) S1x5000.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_v34) S1x256.size cc0_transform_28 reads0_28 true true 1 stage0_28 sem0_28
    hrank0 hreads0_28 hinb0_28 nbuf0_28 (Memref.isWhole_whole _) hwx0_28 hstage0_28

abbrev win0 : Fin 29 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | ⟨_ + 29, h⟩ => absurd h (Nat.not_lt.2 (Nat.le_add_left _ _))
abbrev spec0 : Fin 29 → Pipeline.WinSpec sig grid0.rank := fun w => (win0 w).toWinSpec

abbrev idle0 : Fin 29 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun _ => false | 16 => fun _ => false | 17 => fun _ => false | 18 => fun _ => false | 19 => fun _ => false | 20 => fun _ => false | 21 => fun _ => false | 22 => fun _ => false | 23 => fun _ => false | 24 => fun _ => false | 25 => fun _ => false | 26 => fun _ => false | 27 => fun _ => false | 28 => fun i => !(k0_cond2 i == 1#1) | ⟨_ + 29, h⟩ => absurd h (Nat.not_lt.2 (Nat.le_add_left _ _))

class Facts : Prop extends Facts₀ where

variable [Facts]
-- ==== ReferenceIdeal.lean ====
abbrev S100000x128 : Shape := ⟨2, ![100000, 128]⟩
abbrev S1x256 : Shape := ⟨2, ![1, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S8x16 : Shape := ⟨2, ![8, 16]⟩
abbrev S256x256 : Shape := ⟨2, ![256, 256]⟩
abbrev S_ : Shape := ⟨0, ![]⟩
abbrev S1 : Shape := ⟨1, ![1]⟩
abbrev S1x1 : Shape := ⟨2, ![1, 1]⟩
abbrev S1x128 : Shape := ⟨2, ![1, 128]⟩
abbrev S100000x8x16 : Shape := ⟨3, ![100000, 8, 16]⟩
abbrev S1x8x16 : Shape := ⟨3, ![1, 8, 16]⟩
abbrev S100000x8 : Shape := ⟨2, ![100000, 8]⟩
abbrev S8 : Shape := ⟨1, ![8]⟩
abbrev S1x8 : Shape := ⟨2, ![1, 8]⟩
abbrev S100000x8x1 : Shape := ⟨3, ![100000, 8, 1]⟩

abbrev nBuf : Space → Nat
  | .hbm => 266
  | .vmem => 0
  | .smem => 0
  | _ => 0

abbrev hbmTy0_0 (i : Nat) : BufTy := match i % 128 with
  | 0 => ⟨S100000x128, .f32⟩
  | 1 => ⟨S100000x128, .f32⟩
  | 2 => ⟨S1x256, .f32⟩
  | 3 => ⟨S256, .f32⟩
  | 4 => ⟨S256, .f32⟩
  | 5 => ⟨S256x128, .f32⟩
  | 6 => ⟨S128, .f32⟩
  | 7 => ⟨S128x128, .f32⟩
  | 8 => ⟨S128, .f32⟩
  | 9 => ⟨S128x128, .f32⟩
  | 10 => ⟨S128, .f32⟩
  | 11 => ⟨S8x16, .f32⟩
  | 12 => ⟨S128, .f32⟩
  | 13 => ⟨S256, .f32⟩
  | 14 => ⟨S256, .f32⟩
  | 15 => ⟨S256x128, .f32⟩
  | 16 => ⟨S128, .f32⟩
  | 17 => ⟨S128x128, .f32⟩
  | 18 => ⟨S128, .f32⟩
  | 19 => ⟨S128x128, .f32⟩
  | 20 => ⟨S128, .f32⟩
  | 21 => ⟨S8x16, .f32⟩
  | 22 => ⟨S128, .f32⟩
  | 23 => ⟨S256, .f32⟩
  | 24 => ⟨S256, .f32⟩
  | 25 => ⟨S256x256, .f32⟩
  | 26 => ⟨S256, .f32⟩
  | 27 => ⟨S_, .f32⟩
  | 28 => ⟨S1, .f32⟩
  | 29 => ⟨S1x1, .f32⟩
  | 30 => ⟨S_, .f32⟩
  | 31 => ⟨S1x1, .f32⟩
  | 32 => ⟨S1x1, .f32⟩
  | 33 => ⟨S_, .i32⟩
  | 34 => ⟨S_, .f32⟩
  | 35 => ⟨S1, .f32⟩
  | 36 => ⟨S1x1, .f32⟩
  | 37 => ⟨S_, .f32⟩
  | 38 => ⟨S1x1, .f32⟩
  | 39 => ⟨S1x1, .f32⟩
  | 40 => ⟨S1x256, .f32⟩
  | 41 => ⟨S1x256, .f32⟩
  | 42 => ⟨S1x256, .f32⟩
  | 43 => ⟨S_, .f32⟩
  | 44 => ⟨S_, .f32⟩
  | 45 => ⟨S_, .f32⟩
  | 46 => ⟨S_, .f32⟩
  | 47 => ⟨S1, .f32⟩
  | 48 => ⟨S1x1, .f32⟩
  | 49 => ⟨S1x1, .f32⟩
  | 50 => ⟨S1x1, .f32⟩
  | 51 => ⟨S_, .f32⟩
  | 52 => ⟨S_, .i1⟩
  | 53 => ⟨S_, .f32⟩
  | 54 => ⟨S_, .f32⟩
  | 55 => ⟨S1x1, .f32⟩
  | 56 => ⟨S1x1, .f32⟩
  | 57 => ⟨S1x256, .f32⟩
  | 58 => ⟨S1x256, .f32⟩
  | 59 => ⟨S_, .f32⟩
  | 60 => ⟨S1x1, .f32⟩
  | 61 => ⟨S1x1, .f32⟩
  | 62 => ⟨S1x1, .f32⟩
  | 63 => ⟨S1x256, .f32⟩
  | 64 => ⟨S1x256, .f32⟩
  | 65 => ⟨S1x256, .f32⟩
  | 66 => ⟨S1x256, .f32⟩
  | 67 => ⟨S1x256, .f32⟩
  | 68 => ⟨S1x256, .f32⟩
  | 69 => ⟨S_, .f32⟩
  | 70 => ⟨S1x256, .f32⟩
  | 71 => ⟨S1x256, .f32⟩
  | 72 => ⟨S1x128, .f32⟩
  | 73 => ⟨S1x128, .f32⟩
  | 74 => ⟨S1x128, .f32⟩
  | 75 => ⟨S100000x128, .f32⟩
  | 76 => ⟨S1x128, .f32⟩
  | 77 => ⟨S100000x128, .f32⟩
  | 78 => ⟨S100000x128, .f32⟩
  | 79 => ⟨S100000x8x16, .f32⟩
  | 80 => ⟨S1x128, .f32⟩
  | 81 => ⟨S1x128, .f32⟩
  | 82 => ⟨S1x128, .f32⟩
  | 83 => ⟨S1x8x16, .f32⟩
  | 84 => ⟨S100000x8x16, .f32⟩
  | 85 => ⟨S100000x8x16, .f32⟩
  | 86 => ⟨S_, .f32⟩
  | 87 => ⟨S_, .f32⟩
  | 88 => ⟨S100000x8x16, .f32⟩
  | 89 => ⟨S100000x8x16, .i1⟩
  | 90 => ⟨S_, .f32⟩
  | 91 => ⟨S100000x8x16, .f32⟩
  | 92 => ⟨S100000x8x16, .f32⟩
  | 93 => ⟨S100000x8x16, .f32⟩
  | 94 => ⟨S1x8x16, .f32⟩
  | 95 => ⟨S100000x8x16, .f32⟩
  | 96 => ⟨S100000x8x16, .f32⟩
  | 97 => ⟨S_, .f32⟩
  | 98 => ⟨S100000x8, .f32⟩
  | 99 => ⟨S_, .f32⟩
  | 100 => ⟨S8, .f32⟩
  | 101 => ⟨S_, .f32⟩
  | 102 => ⟨S8, .f32⟩
  | 103 => ⟨S8, .f32⟩
  | 104 => ⟨S1x8, .f32⟩
  | 105 => ⟨S100000x8, .f32⟩
  | 106 => ⟨S100000x8, .f32⟩
  | 107 => ⟨S100000x8, .f32⟩
  | 108 => ⟨S_, .f32⟩
  | 109 => ⟨S8, .f32⟩
  | 110 => ⟨S1x8, .f32⟩
  | 111 => ⟨S100000x8, .f32⟩
  | 112 => ⟨S100000x8, .f32⟩
  | 113 => ⟨S100000x8x1, .f32⟩
  | 114 => ⟨S100000x8x16, .f32⟩
  | 115 => ⟨S100000x8x16, .f32⟩
  | 116 => ⟨S_, .f32⟩
  | 117 => ⟨S8x16, .f32⟩
  | 118 => ⟨S1x128, .f32⟩
  | 119 => ⟨S1x128, .f32⟩
  | 120 => ⟨S1x128, .f32⟩
  | 121 => ⟨S_, .f32⟩
  | 122 => ⟨S1, .f32⟩
  | 123 => ⟨S1x1, .f32⟩
  | 124 => ⟨S_, .f32⟩
  | 125 => ⟨S1x1, .f32⟩
  | 126 => ⟨S1x1, .f32⟩
  | 127 => ⟨S_, .i32⟩
  | _ => ⟨S100000x128, .f32⟩

abbrev hbmTy0_1 (i : Nat) : BufTy := match i % 128 with
  | 0 => ⟨S_, .f32⟩
  | 1 => ⟨S1, .f32⟩
  | 2 => ⟨S1x1, .f32⟩
  | 3 => ⟨S_, .f32⟩
  | 4 => ⟨S1x1, .f32⟩
  | 5 => ⟨S1x1, .f32⟩
  | 6 => ⟨S1x256, .f32⟩
  | 7 => ⟨S1x256, .f32⟩
  | 8 => ⟨S1x256, .f32⟩
  | 9 => ⟨S_, .f32⟩
  | 10 => ⟨S_, .f32⟩
  | 11 => ⟨S_, .f32⟩
  | 12 => ⟨S_, .f32⟩
  | 13 => ⟨S1, .f32⟩
  | 14 => ⟨S1x1, .f32⟩
  | 15 => ⟨S1x1, .f32⟩
  | 16 => ⟨S1x1, .f32⟩
  | 17 => ⟨S_, .f32⟩
  | 18 => ⟨S_, .i1⟩
  | 19 => ⟨S_, .f32⟩
  | 20 => ⟨S_, .f32⟩
  | 21 => ⟨S1x1, .f32⟩
  | 22 => ⟨S1x1, .f32⟩
  | 23 => ⟨S1x256, .f32⟩
  | 24 => ⟨S1x256, .f32⟩
  | 25 => ⟨S_, .f32⟩
  | 26 => ⟨S1x1, .f32⟩
  | 27 => ⟨S1x1, .f32⟩
  | 28 => ⟨S1x1, .f32⟩
  | 29 => ⟨S1x256, .f32⟩
  | 30 => ⟨S1x256, .f32⟩
  | 31 => ⟨S1x256, .f32⟩
  | 32 => ⟨S1x256, .f32⟩
  | 33 => ⟨S1x256, .f32⟩
  | 34 => ⟨S1x256, .f32⟩
  | 35 => ⟨S_, .f32⟩
  | 36 => ⟨S1x256, .f32⟩
  | 37 => ⟨S1x256, .f32⟩
  | 38 => ⟨S1x128, .f32⟩
  | 39 => ⟨S1x128, .f32⟩
  | 40 => ⟨S1x128, .f32⟩
  | 41 => ⟨S100000x128, .f32⟩
  | 42 => ⟨S1x128, .f32⟩
  | 43 => ⟨S100000x128, .f32⟩
  | 44 => ⟨S100000x128, .f32⟩
  | 45 => ⟨S100000x8x16, .f32⟩
  | 46 => ⟨S1x128, .f32⟩
  | 47 => ⟨S1x128, .f32⟩
  | 48 => ⟨S1x128, .f32⟩
  | 49 => ⟨S1x8x16, .f32⟩
  | 50 => ⟨S100000x8x16, .f32⟩
  | 51 => ⟨S100000x8x16, .f32⟩
  | 52 => ⟨S_, .f32⟩
  | 53 => ⟨S_, .f32⟩
  | 54 => ⟨S100000x8x16, .f32⟩
  | 55 => ⟨S100000x8x16, .i1⟩
  | 56 => ⟨S_, .f32⟩
  | 57 => ⟨S100000x8x16, .f32⟩
  | 58 => ⟨S100000x8x16, .f32⟩
  | 59 => ⟨S100000x8x16, .f32⟩
  | 60 => ⟨S1x8x16, .f32⟩
  | 61 => ⟨S100000x8x16, .f32⟩
  | 62 => ⟨S100000x8x16, .f32⟩
  | 63 => ⟨S_, .f32⟩
  | 64 => ⟨S100000x8, .f32⟩
  | 65 => ⟨S_, .f32⟩
  | 66 => ⟨S8, .f32⟩
  | 67 => ⟨S_, .f32⟩
  | 68 => ⟨S8, .f32⟩
  | 69 => ⟨S8, .f32⟩
  | 70 => ⟨S1x8, .f32⟩
  | 71 => ⟨S100000x8, .f32⟩
  | 72 => ⟨S100000x8, .f32⟩
  | 73 => ⟨S100000x8, .f32⟩
  | 74 => ⟨S_, .f32⟩
  | 75 => ⟨S8, .f32⟩
  | 76 => ⟨S1x8, .f32⟩
  | 77 => ⟨S100000x8, .f32⟩
  | 78 => ⟨S100000x8, .f32⟩
  | 79 => ⟨S100000x8x1, .f32⟩
  | 80 => ⟨S100000x8x16, .f32⟩
  | 81 => ⟨S100000x8x16, .f32⟩
  | 82 => ⟨S_, .f32⟩
  | 83 => ⟨S8x16, .f32⟩
  | 84 => ⟨S1x128, .f32⟩
  | 85 => ⟨S1x128, .f32⟩
  | 86 => ⟨S1x128, .f32⟩
  | 87 => ⟨S1x256, .f32⟩
  | 88 => ⟨S1x256, .f32⟩
  | 89 => ⟨S_, .f32⟩
  | 90 => ⟨S1, .f32⟩
  | 91 => ⟨S1x1, .f32⟩
  | 92 => ⟨S_, .f32⟩
  | 93 => ⟨S1x1, .f32⟩
  | 94 => ⟨S1x1, .f32⟩
  | 95 => ⟨S_, .i32⟩
  | 96 => ⟨S_, .f32⟩
  | 97 => ⟨S1, .f32⟩
  | 98 => ⟨S1x1, .f32⟩
  | 99 => ⟨S_, .f32⟩
  | 100 => ⟨S1x1, .f32⟩
  | 101 => ⟨S1x1, .f32⟩
  | 102 => ⟨S1x256, .f32⟩
  | 103 => ⟨S1x256, .f32⟩
  | 104 => ⟨S1x256, .f32⟩
  | 105 => ⟨S_, .f32⟩
  | 106 => ⟨S_, .f32⟩
  | 107 => ⟨S_, .f32⟩
  | 108 => ⟨S_, .f32⟩
  | 109 => ⟨S1, .f32⟩
  | 110 => ⟨S1x1, .f32⟩
  | 111 => ⟨S1x1, .f32⟩
  | 112 => ⟨S1x1, .f32⟩
  | 113 => ⟨S_, .f32⟩
  | 114 => ⟨S_, .i1⟩
  | 115 => ⟨S_, .f32⟩
  | 116 => ⟨S_, .f32⟩
  | 117 => ⟨S1x1, .f32⟩
  | 118 => ⟨S1x1, .f32⟩
  | 119 => ⟨S1x256, .f32⟩
  | 120 => ⟨S1x256, .f32⟩
  | 121 => ⟨S_, .f32⟩
  | 122 => ⟨S1x1, .f32⟩
  | 123 => ⟨S1x1, .f32⟩
  | 124 => ⟨S1x1, .f32⟩
  | 125 => ⟨S1x256, .f32⟩
  | 126 => ⟨S1x256, .f32⟩
  | 127 => ⟨S1x256, .f32⟩
  | _ => ⟨S100000x128, .f32⟩

abbrev hbmTy0_2 (i : Nat) : BufTy := match i % 128 with
  | 0 => ⟨S1x256, .f32⟩
  | 1 => ⟨S1x256, .f32⟩
  | 2 => ⟨S1x256, .f32⟩
  | 3 => ⟨S_, .f32⟩
  | 4 => ⟨S1x256, .f32⟩
  | 5 => ⟨S1x256, .f32⟩
  | 6 => ⟨S1x256, .f32⟩
  | 7 => ⟨S1x256, .f32⟩
  | 8 => ⟨S1x256, .f32⟩
  | 9 => ⟨S1x256, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_cst : Ref sig .tc := ⟨.hbm, 27, rfl⟩
abbrev main_v0 : Ref sig .tc := ⟨.hbm, 28, rfl⟩
abbrev main_v1 : Ref sig .tc := ⟨.hbm, 29, rfl⟩
abbrev main_cst_0 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_cst_3 : Ref sig .tc := ⟨.hbm, 51, rfl⟩
abbrev main_call0_v13 : Ref sig .tc := ⟨.hbm, 52, rfl⟩
abbrev main_call0_cst_4 : Ref sig .tc := ⟨.hbm, 53, rfl⟩
abbrev main_call0_call0_v0 : Ref sig .tc := ⟨.hbm, 54, rfl⟩
abbrev main_call0_call0_v1 : Ref sig .tc := ⟨.hbm, 55, rfl⟩
abbrev main_v4 : Ref sig .tc := ⟨.hbm, 56, rfl⟩
abbrev main_v5 : Ref sig .tc := ⟨.hbm, 57, rfl⟩
abbrev main_v6 : Ref sig .tc := ⟨.hbm, 58, rfl⟩
abbrev main_cst_1 : Ref sig .tc := ⟨.hbm, 59, rfl⟩
abbrev main_v7 : Ref sig .tc := ⟨.hbm, 60, rfl⟩
abbrev main_v8 : Ref sig .tc := ⟨.hbm, 61, rfl⟩
abbrev main_v9 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev main_v14 : Ref sig .tc := ⟨.hbm, 67, rfl⟩
abbrev main_v15 : Ref sig .tc := ⟨.hbm, 68, rfl⟩
abbrev main_call1_cst : Ref sig .tc := ⟨.hbm, 69, rfl⟩
abbrev main_call1_v0 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_v23 : Ref sig .tc := ⟨.hbm, 78, rfl⟩
abbrev main_v24 : Ref sig .tc := ⟨.hbm, 79, rfl⟩
abbrev main_v25 : Ref sig .tc := ⟨.hbm, 80, rfl⟩
abbrev main_v26 : Ref sig .tc := ⟨.hbm, 81, rfl⟩
abbrev main_v27 : Ref sig .tc := ⟨.hbm, 82, rfl⟩
abbrev main_v28 : Ref sig .tc := ⟨.hbm, 83, rfl⟩
abbrev main_v29 : Ref sig .tc := ⟨.hbm, 84, rfl⟩
abbrev main_v30 : Ref sig .tc := ⟨.hbm, 85, rfl⟩
abbrev main_cst_2 : Ref sig .tc := ⟨.hbm, 86, rfl⟩
abbrev main_call2_cst : Ref sig .tc := ⟨.hbm, 87, rfl⟩
abbrev main_call2_v0 : Ref sig .tc := ⟨.hbm, 88, rfl⟩
abbrev main_call2_v1 : Ref sig .tc := ⟨.hbm, 89, rfl⟩
abbrev main_call2_v2 : Ref sig .tc := ⟨.hbm, 90, rfl⟩
abbrev main_call2_v3 : Ref sig .tc := ⟨.hbm, 91, rfl⟩
abbrev main_call2_v4 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_cst_3 : Ref sig .tc := ⟨.hbm, 97, rfl⟩
abbrev main_v35 : Ref sig .tc := ⟨.hbm, 98, rfl⟩
abbrev main_cst_4 : Ref sig .tc := ⟨.hbm, 99, rfl⟩
abbrev main_v36 : Ref sig .tc := ⟨.hbm, 100, rfl⟩
abbrev main_cst_5 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_v42 : Ref sig .tc := ⟨.hbm, 107, rfl⟩
abbrev main_cst_6 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_v46 : Ref sig .tc := ⟨.hbm, 112, rfl⟩
abbrev main_v47 : Ref sig .tc := ⟨.hbm, 113, rfl⟩
abbrev main_v48 : Ref sig .tc := ⟨.hbm, 114, rfl⟩
abbrev main_v49 : Ref sig .tc := ⟨.hbm, 115, rfl⟩
abbrev main_cst_7 : Ref sig .tc := ⟨.hbm, 116, rfl⟩
abbrev main_v50 : Ref sig .tc := ⟨.hbm, 117, rfl⟩
abbrev main_v51 : Ref sig .tc := ⟨.hbm, 118, rfl⟩
abbrev main_v52 : Ref sig .tc := ⟨.hbm, 119, rfl⟩
abbrev main_v53 : Ref sig .tc := ⟨.hbm, 120, rfl⟩
abbrev main_cst_8 : Ref sig .tc := ⟨.hbm, 121, rfl⟩
abbrev main_v54 : Ref sig .tc := ⟨.hbm, 122, rfl⟩
abbrev main_v55 : Ref sig .tc := ⟨.hbm, 123, rfl⟩
abbrev main_cst_9 : Ref sig .tc := ⟨.hbm, 124, rfl⟩
abbrev main_v56 : Ref sig .tc := ⟨.hbm, 125, rfl⟩
abbrev main_v57 : Ref sig .tc := ⟨.hbm, 126, rfl⟩
abbrev main_c_10 : Ref sig .tc := ⟨.hbm, 127, rfl⟩
abbrev main_call3_cst : Ref sig .tc := ⟨.hbm, 128, rfl⟩
abbrev main_call3_v0 : Ref sig .tc := ⟨.hbm, 129, rfl⟩
abbrev main_call3_v1 : Ref sig .tc := ⟨.hbm, 130, rfl⟩
abbrev main_call3_cst_0 : Ref sig .tc := ⟨.hbm, 131, rfl⟩
abbrev main_call3_v2 : Ref sig .tc := ⟨.hbm, 132, rfl⟩
abbrev main_call3_v3 : Ref sig .tc := ⟨.hbm, 133, rfl⟩
abbrev main_call3_v4 : Ref sig .tc := ⟨.hbm, 134, rfl⟩
abbrev main_call3_v5 : Ref sig .tc := ⟨.hbm, 135, rfl⟩
abbrev main_call3_v6 : Ref sig .tc := ⟨.hbm, 136, rfl⟩
abbrev main_call3_v7 : Ref sig .tc := ⟨.hbm, 137, rfl⟩
abbrev main_call3_cst_1 : Ref sig .tc := ⟨.hbm, 138, rfl⟩
abbrev main_call3_v8 : Ref sig .tc := ⟨.hbm, 139, rfl⟩
abbrev main_call3_cst_2 : Ref sig .tc := ⟨.hbm, 140, rfl⟩
abbrev main_call3_v9 : Ref sig .tc := ⟨.hbm, 141, rfl⟩
abbrev main_call3_v10 : Ref sig .tc := ⟨.hbm, 142, rfl⟩
abbrev main_call3_v11 : Ref sig .tc := ⟨.hbm, 143, rfl⟩
abbrev main_call3_v12 : Ref sig .tc := ⟨.hbm, 144, rfl⟩
abbrev main_call3_cst_3 : Ref sig .tc := ⟨.hbm, 145, rfl⟩
abbrev main_call3_v13 : Ref sig .tc := ⟨.hbm, 146, rfl⟩
abbrev main_call3_cst_4 : Ref sig .tc := ⟨.hbm, 147, rfl⟩
abbrev main_call3_call0_v0 : Ref sig .tc := ⟨.hbm, 148, rfl⟩
abbrev main_call3_call0_v1 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_cst_11 : Ref sig .tc := ⟨.hbm, 153, rfl⟩
abbrev main_v61 : Ref sig .tc := ⟨.hbm, 154, rfl⟩
abbrev main_v62 : Ref sig .tc := ⟨.hbm, 155, rfl⟩
abbrev main_v63 : Ref sig .tc := ⟨.hbm, 156, rfl⟩
abbrev main_v64 : Ref sig .tc := ⟨.hbm, 157, rfl⟩
abbrev main_v65 : Ref sig .tc := ⟨.hbm, 158, rfl⟩
abbrev main_v66 : Ref sig .tc := ⟨.hbm, 159, rfl⟩
abbrev main_v67 : Ref sig .tc := ⟨.hbm, 160, rfl⟩
abbrev main_v68 : Ref sig .tc := ⟨.hbm, 161, rfl⟩
abbrev main_v69 : Ref sig .tc := ⟨.hbm, 162, rfl⟩
abbrev main_call4_cst : Ref sig .tc := ⟨.hbm, 163, rfl⟩
abbrev main_call4_v0 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_v73 : Ref sig .tc := ⟨.hbm, 168, rfl⟩
abbrev main_v74 : Ref sig .tc := ⟨.hbm, 169, rfl⟩
abbrev main_v75 : Ref sig .tc := ⟨.hbm, 170, rfl⟩
abbrev main_v76 : Ref sig .tc := ⟨.hbm, 171, rfl⟩
abbrev main_v77 : Ref sig .tc := ⟨.hbm, 172, rfl⟩
abbrev main_v78 : Ref sig .tc := ⟨.hbm, 173, rfl⟩
abbrev main_v79 : Ref sig .tc := ⟨.hbm, 174, rfl⟩
abbrev main_v80 : Ref sig .tc := ⟨.hbm, 175, rfl⟩
abbrev main_v81 : Ref sig .tc := ⟨.hbm, 176, rfl⟩
abbrev main_v82 : Ref sig .tc := ⟨.hbm, 177, rfl⟩
abbrev main_v83 : Ref sig .tc := ⟨.hbm, 178, rfl⟩
abbrev main_v84 : Ref sig .tc := ⟨.hbm, 179, rfl⟩
abbrev main_cst_12 : Ref sig .tc := ⟨.hbm, 180, rfl⟩
abbrev main_call5_cst : Ref sig .tc := ⟨.hbm, 181, rfl⟩
abbrev main_call5_v0 : Ref sig .tc := ⟨.hbm, 182, rfl⟩
abbrev main_call5_v1 : Ref sig .tc := ⟨.hbm, 183, rfl⟩
abbrev main_call5_v2 : Ref sig .tc := ⟨.hbm, 184, rfl⟩
abbrev main_call5_v3 : Ref sig .tc := ⟨.hbm, 185, rfl⟩
abbrev main_call5_v4 : Ref sig .tc := ⟨.hbm, 186, rfl⟩
abbrev main_v85 : Ref sig .tc := ⟨.hbm, 187, rfl⟩
abbrev main_v86 : Ref sig .tc := ⟨.hbm, 188, rfl⟩
abbrev main_v87 : Ref sig .tc := ⟨.hbm, 189, rfl⟩
abbrev main_v88 : Ref sig .tc := ⟨.hbm, 190, rfl⟩
abbrev main_cst_13 : Ref sig .tc := ⟨.hbm, 191, rfl⟩
abbrev main_v89 : Ref sig .tc := ⟨.hbm, 192, rfl⟩
abbrev main_cst_14 : Ref sig .tc := ⟨.hbm, 193, rfl⟩
abbrev main_v90 : Ref sig .tc := ⟨.hbm, 194, rfl⟩
abbrev main_cst_15 : Ref sig .tc := ⟨.hbm, 195, rfl⟩
abbrev main_v91 : Ref sig .tc := ⟨.hbm, 196, rfl⟩
abbrev main_v92 : Ref sig .tc := ⟨.hbm, 197, rfl⟩
abbrev main_v93 : Ref sig .tc := ⟨.hbm, 198, rfl⟩
abbrev main_v94 : Ref sig .tc := ⟨.hbm, 199, rfl⟩
abbrev main_v95 : Ref sig .tc := ⟨.hbm, 200, rfl⟩
abbrev main_v96 : Ref sig .tc := ⟨.hbm, 201, rfl⟩
abbrev main_cst_16 : Ref sig .tc := ⟨.hbm, 202, rfl⟩
abbrev main_v97 : Ref sig .tc := ⟨.hbm, 203, rfl⟩
abbrev main_v98 : Ref sig .tc := ⟨.hbm, 204, rfl⟩
abbrev main_v99 : Ref sig .tc := ⟨.hbm, 205, rfl⟩
abbrev main_v100 : Ref sig .tc := ⟨.hbm, 206, rfl⟩
abbrev main_v101 : Ref sig .tc := ⟨.hbm, 207, rfl⟩
abbrev main_v102 : Ref sig .tc := ⟨.hbm, 208, rfl⟩
abbrev main_v103 : Ref sig .tc := ⟨.hbm, 209, rfl⟩
abbrev main_cst_17 : Ref sig .tc := ⟨.hbm, 210, rfl⟩
abbrev main_v104 : Ref sig .tc := ⟨.hbm, 211, rfl⟩
abbrev main_v105 : Ref sig .tc := ⟨.hbm, 212, rfl⟩
abbrev main_v106 : Ref sig .tc := ⟨.hbm, 213, rfl⟩
abbrev main_v107 : Ref sig .tc := ⟨.hbm, 214, rfl⟩
abbrev main_v108 : Ref sig .tc := ⟨.hbm, 215, rfl⟩
abbrev main_v109 : Ref sig .tc := ⟨.hbm, 216, rfl⟩
abbrev main_cst_18 : Ref sig .tc := ⟨.hbm, 217, rfl⟩
abbrev main_v110 : Ref sig .tc := ⟨.hbm, 218, rfl⟩
abbrev main_v111 : Ref sig .tc := ⟨.hbm, 219, rfl⟩
abbrev main_cst_19 : Ref sig .tc := ⟨.hbm, 220, rfl⟩
abbrev main_v112 : Ref sig .tc := ⟨.hbm, 221, rfl⟩
abbrev main_v113 : Ref sig .tc := ⟨.hbm, 222, rfl⟩
abbrev main_c_20 : Ref sig .tc := ⟨.hbm, 223, rfl⟩
abbrev main_call6_cst : Ref sig .tc := ⟨.hbm, 224, rfl⟩
abbrev main_call6_v0 : Ref sig .tc := ⟨.hbm, 225, rfl⟩
abbrev main_call6_v1 : Ref sig .tc := ⟨.hbm, 226, rfl⟩
abbrev main_call6_cst_0 : Ref sig .tc := ⟨.hbm, 227, rfl⟩
abbrev main_call6_v2 : Ref sig .tc := ⟨.hbm, 228, rfl⟩
abbrev main_call6_v3 : Ref sig .tc := ⟨.hbm, 229, rfl⟩
abbrev main_call6_v4 : Ref sig .tc := ⟨.hbm, 230, rfl⟩
abbrev main_call6_v5 : Ref sig .tc := ⟨.hbm, 231, rfl⟩
abbrev main_call6_v6 : Ref sig .tc := ⟨.hbm, 232, rfl⟩
abbrev main_call6_v7 : Ref sig .tc := ⟨.hbm, 233, rfl⟩
abbrev main_call6_cst_1 : Ref sig .tc := ⟨.hbm, 234, rfl⟩
abbrev main_call6_v8 : Ref sig .tc := ⟨.hbm, 235, rfl⟩
abbrev main_call6_cst_2 : Ref sig .tc := ⟨.hbm, 236, rfl⟩
abbrev main_call6_v9 : Ref sig .tc := ⟨.hbm, 237, rfl⟩
abbrev main_call6_v10 : Ref sig .tc := ⟨.hbm, 238, rfl⟩
abbrev main_call6_v11 : Ref sig .tc := ⟨.hbm, 239, rfl⟩
abbrev main_call6_v12 : Ref sig .tc := ⟨.hbm, 240, rfl⟩
abbrev main_call6_cst_3 : Ref sig .tc := ⟨.hbm, 241, rfl⟩
abbrev main_call6_v13 : Ref sig .tc := ⟨.hbm, 242, rfl⟩
abbrev main_call6_cst_4 : Ref sig .tc := ⟨.hbm, 243, rfl⟩
abbrev main_call6_call0_v0 : Ref sig .tc := ⟨.hbm, 244, rfl⟩
abbrev main_call6_call0_v1 : Ref sig .tc := ⟨.hbm, 245, rfl⟩
abbrev main_v114 : Ref sig .tc := ⟨.hbm, 246, rfl⟩
abbrev main_v115 : Ref sig .tc := ⟨.hbm, 247, rfl⟩
abbrev main_v116 : Ref sig .tc := ⟨.hbm, 248, rfl⟩
abbrev main_cst_21 : Ref sig .tc := ⟨.hbm, 249, rfl⟩
abbrev main_v117 : Ref sig .tc := ⟨.hbm, 250, rfl⟩
abbrev main_v118 : Ref sig .tc := ⟨.hbm, 251, rfl⟩
abbrev main_v119 : Ref sig .tc := ⟨.hbm, 252, rfl⟩
abbrev main_v120 : Ref sig .tc := ⟨.hbm, 253, rfl⟩
abbrev main_v121 : Ref sig .tc := ⟨.hbm, 254, rfl⟩
abbrev main_v122 : Ref sig .tc := ⟨.hbm, 255, rfl⟩
abbrev main_v123 : Ref sig .tc := ⟨.hbm, 256, rfl⟩
abbrev main_v124 : Ref sig .tc := ⟨.hbm, 257, rfl⟩
abbrev main_v125 : Ref sig .tc := ⟨.hbm, 258, rfl⟩
abbrev main_call7_cst : Ref sig .tc := ⟨.hbm, 259, rfl⟩
abbrev main_call7_v0 : Ref sig .tc := ⟨.hbm, 260, rfl⟩
abbrev main_v126 : Ref sig .tc := ⟨.hbm, 261, rfl⟩
abbrev main_v127 : Ref sig .tc := ⟨.hbm, 262, rfl⟩
abbrev main_v128 : Ref sig .tc := ⟨.hbm, 263, rfl⟩
abbrev main_v129 : Ref sig .tc := ⟨.hbm, 264, rfl⟩
abbrev main_v130 : Ref sig .tc := ⟨.hbm, 265, rfl⟩

abbrev nD : Nat := 1
abbrev τ : Topo := Topo.v7x

variable {F : FTy → Type} [FloatOps F]

class Facts₀ : Prop where
  reducesTo_S1x256_S1_d1 : S1x256.ReducesTo [1] S1
  h_S_ : 0 < S_.numel
  bcast_S1_S1x1_0 : S1.BroadcastsInDim S1x1 (![0] : Fin 1 → Fin S1x1.rank)
  bcast_S_S1x1 : S_.BroadcastsInDim S1x1 (![] : Fin 0 → Fin S1x1.rank)
  bcast_S1x1_S1x256_0_1 : S1x1.BroadcastsInDim S1x256 (![0, 1] : Fin 2 → Fin S1x256.rank)
  bcast_S256_S1x256_1 : S256.BroadcastsInDim S1x256 (![1] : Fin 1 → Fin S1x256.rank)
  bcast_S_S1x256 : S_.BroadcastsInDim S1x256 (![] : Fin 0 → Fin S1x256.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S100000x128_S100000x8x16 : S100000x128.ShapeCasts S100000x8x16
  shapeCasts_S1x128_S1x8x16 : S1x128.ShapeCasts S1x8x16
  bcast_S1x8x16_S100000x8x16_0_1_2 : S1x8x16.BroadcastsInDim S100000x8x16 (![0, 1, 2] : Fin 3 → Fin S100000x8x16.rank)
  bcast_S_S100000x8x16 : S_.BroadcastsInDim S100000x8x16 (![] : Fin 0 → Fin S100000x8x16.rank)
  bcast_S8x16_S1x8x16_1_2 : S8x16.BroadcastsInDim S1x8x16 (![1, 2] : Fin 2 → Fin S1x8x16.rank)
  reducesTo_S100000x8x16_S100000x8_d2 : S100000x8x16.ReducesTo [2] S100000x8
  reducesTo_S100000x8_S8_d0 : S100000x8.ReducesTo [0] S8
  bcast_S_S8 : S_.BroadcastsInDim S8 (![] : Fin 0 → Fin S8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S100000x8_S100000x8x1_0_1 : S100000x8.BroadcastsInDim S100000x8x1 (![0, 1] : Fin 2 → Fin S100000x8x1.rank)
  bcast_S100000x8x1_S100000x8x16_0_1_2 : S100000x8x1.BroadcastsInDim S100000x8x16 (![0, 1, 2] : Fin 3 → Fin S100000x8x16.rank)
  reducesTo_S100000x8x16_S8x16_d0 : S100000x8x16.ReducesTo [0] S8x16
  shapeCasts_S8x16_S1x128 : S8x16.ShapeCasts S1x128
  concatenates_S1x128_S1x128_S1x256_d1 : Shape.Concatenates [S1x128, S1x128] S1x256 1
  dot_S1x256_S256x128_S1x128_1_0_0_1_n_n_wf : DotDims.WF S1x256 S256x128 S1x128 [1] [0] [0] [1] [] []
  dot_S100000x128_S128x128_S100000x128_1_0_0_1_n_n_wf : DotDims.WF S100000x128 S128x128 S100000x128 [1] [0] [0] [1] [] []
  dot_S1x128_S128x128_S1x128_1_0_0_1_n_n_wf : DotDims.WF S1x128 S128x128 S1x128 [1] [0] [0] [1] [] []
  dot_S1x256_S256x256_S1x256_1_0_0_1_n_n_wf : DotDims.WF S1x256 S256x256 S1x256 [1] [0] [0] [1] [] []

variable [Facts₀]

def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1x128_S128x128_S1x128_1_0_0_1_n_n : DotDims S1x128 S128x128 S1x128 where
  lhsContracting := [1]
  rhsContracting := [0]
  lhsNonContracting := [0]
  rhsNonContracting := [1]
  lhsBatch := []
  rhsBatch := []
  wf := dot_S1x128_S128x128_S1x128_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf

class Facts : Prop extends Facts₀ where

variable [Facts]
-- ==== Proof.Spec.lean ====
/-
  The mathematics of the star-graph attention update, over the reals.

  A global feature `g : ℝ²⁵⁶` attends over two families of 100000 source rows (128 features each, 8 heads of 16
  lanes).  For one family: the target vector is `p = relu (LN g) · W + c` (a layer norm over 256 lanes, a linear map
  to 128 lanes); a source row `n` has features `y n = X n · Wl`; its head-`h` logit is
  `∑_c act (y n (16h+c) + bl + (p·Wr + br)(16h+c)) · att h c` with `act` the leaky rectifier of slope `σ ∈ (0,1)`;
  the aggregated value of lane `k` is the softmax-weighted mean of `y n k + bl k` over the rows, plus a bias.
  The two aggregates are concatenated, added to `g`, and passed through a residual `LN → relu → linear` block.

  Two arrangements of this computation are written out below: the STREAMED one (suffix `S`), which keeps per lane a
  running shift `μ`, a normaliser `∑ exp (l − μ)` and a weighted sum `∑ exp (l − μ) · y`, takes the logits of all 128
  lanes from one product with a head-block-diagonal matrix and adds `bl` once at the end; and the DIRECT one (suffix
  `D`), a plain softmax with shift `M` per head.  `wavg` is the shift-invariant weighted mean both reduce to.
-/
import Idealize.ShloMosaic.PureOps.Ideal

noncomputable section

namespace StarAttn

open Idealize.ShloMosaic

/-- The variance offset and the rectifier's slope: the real numbers the two shared single-precision words denote. -/
def epsR : ℝ := (Ideal.ofBits .f32 0x3727C5AC#32).toReal
def slopeR : ℝ := (Ideal.ofBits .f32 0x3E4CCCCD#32).toReal

/-! ## Layer norm over 256 lanes, and the linear maps -/

def mean256 (x : Fin 256 → ℝ) : ℝ := (∑ i, x i) / 256
def var256 (x : Fin 256 → ℝ) : ℝ := (∑ i, (x i - mean256 x) * (x i - mean256 x)) / 256
def layerNorm (x s b : Fin 256 → ℝ) (i : Fin 256) : ℝ :=
  (x i - mean256 x) * (Real.sqrt (var256 x + epsR))⁻¹ * s i + b i
def reluLN (x s b : Fin 256 → ℝ) (i : Fin 256) : ℝ := max (layerNorm x s b i) 0

/-- The target vector of one family: `relu (LN g) · W + c`. -/
def proj (g s b : Fin 256 → ℝ) (W : Fin 256 → Fin 128 → ℝ) (c : Fin 128 → ℝ) (k : Fin 128) : ℝ :=
  (∑ j, reluLN g s b j * W j k) + c k

/-- Source features `X · Wl` and the target's image `p · Wr`. -/
def feat (X : Fin 100000 → Fin 128 → ℝ) (Wl : Fin 128 → Fin 128 → ℝ) (n : Fin 100000) (k : Fin 128) : ℝ :=
  ∑ j, X n j * Wl j k
def tgt (p : Fin 128 → ℝ) (Wr : Fin 128 → Fin 128 → ℝ) (k : Fin 128) : ℝ := ∑ j, p j * Wr j k

/-- Lane `k` of 128 as head and channel, and back. -/
def headOf (k : Fin 128) : Fin 8 := ⟨k.val / 16, by omega⟩
def chanOf (k : Fin 128) : Fin 16 := ⟨k.val % 16, by omega⟩
def lane (h : Fin 8) (c : Fin 16) : Fin 128 := ⟨16 * h.val + c.val, by omega⟩

/-- The shift-invariant softmax-weighted mean of `y` under logits `l`, written with shift `μ`. -/
def wavg (μ : ℝ) (l y : Fin 100000 → ℝ) : ℝ :=
  (∑ n, Real.exp (l n - μ) * y n) / (∑ n, Real.exp (l n - μ))

/-! ## The streamed arrangement -/

def actS (z : ℝ) : ℝ := max z (slopeR * z)
/-- The offset added to every source row before the rectifier: `(bl + p·Wr) + br`. -/
def offS (bl br p : Fin 128 → ℝ) (Wr : Fin 128 → Fin 128 → ℝ) (k : Fin 128) : ℝ := (bl k + tgt p Wr k) + br k
/-- The head-block-diagonal logit matrix: entry `(j, k)` is `att` at lane `j` when `j` and `k` share a head, else `0`. -/
def blockAtt (att : Fin 8 → Fin 16 → ℝ) (j k : Fin 128) : ℝ :=
  (if j.val / 16 = k.val / 16 then 1 else 0) * att (headOf j) (chanOf j)
def logitS (X : Fin 100000 → Fin 128 → ℝ) (Wl : Fin 128 → Fin 128 → ℝ) (off : Fin 128 → ℝ)
    (att : Fin 8 → Fin 16 → ℝ) (n : Fin 100000) (k : Fin 128) : ℝ :=
  ∑ j, actS (feat X Wl n j + off j) * blockAtt att j k
/-- One family's aggregate, streamed: the weighted mean of the raw features plus `bl + bias`. -/
def aggS (μ : Fin 128 → ℝ) (X : Fin 100000 → Fin 128 → ℝ) (p : Fin 128 → ℝ) (Wl Wr : Fin 128 → Fin 128 → ℝ)
    (bl br : Fin 128 → ℝ) (att : Fin 8 → Fin 16 → ℝ) (bias : Fin 128 → ℝ) (k : Fin 128) : ℝ :=
  wavg (μ k) (fun n => logitS X Wl (offS bl br p Wr) att n k) (fun n => feat X Wl n k) + (bl k + bias k)

/-! ## The direct arrangement -/

def actD (z : ℝ) : ℝ := if 0 ≤ z then z else slopeR * z
def logitD (X : Fin 100000 → Fin 128 → ℝ) (Wl : Fin 128 → Fin 128 → ℝ) (bl xr : Fin 128 → ℝ)
    (att : Fin 8 → Fin 16 → ℝ) (n : Fin 100000) (h : Fin 8) : ℝ :=
  ∑ c : Fin 16, actD ((feat X Wl n (lane h c) + bl (lane h c)) + xr (lane h c)) * att h c
/-- One family's aggregate, direct: softmax weights (shift `M` per head) times the biased features, summed, plus the bias. -/
def aggD (M : Fin 8 → ℝ) (X : Fin 100000 → Fin 128 → ℝ) (p : Fin 128 → ℝ) (Wl Wr : Fin 128 → Fin 128 → ℝ)
    (bl br : Fin 128 → ℝ) (att : Fin 8 → Fin 16 → ℝ) (bias : Fin 128 → ℝ) (k : Fin 128) : ℝ :=
  (∑ n, (Real.exp (logitD X Wl bl (fun k => tgt p Wr k + br k) att n (headOf k) - M (headOf k))
          / (∑ n', Real.exp (logitD X Wl bl (fun k => tgt p Wr k + br k) att n' (headOf k) - M (headOf k))))
        * (feat X Wl n k + bl k)) + bias k

/-! ## The residual block that ends both -/

def joined (g : Fin 256 → ℝ) (v s : Fin 128 → ℝ) (i : Fin 256) : ℝ :=
  g i + (if h : i.val < 128 then v ⟨i.val, h⟩ else s ⟨i.val - 128, by omega⟩)
def residual (x s b : Fin 256 → ℝ) (W : Fin 256 → Fin 256 → ℝ) (c : Fin 256 → ℝ) (i : Fin 256) : ℝ :=
  x i + ((∑ j, reluLN x s b j * W j i) + c i)

/-- The real arguments, named by role: family 1 (views) and family 2 (scene points), then the closing block. -/
structure Args where
  X1 : Fin 100000 → Fin 128 → ℝ
  X2 : Fin 100000 → Fin 128 → ℝ
  g : Fin 256 → ℝ
  s1 : Fin 256 → ℝ
  b1 : Fin 256 → ℝ
  W1 : Fin 256 → Fin 128 → ℝ
  c1 : Fin 128 → ℝ
  Wl1 : Fin 128 → Fin 128 → ℝ
  bl1 : Fin 128 → ℝ
  Wr1 : Fin 128 → Fin 128 → ℝ
  br1 : Fin 128 → ℝ
  att1 : Fin 8 → Fin 16 → ℝ
  bias1 : Fin 128 → ℝ
  s2 : Fin 256 → ℝ
  b2 : Fin 256 → ℝ
  W2 : Fin 256 → Fin 128 → ℝ
  c2 : Fin 128 → ℝ
  Wl2 : Fin 128 → Fin 128 → ℝ
  bl2 : Fin 128 → ℝ
  Wr2 : Fin 128 → Fin 128 → ℝ
  br2 : Fin 128 → ℝ
  att2 : Fin 8 → Fin 16 → ℝ
  bias2 : Fin 128 → ℝ
  s3 : Fin 256 → ℝ
  b3 : Fin 256 → ℝ
  W3 : Fin 256 → Fin 256 → ℝ
  c3 : Fin 256 → ℝ

namespace Args
variable (A : Args)
def p1 : Fin 128 → ℝ := proj A.g A.s1 A.b1 A.W1 A.c1
def p2 : Fin 128 → ℝ := proj A.g A.s2 A.b2 A.W2 A.c2
/-- The whole result, streamed (shifts `μ₁ μ₂` per lane) and direct (shifts `M₁ M₂` per head). -/
def outS (μ₁ μ₂ : Fin 128 → ℝ) : Fin 256 → ℝ :=
  residual (joined A.g (aggS μ₁ A.X1 A.p1 A.Wl1 A.Wr1 A.bl1 A.br1 A.att1 A.bias1)
                       (aggS μ₂ A.X2 A.p2 A.Wl2 A.Wr2 A.bl2 A.br2 A.att2 A.bias2)) A.s3 A.b3 A.W3 A.c3
def outD (M₁ M₂ : Fin 8 → ℝ) : Fin 256 → ℝ :=
  residual (joined A.g (aggD M₁ A.X1 A.p1 A.Wl1 A.Wr1 A.bl1 A.br1 A.att1 A.bias1)
                       (aggD M₂ A.X2 A.p2 A.Wl2 A.Wr2 A.bl2 A.br2 A.att2 A.bias2)) A.s3 A.b3 A.W3 A.c3
end Args

end StarAttn

end
-- ==== Proof.Repr.lean ====
/-
  How an array of extended reals holds a real function: every entry is the coercion of the function's value at the
  entry's coordinates.  A matrix is read at `ix2 i j`, a vector at `ix1 i`, a row `[1, b]` at `ix2 0 j`, a block of
  5000 consecutive rows of a 100000-row matrix at its offset.
-/
import Idealize.ShloMosaic.Lib.ValueIdx
import proofs.«165745_g33088428049086_cont_sun_c4_530_12_alg».proof.Proof.Spec

noncomputable section

namespace StarAttn

open Idealize.ShloMosaic Idealize.ShloMosaic.ValueIdx

/-- The matrix `v` of shape `[a, b]` holds the real matrix `f`. -/
def Holds2 {a b : ℕ} (v : FVec Ideal (⟨2, ![a, b]⟩ : Shape) .f32) (f : Fin a → Fin b → ℝ) : Prop :=
  ∀ (i : Fin a) (j : Fin b), v (ix2 i j) = ((f i j : ℝ) : EReal)

/-- The vector `v` of shape `[a]` holds the real vector `f`. -/
def Holds1 {a : ℕ} (v : FVec Ideal (⟨1, ![a]⟩ : Shape) .f32) (f : Fin a → ℝ) : Prop :=
  ∀ i : Fin a, v (ix1 i) = ((f i : ℝ) : EReal)

/-- The row `v` of shape `[1, b]` holds the real vector `f`. -/
def HoldsRow {b : ℕ} (v : FVec Ideal (⟨2, ![1, b]⟩ : Shape) .f32) (f : Fin b → ℝ) : Prop :=
  ∀ j : Fin b, v (ix2 (0 : Fin 1) j) = ((f j : ℝ) : EReal)

/-- Row `r` of block `t` (of 20 blocks of 5000 rows) as a row of the whole 100000-row matrix. -/
def blockRow (t : ℕ) (ht : t < 20) (r : Fin 5000) : Fin 100000 := ⟨5000 * t + r.val, by omega⟩

/-- The `[5000, 128]` block `v` holds rows `5000 t … 5000 t + 4999` of the real matrix `X`. -/
def HoldsBlock (v : FVec Ideal (⟨2, ![5000, 128]⟩ : Shape) .f32) (X : Fin 100000 → Fin 128 → ℝ) (t : ℕ) (ht : t < 20) : Prop :=
  ∀ (r : Fin 5000) (j : Fin 128), v (ix2 r j) = ((X (blockRow t ht r) j : ℝ) : EReal)

theorem HoldsRow.of_holds2 {b : ℕ} {v : FVec Ideal (⟨2, ![1, b]⟩ : Shape) .f32} {f : Fin 1 → Fin b → ℝ}
    (h : Holds2 v f) : HoldsRow v (f 0) := fun j => h 0 j

/-- The 27 argument arrays of either program hold the real arguments `A` (in the programs' argument order). -/
structure ArgsHold (A : Args)
    (a0 a1 : FVec Ideal (⟨2, ![100000, 128]⟩ : Shape) .f32) (a2 : FVec Ideal (⟨2, ![1, 256]⟩ : Shape) .f32)
    (a3 a4 : FVec Ideal (⟨1, ![256]⟩ : Shape) .f32) (a5 : FVec Ideal (⟨2, ![256, 128]⟩ : Shape) .f32)
    (a6 : FVec Ideal (⟨1, ![128]⟩ : Shape) .f32) (a7 : FVec Ideal (⟨2, ![128, 128]⟩ : Shape) .f32)
    (a8 : FVec Ideal (⟨1, ![128]⟩ : Shape) .f32) (a9 : FVec Ideal (⟨2, ![128, 128]⟩ : Shape) .f32)
    (a10 : FVec Ideal (⟨1, ![128]⟩ : Shape) .f32) (a11 : FVec Ideal (⟨2, ![8, 16]⟩ : Shape) .f32)
    (a12 : FVec Ideal (⟨1, ![128]⟩ : Shape) .f32)
    (a13 a14 : FVec Ideal (⟨1, ![256]⟩ : Shape) .f32) (a15 : FVec Ideal (⟨2, ![256, 128]⟩ : Shape) .f32)
    (a16 : FVec Ideal (⟨1, ![128]⟩ : Shape) .f32) (a17 : FVec Ideal (⟨2, ![128, 128]⟩ : Shape) .f32)
    (a18 : FVec Ideal (⟨1, ![128]⟩ : Shape) .f32) (a19 : FVec Ideal (⟨2, ![128, 128]⟩ : Shape) .f32)
    (a20 : FVec Ideal (⟨1, ![128]⟩ : Shape) .f32) (a21 : FVec Ideal (⟨2, ![8, 16]⟩ : Shape) .f32)
    (a22 : FVec Ideal (⟨1, ![128]⟩ : Shape) .f32)
    (a23 a24 : FVec Ideal (⟨1, ![256]⟩ : Shape) .f32) (a25 : FVec Ideal (⟨2, ![256, 256]⟩ : Shape) .f32)
    (a26 : FVec Ideal (⟨1, ![256]⟩ : Shape) .f32) : Prop where
  h0 : Holds2 a0 A.X1
  h1 : Holds2 a1 A.X2
  h2 : HoldsRow a2 A.g
  h3 : Holds1 a3 A.s1
  h4 : Holds1 a4 A.b1
  h5 : Holds2 a5 A.W1
  h6 : Holds1 a6 A.c1
  h7 : Holds2 a7 A.Wl1
  h8 : Holds1 a8 A.bl1
  h9 : Holds2 a9 A.Wr1
  h10 : Holds1 a10 A.br1
  h11 : Holds2 a11 A.att1
  h12 : Holds1 a12 A.bias1
  h13 : Holds1 a13 A.s2
  h14 : Holds1 a14 A.b2
  h15 : Holds2 a15 A.W2
  h16 : Holds1 a16 A.c2
  h17 : Holds2 a17 A.Wl2
  h18 : Holds1 a18 A.bl2
  h19 : Holds2 a19 A.Wr2
  h20 : Holds1 a20 A.br2
  h21 : Holds2 a21 A.att2
  h22 : Holds1 a22 A.bias2
  h23 : Holds1 a23 A.s3
  h24 : Holds1 a24 A.b3
  h25 : Holds2 a25 A.W3
  h26 : Holds1 a26 A.c3

end StarAttn

end
-- ==== Proof.PreReal.lean ====
/-
  From the precondition to real arguments.  The precondition says that, on every device, each of the 27 argument
  arrays passes the test "every entry x has |x| < +∞", the 27 tests joined by "and".  An extended real with
  |x| < +∞ is neither +∞ nor -∞, hence the coercion of a real number (its own real part).  So the 27 arrays hold
  27 real functions, which are collected in one value of the specification's argument record.
-/
import proofs.«165745_g33088428049086_cont_sun_c4_530_12_alg».proof.Defs
import proofs.«165745_g33088428049086_cont_sun_c4_530_12_alg».proof.Proof.Gen.Pre_finite_inputs
import proofs.«165745_g33088428049086_cont_sun_c4_530_12_alg».proof.Proof.Repr
import Idealize.ShloMosaic.Lib.ReduceAll
import Idealize.ShloMosaic.Lib.ValueIdx
import Idealize.ShloMosaic.Lib.Pipeline.Value

noncomputable section

namespace StarAttn

open Idealize.ShloMosaic Idealize.ShloMosaic.ValueIdx Idealize.SL.Sem

/-- The shape of a single number: the shape of each test's result. -/
private abbrev S0 : Shape := ⟨0, ![]⟩

private instance : Subsingleton S0.Idx := ⟨fun a b => funext fun d => d.elim0⟩

/-- An extended real x with max x (-x) < +∞ (the comparison came out true) is neither infinity. -/
private theorem finite_of_abs_lt (x : Ideal .f32)
    (e : FloatOps.cmpf .olt (FloatOps.hostAbsf x) (Ideal.ofBits .f32 0x7F800000#32) = 1#1) :
    (x : EReal) ≠ ⊤ ∧ (x : EReal) ≠ ⊥ := by
  have htop : Ideal.ofBits .f32 0x7F800000#32 = ⊤ := by simp [Ideal.ofBits, Ideal.ieee]
  have e' : Ideal.cmp .olt (max (x : EReal) (-(x : EReal))) (Ideal.ofBits .f32 0x7F800000#32) = 1#1 := e
  rw [htop] at e'
  unfold Ideal.cmp at e'
  have hlt : max (x : EReal) (-(x : EReal)) < ⊤ := by
    by_contra hn
    simp [hn] at e'
  rw [max_lt_iff] at hlt
  refine ⟨ne_of_lt hlt.1, ?_⟩
  intro hx
  rw [hx] at hlt
  simp at hlt

/-- One array's test: if the conjunction over all entries of |x| < +∞ is true, every entry is finite. -/
private theorem finite_of_all {s : Shape} {axes : List (Fin s.rank)}
    (hb : S0.BroadcastsInDim s (![] : Fin 0 → Fin s.rank)) (hr : s.ReducesTo axes S0) (hu : 0 < S0.numel)
    (v : FVec Ideal s .f32)
    (e : Host.reduce IntOp.andi
          (cmpf .olt (Host.absf v) (broadcastInDim s ![] hb (constant (F := Ideal) S0 .f32 0x7F800000#32)))
          (constantI S0 1 1#1) hr hu ix0 = 1#1) (i : s.Idx) :
    (v i : EReal) ≠ ⊤ ∧ (v i : EReal) ≠ ⊥ := by
  have h1 := Host.reduce_andi_all _ _ hr hu ix0 e i
  rw [cmpf_apply, broadcastInDim_apply ![] hb _ i ix0 (fun a => a.elim0), constant_apply] at h1
  exact finite_of_abs_lt (v i) h1

/-- The conjunction of two tests is true only if both are. -/
private theorem and_split (x y : IVec S0 1) (h : Idealize.ShloMosaic.andi x y ix0 = 1#1) :
    x ix0 = 1#1 ∧ y ix0 = 1#1 := IntOp.andi_eq_one.1 h

/-- A matrix of finite entries holds the real matrix of its entries' real parts. -/
theorem exists_holds2 {a b : ℕ} (v : FVec Ideal (⟨2, ![a, b]⟩ : Shape) .f32)
    (hv : ∀ i, (v i : EReal) ≠ ⊤ ∧ (v i : EReal) ≠ ⊥) : ∃ f : Fin a → Fin b → ℝ, Holds2 v f :=
  ⟨fun i j => EReal.toReal (v (ix2 i j)), fun i j => (EReal.coe_toReal (hv _).1 (hv _).2).symm⟩

/-- A vector of finite entries holds the real vector of its entries' real parts. -/
theorem exists_holds1 {a : ℕ} (v : FVec Ideal (⟨1, ![a]⟩ : Shape) .f32)
    (hv : ∀ i, (v i : EReal) ≠ ⊤ ∧ (v i : EReal) ≠ ⊥) : ∃ f : Fin a → ℝ, Holds1 v f :=
  ⟨fun i => EReal.toReal (v (ix1 i)), fun i => (EReal.coe_toReal (hv _).1 (hv _).2).symm⟩

/-- A one-row matrix of finite entries holds the real vector of its entries' real parts. -/
theorem exists_holdsRow {b : ℕ} (v : FVec Ideal (⟨2, ![1, b]⟩ : Shape) .f32)
    (hv : ∀ i, (v i : EReal) ≠ ⊤ ∧ (v i : EReal) ≠ ⊥) : ∃ f : Fin b → ℝ, HoldsRow v f :=
  ⟨fun j => EReal.toReal (v (ix2 (0 : Fin 1) j)), fun j => (EReal.coe_toReal (hv _).1 (hv _).2).symm⟩

/-- If the precondition's function is true of 27 arrays, they hold real arguments: the function is the conjunction of
    the 27 tests, taken apart from the last test to the first. -/
theorem args_of_fn
    (a0 : FVec Ideal (⟨2, ![100000, 128]⟩ : Shape) .f32) (a1 : FVec Ideal (⟨2, ![100000, 128]⟩ : Shape) .f32) (a2 : FVec Ideal (⟨2, ![1, 256]⟩ : Shape) .f32)
    (a3 : FVec Ideal (⟨1, ![256]⟩ : Shape) .f32) (a4 : FVec Ideal (⟨1, ![256]⟩ : Shape) .f32) (a5 : FVec Ideal (⟨2, ![256, 128]⟩ : Shape) .f32)
    (a6 : FVec Ideal (⟨1, ![128]⟩ : Shape) .f32) (a7 : FVec Ideal (⟨2, ![128, 128]⟩ : Shape) .f32) (a8 : FVec Ideal (⟨1, ![128]⟩ : Shape) .f32)
    (a9 : FVec Ideal (⟨2, ![128, 128]⟩ : Shape) .f32) (a10 : FVec Ideal (⟨1, ![128]⟩ : Shape) .f32) (a11 : FVec Ideal (⟨2, ![8, 16]⟩ : Shape) .f32)
    (a12 : FVec Ideal (⟨1, ![128]⟩ : Shape) .f32) (a13 : FVec Ideal (⟨1, ![256]⟩ : Shape) .f32) (a14 : FVec Ideal (⟨1, ![256]⟩ : Shape) .f32)
    (a15 : FVec Ideal (⟨2, ![256, 128]⟩ : Shape) .f32) (a16 : FVec Ideal (⟨1, ![128]⟩ : Shape) .f32) (a17 : FVec Ideal (⟨2, ![128, 128]⟩ : Shape) .f32)
    (a18 : FVec Ideal (⟨1, ![128]⟩ : Shape) .f32) (a19 : FVec Ideal (⟨2, ![128, 128]⟩ : Shape) .f32) (a20 : FVec Ideal (⟨1, ![128]⟩ : Shape) .f32)
    (a21 : FVec Ideal (⟨2, ![8, 16]⟩ : Shape) .f32) (a22 : FVec Ideal (⟨1, ![128]⟩ : Shape) .f32) (a23 : FVec Ideal (⟨1, ![256]⟩ : Shape) .f32)
    (a24 : FVec Ideal (⟨1, ![256]⟩ : Shape) .f32) (a25 : FVec Ideal (⟨2, ![256, 256]⟩ : Shape) .f32) (a26 : FVec Ideal (⟨1, ![256]⟩ : Shape) .f32)
    (h : Cert.Pre_finite_inputs.fn (F := Ideal) a0 a1 a2 a3 a4 a5 a6 a7 a8 a9 a10 a11 a12 a13 a14 a15 a16 a17 a18 a19 a20 a21 a22 a23 a24 a25 a26 = fun _ => 1#1) :
    ∃ A : Args, ArgsHold A a0 a1 a2 a3 a4 a5 a6 a7 a8 a9 a10 a11 a12 a13 a14 a15 a16 a17 a18 a19 a20 a21 a22 a23 a24 a25 a26 := by
  have t26 := congrFun h ix0
  obtain ⟨t25, e26⟩ := and_split _ _ t26
  obtain ⟨t24, e25⟩ := and_split _ _ t25
  obtain ⟨t23, e24⟩ := and_split _ _ t24
  obtain ⟨t22, e23⟩ := and_split _ _ t23
  obtain ⟨t21, e22⟩ := and_split _ _ t22
  obtain ⟨t20, e21⟩ := and_split _ _ t21
  obtain ⟨t19, e20⟩ := and_split _ _ t20
  obtain ⟨t18, e19⟩ := and_split _ _ t19
  obtain ⟨t17, e18⟩ := and_split _ _ t18
  obtain ⟨t16, e17⟩ := and_split _ _ t17
  obtain ⟨t15, e16⟩ := and_split _ _ t16
  obtain ⟨t14, e15⟩ := and_split _ _ t15
  obtain ⟨t13, e14⟩ := and_split _ _ t14
  obtain ⟨t12, e13⟩ := and_split _ _ t13
  obtain ⟨t11, e12⟩ := and_split _ _ t12
  obtain ⟨t10, e11⟩ := and_split _ _ t11
  obtain ⟨t9, e10⟩ := and_split _ _ t10
  obtain ⟨t8, e9⟩ := and_split _ _ t9
  obtain ⟨t7, e8⟩ := and_split _ _ t8
  obtain ⟨t6, e7⟩ := and_split _ _ t7
  obtain ⟨t5, e6⟩ := and_split _ _ t6
  obtain ⟨t4, e5⟩ := and_split _ _ t5
  obtain ⟨t3, e4⟩ := and_split _ _ t4
  obtain ⟨t2, e3⟩ := and_split _ _ t3
  obtain ⟨t1, e2⟩ := and_split _ _ t2
  obtain ⟨t0, e1⟩ := and_split _ _ t1
  have e0 := t0
  obtain ⟨f0, g0⟩ := exists_holds2 a0 (finite_of_all _ _ _ a0 e0)
  obtain ⟨f1, g1⟩ := exists_holds2 a1 (finite_of_all _ _ _ a1 e1)
  obtain ⟨f2, g2⟩ := exists_holdsRow a2 (finite_of_all _ _ _ a2 e2)
  obtain ⟨f3, g3⟩ := exists_holds1 a3 (finite_of_all _ _ _ a3 e3)
  obtain ⟨f4, g4⟩ := exists_holds1 a4 (finite_of_all _ _ _ a4 e4)
  obtain ⟨f5, g5⟩ := exists_holds2 a5 (finite_of_all _ _ _ a5 e5)
  obtain ⟨f6, g6⟩ := exists_holds1 a6 (finite_of_all _ _ _ a6 e6)
  obtain ⟨f7, g7⟩ := exists_holds2 a7 (finite_of_all _ _ _ a7 e7)
  obtain ⟨f8, g8⟩ := exists_holds1 a8 (finite_of_all _ _ _ a8 e8)
  obtain ⟨f9, g9⟩ := exists_holds2 a9 (finite_of_all _ _ _ a9 e9)
  obtain ⟨f10, g10⟩ := exists_holds1 a10 (finite_of_all _ _ _ a10 e10)
  obtain ⟨f11, g11⟩ := exists_holds2 a11 (finite_of_all _ _ _ a11 e11)
  obtain ⟨f12, g12⟩ := exists_holds1 a12 (finite_of_all _ _ _ a12 e12)
  obtain ⟨f13, g13⟩ := exists_holds1 a13 (finite_of_all _ _ _ a13 e13)
  obtain ⟨f14, g14⟩ := exists_holds1 a14 (finite_of_all _ _ _ a14 e14)
  obtain ⟨f15, g15⟩ := exists_holds2 a15 (finite_of_all _ _ _ a15 e15)
  obtain ⟨f16, g16⟩ := exists_holds1 a16 (finite_of_all _ _ _ a16 e16)
  obtain ⟨f17, g17⟩ := exists_holds2 a17 (finite_of_all _ _ _ a17 e17)
  obtain ⟨f18, g18⟩ := exists_holds1 a18 (finite_of_all _ _ _ a18 e18)
  obtain ⟨f19, g19⟩ := exists_holds2 a19 (finite_of_all _ _ _ a19 e19)
  obtain ⟨f20, g20⟩ := exists_holds1 a20 (finite_of_all _ _ _ a20 e20)
  obtain ⟨f21, g21⟩ := exists_holds2 a21 (finite_of_all _ _ _ a21 e21)
  obtain ⟨f22, g22⟩ := exists_holds1 a22 (finite_of_all _ _ _ a22 e22)
  obtain ⟨f23, g23⟩ := exists_holds1 a23 (finite_of_all _ _ _ a23 e23)
  obtain ⟨f24, g24⟩ := exists_holds1 a24 (finite_of_all _ _ _ a24 e24)
  obtain ⟨f25, g25⟩ := exists_holds2 a25 (finite_of_all _ _ _ a25 e25)
  obtain ⟨f26, g26⟩ := exists_holds1 a26 (finite_of_all _ _ _ a26 e26)
  exact ⟨⟨f0, f1, f2, f3, f4, f5, f6, f7, f8, f9, f10, f11, f12, f13, f14, f15, f16, f17, f18, f19, f20, f21, f22, f23, f24, f25, f26⟩, ⟨g0, g1, g2, g3, g4, g5, g6, g7, g8, g9, g10, g11, g12, g13, g14, g15, g16, g17, g18, g19, g20, g21, g22, g23, g24, g25, g26⟩⟩

/-- Under the precondition the 27 argument arrays of a device hold real arguments. -/
theorem args_of_pre
    (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m)
    (c : Dev Cert.KernelIdeal.nD) :
    ∃ A : Args, ArgsHold A
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13))
      (m ((c.tc : Thread Cert.KernelIdeal.nD Cert.KernelIdeal.τ).loc Cert.KernelIdeal.main_arg14))
      (m ((c.tc : Thread Cert.KernelIdeal.nD Cert.KernelIdeal.τ).loc Cert.KernelIdeal.main_arg15))
      (m ((c.tc : Thread Cert.KernelIdeal.nD Cert.KernelIdeal.τ).loc Cert.KernelIdeal.main_arg16))
      (m ((c.tc : Thread Cert.KernelIdeal.nD Cert.KernelIdeal.τ).loc Cert.KernelIdeal.main_arg17))
      (m ((c.tc : Thread Cert.KernelIdeal.nD Cert.KernelIdeal.τ).loc Cert.KernelIdeal.main_arg18))
      (m ((c.tc : Thread Cert.KernelIdeal.nD Cert.KernelIdeal.τ).loc Cert.KernelIdeal.main_arg19))
      (m ((c.tc : Thread Cert.KernelIdeal.nD Cert.KernelIdeal.τ).loc Cert.KernelIdeal.main_arg20))
      (m ((c.tc : Thread Cert.KernelIdeal.nD Cert.KernelIdeal.τ).loc Cert.KernelIdeal.main_arg21))
      (m ((c.tc : Thread Cert.KernelIdeal.nD Cert.KernelIdeal.τ).loc Cert.KernelIdeal.main_arg22))
      (m ((c.tc : Thread Cert.KernelIdeal.nD Cert.KernelIdeal.τ).loc Cert.KernelIdeal.main_arg23))
      (m ((c.tc : Thread Cert.KernelIdeal.nD Cert.KernelIdeal.τ).loc Cert.KernelIdeal.main_arg24))
      (m ((c.tc : Thread Cert.KernelIdeal.nD Cert.KernelIdeal.τ).loc Cert.KernelIdeal.main_arg25))
      (m ((c.tc : Thread Cert.KernelIdeal.nD Cert.KernelIdeal.τ).loc Cert.KernelIdeal.main_arg26)) := by
  exact args_of_fn _ _ _ _ _ _ _ _ _ _ _ _ _ _ _ _ _ _ _ _ _ _ _ _ _ _ _ (h c)

end StarAttn

end
-- ==== Proof.KPiecesDefs.lean ====
/-
  What one run of the kernel body leaves in the carried rows and in the output block, as pure terms.

  The body keeps, for each of the two neighbour families, four carried rows of 128 lanes: the running
  shift (a lane-wise maximum of the logits seen so far), the running normaliser (the sum of the
  exponentials of the logits, rescaled to the current shift), the running weighted sum of the projected
  rows (rescaled likewise), and the offset row (the target's contribution to every logit, computed once).
  At a grid point the body reads a block of 5000 neighbour rows of each family and updates the first
  three rows of each family by the usual one-pass rescaling step; at the first point it first computes
  the offset rows and resets the other rows to (-infinity, 0, 0); at the last point it also combines the
  two families' weighted averages with the target row into the output row.

  This module names those steps as functions of the blocks read and of the rows the point starts from
  (`shift1`, `norm1`, `wsum1`, `off1` and the same with `2`, and `outRow`), generically in the arithmetic.
  The three case modules prove that what each control case of the body leaves in each carried row (and,
  in the last case, in the output block) is exactly the corresponding step applied to that case's
  starting rows: the first point's starting rows are the reset rows and the offset rows it has just
  computed, so the first point is the same step as every other point, applied to the reset state.
-/
import proofs.«165745_g33088428049086_cont_sun_c4_530_12_alg».proof.Proof.Gen.KernelIdeal.Skeleton
import Idealize.ShloMosaic.Lib.Pipeline.Value
import Idealize.ShloMosaic.Lib.Tactic

set_option maxRecDepth 16384

noncomputable section

namespace Cert.KernelIdeal.KPieces

open Cert.KernelIdeal.Gen
open Idealize.ShloMosaic Idealize.ShloMosaic.TcCoe Idealize.ShloMosaic.Tactic Idealize.SL.Sem

variable {F : FTy → Type} [FloatOps F]

/-- Both zero offsets, however spelt, are the zero offset. -/
theorem hz : (![0, 0] : Fin 2 → Nat) = fun _ => 0 := funext fun a => by fin_cases a <;> rfl

/-! ## The steps, as functions of the blocks read and the rows the point starts from

  `x` is the block of neighbour rows, `wl` the neighbour-side projection, `xr` the offset row,
  `ae` the lane-to-head expansion of the attention vector, `mold`, `sold`, `wold` the shift,
  normaliser and weighted sum before the point. -/

/-- The shift after a point of the first family: the lane-wise maximum of the old shift and the block's logits. -/
def shift1 (x : Vec F S5000x128 .f32) (wl : Vec F S128x128 .f32) (xr : Vec F S1x128 .f32) (ae : Vec F S128x128 .f32)
    (mold : Vec F S1x128 .f32) : Vec F S1x128 .f32 :=
  k0_pay32 (k0_pay26 x wl xr ae mold)

/-- The normaliser after a point of the first family: the old one rescaled to the new shift, plus the block's
    exponentials. -/
def norm1 (x : Vec F S5000x128 .f32) (wl : Vec F S128x128 .f32) (xr : Vec F S1x128 .f32) (ae : Vec F S128x128 .f32)
    (mold sold : Vec F S1x128 .f32) : Vec F S1x128 .f32 :=
  k0_pay29 x wl xr ae mold sold

/-- The weighted sum after a point of the first family: the old one rescaled to the new shift, plus the block's
    exponentials times its projected rows. -/
def wsum1 (x : Vec F S5000x128 .f32) (wl : Vec F S128x128 .f32) (xr : Vec F S1x128 .f32) (ae : Vec F S128x128 .f32)
    (mold wold : Vec F S1x128 .f32) : Vec F S1x128 .f32 :=
  k0_pay31 (k0_pay24 x wl) (k0_pay28 x wl xr ae mold) (k0_pay30 x wl xr ae mold wold)

/-- The shift after a point of the second family. -/
def shift2 (x : Vec F S5000x128 .f32) (wl : Vec F S128x128 .f32) (xr : Vec F S1x128 .f32) (ae : Vec F S128x128 .f32)
    (mold : Vec F S1x128 .f32) : Vec F S1x128 .f32 :=
  k0_pay3 (k0_pay35 x wl xr ae mold)

/-- The normaliser after a point of the second family. -/
def norm2 (x : Vec F S5000x128 .f32) (wl : Vec F S128x128 .f32) (xr : Vec F S1x128 .f32) (ae : Vec F S128x128 .f32)
    (mold sold : Vec F S1x128 .f32) : Vec F S1x128 .f32 :=
  k0_pay1 (k0_pay38 x wl xr ae mold sold)

/-- The weighted sum after a point of the second family. -/
def wsum2 (x : Vec F S5000x128 .f32) (wl : Vec F S128x128 .f32) (xr : Vec F S1x128 .f32) (ae : Vec F S128x128 .f32)
    (mold wold : Vec F S1x128 .f32) : Vec F S1x128 .f32 :=
  k0_pay2 (k0_pay33 x wl) (k0_pay36 x wl xr ae mold) (k0_pay37 x wl xr ae mold) wold

/-- The first family's offset row, computed at the first point from the target row `g`: its normalisation
    (`s`, `b`), the projection `W`, `c` with the rectifier, then the target-side map `Wr`, `br` plus the
    neighbour-side bias `bl`. -/
def off1 (g s b : Vec F S1x256 .f32) (W : Vec F S256x128 .f32) (c bl : Vec F S1x128 .f32) (Wr : Vec F S128x128 .f32)
    (br : Vec F S1x128 .f32) : Vec F S1x128 .f32 :=
  k0_pay7 (k0_pay5 bl) (k0_pay6 g s b W c Wr) br

/-- The second family's offset row, computed at the first point. -/
def off2 (g s b : Vec F S1x256 .f32) (W : Vec F S256x128 .f32) (c bl : Vec F S1x128 .f32) (Wr : Vec F S128x128 .f32)
    (br : Vec F S1x128 .f32) : Vec F S1x128 .f32 :=
  k0_pay9 (k0_pay8 g s b W c) bl Wr br

/-- The rows the first point resets the shifts, normalisers and weighted sums to: minus infinity, zero, zero. -/
abbrev shiftInit1 : Vec F S1x128 .f32 := k0_pay11 (F := F)
abbrev normInit1 : Vec F S1x128 .f32 := k0_pay14 (F := F)
abbrev wsumInit1 : Vec F S1x128 .f32 := k0_pay16 (F := F)
abbrev shiftInit2 : Vec F S1x128 .f32 := k0_pay12 (F := F)
abbrev normInit2 : Vec F S1x128 .f32 := k0_pay15 (F := F)
abbrev wsumInit2 : Vec F S1x128 .f32 := k0_pay17 (F := F)

/-- The output row the last point stores, from the final rows of both families (`w` weighted sum, `s` normaliser,
    `bias` the family's output bias), the target row `g`, and the last normalisation and projection. -/
def outRow (w1 s1 bias1 w2 s2 bias2 : Vec F S1x128 .f32) (g s3 b3 : Vec F S1x256 .f32) (W3 : Vec F S256x256 .f32)
    (c3 : Vec F S1x256 .f32) : Vec F S1x256 .f32 :=
  k0_pay4 (k0_pay18 w1 s1 bias1 w2 s2 bias2 g) (k0_pay19 s3) (k0_pay20 b3) (k0_pay22 w1 s1 bias1 w2 s2 bias2 g)
    (k0_pay23 w1 s1 bias1 w2 s2 bias2 g) W3 c3

end Cert.KernelIdeal.KPieces

end
-- ==== Proof.KPiecesA.lean ====
/-
  What the first grid point (reset, then one streaming step) leaves in each carried row,
  as the steps of the definitions module applied to the blocks read (the rows are reset first, so nothing is carried in):
  each row's final content is the payload of the last store that covers it, and the loads inside that payload
  read either an input block, a carried-in row, or what an earlier store of the same run left.
-/
import proofs.«165745_g33088428049086_cont_sun_c4_530_12_alg».proof.Proof.PatchedKernelIdealFrameDefs
import proofs.«165745_g33088428049086_cont_sun_c4_530_12_alg».proof.Proof.KPiecesDefs

set_option maxRecDepth 16384

noncomputable section

namespace Cert.KernelIdeal.KPieces

open Cert.KernelIdeal.Gen Cert.KernelIdeal.GenP
open Idealize.ShloMosaic Idealize.ShloMosaic.TcCoe Idealize.ShloMosaic.Tactic Idealize.SL.Sem

variable {F : FTy → Type} [FloatOps F]

/-! ## Case A -/

/-- What case A leaves in carried row 0. -/
theorem sout0_A_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : cond0_0 i) (hc1 : ¬cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) :
    sout0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 = shift1 x0 x7 (off1 x2 x3 x4 x5 x6 x8 x9 x10) x11 shiftInit1 := by
  unfold sout0_A_0 shift1 off1
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_cons_unit_zero (S := S1x128) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S5000x128) hz, View.ld_unit_zero (S := S128x128) hz, View.ld_unit_zero (S := S1x128) hz, View.ld_unit_zero (S := S1x256) hz, View.ld_unit_zero (S := S256x128) hz, View.ld_unit_zero (S := S256x256) hz, View.ld_unit_zero (S := S1x5000) hz, View.readCov_unit_zero (S := S1x128) _ hz]

/-- What case A leaves in carried row 1. -/
theorem sout0_A_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : cond0_0 i) (hc1 : ¬cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) :
    sout0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 = norm1 x0 x7 (off1 x2 x3 x4 x5 x6 x8 x9 x10) x11 shiftInit1 normInit1 := by
  unfold sout0_A_1 norm1 off1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_cons_unit_zero (S := S1x128) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S5000x128) hz, View.ld_unit_zero (S := S128x128) hz, View.ld_unit_zero (S := S1x128) hz, View.ld_unit_zero (S := S1x256) hz, View.ld_unit_zero (S := S256x128) hz, View.ld_unit_zero (S := S256x256) hz, View.ld_unit_zero (S := S1x5000) hz, View.readCov_unit_zero (S := S1x128) _ hz]

/-- What case A leaves in carried row 2. -/
theorem sout0_A_2_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : cond0_0 i) (hc1 : ¬cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) :
    sout0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 = wsum1 x0 x7 (off1 x2 x3 x4 x5 x6 x8 x9 x10) x11 shiftInit1 wsumInit1 := by
  unfold sout0_A_2 wsum1 off1
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_cons_unit_zero (S := S1x128) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S5000x128) hz, View.ld_unit_zero (S := S128x128) hz, View.ld_unit_zero (S := S1x128) hz, View.ld_unit_zero (S := S1x256) hz, View.ld_unit_zero (S := S256x128) hz, View.ld_unit_zero (S := S256x256) hz, View.ld_unit_zero (S := S1x5000) hz, View.readCov_unit_zero (S := S1x128) _ hz]

/-- What case A leaves in carried row 3. -/
theorem sout0_A_3_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : cond0_0 i) (hc1 : ¬cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) :
    sout0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 = off1 x2 x3 x4 x5 x6 x8 x9 x10 := by
  unfold sout0_A_3 off1
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S5000x128) hz, View.ld_unit_zero (S := S128x128) hz, View.ld_unit_zero (S := S1x128) hz, View.ld_unit_zero (S := S1x256) hz, View.ld_unit_zero (S := S256x128) hz, View.ld_unit_zero (S := S256x256) hz, View.ld_unit_zero (S := S1x5000) hz, View.readCov_unit_zero (S := S1x128) _ hz]

/-- What case A leaves in carried row 4. -/
theorem sout0_A_4_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : cond0_0 i) (hc1 : ¬cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) :
    sout0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 = shift2 x1 x17 (off2 x2 x13 x14 x15 x16 x18 x19 x20) x21 shiftInit2 := by
  unfold sout0_A_4 shift2 off2
  rw [View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_cons_unit_zero (S := S1x128) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S5000x128) hz, View.ld_unit_zero (S := S128x128) hz, View.ld_unit_zero (S := S1x128) hz, View.ld_unit_zero (S := S1x256) hz, View.ld_unit_zero (S := S256x128) hz, View.ld_unit_zero (S := S256x256) hz, View.ld_unit_zero (S := S1x5000) hz, View.readCov_unit_zero (S := S1x128) _ hz]

/-- What case A leaves in carried row 5. -/
theorem sout0_A_5_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : cond0_0 i) (hc1 : ¬cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) :
    sout0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 = norm2 x1 x17 (off2 x2 x13 x14 x15 x16 x18 x19 x20) x21 shiftInit2 normInit2 := by
  unfold sout0_A_5 norm2 off2
  rw [View.read_writes_eq_canon _ _ _ (scover0_A_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_cons_unit_zero (S := S1x128) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S5000x128) hz, View.ld_unit_zero (S := S128x128) hz, View.ld_unit_zero (S := S1x128) hz, View.ld_unit_zero (S := S1x256) hz, View.ld_unit_zero (S := S256x128) hz, View.ld_unit_zero (S := S256x256) hz, View.ld_unit_zero (S := S1x5000) hz, View.readCov_unit_zero (S := S1x128) _ hz]

/-- What case A leaves in carried row 6. -/
theorem sout0_A_6_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : cond0_0 i) (hc1 : ¬cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) :
    sout0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 = wsum2 x1 x17 (off2 x2 x13 x14 x15 x16 x18 x19 x20) x21 shiftInit2 wsumInit2 := by
  unfold sout0_A_6 wsum2 off2
  rw [View.read_writes_eq_canon _ _ _ (scover0_A_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_cons_unit_zero (S := S1x128) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S5000x128) hz, View.ld_unit_zero (S := S128x128) hz, View.ld_unit_zero (S := S1x128) hz, View.ld_unit_zero (S := S1x256) hz, View.ld_unit_zero (S := S256x128) hz, View.ld_unit_zero (S := S256x256) hz, View.ld_unit_zero (S := S1x5000) hz, View.readCov_unit_zero (S := S1x128) _ hz]

/-- What case A leaves in carried row 7. -/
theorem sout0_A_7_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : cond0_0 i) (hc1 : ¬cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) :
    sout0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 = off2 x2 x13 x14 x15 x16 x18 x19 x20 := by
  unfold sout0_A_7 off2
  rw [View.read_writes_eq_canon _ _ _ (scover0_A_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S5000x128) hz, View.ld_unit_zero (S := S128x128) hz, View.ld_unit_zero (S := S1x128) hz, View.ld_unit_zero (S := S1x256) hz, View.ld_unit_zero (S := S256x128) hz, View.ld_unit_zero (S := S256x256) hz, View.ld_unit_zero (S := S1x5000) hz, View.readCov_unit_zero (S := S1x128) _ hz]

end Cert.KernelIdeal.KPieces

end
-- ==== Proof.KPiecesB.lean ====
/-
  What a middle grid point (one streaming step) leaves in each carried row,
  as the steps of the definitions module applied to the blocks read and the rows carried in:
  each row's final content is the payload of the last store that covers it, and the loads inside that payload
  read either an input block, a carried-in row, or what an earlier store of the same run left.
-/
import proofs.«165745_g33088428049086_cont_sun_c4_530_12_alg».proof.Proof.PatchedKernelIdealFrameDefs
import proofs.«165745_g33088428049086_cont_sun_c4_530_12_alg».proof.Proof.KPiecesDefs

set_option maxRecDepth 16384

noncomputable section

namespace Cert.KernelIdeal.KPieces

open Cert.KernelIdeal.Gen Cert.KernelIdeal.GenP
open Idealize.ShloMosaic Idealize.ShloMosaic.TcCoe Idealize.ShloMosaic.Tactic Idealize.SL.Sem

variable {F : FTy → Type} [FloatOps F]

/-! ## Case B -/

/-- What case B leaves in carried row 0. -/
theorem sout0_B_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : ¬cond0_0 i) (hc1 : ¬cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32) :
    sout0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = shift1 x0 x7 xs3 x11 xs0 := by
  unfold sout0_B_0 shift1
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S5000x128) hz, View.ld_unit_zero (S := S128x128) hz, View.ld_unit_zero (S := S1x128) hz, View.ld_unit_zero (S := S1x256) hz, View.ld_unit_zero (S := S256x128) hz, View.ld_unit_zero (S := S256x256) hz, View.ld_unit_zero (S := S1x5000) hz]

/-- What case B leaves in carried row 1. -/
theorem sout0_B_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : ¬cond0_0 i) (hc1 : ¬cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32) :
    sout0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = norm1 x0 x7 xs3 x11 xs0 xs1 := by
  unfold sout0_B_1 norm1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S5000x128) hz, View.ld_unit_zero (S := S128x128) hz, View.ld_unit_zero (S := S1x128) hz, View.ld_unit_zero (S := S1x256) hz, View.ld_unit_zero (S := S256x128) hz, View.ld_unit_zero (S := S256x256) hz, View.ld_unit_zero (S := S1x5000) hz]

/-- What case B leaves in carried row 2. -/
theorem sout0_B_2_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : ¬cond0_0 i) (hc1 : ¬cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32) :
    sout0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = wsum1 x0 x7 xs3 x11 xs0 xs2 := by
  unfold sout0_B_2 wsum1
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S5000x128) hz, View.ld_unit_zero (S := S128x128) hz, View.ld_unit_zero (S := S1x128) hz, View.ld_unit_zero (S := S1x256) hz, View.ld_unit_zero (S := S256x128) hz, View.ld_unit_zero (S := S256x256) hz, View.ld_unit_zero (S := S1x5000) hz]

/-- Case B does not touch this offset row. -/
theorem sout0_B_3_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : ¬cond0_0 i) (hc1 : ¬cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32) :
    sout0_B_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = xs3 := by
  rfl

/-- What case B leaves in carried row 4. -/
theorem sout0_B_4_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : ¬cond0_0 i) (hc1 : ¬cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32) :
    sout0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = shift2 x1 x17 xs7 x21 xs4 := by
  unfold sout0_B_4 shift2
  rw [View.read_writes_eq_canon _ _ _ (scover0_B_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S5000x128) hz, View.ld_unit_zero (S := S128x128) hz, View.ld_unit_zero (S := S1x128) hz, View.ld_unit_zero (S := S1x256) hz, View.ld_unit_zero (S := S256x128) hz, View.ld_unit_zero (S := S256x256) hz, View.ld_unit_zero (S := S1x5000) hz]

/-- What case B leaves in carried row 5. -/
theorem sout0_B_5_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : ¬cond0_0 i) (hc1 : ¬cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32) :
    sout0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = norm2 x1 x17 xs7 x21 xs4 xs5 := by
  unfold sout0_B_5 norm2
  rw [View.read_writes_eq_canon _ _ _ (scover0_B_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S5000x128) hz, View.ld_unit_zero (S := S128x128) hz, View.ld_unit_zero (S := S1x128) hz, View.ld_unit_zero (S := S1x256) hz, View.ld_unit_zero (S := S256x128) hz, View.ld_unit_zero (S := S256x256) hz, View.ld_unit_zero (S := S1x5000) hz]

/-- What case B leaves in carried row 6. -/
theorem sout0_B_6_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : ¬cond0_0 i) (hc1 : ¬cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32) :
    sout0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = wsum2 x1 x17 xs7 x21 xs4 xs6 := by
  unfold sout0_B_6 wsum2
  rw [View.read_writes_eq_canon _ _ _ (scover0_B_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S5000x128) hz, View.ld_unit_zero (S := S128x128) hz, View.ld_unit_zero (S := S1x128) hz, View.ld_unit_zero (S := S1x256) hz, View.ld_unit_zero (S := S256x128) hz, View.ld_unit_zero (S := S256x256) hz, View.ld_unit_zero (S := S1x5000) hz]

/-- Case B does not touch this offset row. -/
theorem sout0_B_7_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : ¬cond0_0 i) (hc1 : ¬cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32) :
    sout0_B_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = xs7 := by
  rfl

end Cert.KernelIdeal.KPieces

end
-- ==== Proof.KPiecesC.lean ====
/-
  What the last grid point (one streaming step, then the output row) leaves in each carried row and in the output block,
  as the steps of the definitions module applied to the blocks read and the rows carried in:
  each row's final content is the payload of the last store that covers it, and the loads inside that payload
  read either an input block, a carried-in row, or what an earlier store of the same run left.
-/
import proofs.«165745_g33088428049086_cont_sun_c4_530_12_alg».proof.Proof.PatchedKernelIdealFrameDefs
import proofs.«165745_g33088428049086_cont_sun_c4_530_12_alg».proof.Proof.KPiecesDefs

set_option maxRecDepth 16384

noncomputable section

namespace Cert.KernelIdeal.KPieces

open Cert.KernelIdeal.Gen Cert.KernelIdeal.GenP
open Idealize.ShloMosaic Idealize.ShloMosaic.TcCoe Idealize.ShloMosaic.Tactic Idealize.SL.Sem

variable {F : FTy → Type} [FloatOps F]

/-! ## Case C -/

/-- What case C leaves in carried row 0. -/
theorem sout0_C_0_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : ¬cond0_0 i) (hc1 : cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32) :
    sout0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = shift1 x0 x7 xs3 x11 xs0 := by
  unfold sout0_C_0 shift1
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S5000x128) hz, View.ld_unit_zero (S := S128x128) hz, View.ld_unit_zero (S := S1x128) hz, View.ld_unit_zero (S := S1x256) hz, View.ld_unit_zero (S := S256x128) hz, View.ld_unit_zero (S := S256x256) hz, View.ld_unit_zero (S := S1x5000) hz]

/-- What case C leaves in carried row 1. -/
theorem sout0_C_1_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : ¬cond0_0 i) (hc1 : cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32) :
    sout0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = norm1 x0 x7 xs3 x11 xs0 xs1 := by
  unfold sout0_C_1 norm1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S5000x128) hz, View.ld_unit_zero (S := S128x128) hz, View.ld_unit_zero (S := S1x128) hz, View.ld_unit_zero (S := S1x256) hz, View.ld_unit_zero (S := S256x128) hz, View.ld_unit_zero (S := S256x256) hz, View.ld_unit_zero (S := S1x5000) hz]

/-- What case C leaves in carried row 2. -/
theorem sout0_C_2_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : ¬cond0_0 i) (hc1 : cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32) :
    sout0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = wsum1 x0 x7 xs3 x11 xs0 xs2 := by
  unfold sout0_C_2 wsum1
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S5000x128) hz, View.ld_unit_zero (S := S128x128) hz, View.ld_unit_zero (S := S1x128) hz, View.ld_unit_zero (S := S1x256) hz, View.ld_unit_zero (S := S256x128) hz, View.ld_unit_zero (S := S256x256) hz, View.ld_unit_zero (S := S1x5000) hz]

/-- Case C does not touch this offset row. -/
theorem sout0_C_3_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : ¬cond0_0 i) (hc1 : cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32) :
    sout0_C_3 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = xs3 := by
  rfl

/-- What case C leaves in carried row 4. -/
theorem sout0_C_4_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : ¬cond0_0 i) (hc1 : cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32) :
    sout0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = shift2 x1 x17 xs7 x21 xs4 := by
  unfold sout0_C_4 shift2
  rw [View.read_writes_eq_canon _ _ _ (scover0_C_4 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S5000x128) hz, View.ld_unit_zero (S := S128x128) hz, View.ld_unit_zero (S := S1x128) hz, View.ld_unit_zero (S := S1x256) hz, View.ld_unit_zero (S := S256x128) hz, View.ld_unit_zero (S := S256x256) hz, View.ld_unit_zero (S := S1x5000) hz]

/-- What case C leaves in carried row 5. -/
theorem sout0_C_5_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : ¬cond0_0 i) (hc1 : cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32) :
    sout0_C_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = norm2 x1 x17 xs7 x21 xs4 xs5 := by
  unfold sout0_C_5 norm2
  rw [View.read_writes_eq_canon _ _ _ (scover0_C_5 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S5000x128) hz, View.ld_unit_zero (S := S128x128) hz, View.ld_unit_zero (S := S1x128) hz, View.ld_unit_zero (S := S1x256) hz, View.ld_unit_zero (S := S256x128) hz, View.ld_unit_zero (S := S256x256) hz, View.ld_unit_zero (S := S1x5000) hz]

/-- What case C leaves in carried row 6. -/
theorem sout0_C_6_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : ¬cond0_0 i) (hc1 : cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32) :
    sout0_C_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = wsum2 x1 x17 xs7 x21 xs4 xs6 := by
  unfold sout0_C_6 wsum2
  rw [View.read_writes_eq_canon _ _ _ (scover0_C_6 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S5000x128) hz, View.ld_unit_zero (S := S128x128) hz, View.ld_unit_zero (S := S1x128) hz, View.ld_unit_zero (S := S1x256) hz, View.ld_unit_zero (S := S256x128) hz, View.ld_unit_zero (S := S256x256) hz, View.ld_unit_zero (S := S1x5000) hz]

/-- Case C does not touch this offset row. -/
theorem sout0_C_7_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : ¬cond0_0 i) (hc1 : cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32) :
    sout0_C_7 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = xs7 := by
  rfl

/-- What the last case leaves in the output block: the output row of the rows it has just updated. -/
theorem out0_C_28_eq (c : Dev nD) (i : grid0.Coords) (arg1 : Memref sig .tc .vmem S5000x128 .f32) (harg1 : arg1.IsWhole) (arg2 : Memref sig .tc .vmem S5000x128 .f32) (harg2 : arg2.IsWhole) (arg3 : Memref sig .tc .vmem S1x256 .f32) (harg3 : arg3.IsWhole) (arg4 : Memref sig .tc .vmem S1x256 .f32) (harg4 : arg4.IsWhole) (arg5 : Memref sig .tc .vmem S1x256 .f32) (harg5 : arg5.IsWhole) (arg6 : Memref sig .tc .vmem S256x128 .f32) (harg6 : arg6.IsWhole) (arg7 : Memref sig .tc .vmem S1x128 .f32) (harg7 : arg7.IsWhole) (arg8 : Memref sig .tc .vmem S128x128 .f32) (harg8 : arg8.IsWhole) (arg9 : Memref sig .tc .vmem S1x128 .f32) (harg9 : arg9.IsWhole) (arg10 : Memref sig .tc .vmem S128x128 .f32) (harg10 : arg10.IsWhole) (arg11 : Memref sig .tc .vmem S1x128 .f32) (harg11 : arg11.IsWhole) (arg12 : Memref sig .tc .vmem S128x128 .f32) (harg12 : arg12.IsWhole) (arg13 : Memref sig .tc .vmem S1x128 .f32) (harg13 : arg13.IsWhole) (arg14 : Memref sig .tc .vmem S1x256 .f32) (harg14 : arg14.IsWhole) (arg15 : Memref sig .tc .vmem S1x256 .f32) (harg15 : arg15.IsWhole) (arg16 : Memref sig .tc .vmem S256x128 .f32) (harg16 : arg16.IsWhole) (arg17 : Memref sig .tc .vmem S1x128 .f32) (harg17 : arg17.IsWhole) (arg18 : Memref sig .tc .vmem S128x128 .f32) (harg18 : arg18.IsWhole) (arg19 : Memref sig .tc .vmem S1x128 .f32) (harg19 : arg19.IsWhole) (arg20 : Memref sig .tc .vmem S128x128 .f32) (harg20 : arg20.IsWhole) (arg21 : Memref sig .tc .vmem S1x128 .f32) (harg21 : arg21.IsWhole) (arg22 : Memref sig .tc .vmem S128x128 .f32) (harg22 : arg22.IsWhole) (arg23 : Memref sig .tc .vmem S1x128 .f32) (harg23 : arg23.IsWhole) (arg24 : Memref sig .tc .vmem S1x256 .f32) (harg24 : arg24.IsWhole) (arg25 : Memref sig .tc .vmem S1x256 .f32) (harg25 : arg25.IsWhole) (arg26 : Memref sig .tc .vmem S256x256 .f32) (harg26 : arg26.IsWhole) (arg27 : Memref sig .tc .vmem S1x256 .f32) (harg27 : arg27.IsWhole) (arg28 : Memref sig .tc .vmem S1x5000 .f32) (harg28 : arg28.IsWhole) (arg29 : Memref sig .tc .vmem S1x256 .f32) (harg29 : arg29.IsWhole) (arg30 : Memref sig .tc .vmem S1x128 .f32) (harg30 : arg30.IsWhole) (arg31 : Memref sig .tc .vmem S1x128 .f32) (harg31 : arg31.IsWhole) (arg32 : Memref sig .tc .vmem S1x128 .f32) (harg32 : arg32.IsWhole) (arg33 : Memref sig .tc .vmem S1x128 .f32) (harg33 : arg33.IsWhole) (arg34 : Memref sig .tc .vmem S1x128 .f32) (harg34 : arg34.IsWhole) (arg35 : Memref sig .tc .vmem S1x128 .f32) (harg35 : arg35.IsWhole) (arg36 : Memref sig .tc .vmem S1x128 .f32) (harg36 : arg36.IsWhole) (arg37 : Memref sig .tc .vmem S1x128 .f32) (harg37 : arg37.IsWhole) (hc0 : ¬cond0_0 i) (hc1 : cond0_1 i) (x0 : Vec F S5000x128 .f32) (x1 : Vec F S5000x128 .f32) (x2 : Vec F S1x256 .f32) (x3 : Vec F S1x256 .f32) (x4 : Vec F S1x256 .f32) (x5 : Vec F S256x128 .f32) (x6 : Vec F S1x128 .f32) (x7 : Vec F S128x128 .f32) (x8 : Vec F S1x128 .f32) (x9 : Vec F S128x128 .f32) (x10 : Vec F S1x128 .f32) (x11 : Vec F S128x128 .f32) (x12 : Vec F S1x128 .f32) (x13 : Vec F S1x256 .f32) (x14 : Vec F S1x256 .f32) (x15 : Vec F S256x128 .f32) (x16 : Vec F S1x128 .f32) (x17 : Vec F S128x128 .f32) (x18 : Vec F S1x128 .f32) (x19 : Vec F S128x128 .f32) (x20 : Vec F S1x128 .f32) (x21 : Vec F S128x128 .f32) (x22 : Vec F S1x128 .f32) (x23 : Vec F S1x256 .f32) (x24 : Vec F S1x256 .f32) (x25 : Vec F S256x256 .f32) (x26 : Vec F S1x256 .f32) (x27 : Vec F S1x5000 .f32) (xs0 : Vec F S1x128 .f32) (xs1 : Vec F S1x128 .f32) (xs2 : Vec F S1x128 .f32) (xs3 : Vec F S1x128 .f32) (xs4 : Vec F S1x128 .f32) (xs5 : Vec F S1x128 .f32) (xs6 : Vec F S1x128 .f32) (xs7 : Vec F S1x128 .f32) :
    out0_C_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7 = outRow (wsum1 x0 x7 xs3 x11 xs0 xs2) (norm1 x0 x7 xs3 x11 xs0 xs1) x12 (wsum2 x1 x17 xs7 x21 xs4 xs6) (norm2 x1 x17 xs7 x21 xs4 xs5) x22 x2 x23 x24 x25 x26 := by
  unfold out0_C_28 outRow wsum1 norm1 wsum2 norm2
  rw [View.read_writes_eq_canon _ _ _ (cover0_C_28 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 hc0 hc1 x0 x1 x2 x3 x4 x5 x6 x7 x8 x9 x10 x11 x12 x13 x14 x15 x16 x17 x18 x19 x20 x21 x22 x23 x24 x25 x26 x27 xs0 xs1 xs2 xs3 xs4 xs5 xs6 xs7)]
  unfold kernelRun0_C
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, harg24.read_unread, harg25.read_unread, harg26.read_unread, harg27.read_unread, harg28.read_unread, harg29.read_unread, harg30.read_unread, harg31.read_unread, harg32.read_unread, harg33.read_unread, harg34.read_unread, harg35.read_unread, harg36.read_unread, harg37.read_unread, View.ld_unit_zero (S := S5000x128) hz, View.ld_unit_zero (S := S128x128) hz, View.ld_unit_zero (S := S1x128) hz, View.ld_unit_zero (S := S1x256) hz, View.ld_unit_zero (S := S256x128) hz, View.ld_unit_zero (S := S256x256) hz, View.ld_unit_zero (S := S1x5000) hz, View.readCov_unit_zero (S := S1x128) _ hz]

end Cert.KernelIdeal.KPieces

end
-- ==== Proof.KPieces.lean ====
/-
  The carried rows and the output block after the body at a grid point, as the steps of the definitions
  module over the blocks the point reads and the rows the point before left: the accumulation over the
  grid unfolds, at a point of each control case, to that case's tuple, whose components the case modules
  have identified.
-/
import proofs.«165745_g33088428049086_cont_sun_c4_530_12_alg».proof.Proof.KPiecesA
import proofs.«165745_g33088428049086_cont_sun_c4_530_12_alg».proof.Proof.KPiecesB
import proofs.«165745_g33088428049086_cont_sun_c4_530_12_alg».proof.Proof.KPiecesC

set_option maxRecDepth 16384

noncomputable section

namespace Cert.KernelIdeal.KPieces

open Cert.KernelIdeal.Gen Cert.KernelIdeal.GenP
open Idealize.ShloMosaic Idealize.ShloMosaic.TcCoe Idealize.ShloMosaic.Tactic Idealize.SL.Sem

variable {F : FTy → Type} [FloatOps F]

variable (m : (ℓ : Loc nD τ sig) → Buf (Elt F) ℓ)

/-! ## At a grid point -/

/-- At a point of case A, carried row 0 after the body, over the blocks read there. -/
theorem at_A_s0 (c : Dev nD) (t : Fin cfg0.N) (h0 : t.val % 20 = 0) (h1 : ¬t.val % 20 = 19) :
    (outsAt0 m c t.val t.isLt).2.1 = shift1 (iblk m c 0 t) (iblk m c 7 t) (off1 (iblk m c 2 t) (iblk m c 3 t) (iblk m c 4 t) (iblk m c 5 t) (iblk m c 6 t) (iblk m c 8 t) (iblk m c 9 t) (iblk m c 10 t)) (iblk m c 11 t) shiftInit1 := by
  rw [outsAt0_A m c t h0 h1]
  dsimp only
  exact sout0_A_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)

/-- At a point of case A, carried row 1 after the body, over the blocks read there. -/
theorem at_A_s1 (c : Dev nD) (t : Fin cfg0.N) (h0 : t.val % 20 = 0) (h1 : ¬t.val % 20 = 19) :
    (outsAt0 m c t.val t.isLt).2.2.1 = norm1 (iblk m c 0 t) (iblk m c 7 t) (off1 (iblk m c 2 t) (iblk m c 3 t) (iblk m c 4 t) (iblk m c 5 t) (iblk m c 6 t) (iblk m c 8 t) (iblk m c 9 t) (iblk m c 10 t)) (iblk m c 11 t) shiftInit1 normInit1 := by
  rw [outsAt0_A m c t h0 h1]
  dsimp only
  exact sout0_A_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)

/-- At a point of case A, carried row 2 after the body, over the blocks read there. -/
theorem at_A_s2 (c : Dev nD) (t : Fin cfg0.N) (h0 : t.val % 20 = 0) (h1 : ¬t.val % 20 = 19) :
    (outsAt0 m c t.val t.isLt).2.2.2.1 = wsum1 (iblk m c 0 t) (iblk m c 7 t) (off1 (iblk m c 2 t) (iblk m c 3 t) (iblk m c 4 t) (iblk m c 5 t) (iblk m c 6 t) (iblk m c 8 t) (iblk m c 9 t) (iblk m c 10 t)) (iblk m c 11 t) shiftInit1 wsumInit1 := by
  rw [outsAt0_A m c t h0 h1]
  dsimp only
  exact sout0_A_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)

/-- At a point of case A, carried row 3 after the body, over the blocks read there. -/
theorem at_A_s3 (c : Dev nD) (t : Fin cfg0.N) (h0 : t.val % 20 = 0) (h1 : ¬t.val % 20 = 19) :
    (outsAt0 m c t.val t.isLt).2.2.2.2.1 = off1 (iblk m c 2 t) (iblk m c 3 t) (iblk m c 4 t) (iblk m c 5 t) (iblk m c 6 t) (iblk m c 8 t) (iblk m c 9 t) (iblk m c 10 t) := by
  rw [outsAt0_A m c t h0 h1]
  dsimp only
  exact sout0_A_3_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)

/-- At a point of case A, carried row 4 after the body, over the blocks read there. -/
theorem at_A_s4 (c : Dev nD) (t : Fin cfg0.N) (h0 : t.val % 20 = 0) (h1 : ¬t.val % 20 = 19) :
    (outsAt0 m c t.val t.isLt).2.2.2.2.2.1 = shift2 (iblk m c 1 t) (iblk m c 17 t) (off2 (iblk m c 2 t) (iblk m c 13 t) (iblk m c 14 t) (iblk m c 15 t) (iblk m c 16 t) (iblk m c 18 t) (iblk m c 19 t) (iblk m c 20 t)) (iblk m c 21 t) shiftInit2 := by
  rw [outsAt0_A m c t h0 h1]
  dsimp only
  exact sout0_A_4_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)

/-- At a point of case A, carried row 5 after the body, over the blocks read there. -/
theorem at_A_s5 (c : Dev nD) (t : Fin cfg0.N) (h0 : t.val % 20 = 0) (h1 : ¬t.val % 20 = 19) :
    (outsAt0 m c t.val t.isLt).2.2.2.2.2.2.1 = norm2 (iblk m c 1 t) (iblk m c 17 t) (off2 (iblk m c 2 t) (iblk m c 13 t) (iblk m c 14 t) (iblk m c 15 t) (iblk m c 16 t) (iblk m c 18 t) (iblk m c 19 t) (iblk m c 20 t)) (iblk m c 21 t) shiftInit2 normInit2 := by
  rw [outsAt0_A m c t h0 h1]
  dsimp only
  exact sout0_A_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)

/-- At a point of case A, carried row 6 after the body, over the blocks read there. -/
theorem at_A_s6 (c : Dev nD) (t : Fin cfg0.N) (h0 : t.val % 20 = 0) (h1 : ¬t.val % 20 = 19) :
    (outsAt0 m c t.val t.isLt).2.2.2.2.2.2.2.1 = wsum2 (iblk m c 1 t) (iblk m c 17 t) (off2 (iblk m c 2 t) (iblk m c 13 t) (iblk m c 14 t) (iblk m c 15 t) (iblk m c 16 t) (iblk m c 18 t) (iblk m c 19 t) (iblk m c 20 t)) (iblk m c 21 t) shiftInit2 wsumInit2 := by
  rw [outsAt0_A m c t h0 h1]
  dsimp only
  exact sout0_A_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)

/-- At a point of case A, carried row 7 after the body, over the blocks read there. -/
theorem at_A_s7 (c : Dev nD) (t : Fin cfg0.N) (h0 : t.val % 20 = 0) (h1 : ¬t.val % 20 = 19) :
    (outsAt0 m c t.val t.isLt).2.2.2.2.2.2.2.2 = off2 (iblk m c 2 t) (iblk m c 13 t) (iblk m c 14 t) (iblk m c 15 t) (iblk m c 16 t) (iblk m c 18 t) (iblk m c 19 t) (iblk m c 20 t) := by
  rw [outsAt0_A m c t h0 h1]
  dsimp only
  exact sout0_A_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t)

/-- At a point of case B, carried row 0 after the body, over the blocks read there and the rows the point before left. -/
theorem at_B_s0 (c : Dev nD) (t : Fin cfg0.N) (h0 : ¬t.val % 20 = 0) (h1 : ¬t.val % 20 = 19) :
    (outsAt0 m c t.val t.isLt).2.1 = shift1 (iblk m c 0 t) (iblk m c 7 t) (outsAt0 m c (t.val - 1) (Nat.lt_of_le_of_lt (Nat.sub_le _ _) t.isLt)).2.2.2.2.1 (iblk m c 11 t) (outsAt0 m c (t.val - 1) (Nat.lt_of_le_of_lt (Nat.sub_le _ _) t.isLt)).2.1 := by
  rw [outsAt0_B m c t h0 h1]
  dsimp only
  exact sout0_B_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2

/-- At a point of case B, carried row 1 after the body, over the blocks read there and the rows the point before left. -/
theorem at_B_s1 (c : Dev nD) (t : Fin cfg0.N) (h0 : ¬t.val % 20 = 0) (h1 : ¬t.val % 20 = 19) :
    (outsAt0 m c t.val t.isLt).2.2.1 = norm1 (iblk m c 0 t) (iblk m c 7 t) (outsAt0 m c (t.val - 1) (Nat.lt_of_le_of_lt (Nat.sub_le _ _) t.isLt)).2.2.2.2.1 (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 := by
  rw [outsAt0_B m c t h0 h1]
  dsimp only
  exact sout0_B_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2

/-- At a point of case B, carried row 2 after the body, over the blocks read there and the rows the point before left. -/
theorem at_B_s2 (c : Dev nD) (t : Fin cfg0.N) (h0 : ¬t.val % 20 = 0) (h1 : ¬t.val % 20 = 19) :
    (outsAt0 m c t.val t.isLt).2.2.2.1 = wsum1 (iblk m c 0 t) (iblk m c 7 t) (outsAt0 m c (t.val - 1) (Nat.lt_of_le_of_lt (Nat.sub_le _ _) t.isLt)).2.2.2.2.1 (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.2.1 := by
  rw [outsAt0_B m c t h0 h1]
  dsimp only
  exact sout0_B_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2

/-- At a point of case B, carried row 3 after the body, over the blocks read there and the rows the point before left. -/
theorem at_B_s3 (c : Dev nD) (t : Fin cfg0.N) (h0 : ¬t.val % 20 = 0) (h1 : ¬t.val % 20 = 19) :
    (outsAt0 m c t.val t.isLt).2.2.2.2.1 = (outsAt0 m c (t.val - 1) (Nat.lt_of_le_of_lt (Nat.sub_le _ _) t.isLt)).2.2.2.2.1 := by
  rw [outsAt0_B m c t h0 h1]
  dsimp only
  exact sout0_B_3_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2

/-- At a point of case B, carried row 4 after the body, over the blocks read there and the rows the point before left. -/
theorem at_B_s4 (c : Dev nD) (t : Fin cfg0.N) (h0 : ¬t.val % 20 = 0) (h1 : ¬t.val % 20 = 19) :
    (outsAt0 m c t.val t.isLt).2.2.2.2.2.1 = shift2 (iblk m c 1 t) (iblk m c 17 t) (outsAt0 m c (t.val - 1) (Nat.lt_of_le_of_lt (Nat.sub_le _ _) t.isLt)).2.2.2.2.2.2.2.2 (iblk m c 21 t) (outsAt0 m c (t.val - 1) (Nat.lt_of_le_of_lt (Nat.sub_le _ _) t.isLt)).2.2.2.2.2.1 := by
  rw [outsAt0_B m c t h0 h1]
  dsimp only
  exact sout0_B_4_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2

/-- At a point of case B, carried row 5 after the body, over the blocks read there and the rows the point before left. -/
theorem at_B_s5 (c : Dev nD) (t : Fin cfg0.N) (h0 : ¬t.val % 20 = 0) (h1 : ¬t.val % 20 = 19) :
    (outsAt0 m c t.val t.isLt).2.2.2.2.2.2.1 = norm2 (iblk m c 1 t) (iblk m c 17 t) (outsAt0 m c (t.val - 1) (Nat.lt_of_le_of_lt (Nat.sub_le _ _) t.isLt)).2.2.2.2.2.2.2.2 (iblk m c 21 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 := by
  rw [outsAt0_B m c t h0 h1]
  dsimp only
  exact sout0_B_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2

/-- At a point of case B, carried row 6 after the body, over the blocks read there and the rows the point before left. -/
theorem at_B_s6 (c : Dev nD) (t : Fin cfg0.N) (h0 : ¬t.val % 20 = 0) (h1 : ¬t.val % 20 = 19) :
    (outsAt0 m c t.val t.isLt).2.2.2.2.2.2.2.1 = wsum2 (iblk m c 1 t) (iblk m c 17 t) (outsAt0 m c (t.val - 1) (Nat.lt_of_le_of_lt (Nat.sub_le _ _) t.isLt)).2.2.2.2.2.2.2.2 (iblk m c 21 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.2.1 := by
  rw [outsAt0_B m c t h0 h1]
  dsimp only
  exact sout0_B_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2

/-- At a point of case B, carried row 7 after the body, over the blocks read there and the rows the point before left. -/
theorem at_B_s7 (c : Dev nD) (t : Fin cfg0.N) (h0 : ¬t.val % 20 = 0) (h1 : ¬t.val % 20 = 19) :
    (outsAt0 m c t.val t.isLt).2.2.2.2.2.2.2.2 = (outsAt0 m c (t.val - 1) (Nat.lt_of_le_of_lt (Nat.sub_le _ _) t.isLt)).2.2.2.2.2.2.2.2 := by
  rw [outsAt0_B m c t h0 h1]
  dsimp only
  exact sout0_B_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2

/-- At a point of case C, carried row 0 after the body, over the blocks read there and the rows the point before left. -/
theorem at_C_s0 (c : Dev nD) (t : Fin cfg0.N) (h0 : ¬t.val % 20 = 0) (h1 : t.val % 20 = 19) :
    (outsAt0 m c t.val t.isLt).2.1 = shift1 (iblk m c 0 t) (iblk m c 7 t) (outsAt0 m c (t.val - 1) (Nat.lt_of_le_of_lt (Nat.sub_le _ _) t.isLt)).2.2.2.2.1 (iblk m c 11 t) (outsAt0 m c (t.val - 1) (Nat.lt_of_le_of_lt (Nat.sub_le _ _) t.isLt)).2.1 := by
  rw [outsAt0_C m c t h0 h1]
  dsimp only
  exact sout0_C_0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2

/-- At a point of case C, carried row 1 after the body, over the blocks read there and the rows the point before left. -/
theorem at_C_s1 (c : Dev nD) (t : Fin cfg0.N) (h0 : ¬t.val % 20 = 0) (h1 : t.val % 20 = 19) :
    (outsAt0 m c t.val t.isLt).2.2.1 = norm1 (iblk m c 0 t) (iblk m c 7 t) (outsAt0 m c (t.val - 1) (Nat.lt_of_le_of_lt (Nat.sub_le _ _) t.isLt)).2.2.2.2.1 (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1 := by
  rw [outsAt0_C m c t h0 h1]
  dsimp only
  exact sout0_C_1_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2

/-- At a point of case C, carried row 2 after the body, over the blocks read there and the rows the point before left. -/
theorem at_C_s2 (c : Dev nD) (t : Fin cfg0.N) (h0 : ¬t.val % 20 = 0) (h1 : t.val % 20 = 19) :
    (outsAt0 m c t.val t.isLt).2.2.2.1 = wsum1 (iblk m c 0 t) (iblk m c 7 t) (outsAt0 m c (t.val - 1) (Nat.lt_of_le_of_lt (Nat.sub_le _ _) t.isLt)).2.2.2.2.1 (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.2.1 := by
  rw [outsAt0_C m c t h0 h1]
  dsimp only
  exact sout0_C_2_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2

/-- At a point of case C, carried row 3 after the body, over the blocks read there and the rows the point before left. -/
theorem at_C_s3 (c : Dev nD) (t : Fin cfg0.N) (h0 : ¬t.val % 20 = 0) (h1 : t.val % 20 = 19) :
    (outsAt0 m c t.val t.isLt).2.2.2.2.1 = (outsAt0 m c (t.val - 1) (Nat.lt_of_le_of_lt (Nat.sub_le _ _) t.isLt)).2.2.2.2.1 := by
  rw [outsAt0_C m c t h0 h1]
  dsimp only
  exact sout0_C_3_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2

/-- At a point of case C, carried row 4 after the body, over the blocks read there and the rows the point before left. -/
theorem at_C_s4 (c : Dev nD) (t : Fin cfg0.N) (h0 : ¬t.val % 20 = 0) (h1 : t.val % 20 = 19) :
    (outsAt0 m c t.val t.isLt).2.2.2.2.2.1 = shift2 (iblk m c 1 t) (iblk m c 17 t) (outsAt0 m c (t.val - 1) (Nat.lt_of_le_of_lt (Nat.sub_le _ _) t.isLt)).2.2.2.2.2.2.2.2 (iblk m c 21 t) (outsAt0 m c (t.val - 1) (Nat.lt_of_le_of_lt (Nat.sub_le _ _) t.isLt)).2.2.2.2.2.1 := by
  rw [outsAt0_C m c t h0 h1]
  dsimp only
  exact sout0_C_4_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2

/-- At a point of case C, carried row 5 after the body, over the blocks read there and the rows the point before left. -/
theorem at_C_s5 (c : Dev nD) (t : Fin cfg0.N) (h0 : ¬t.val % 20 = 0) (h1 : t.val % 20 = 19) :
    (outsAt0 m c t.val t.isLt).2.2.2.2.2.2.1 = norm2 (iblk m c 1 t) (iblk m c 17 t) (outsAt0 m c (t.val - 1) (Nat.lt_of_le_of_lt (Nat.sub_le _ _) t.isLt)).2.2.2.2.2.2.2.2 (iblk m c 21 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 := by
  rw [outsAt0_C m c t h0 h1]
  dsimp only
  exact sout0_C_5_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2

/-- At a point of case C, carried row 6 after the body, over the blocks read there and the rows the point before left. -/
theorem at_C_s6 (c : Dev nD) (t : Fin cfg0.N) (h0 : ¬t.val % 20 = 0) (h1 : t.val % 20 = 19) :
    (outsAt0 m c t.val t.isLt).2.2.2.2.2.2.2.1 = wsum2 (iblk m c 1 t) (iblk m c 17 t) (outsAt0 m c (t.val - 1) (Nat.lt_of_le_of_lt (Nat.sub_le _ _) t.isLt)).2.2.2.2.2.2.2.2 (iblk m c 21 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.2.1 := by
  rw [outsAt0_C m c t h0 h1]
  dsimp only
  exact sout0_C_6_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2

/-- At a point of case C, carried row 7 after the body, over the blocks read there and the rows the point before left. -/
theorem at_C_s7 (c : Dev nD) (t : Fin cfg0.N) (h0 : ¬t.val % 20 = 0) (h1 : t.val % 20 = 19) :
    (outsAt0 m c t.val t.isLt).2.2.2.2.2.2.2.2 = (outsAt0 m c (t.val - 1) (Nat.lt_of_le_of_lt (Nat.sub_le _ _) t.isLt)).2.2.2.2.2.2.2.2 := by
  rw [outsAt0_C m c t h0 h1]
  dsimp only
  exact sout0_C_7_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2

/-- At the last point the output block holds the output row of the rows just updated. -/
theorem at_C_out (c : Dev nD) (t : Fin cfg0.N) (h0 : ¬t.val % 20 = 0) (h1 : t.val % 20 = 19) :
    (outsAt0 m c t.val t.isLt).1 = outRow (wsum1 (iblk m c 0 t) (iblk m c 7 t) (outsAt0 m c (t.val - 1) (Nat.lt_of_le_of_lt (Nat.sub_le _ _) t.isLt)).2.2.2.2.1 (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.2.1) (norm1 (iblk m c 0 t) (iblk m c 7 t) (outsAt0 m c (t.val - 1) (Nat.lt_of_le_of_lt (Nat.sub_le _ _) t.isLt)).2.2.2.2.1 (iblk m c 11 t) (outsAt0 m c (t.val - 1) (Nat.lt_of_le_of_lt (Nat.sub_le _ _) t.isLt)).2.1 (outsAt0 m c (t.val - 1) (Nat.lt_of_le_of_lt (Nat.sub_le _ _) t.isLt)).2.2.1) (iblk m c 12 t) (wsum2 (iblk m c 1 t) (iblk m c 17 t) (outsAt0 m c (t.val - 1) (Nat.lt_of_le_of_lt (Nat.sub_le _ _) t.isLt)).2.2.2.2.2.2.2.2 (iblk m c 21 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.2.1) (norm2 (iblk m c 1 t) (iblk m c 17 t) (outsAt0 m c (t.val - 1) (Nat.lt_of_le_of_lt (Nat.sub_le _ _) t.isLt)).2.2.2.2.2.2.2.2 (iblk m c 21 t) (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1) (iblk m c 22 t) (iblk m c 2 t) (iblk m c 23 t) (iblk m c 24 t) (iblk m c 25 t) (iblk m c 26 t) := by
  rw [outsAt0_C m c t h0 h1]
  dsimp only
  exact out0_C_28_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) scM0_7 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2.1 (outsAt0 m c (t.val - 1) (Nat.lt_of_le_of_lt (Nat.sub_le _ _) t.isLt)).2.2.2.2.2.2.2.1 (outsAt0 m c (t.val - 1) (Nat.lt_of_le_of_lt (Nat.sub_le _ _) t.isLt)).2.2.2.2.2.2.2.2

end Cert.KernelIdeal.KPieces

end
-- ==== Proof.Math.lean ====
/-
  The real analysis behind the two arrangements of the star-graph attention update (Spec.lean):
  the shared words denote positive reals (the slope below one); the rectifier `max z (σ z)` is the piecewise one for
  `0 < σ < 1`; the block-diagonal product gives every lane its head's logit; the weighted mean `wavg` does not depend
  on the shift, since `exp (l − μ) = exp (l − μ') · exp (μ' − μ)` cancels between numerator and denominator; the
  running sums over the first `P` rows re-shift by one factor when a block of 5000 rows is added; and, the softmax
  weights summing to one, `∑ α (y + bl) = (∑ α y) + bl`, which moves `bl` out of the sum.
-/
import proofs.«165745_g33088428049086_cont_sun_c4_530_12_alg».proof.Proof.Spec

noncomputable section

namespace StarAttn

open Idealize.ShloMosaic

/-! ## The shared words -/

/-- The first word has exponent field 110 and fraction field 2606508: it denotes `(2²³ + 2606508) · 2⁻⁴⁰`. -/
private theorem ofBits_eps_val :
    Ideal.ofBits .f32 0x3727C5AC#32 = (((10995116 : ℝ) * (2 : ℝ) ^ (-40 : Int) : ℝ) : EReal) := by
  simp [Ideal.ofBits, Ideal.ieee, -EReal.coe_mul]

/-- The second word has exponent field 124 and fraction field 5033165: it denotes `(2²³ + 5033165) · 2⁻²⁶`. -/
private theorem ofBits_slope_val :
    Ideal.ofBits .f32 0x3E4CCCCD#32 = (((13421773 : ℝ) * (2 : ℝ) ^ (-26 : Int) : ℝ) : EReal) := by
  simp [Ideal.ofBits, Ideal.ieee, -EReal.coe_mul]

private theorem epsR_val : epsR = (10995116 : ℝ) * (2 : ℝ) ^ (-40 : Int) := by
  unfold epsR; rw [ofBits_eps_val, EReal.toReal_coe]

private theorem slopeR_val : slopeR = (13421773 : ℝ) * (2 : ℝ) ^ (-26 : Int) := by
  unfold slopeR; rw [ofBits_slope_val, EReal.toReal_coe]

theorem ofBits_eps : Ideal.ofBits .f32 0x3727C5AC#32 = ((epsR : ℝ) : EReal) := by
  rw [epsR_val]; exact ofBits_eps_val
theorem epsR_pos : 0 < epsR := by
  rw [epsR_val]; positivity
theorem ofBits_slope : Ideal.ofBits .f32 0x3E4CCCCD#32 = ((slopeR : ℝ) : EReal) := by
  rw [slopeR_val]; exact ofBits_slope_val
theorem slopeR_pos : 0 < slopeR := by
  rw [slopeR_val]; positivity
theorem slopeR_lt_one : slopeR < 1 := by
  rw [slopeR_val]; norm_num
theorem ofBits_256 : Ideal.ofBits .f32 0x43800000#32 = ((256 : ℝ) : EReal) := by
  simp [Ideal.ofBits, Ideal.ieee, -EReal.coe_mul]; norm_num
theorem ofBits_neg_inf : Ideal.ofBits .f32 0xFF800000#32 = (⊥ : EReal) := by
  simp [Ideal.ofBits, Ideal.ieee]

/-! ## Rectifier and logits -/

/-- For a slope `0 < σ < 1`: `σ z ≤ z` when `z ≥ 0` and `z ≤ σ z` when `z < 0`, so the maximum picks the branch. -/
theorem actS_eq_actD (z : ℝ) : actS z = actD z := by
  unfold actS actD
  have h1 := slopeR_lt_one
  have h0 := slopeR_pos
  split_ifs with h
  · exact max_eq_left (by nlinarith)
  · exact max_eq_right (by nlinarith)

private theorem headOf_lane (h : Fin 8) (c : Fin 16) : headOf (lane h c) = h := by
  apply Fin.ext; simp only [headOf, lane]; omega
private theorem chanOf_lane (h : Fin 8) (c : Fin 16) : chanOf (lane h c) = c := by
  apply Fin.ext; simp only [chanOf, lane]; omega
private theorem lane_headOf_chanOf (k : Fin 128) : lane (headOf k) (chanOf k) = k := by
  apply Fin.ext; simp only [headOf, chanOf, lane]; omega

/-- The 128 lanes are the pairs (head, channel), lane `16 h + c`. -/
private def laneEquiv : Fin 8 × Fin 16 ≃ Fin 128 where
  toFun x := lane x.1 x.2
  invFun k := (headOf k, chanOf k)
  left_inv := by
    rintro ⟨h, c⟩
    simp only [headOf_lane, chanOf_lane]
  right_inv := by
    intro k
    exact lane_headOf_chanOf k

/-- A sum over the lanes is a sum over heads of sums over channels. -/
private theorem sum_lanes (f : Fin 128 → ℝ) : ∑ j, f j = ∑ h : Fin 8, ∑ c : Fin 16, f (lane h c) :=
  calc ∑ j, f j = ∑ x : Fin 8 × Fin 16, f (lane x.1 x.2) :=
        (Fintype.sum_equiv laneEquiv (fun x => f (lane x.1 x.2)) f (fun _ => rfl)).symm
    _ = ∑ h : Fin 8, ∑ c : Fin 16, f (lane h c) := Fintype.sum_prod_type' (fun h c => f (lane h c))

/-- The block-diagonal matrix kills the lanes of the other heads; the 16 lanes of `k`'s own head stay, with weight
    `att` of that head, and the two offsets are the same sum of three terms, bracketed differently. -/
theorem logitS_eq_logitD (X : Fin 100000 → Fin 128 → ℝ) (Wl Wr : Fin 128 → Fin 128 → ℝ) (bl br p : Fin 128 → ℝ)
    (att : Fin 8 → Fin 16 → ℝ) (n : Fin 100000) (k : Fin 128) :
    logitS X Wl (offS bl br p Wr) att n k = logitD X Wl bl (fun k => tgt p Wr k + br k) att n (headOf k) := by
  unfold logitS logitD
  rw [sum_lanes, Fintype.sum_eq_single (headOf k)]
  · refine Finset.sum_congr rfl fun c _ => ?_
    have hk : (lane (headOf k) c).val / 16 = k.val / 16 := by
      simp only [headOf, lane]; omega
    simp only [blockAtt, headOf_lane, chanOf_lane, offS, actS_eq_actD]
    rw [if_pos hk, one_mul]
    congr 2
    ring
  · intro h' hne
    refine Finset.sum_eq_zero fun c _ => ?_
    have hk : ¬ (lane h' c).val / 16 = k.val / 16 := by
      intro hc
      apply hne
      apply Fin.ext
      simp only [headOf, lane] at hc ⊢
      omega
    simp only [blockAtt]
    rw [if_neg hk, zero_mul, mul_zero]

/-! ## The weighted mean and the running sums -/

/-- `exp (l − μ) = exp (μ' − μ) · exp (l − μ')`: the positive factor `exp (μ' − μ)` comes out of both sums and cancels. -/
theorem wavg_shift (μ μ' : ℝ) (l y : Fin 100000 → ℝ) : wavg μ l y = wavg μ' l y := by
  unfold wavg
  have h : ∀ n, Real.exp (l n - μ) = Real.exp (μ' - μ) * Real.exp (l n - μ') := by
    intro n; rw [← Real.exp_add, show μ' - μ + (l n - μ') = l n - μ by ring]
  have hN : ∑ n, Real.exp (l n - μ) * y n = Real.exp (μ' - μ) * ∑ n, Real.exp (l n - μ') * y n := by
    rw [Finset.mul_sum]; refine Finset.sum_congr rfl fun n _ => ?_; rw [h n, mul_assoc]
  have hD : ∑ n, Real.exp (l n - μ) = Real.exp (μ' - μ) * ∑ n, Real.exp (l n - μ') := by
    rw [Finset.mul_sum]; exact Finset.sum_congr rfl fun n _ => h n
  rw [hN, hD, mul_div_mul_left _ _ (Real.exp_pos _).ne']

/-- Normaliser and weighted sum over the first `P` rows, with shift `μ`. -/
def partS (P : ℕ) (μ : ℝ) (l : Fin 100000 → ℝ) : ℝ := ∑ n : Fin 100000, if n.val < P then Real.exp (l n - μ) else 0
def partW (P : ℕ) (μ : ℝ) (l y : Fin 100000 → ℝ) : ℝ := ∑ n : Fin 100000, if n.val < P then Real.exp (l n - μ) * y n else 0

theorem partS_zero (μ : ℝ) (l : Fin 100000 → ℝ) : partS 0 μ l = 0 := by
  unfold partS; exact Finset.sum_eq_zero fun n _ => if_neg (Nat.not_lt_zero _)
theorem partW_zero (μ : ℝ) (l y : Fin 100000 → ℝ) : partW 0 μ l y = 0 := by
  unfold partW; exact Finset.sum_eq_zero fun n _ => if_neg (Nat.not_lt_zero _)
theorem partS_full (μ : ℝ) (l : Fin 100000 → ℝ) : partS 100000 μ l = ∑ n, Real.exp (l n - μ) := by
  unfold partS; exact Finset.sum_congr rfl fun n _ => if_pos n.isLt
theorem partW_full (μ : ℝ) (l y : Fin 100000 → ℝ) : partW 100000 μ l y = ∑ n, Real.exp (l n - μ) * y n := by
  unfold partW; exact Finset.sum_congr rfl fun n _ => if_pos n.isLt
/-- Every term is an exponential or zero, and row 0 is counted as soon as `P > 0`. -/
theorem partS_pos (P : ℕ) (hP : 0 < P) (μ : ℝ) (l : Fin 100000 → ℝ) : 0 < partS P μ l := by
  unfold partS
  refine Finset.sum_pos' (fun n _ => ?_) ⟨⟨0, by norm_num⟩, Finset.mem_univ _, ?_⟩
  · split_ifs
    · exact (Real.exp_pos _).le
    · exact le_rfl
  · rw [if_pos hP]; exact Real.exp_pos _

/-- The rows `a ≤ n < a + 5000` are the rows `a + r`, `r < 5000`. -/
private theorem sum_block (a : ℕ) (ha : a + 5000 ≤ 100000) (f : Fin 100000 → ℝ) :
    (∑ n : Fin 100000, if a ≤ n.val ∧ n.val < a + 5000 then f n else 0)
      = ∑ r : Fin 5000, f ⟨a + r.val, by omega⟩ := by
  rw [← Finset.sum_filter]
  symm
  refine Finset.sum_bij' (fun r _ => (⟨a + r.val, by omega⟩ : Fin 100000))
    (fun n hn => (⟨n.val - a, by have := (Finset.mem_filter.1 hn).2; omega⟩ : Fin 5000))
    ?_ ?_ ?_ ?_ ?_
  · intro r _
    refine Finset.mem_filter.2 ⟨Finset.mem_univ _, ?_⟩
    have := r.isLt
    constructor <;> simp only <;> omega
  · intro n _; exact Finset.mem_univ _
  · intro r _; apply Fin.ext; simp only; omega
  · intro n hn; have := (Finset.mem_filter.1 hn).2; apply Fin.ext; simp only; omega
  · intro r _; rfl

/-- The rows below `a + 5000` are the rows below `a` and then the block of 5000 rows from `a`. -/
private theorem sum_lt_add_block (a : ℕ) (ha : a + 5000 ≤ 100000) (f : Fin 100000 → ℝ) :
    (∑ n : Fin 100000, if n.val < a + 5000 then f n else 0)
      = (∑ n : Fin 100000, if n.val < a then f n else 0) + ∑ r : Fin 5000, f ⟨a + r.val, by omega⟩ := by
  rw [← sum_block a ha f, ← Finset.sum_add_distrib]
  refine Finset.sum_congr rfl fun n _ => ?_
  by_cases h1 : n.val < a
  · rw [if_pos h1, if_pos (by omega), if_neg (by omega), add_zero]
  · by_cases h2 : n.val < a + 5000
    · rw [if_neg h1, if_pos h2, if_pos ⟨by omega, h2⟩, zero_add]
    · rw [if_neg h1, if_neg h2, if_neg (by omega), add_zero]

/-- Adding block `t` (rows `5000 t … 5000 t + 4999`) while moving the shift from `μ` to `μ'`. -/
theorem partS_step (t : ℕ) (ht : t < 20) (μ μ' : ℝ) (l : Fin 100000 → ℝ) :
    partS (5000 * (t + 1)) μ' l
      = partS (5000 * t) μ l * Real.exp (μ - μ') + ∑ r : Fin 5000, Real.exp (l ⟨5000 * t + r.val, by omega⟩ - μ') := by
  rw [show 5000 * (t + 1) = 5000 * t + 5000 by ring]
  have h5 : 5000 * t + 5000 ≤ 100000 := by omega
  have h := sum_lt_add_block (5000 * t) h5 (fun n => Real.exp (l n - μ'))
  have hA : (∑ n : Fin 100000, if n.val < 5000 * t then Real.exp (l n - μ') else 0)
      = (∑ n : Fin 100000, if n.val < 5000 * t then Real.exp (l n - μ) else 0) * Real.exp (μ - μ') := by
    rw [Finset.sum_mul]
    refine Finset.sum_congr rfl fun n _ => ?_
    split_ifs
    · rw [← Real.exp_add, show l n - μ + (μ - μ') = l n - μ' by ring]
    · rw [zero_mul]
  unfold partS
  rw [h, hA]
theorem partW_step (t : ℕ) (ht : t < 20) (μ μ' : ℝ) (l y : Fin 100000 → ℝ) :
    partW (5000 * (t + 1)) μ' l y
      = partW (5000 * t) μ l y * Real.exp (μ - μ')
        + ∑ r : Fin 5000, Real.exp (l ⟨5000 * t + r.val, by omega⟩ - μ') * y ⟨5000 * t + r.val, by omega⟩ := by
  rw [show 5000 * (t + 1) = 5000 * t + 5000 by ring]
  have h5 : 5000 * t + 5000 ≤ 100000 := by omega
  have h := sum_lt_add_block (5000 * t) h5 (fun n => Real.exp (l n - μ') * y n)
  have hA : (∑ n : Fin 100000, if n.val < 5000 * t then Real.exp (l n - μ') * y n else 0)
      = (∑ n : Fin 100000, if n.val < 5000 * t then Real.exp (l n - μ) * y n else 0) * Real.exp (μ - μ') := by
    rw [Finset.sum_mul]
    refine Finset.sum_congr rfl fun n _ => ?_
    split_ifs
    · rw [mul_right_comm, ← Real.exp_add, show l n - μ + (μ - μ') = l n - μ' by ring]
    · rw [zero_mul]
  unfold partW
  rw [h, hA]
/-- The first block, from nothing (no old shift needed). -/
theorem partS_first (μ' : ℝ) (l : Fin 100000 → ℝ) :
    partS 5000 μ' l = ∑ r : Fin 5000, Real.exp (l ⟨r.val, by omega⟩ - μ') := by
  have h := sum_lt_add_block 0 (by norm_num) (fun n => Real.exp (l n - μ'))
  simp only [Nat.zero_add, Nat.not_lt_zero, if_false, Finset.sum_const_zero, zero_add] at h
  unfold partS
  exact h
theorem partW_first (μ' : ℝ) (l y : Fin 100000 → ℝ) :
    partW 5000 μ' l y = ∑ r : Fin 5000, Real.exp (l ⟨r.val, by omega⟩ - μ') * y ⟨r.val, by omega⟩ := by
  have h := sum_lt_add_block 0 (by norm_num) (fun n => Real.exp (l n - μ') * y n)
  simp only [Nat.zero_add, Nat.not_lt_zero, if_false, Finset.sum_const_zero, zero_add] at h
  unfold partW
  exact h
theorem wavg_eq_part (μ : ℝ) (l y : Fin 100000 → ℝ) : wavg μ l y = partW 100000 μ l y / partS 100000 μ l := by
  rw [partW_full, partS_full]; rfl

/-! ## The two arrangements agree -/

/-- With `S = ∑ e > 0` the weights `e / S` sum to one, so `∑ (e/S)(y + b) = (∑ e y)/S + b`. -/
private theorem sum_div_mul_add (e y : Fin 100000 → ℝ) (b : ℝ) (hS : 0 < ∑ n, e n) :
    ∑ n, e n / (∑ n', e n') * (y n + b) = (∑ n, e n * y n) / (∑ n', e n') + b := by
  have h : ∀ n, e n / (∑ n', e n') * (y n + b) = e n * y n / (∑ n', e n') + e n / (∑ n', e n') * b := by
    intro n; ring
  rw [Finset.sum_congr rfl (fun n _ => h n), Finset.sum_add_distrib, ← Finset.sum_div, ← Finset.sum_mul,
    ← Finset.sum_div, div_self hS.ne', one_mul]

/-- The shift is free by `wavg_shift`, the logits agree lane by lane, and `bl` leaves the sum as above. -/
theorem aggS_eq_aggD (μ : Fin 128 → ℝ) (M : Fin 8 → ℝ) (X : Fin 100000 → Fin 128 → ℝ) (p : Fin 128 → ℝ)
    (Wl Wr : Fin 128 → Fin 128 → ℝ) (bl br : Fin 128 → ℝ) (att : Fin 8 → Fin 16 → ℝ) (bias : Fin 128 → ℝ) (k : Fin 128) :
    aggS μ X p Wl Wr bl br att bias k = aggD M X p Wl Wr bl br att bias k := by
  unfold aggS aggD
  rw [wavg_shift (μ k) (M (headOf k))]
  unfold wavg
  simp only [logitS_eq_logitD]
  have hS : 0 < ∑ n, Real.exp (logitD X Wl bl (fun k => tgt p Wr k + br k) att n (headOf k) - M (headOf k)) :=
    Finset.sum_pos (fun n _ => Real.exp_pos _) ⟨⟨0, by norm_num⟩, Finset.mem_univ _⟩
  have h := sum_div_mul_add
    (fun n => Real.exp (logitD X Wl bl (fun k => tgt p Wr k + br k) att n (headOf k) - M (headOf k)))
    (fun n => feat X Wl n k) (bl k) hS
  beta_reduce at h
  rw [h]; ring

theorem outS_eq_outD (A : Args) (μ₁ μ₂ : Fin 128 → ℝ) (M₁ M₂ : Fin 8 → ℝ) : A.outS μ₁ μ₂ = A.outD M₁ M₂ := by
  have h1 : aggS μ₁ A.X1 A.p1 A.Wl1 A.Wr1 A.bl1 A.br1 A.att1 A.bias1
      = aggD M₁ A.X1 A.p1 A.Wl1 A.Wr1 A.bl1 A.br1 A.att1 A.bias1 :=
    funext fun k => aggS_eq_aggD μ₁ M₁ _ _ _ _ _ _ _ _ k
  have h2 : aggS μ₂ A.X2 A.p2 A.Wl2 A.Wr2 A.bl2 A.br2 A.att2 A.bias2
      = aggD M₂ A.X2 A.p2 A.Wl2 A.Wr2 A.bl2 A.br2 A.att2 A.bias2 :=
    funext fun k => aggS_eq_aggD μ₂ M₂ _ _ _ _ _ _ _ _ k
  unfold Args.outS Args.outD
  rw [h1, h2]

end StarAttn

end
-- ==== Proof.KStream.lean ====
/-
  One step of the streamed softmax-weighted mean, read on the reals.

  A step takes a block of 5000 source rows `x`, the feature matrix `wl`, the offset row `xr`, the head-block-diagonal
  logit matrix `ae`, and the three running rows: the shift `m`, the normaliser `s = ∑ exp (l − m)` and the weighted sum
  `w = ∑ exp (l − m) · y`, both over the rows seen so far.  It forms the block's features `y = x · wl`, its logits
  `l = max (z, σ z) · ae` with `z = y + xr`, the new shift `m' = max (m, column maximum of l)`, the correction
  `exp (m − m')`, the block's weights `exp (l − m')`, and stores `m'`, `s · exp (m − m') + ∑ exp (l − m')` and
  `w · exp (m − m') + ∑ exp (l − m') · y`.

  When the arrays hold reals every intermediate is the coercion of a real: a product of matrices is a finite sum of
  products, the column maximum from `−∞` over a nonempty column is a real, the exponential of a real is a real.  The two
  stored sums are then the sums over the first `5000 (t + 1)` rows at the new shift, by the re-shifting identity
  `exp (l − m) · exp (m − m') = exp (l − m')` (Math.lean, `partS_step` / `partW_step`).  At the first block the running
  rows are `−∞`, `0`, `0`: `max (−∞, c) = c`, and `0` times anything is `0`, which leaves the block's own sums
  (`partS_first` / `partW_first`).  The second family's step is the same arithmetic written under other names.
-/
import proofs.«165745_g33088428049086_cont_sun_c4_530_12_alg».proof.Proof.Gen.KernelIdeal.Skeleton
import proofs.«165745_g33088428049086_cont_sun_c4_530_12_alg».proof.Proof.Math
import proofs.«165745_g33088428049086_cont_sun_c4_530_12_alg».proof.Proof.Repr
import Idealize.ShloMosaic.PureOps.Ideal.Laws
import Idealize.ShloMosaic.Lib.ValueIdx
import Idealize.ShloMosaic.Lib.ValueLayout
import Idealize.ShloMosaic.Lib.Pipeline.Value

noncomputable section

namespace StarAttn

open Idealize.ShloMosaic Idealize.ShloMosaic.ValueIdx Cert.KernelIdeal Cert.KernelIdeal.Gen

namespace KStream

/-- The one dot-dimension record of the body: rows times a square matrix, contracting the 128 lanes. -/
abbrev DD := dot_S5000x128_S128x128_S5000x128_1_0_0_1_n_n

theorem dd_lhs_0 (j : S5000x128.Idx) (k : DD.contr.Idx) : (DD.lhsIdx j k 0).val = (j 0).val := by
  unfold DotDims.lhsIdx
  rw [dif_neg (show ¬(0 : Fin S5000x128.rank) ∈ DD.lhsBatch by decide),
    dif_pos (show (0 : Fin S5000x128.rank) ∈ DD.lhsNonContracting by decide)]
  rfl

theorem dd_lhs_1 (j : S5000x128.Idx) (k : DD.contr.Idx) : (DD.lhsIdx j k 1).val = (k ⟨0, by decide⟩).val :=
  DD.lhsIdx_val_of_single (cl := 1) rfl j k

theorem dd_rhs_0 (j : S5000x128.Idx) (k : DD.contr.Idx) : (DD.rhsIdx j k 0).val = (k ⟨0, by decide⟩).val :=
  DD.rhsIdx_val_of_single (cr := 0) rfl j k

theorem dd_rhs_1 (j : S5000x128.Idx) (k : DD.contr.Idx) : (DD.rhsIdx j k 1).val = (j 1).val := by
  unfold DotDims.rhsIdx
  rw [dif_neg (show ¬(1 : Fin S128x128.rank) ∈ DD.rhsBatch by decide),
    dif_pos (show (1 : Fin S128x128.rank) ∈ DD.rhsNonContracting by decide)]
  rfl

/-- A block of rows times a square matrix, into the zero accumulator, read at row `r`, lane `k`: the sum over the
    contracted lane of the products. -/
theorem blockMul_apply (a : FVec Ideal S5000x128 .f32) (b : FVec Ideal S128x128 .f32) (r : Fin 5000) (k : Fin 128) :
    matmul DD none a b (constant (F := Ideal) S5000x128 .f32 0x00000000#32) (ix2 r k)
      = ∑ j : Fin 128, a (ix2 r j) * b (ix2 j k) := by
  refine (Ideal.matmul_constant_zero_apply DD none a b (ix2 r k)).trans ?_
  rw [← Equiv.sum_comp (contrEquiv1 DD 128 rfl rfl).symm]
  refine Finset.sum_congr rfl fun j _ => ?_
  have hj : (((contrEquiv1 DD 128 rfl rfl).symm j) ⟨0, by decide⟩ : ℕ) = j.val := contrEquiv1_symm_val DD 128 rfl rfl j
  have hl : DD.lhsIdx (ix2 r k) ((contrEquiv1 DD 128 rfl rfl).symm j) = ix2 r j := by
    funext ax
    match ax with
    | ⟨0, _⟩ => exact Fin.ext (dd_lhs_0 _ _)
    | ⟨1, _⟩ => exact Fin.ext ((dd_lhs_1 _ _).trans hj)
  have hr : DD.rhsIdx (ix2 r k) ((contrEquiv1 DD 128 rfl rfl).symm j) = ix2 j k := by
    funext ax
    match ax with
    | ⟨0, _⟩ => exact Fin.ext ((dd_rhs_0 _ _).trans hj)
    | ⟨1, _⟩ => exact Fin.ext (dd_rhs_1 _ _)
  rw [hl, hr]

/-- The coercion of a finite sum of reals is the sum of the coercions. -/
theorem coe_sum {ι : Type*} (s : Finset ι) (f : ι → ℝ) : ((∑ i ∈ s, f i : ℝ) : EReal) = ∑ i ∈ s, (f i : EReal) := by
  classical
  refine Finset.induction_on s (by simp) fun a s ha ih => ?_
  rw [Finset.sum_insert ha, Finset.sum_insert ha, EReal.coe_add, ih]

/-- A block product of arrays holding reals holds the real product. -/
theorem blockMul_holds (a : FVec Ideal S5000x128 .f32) (b : FVec Ideal S128x128 .f32)
    (A : Fin 5000 → Fin 128 → ℝ) (B : Fin 128 → Fin 128 → ℝ)
    (ha : ∀ r j, a (ix2 r j) = ((A r j : ℝ) : EReal)) (hb : Holds2 b B) (r : Fin 5000) (k : Fin 128) :
    matmul DD none a b (constant (F := Ideal) S5000x128 .f32 0x00000000#32) (ix2 r k)
      = ((∑ j : Fin 128, A r j * B j k : ℝ) : EReal) := by
  rw [blockMul_apply, coe_sum]
  exact Finset.sum_congr rfl fun j _ => by rw [ha r j, hb j k, EReal.coe_mul]

/-- The features of a block: row `r` of block `t` holds the features of row `5000 t + r`. -/
theorem pay24_holds (t : ℕ) (ht : t < 20) (X : Fin 100000 → Fin 128 → ℝ) (Wl : Fin 128 → Fin 128 → ℝ)
    (x : Vec Ideal S5000x128 .f32) (wl : Vec Ideal S128x128 .f32) (hx : HoldsBlock x X t ht) (hwl : Holds2 wl Wl)
    (r : Fin 5000) (k : Fin 128) :
    k0_pay24 x wl (ix2 r k) = ((feat X Wl (blockRow t ht r) k : ℝ) : EReal) := by
  unfold k0_pay24
  exact blockMul_holds x wl (fun r j => X (blockRow t ht r) j) Wl hx hwl r k

/-- The coercion of reals into the extended reals commutes with `max`. -/
theorem coe_max (a b : ℝ) : ((max a b : ℝ) : EReal) = max (a : EReal) (b : EReal) :=
  EReal.coe_strictMono.monotone.map_max

/-- The rectifier on a real held as an extended real: `max z (σ z)` with `σ` the slope word. -/
theorem act_coe (z : ℝ) :
    max ((z : ℝ) : EReal) (Ideal.ofBits .f32 0x3E4CCCCD#32 * ((z : ℝ) : EReal)) = ((actS z : ℝ) : EReal) := by
  rw [ofBits_slope, ← EReal.coe_mul, ← coe_max]
  rfl

/-- The logits of a block: row `r`, lane `k` holds the streamed logit of row `5000 t + r` at lane `k`. -/
theorem pay25_holds (t : ℕ) (ht : t < 20) (X : Fin 100000 → Fin 128 → ℝ) (Wl : Fin 128 → Fin 128 → ℝ)
    (off : Fin 128 → ℝ) (att : Fin 8 → Fin 16 → ℝ)
    (x : Vec Ideal S5000x128 .f32) (wl ae : Vec Ideal S128x128 .f32) (xr : Vec Ideal S1x128 .f32)
    (hx : HoldsBlock x X t ht) (hwl : Holds2 wl Wl) (hxr : HoldsRow xr off) (hae : Holds2 ae (blockAtt att))
    (r : Fin 5000) (k : Fin 128) :
    k0_pay25 x wl xr ae (ix2 r k) = ((logitS X Wl off att (blockRow t ht r) k : ℝ) : EReal) := by
  unfold k0_pay25
  rw [shapeCast_self]
  refine blockMul_holds _ ae (fun r j => actS (feat X Wl (blockRow t ht r) j + off j)) (blockAtt att) (fun r j => ?_) hae r k
  rw [maximumf_apply, mulf_apply, broadcast_apply, addf_apply, broadcastTo_1b_ab_apply, pay24_holds t ht X Wl x wl hx hwl,
    hxr j, ← EReal.coe_add]
  exact act_coe _

/-- Over lane `k`, the source index whose row is `r`. -/
theorem lift_ix (h : S5000x128.Reduces [0] S128) (r : Fin 5000) (k : Fin 128) : h.lift (ix1 k) r = ix2 r k := by
  funext c
  match c with
  | ⟨0, _⟩ => rfl
  | ⟨1, _⟩ => rfl

/-- A column sum, stored as a row: at lane `k` the sum over the 5000 rows. -/
theorem colSum_apply (src : FVec Ideal S5000x128 .f32) (h : S5000x128.Reduces [0] S128) (hc : S128.ShapeCasts S1x128)
    (hφ : FKind.Formats .f32) (hacc : (0x00000000#32 : BitVec FTy.f32.bits) = FKind.add.neutral .f32 hφ) (k : Fin 128) :
    shapeCast S1x128 (multiReduction .add [0] S128 src 0x00000000#32 h hφ hacc) hc (ix2 (0 : Fin 1) k)
      = ∑ r : Fin 5000, src (ix2 r k) := by
  rw [shapeCast_a_1a_apply]
  refine (Ideal.multiReduction_add_single src _ h hφ hacc (ix1 k)).trans ?_
  exact Finset.sum_congr rfl fun r _ => congrArg src (lift_ix h r k)

/-- Folding `max` from `−∞` over reals: `−∞` on the empty set, a real otherwise. -/
theorem fold_max_coe {ι : Type*} (s : Finset ι) (l : ι → ℝ) :
    (s = ∅ ∧ s.fold max (⊥ : EReal) (fun i => ((l i : ℝ) : EReal)) = ⊥)
      ∨ ∃ c : ℝ, s.fold max (⊥ : EReal) (fun i => ((l i : ℝ) : EReal)) = ((c : ℝ) : EReal) := by
  classical
  refine Finset.induction_on s (Or.inl ⟨rfl, Finset.fold_empty⟩) fun a s ha ih => Or.inr ?_
  rw [Finset.fold_insert ha]
  rcases ih with ⟨_, h0⟩ | ⟨c, hc⟩
  · exact ⟨l a, by rw [h0]; exact max_eq_left bot_le⟩
  · exact ⟨max (l a) c, by rw [hc, coe_max]⟩

/-- A column maximum (from `−∞`), stored as a row: at lane `k`, when the block holds reals, a real. -/
theorem colMax_apply (src : FVec Ideal S5000x128 .f32) (l : Fin 5000 → Fin 128 → ℝ)
    (hsrc : ∀ r k, src (ix2 r k) = ((l r k : ℝ) : EReal))
    (h : S5000x128.Reduces [0] S128) (hc : S128.ShapeCasts S1x128)
    (hφ : FKind.Formats .f32) (hacc : (0xFF800000#32 : BitVec FTy.f32.bits) = FKind.maximumf.neutral .f32 hφ) (k : Fin 128) :
    ∃ c : ℝ, shapeCast S1x128 (multiReduction .maximumf [0] S128 src 0xFF800000#32 h hφ hacc) hc (ix2 (0 : Fin 1) k)
      = ((c : ℝ) : EReal) := by
  have hf : (src ∘ h.lift (ix1 k)) = fun r : Fin (S5000x128.size 0) => ((l r k : ℝ) : EReal) :=
    funext fun r => (congrArg src (lift_ix h r k)).trans (hsrc r k)
  have hb : (FloatOps.ofBits (F := Ideal) .f32 0xFF800000#32) = (⊥ : EReal) := ofBits_neg_inf
  rcases fold_max_coe (Finset.univ : Finset (Fin (S5000x128.size 0))) (fun r => l r k) with ⟨h0, _⟩ | ⟨c, hc'⟩
  · exact absurd h0 (Finset.ne_empty_of_mem (Finset.mem_univ (⟨0, by decide⟩ : Fin (S5000x128.size 0))))
  · refine ⟨c, ?_⟩
    rw [shapeCast_a_1a_apply]
    refine (Ideal.multiReduction_maximumf_single src _ h hφ hacc (ix1 k)).trans ?_
    rw [hf, hb]
    exact hc'

/-- The exponential of a vector, read at an index. -/
theorem exp_apply {s : Shape} {φ : FTy} (a : FVec Ideal s φ) (i : s.Idx) : Idealize.ShloMosaic.exp a i = Ideal.exp (a i) := rfl

section Stream
variable (t : ℕ) (ht : t < 20) (X : Fin 100000 → Fin 128 → ℝ) (Wl : Fin 128 → Fin 128 → ℝ)
  (off : Fin 128 → ℝ) (att : Fin 8 → Fin 16 → ℝ)
  (x : Vec Ideal S5000x128 .f32) (wl ae : Vec Ideal S128x128 .f32) (xr mold sold wold : Vec Ideal S1x128 .f32)
  (hx : HoldsBlock x X t ht) (hwl : Holds2 wl Wl) (hxr : HoldsRow xr off) (hae : Holds2 ae (blockAtt att))

include hx hwl hxr hae

/-- The new shift at lane `k` is the larger of the old one and a real: the maximum of the block's 5000 logits there. -/
theorem pay26_apply : ∃ cm : Fin 128 → ℝ, ∀ (mold : Vec Ideal S1x128 .f32) (k : Fin 128),
    k0_pay26 x wl xr ae mold (ix2 (0 : Fin 1) k) = max (mold (ix2 (0 : Fin 1) k)) ((cm k : ℝ) : EReal) := by
  have hcol := fun k => colMax_apply (k0_pay25 x wl xr ae) (fun r k => logitS X Wl off att (blockRow t ht r) k)
    (pay25_holds t ht X Wl off att x wl ae xr hx hwl hxr hae) reduces_S5000x128_S128 shapeCasts_S128_S1x128 (.inl rfl) rfl k
  choose cm hcm using hcol
  refine ⟨cm, fun mold k => ?_⟩
  unfold k0_pay26
  rw [maximumf_apply]
  exact congrArg (max (mold (ix2 (0 : Fin 1) k))) (hcm k)

variable (ν : Fin 128 → ℝ) (hν : ∀ k : Fin 128, k0_pay26 x wl xr ae mold (ix2 (0 : Fin 1) k) = ((ν k : ℝ) : EReal))
include hν

/-- With the new shift `ν` a real, the block's weights are the real exponentials `exp (l − ν)`. -/
theorem pay28_holds (r : Fin 5000) (k : Fin 128) :
    k0_pay28 x wl xr ae mold (ix2 r k)
      = ((Real.exp (logitS X Wl off att (blockRow t ht r) k - ν k) : ℝ) : EReal) := by
  unfold k0_pay28
  rw [exp_apply, subf_apply, broadcastTo_1b_ab_apply, pay25_holds t ht X Wl off att x wl ae xr hx hwl hxr hae, hν k,
    ← EReal.coe_sub, Ideal.exp_coe]

/-- The correction factor at lane `k`: the exponential of the old shift minus the new. -/
theorem pay27_apply (k : Fin 128) :
    k0_pay27 x wl xr ae mold (ix2 (0 : Fin 1) k) = Ideal.exp (mold (ix2 (0 : Fin 1) k) - ((ν k : ℝ) : EReal)) := by
  unfold k0_pay27
  rw [exp_apply, subf_apply, hν k]

/-- The updated normaliser at lane `k`: the old one times the correction, plus the block's weights summed. -/
theorem pay29_apply (k : Fin 128) :
    k0_pay29 x wl xr ae mold sold (ix2 (0 : Fin 1) k)
      = sold (ix2 (0 : Fin 1) k) * Ideal.exp (mold (ix2 (0 : Fin 1) k) - ((ν k : ℝ) : EReal))
        + ((∑ r : Fin 5000, Real.exp (logitS X Wl off att (blockRow t ht r) k - ν k) : ℝ) : EReal) := by
  unfold k0_pay29
  rw [shapeCast_self, addf_apply, mulf_apply, pay27_apply t ht X Wl off att x wl ae xr mold hx hwl hxr hae ν hν k]
  refine congrArg (_ + ·) ((colSum_apply _ _ _ _ _ k).trans ?_)
  rw [coe_sum]
  exact Finset.sum_congr rfl fun r _ => pay28_holds t ht X Wl off att x wl ae xr mold hx hwl hxr hae ν hν r k

/-- The updated weighted sum at lane `k`: the old one times the correction, plus the block's weighted features summed. -/
theorem pay31_apply (k : Fin 128) :
    k0_pay31 (k0_pay24 x wl) (k0_pay28 x wl xr ae mold) (k0_pay30 x wl xr ae mold wold) (ix2 (0 : Fin 1) k)
      = wold (ix2 (0 : Fin 1) k) * Ideal.exp (mold (ix2 (0 : Fin 1) k) - ((ν k : ℝ) : EReal))
        + ((∑ r : Fin 5000, Real.exp (logitS X Wl off att (blockRow t ht r) k - ν k) * feat X Wl (blockRow t ht r) k : ℝ) : EReal) := by
  unfold k0_pay31 k0_pay30
  rw [shapeCast_self, addf_apply, mulf_apply, pay27_apply t ht X Wl off att x wl ae xr mold hx hwl hxr hae ν hν k]
  refine congrArg (_ + ·) ((colSum_apply _ _ _ _ _ k).trans ?_)
  rw [coe_sum]
  refine Finset.sum_congr rfl fun r _ => ?_
  rw [mulf_apply, pay28_holds t ht X Wl off att x wl ae xr mold hx hwl hxr hae ν hν r k, pay24_holds t ht X Wl x wl hx hwl r k,
    EReal.coe_mul]

end Stream

/-- Row `r` of block `0` is row `r`. -/
theorem blockRow_zero (h : 0 < 20) (r : Fin 5000) : blockRow 0 h r = ⟨r.val, by omega⟩ :=
  Fin.ext (by show 5000 * 0 + r.val = r.val; omega)

end KStream

open KStream

/-! ## The stream step, family 1 -/

/-- One stream step of family 1 at block `t`: if the three running rows hold the shift `μ`, the normaliser and the weighted
    sum over the first `5000 t` rows, the three stored rows hold a new shift `μ'` and the two sums over the first
    `5000 (t + 1)` rows at that shift. -/
theorem stream1_step (t : ℕ) (ht : t < 20) (X : Fin 100000 → Fin 128 → ℝ) (Wl : Fin 128 → Fin 128 → ℝ)
    (off : Fin 128 → ℝ) (att : Fin 8 → Fin 16 → ℝ) (μ : Fin 128 → ℝ)
    (x : Vec Ideal S5000x128 .f32) (wl ae : Vec Ideal S128x128 .f32) (xr mold sold wold : Vec Ideal S1x128 .f32)
    (hx : HoldsBlock x X t ht) (hwl : Holds2 wl Wl) (hxr : HoldsRow xr off) (hae : Holds2 ae (blockAtt att))
    (hm : HoldsRow mold μ)
    (hs : HoldsRow sold (fun k => partS (5000 * t) (μ k) (fun n => logitS X Wl off att n k)))
    (hw : HoldsRow wold (fun k => partW (5000 * t) (μ k) (fun n => logitS X Wl off att n k) (fun n => feat X Wl n k))) :
    ∃ μ' : Fin 128 → ℝ,
      HoldsRow (k0_pay32 (k0_pay26 x wl xr ae mold)) μ'
      ∧ HoldsRow (k0_pay29 x wl xr ae mold sold) (fun k => partS (5000 * (t + 1)) (μ' k) (fun n => logitS X Wl off att n k))
      ∧ HoldsRow (k0_pay31 (k0_pay24 x wl) (k0_pay28 x wl xr ae mold) (k0_pay30 x wl xr ae mold wold))
          (fun k => partW (5000 * (t + 1)) (μ' k) (fun n => logitS X Wl off att n k) (fun n => feat X Wl n k)) := by
  obtain ⟨cm, hcm⟩ := pay26_apply t ht X Wl off att x wl ae xr hx hwl hxr hae
  obtain ⟨ν, hνd⟩ : ∃ ν : Fin 128 → ℝ, ∀ k, ν k = max (μ k) (cm k) := ⟨_, fun _ => rfl⟩
  have hν : ∀ k : Fin 128, k0_pay26 x wl xr ae mold (ix2 (0 : Fin 1) k) = ((ν k : ℝ) : EReal) := fun k => by
    rw [hcm mold k, hm k, hνd k, coe_max]
  refine ⟨ν, fun k => ?_, fun k => ?_, fun k => ?_⟩
  · unfold k0_pay32
    rw [shapeCast_self]
    exact hν k
  · have hs' : sold (ix2 (0 : Fin 1) k) = ((partS (5000 * t) (μ k) (fun n => logitS X Wl off att n k) : ℝ) : EReal) := hs k
    rw [pay29_apply t ht X Wl off att x wl ae xr mold sold hx hwl hxr hae ν hν k, hs', hm k, ← EReal.coe_sub, Ideal.exp_coe,
      ← EReal.coe_mul, ← EReal.coe_add]
    exact congrArg _ (partS_step t ht (μ k) (ν k) (fun n => logitS X Wl off att n k)).symm
  · have hw' : wold (ix2 (0 : Fin 1) k)
        = ((partW (5000 * t) (μ k) (fun n => logitS X Wl off att n k) (fun n => feat X Wl n k) : ℝ) : EReal) := hw k
    rw [pay31_apply t ht X Wl off att x wl ae xr mold wold hx hwl hxr hae ν hν k, hw', hm k, ← EReal.coe_sub, Ideal.exp_coe,
      ← EReal.coe_mul, ← EReal.coe_add]
    exact congrArg _ (partW_step t ht (μ k) (ν k) (fun n => logitS X Wl off att n k) (fun n => feat X Wl n k)).symm

/-- The first stream step of family 1: the running rows have just been set to `−∞`, `0`, `0`. -/
theorem stream1_first (X : Fin 100000 → Fin 128 → ℝ) (Wl : Fin 128 → Fin 128 → ℝ)
    (off : Fin 128 → ℝ) (att : Fin 8 → Fin 16 → ℝ)
    (x : Vec Ideal S5000x128 .f32) (wl ae : Vec Ideal S128x128 .f32) (xr mold sold wold : Vec Ideal S1x128 .f32)
    (hx : HoldsBlock x X 0 (by norm_num)) (hwl : Holds2 wl Wl) (hxr : HoldsRow xr off) (hae : Holds2 ae (blockAtt att))
    (hm : ∀ k : Fin 128, mold (ix2 (0 : Fin 1) k) = ⊥)
    (hs : ∀ k : Fin 128, sold (ix2 (0 : Fin 1) k) = 0)
    (hw : ∀ k : Fin 128, wold (ix2 (0 : Fin 1) k) = 0) :
    ∃ μ' : Fin 128 → ℝ,
      HoldsRow (k0_pay32 (k0_pay26 x wl xr ae mold)) μ'
      ∧ HoldsRow (k0_pay29 x wl xr ae mold sold) (fun k => partS (5000 * (0 + 1)) (μ' k) (fun n => logitS X Wl off att n k))
      ∧ HoldsRow (k0_pay31 (k0_pay24 x wl) (k0_pay28 x wl xr ae mold) (k0_pay30 x wl xr ae mold wold))
          (fun k => partW (5000 * (0 + 1)) (μ' k) (fun n => logitS X Wl off att n k) (fun n => feat X Wl n k)) := by
  obtain ⟨cm, hcm⟩ := pay26_apply 0 (by norm_num) X Wl off att x wl ae xr hx hwl hxr hae
  have hν : ∀ k : Fin 128, k0_pay26 x wl xr ae mold (ix2 (0 : Fin 1) k) = ((cm k : ℝ) : EReal) := fun k => by
    rw [hcm mold k, hm k]
    exact max_eq_right bot_le
  refine ⟨cm, fun k => ?_, fun k => ?_, fun k => ?_⟩
  · unfold k0_pay32
    rw [shapeCast_self]
    exact hν k
  · rw [pay29_apply 0 (by norm_num) X Wl off att x wl ae xr mold sold hx hwl hxr hae cm hν k, hs k, zero_mul, zero_add]
    refine congrArg _ ?_
    show _ = partS 5000 (cm k) (fun n => logitS X Wl off att n k)
    rw [partS_first]
    exact Finset.sum_congr rfl fun r _ => by rw [blockRow_zero]
  · rw [pay31_apply 0 (by norm_num) X Wl off att x wl ae xr mold wold hx hwl hxr hae cm hν k, hw k, zero_mul, zero_add]
    refine congrArg _ ?_
    show _ = partW 5000 (cm k) (fun n => logitS X Wl off att n k) (fun n => feat X Wl n k)
    rw [partW_first]
    exact Finset.sum_congr rfl fun r _ => by rw [blockRow_zero]

/-! ## The stream step, family 2: the same arithmetic under other names -/

theorem shift2_eq (x : Vec Ideal S5000x128 .f32) (wl ae : Vec Ideal S128x128 .f32) (xr mold : Vec Ideal S1x128 .f32) :
    k0_pay3 (k0_pay35 x wl xr ae mold) = k0_pay32 (k0_pay26 x wl xr ae mold) := rfl
theorem norm2_eq (x : Vec Ideal S5000x128 .f32) (wl ae : Vec Ideal S128x128 .f32) (xr mold sold : Vec Ideal S1x128 .f32) :
    k0_pay1 (k0_pay38 x wl xr ae mold sold) = k0_pay29 x wl xr ae mold sold := rfl
theorem wsum2_eq (x : Vec Ideal S5000x128 .f32) (wl ae : Vec Ideal S128x128 .f32) (xr mold wold : Vec Ideal S1x128 .f32) :
    k0_pay2 (k0_pay33 x wl) (k0_pay36 x wl xr ae mold) (k0_pay37 x wl xr ae mold) wold
      = k0_pay31 (k0_pay24 x wl) (k0_pay28 x wl xr ae mold) (k0_pay30 x wl xr ae mold wold) := rfl

theorem stream2_step (t : ℕ) (ht : t < 20) (X : Fin 100000 → Fin 128 → ℝ) (Wl : Fin 128 → Fin 128 → ℝ)
    (off : Fin 128 → ℝ) (att : Fin 8 → Fin 16 → ℝ) (μ : Fin 128 → ℝ)
    (x : Vec Ideal S5000x128 .f32) (wl ae : Vec Ideal S128x128 .f32) (xr mold sold wold : Vec Ideal S1x128 .f32)
    (hx : HoldsBlock x X t ht) (hwl : Holds2 wl Wl) (hxr : HoldsRow xr off) (hae : Holds2 ae (blockAtt att))
    (hm : HoldsRow mold μ)
    (hs : HoldsRow sold (fun k => partS (5000 * t) (μ k) (fun n => logitS X Wl off att n k)))
    (hw : HoldsRow wold (fun k => partW (5000 * t) (μ k) (fun n => logitS X Wl off att n k) (fun n => feat X Wl n k))) :
    ∃ μ' : Fin 128 → ℝ,
      HoldsRow (k0_pay3 (k0_pay35 x wl xr ae mold)) μ'
      ∧ HoldsRow (k0_pay1 (k0_pay38 x wl xr ae mold sold)) (fun k => partS (5000 * (t + 1)) (μ' k) (fun n => logitS X Wl off att n k))
      ∧ HoldsRow (k0_pay2 (k0_pay33 x wl) (k0_pay36 x wl xr ae mold) (k0_pay37 x wl xr ae mold) wold)
          (fun k => partW (5000 * (t + 1)) (μ' k) (fun n => logitS X Wl off att n k) (fun n => feat X Wl n k)) := by
  rw [shift2_eq, norm2_eq, wsum2_eq]
  exact stream1_step t ht X Wl off att μ x wl ae xr mold sold wold hx hwl hxr hae hm hs hw

theorem stream2_first (X : Fin 100000 → Fin 128 → ℝ) (Wl : Fin 128 → Fin 128 → ℝ)
    (off : Fin 128 → ℝ) (att : Fin 8 → Fin 16 → ℝ)
    (x : Vec Ideal S5000x128 .f32) (wl ae : Vec Ideal S128x128 .f32) (xr mold sold wold : Vec Ideal S1x128 .f32)
    (hx : HoldsBlock x X 0 (by norm_num)) (hwl : Holds2 wl Wl) (hxr : HoldsRow xr off) (hae : Holds2 ae (blockAtt att))
    (hm : ∀ k : Fin 128, mold (ix2 (0 : Fin 1) k) = ⊥)
    (hs : ∀ k : Fin 128, sold (ix2 (0 : Fin 1) k) = 0)
    (hw : ∀ k : Fin 128, wold (ix2 (0 : Fin 1) k) = 0) :
    ∃ μ' : Fin 128 → ℝ,
      HoldsRow (k0_pay3 (k0_pay35 x wl xr ae mold)) μ'
      ∧ HoldsRow (k0_pay1 (k0_pay38 x wl xr ae mold sold)) (fun k => partS (5000 * (0 + 1)) (μ' k) (fun n => logitS X Wl off att n k))
      ∧ HoldsRow (k0_pay2 (k0_pay33 x wl) (k0_pay36 x wl xr ae mold) (k0_pay37 x wl xr ae mold) wold)
          (fun k => partW (5000 * (0 + 1)) (μ' k) (fun n => logitS X Wl off att n k) (fun n => feat X Wl n k)) := by
  rw [shift2_eq, norm2_eq, wsum2_eq]
  exact stream1_first X Wl off att x wl ae xr mold sold wold hx hwl hxr hae hm hs hw

end StarAttn

end
-- ==== Proof.KEnds.lean ====
/-
  The arithmetic of the kernel body at the first and at the last grid point, as statements about real numbers.

  At the first point the body computes, for each family, the target vector `p = relu (LN g) · W + c` and stores the
  offset row `(bl + p · Wr) + br`; it also stores `−∞` into the two running shifts and `0` into the four running sums.
  At the last point it divides each family's weighted sum by its normaliser, adds `bl + bias`, joins the two halves
  to `g` and applies the closing residual block.  Every array involved is a single row, so an entry is a real number
  as soon as the rows it is computed from hold real numbers: the variance is a mean of squares, hence `var + ε > 0`
  and the reciprocal square root is the real one; the normaliser is a sum of exponentials over all rows, hence
  positive, and the quotient is the real quotient.
-/
import proofs.«165745_g33088428049086_cont_sun_c4_530_12_alg».proof.Proof.Gen.KernelIdeal.Skeleton
import proofs.«165745_g33088428049086_cont_sun_c4_530_12_alg».proof.Proof.Math
import proofs.«165745_g33088428049086_cont_sun_c4_530_12_alg».proof.Proof.Repr
import Idealize.ShloMosaic.Lib.ValueIdx
import Idealize.ShloMosaic.Lib.ValueLayout
import Idealize.ShloMosaic.Lib.Pipeline.Value
import Idealize.ShloMosaic.PureOps.Ideal.Laws

noncomputable section

namespace StarAttn.KEnds

open Idealize.ShloMosaic Idealize.ShloMosaic.ValueIdx Cert.KernelIdeal Cert.KernelIdeal.Gen

/-! ## Rows and single entries holding reals -/

/-- A finite sum of coercions is the coercion of the sum. -/
theorem coe_sum {ι : Type*} (s : Finset ι) (f : ι → ℝ) :
    (∑ i ∈ s, ((f i : ℝ) : EReal)) = ((∑ i ∈ s, f i : ℝ) : EReal) := by
  classical
  refine Finset.induction_on s (by simp) fun a s ha ih => ?_
  rw [Finset.sum_insert ha, Finset.sum_insert ha, ih, EReal.coe_add]

/-- The coercion commutes with the maximum (it is monotone). -/
theorem coe_max (a b : ℝ) : max ((a : ℝ) : EReal) ((b : ℝ) : EReal) = ((max a b : ℝ) : EReal) :=
  (EReal.coe_strictMono.monotone.map_max).symm

/-- The one entry of a `[1, 1]` array is the real `r`. -/
def Holds11 (v : FVec Ideal (⟨2, ![1, 1]⟩ : Shape) .f32) (r : ℝ) : Prop :=
  v (ix2 (0 : Fin 1) (0 : Fin 1)) = ((r : ℝ) : EReal)

theorem row_congr {b : ℕ} {v : FVec Ideal (⟨2, ![1, b]⟩ : Shape) .f32} {f f' : Fin b → ℝ}
    (h : HoldsRow v f) (e : ∀ j, f j = f' j) : HoldsRow v f' := fun j => by rw [h j, e j]

/-- A cast of a row to its own shape holds what the row holds. -/
theorem row_cast {b : ℕ} {v : FVec Ideal (⟨2, ![1, b]⟩ : Shape) .f32} {f : Fin b → ℝ}
    (h : HoldsRow v f) (hc : (⟨2, ![1, b]⟩ : Shape).ShapeCasts ⟨2, ![1, b]⟩) :
    HoldsRow (shapeCast (⟨2, ![1, b]⟩ : Shape) v hc) f := by
  rw [shapeCast_self]; exact h

theorem row_add {b : ℕ} {u v : FVec Ideal (⟨2, ![1, b]⟩ : Shape) .f32} {f g : Fin b → ℝ}
    (hu : HoldsRow u f) (hv : HoldsRow v g) : HoldsRow (addf u v) (fun j => f j + g j) := fun j => by
  rw [addf_apply, hu j, hv j, EReal.coe_add]

theorem row_mul {b : ℕ} {u v : FVec Ideal (⟨2, ![1, b]⟩ : Shape) .f32} {f g : Fin b → ℝ}
    (hu : HoldsRow u f) (hv : HoldsRow v g) : HoldsRow (mulf u v) (fun j => f j * g j) := fun j => by
  rw [mulf_apply, hu j, hv j, EReal.coe_mul]

/-- The rectifier: the maximum with the zero word. -/
theorem row_relu {b : ℕ} {u : FVec Ideal (⟨2, ![1, b]⟩ : Shape) .f32} {f : Fin b → ℝ}
    (hu : HoldsRow u f) :
    HoldsRow (maximumf u (broadcast (⟨2, ![1, b]⟩ : Shape) (Scalar.ofBits (F := Ideal) .f32 0x00000000#32)))
      (fun j => max (f j) 0) := fun j => by
  rw [maximumf_apply, hu j, broadcast_apply]
  show max _ (Ideal.ofBits .f32 0x00000000#32) = _
  rw [Ideal.ofBits_zero_f32, ← EReal.coe_zero, coe_max]

/-- A quotient of two rows whose divisor is nowhere zero. -/
theorem row_div {b : ℕ} {u v : FVec Ideal (⟨2, ![1, b]⟩ : Shape) .f32} {f g : Fin b → ℝ}
    (hu : HoldsRow u f) (hv : HoldsRow v g) (hg : ∀ j, g j ≠ 0) : HoldsRow (divf u v) (fun j => f j / g j) := fun j => by
  rw [divf_apply, hu j, hv j, Ideal.div_coe (hg j), ← EReal.coe_mul, mul_one_div]

/-- A `[1, 1]` entry broadcast along a row. -/
theorem bcast11_apply {b : ℕ} (m : FVec Ideal (⟨2, ![1, 1]⟩ : Shape) .f32)
    (h : (⟨2, ![1, 1]⟩ : Shape).Broadcasts ⟨2, ![1, b]⟩) (j : Fin b) :
    broadcastTo (⟨2, ![1, b]⟩ : Shape) m h (ix2 (0 : Fin 1) j) = m (ix2 (0 : Fin 1) (0 : Fin 1)) := by
  refine broadcastTo_apply m h (ix2 (0 : Fin 1) j) (ix2 (0 : Fin 1) (0 : Fin 1)) fun ax => ?_
  match ax with
  | ⟨0, _⟩ => rfl
  | ⟨1, _⟩ => rfl

theorem row_sub_bcast {b : ℕ} {u : FVec Ideal (⟨2, ![1, b]⟩ : Shape) .f32} {m : FVec Ideal (⟨2, ![1, 1]⟩ : Shape) .f32}
    {f : Fin b → ℝ} {r : ℝ} (hu : HoldsRow u f) (hm : Holds11 m r)
    (h : (⟨2, ![1, 1]⟩ : Shape).Broadcasts ⟨2, ![1, b]⟩) :
    HoldsRow (subf u (broadcastTo (⟨2, ![1, b]⟩ : Shape) m h)) (fun j => f j - r) := fun j => by
  rw [subf_apply, hu j, bcast11_apply, hm, EReal.coe_sub]

theorem row_mul_bcast {b : ℕ} {u : FVec Ideal (⟨2, ![1, b]⟩ : Shape) .f32} {m : FVec Ideal (⟨2, ![1, 1]⟩ : Shape) .f32}
    {f : Fin b → ℝ} {r : ℝ} (hu : HoldsRow u f) (hm : Holds11 m r)
    (h : (⟨2, ![1, 1]⟩ : Shape).Broadcasts ⟨2, ![1, b]⟩) :
    HoldsRow (mulf u (broadcastTo (⟨2, ![1, b]⟩ : Shape) m h)) (fun j => f j * r) := fun j => by
  rw [mulf_apply, hu j, bcast11_apply, hm, EReal.coe_mul]

/-- The lane sum of a `[1, 256]` row, kept as a `[1, 1]` array. -/
theorem one_rowSum {u : FVec Ideal S1x256 .f32} {f : Fin 256 → ℝ} (hu : HoldsRow u f)
    (h : S1x256.Reduces [1] S1) (hacc : (0x00000000#32 : BitVec 32) = 0x00000000#32) (hc : S1.ShapeCasts S1x1) :
    Holds11 (shapeCast S1x1 (multiReduction .add [1] S1 u 0x00000000#32 h (.inl rfl) hacc) hc) (∑ i, f i) := by
  unfold Holds11
  rw [shapeCast_a_1a_apply]
  refine (Ideal.multiReduction_add_single u 0x00000000#32 h (.inl rfl) hacc (ix1 (0 : Fin 1))).trans ?_
  rw [← coe_sum]
  refine Finset.sum_congr rfl fun k _ => Eq.trans (congrArg u ?_) (hu k)
  funext c
  apply Fin.ext
  rw [Shape.Reduces.lift_val]
  match c with
  | ⟨0, _⟩ => rfl
  | ⟨1, _⟩ => rfl

/-- Division by the word that denotes `256`. -/
theorem one_div256 {m : FVec Ideal S1x1 .f32} {r : ℝ} (hm : Holds11 m r) :
    Holds11 (divf m (broadcast S1x1 (Scalar.ofBits (F := Ideal) .f32 0x43800000#32))) (r / 256) := by
  unfold Holds11 at hm ⊢
  rw [divf_apply, hm, broadcast_apply]
  show Ideal.div _ (Ideal.ofBits .f32 0x43800000#32) = _
  rw [ofBits_256, Ideal.div_coe (by norm_num), ← EReal.coe_mul, mul_one_div]

/-- Adding the word that denotes the variance offset. -/
theorem one_addEps {m : FVec Ideal S1x1 .f32} {r : ℝ} (hm : Holds11 m r) :
    Holds11 (addf m (broadcast S1x1 (Scalar.ofBits (F := Ideal) .f32 0x3727C5AC#32))) (r + epsR) := by
  unfold Holds11 at hm ⊢
  rw [addf_apply, hm, broadcast_apply]
  show _ + Ideal.ofBits .f32 0x3727C5AC#32 = _
  rw [ofBits_eps, EReal.coe_add]

/-- The reciprocal square root of a positive real. -/
theorem one_rsqrt {m : FVec Ideal S1x1 .f32} {r : ℝ} (hm : Holds11 m r) (hr : 0 < r) :
    Holds11 (rsqrt m) ((Real.sqrt r)⁻¹) := by
  unfold Holds11 at hm ⊢
  show Ideal.rsqrt (m _) = _
  rw [hm, Ideal.rsqrt_coe, if_neg (not_lt.2 hr.le), if_neg hr.ne']

/-! ## A row times a matrix -/

/-- A `[1, n]` row times an `[n, p]` matrix (contraction of the row's lanes with the matrix's rows, into the zero
    accumulator): entry `k` is `∑ j, row j · matrix j k`. -/
theorem rowMatmul_apply {n p : ℕ} (D : DotDims (⟨2, ![1, n]⟩ : Shape) ⟨2, ![n, p]⟩ ⟨2, ![1, p]⟩)
    (hlc : D.lhsContracting = [1]) (hrc : D.rhsContracting = [0]) (hln : D.lhsNonContracting = [0])
    (hrn : D.rhsNonContracting = [1]) (hlb : D.lhsBatch = []) (hrb : D.rhsBatch = [])
    (a : FVec Ideal (⟨2, ![1, n]⟩ : Shape) .f32) (W : FVec Ideal (⟨2, ![n, p]⟩ : Shape) .f32) (k : Fin p) :
    FloatOps.matmul D none a W (constant (F := Ideal) (⟨2, ![1, p]⟩ : Shape) .f32 0x00000000#32) (ix2 (0 : Fin 1) k)
      = ∑ j : Fin n, a (ix2 (0 : Fin 1) j) * W (ix2 j k) := by
  rw [Ideal.matmul_constant_zero_apply]
  have hr : D.contr.rank = 1 := by rw [D.rank_contr, hlc]; rfl
  have hs : D.contr.size ⟨0, by omega⟩ = n := by
    have h0 := D.size_contr 0 (by rw [hlc]; exact Nat.one_pos)
    rw [h0]
    have : D.lhsContracting[0]'(by rw [hlc]; exact Nat.one_pos) = (1 : Fin 2) := by simp [hlc]
    rw [this]; rfl
  rw [← Equiv.sum_comp (contrEquiv1 D n hr hs).symm]
  refine Finset.sum_congr rfl fun j _ => ?_
  have hq : (((contrEquiv1 D n hr hs).symm j) ⟨0, by omega⟩ : ℕ) = j.val := contrEquiv1_symm_val D n hr hs j
  congr 1
  · refine congrArg a (Shape.idx_ext₂ ?_ ?_)
    · have h1 := (D.lhsIdx (ix2 (0 : Fin 1) k) ((contrEquiv1 D n hr hs).symm j) 0).isLt
      have h2 : (ix2 (0 : Fin 1) j (0 : Fin 2) : ℕ) = 0 := rfl
      rw [h2]
      change _ < 1 at h1
      omega
    · rw [D.lhsIdx_val_of_single hlc]; exact hq
  · refine congrArg W (Shape.idx_ext₂ ?_ ?_)
    · rw [D.rhsIdx_val_of_single hrc]; exact hq
    · have key : ∀ (x y : ℕ) (hx : x < 2) (hy : y < 2), x = y →
          ((ix2 (0 : Fin 1) k) ⟨x, hx⟩ : ℕ) = ((ix2 (0 : Fin 1) k) ⟨y, hy⟩ : ℕ) := fun x y hx hy e => by subst e; rfl
      unfold DotDims.rhsIdx
      rw [dif_neg (by rw [hrb]; simp), dif_pos (by rw [hrn]; simp)]
      simp only [Fin.val_cast]
      exact key _ 1 _ (by omega) (by simp [hlb, hln, hrn])

theorem row_matmul {n p : ℕ} (D : DotDims (⟨2, ![1, n]⟩ : Shape) ⟨2, ![n, p]⟩ ⟨2, ![1, p]⟩)
    (hlc : D.lhsContracting = [1]) (hrc : D.rhsContracting = [0]) (hln : D.lhsNonContracting = [0])
    (hrn : D.rhsNonContracting = [1]) (hlb : D.lhsBatch = []) (hrb : D.rhsBatch = [])
    {a : FVec Ideal (⟨2, ![1, n]⟩ : Shape) .f32} {W : FVec Ideal (⟨2, ![n, p]⟩ : Shape) .f32}
    {f : Fin n → ℝ} {w : Fin n → Fin p → ℝ} (ha : HoldsRow a f) (hW : Holds2 W w) :
    HoldsRow (FloatOps.matmul D none a W (constant (F := Ideal) (⟨2, ![1, p]⟩ : Shape) .f32 0x00000000#32))
      (fun k => ∑ j, f j * w j k) := fun k => by
  rw [rowMatmul_apply D hlc hrc hln hrn hlb hrb, ← coe_sum]
  refine Finset.sum_congr rfl fun j _ => ?_
  rw [ha j, hW j k, EReal.coe_mul]

/-! ## Two rows side by side -/

/-- Two `[1, 128]` rows joined along the lanes: the first 128 lanes are the first row, the rest the second. -/
theorem row_concat {u v : FVec Ideal S1x128 .f32} {f g : Fin 128 → ℝ} (hu : HoldsRow u f) (hv : HoldsRow v g)
    (h : Shape.Concatenates [S1x128, S1x128] S1x256 1) :
    HoldsRow (concatenate S1x256 1 [⟨S1x128, u⟩, ⟨S1x128, v⟩] h)
      (fun i => if hi : i.val < 128 then f ⟨i.val, hi⟩ else g ⟨i.val - 128, by omega⟩) := fun i => by
  beta_reduce
  by_cases hi : i.val < 128
  · rw [dif_pos hi]
    refine (concatenate_pair_apply_left 1 u v h (ix2 (0 : Fin 1) i) rfl (ix2 (0 : Fin 1) (⟨i.val, hi⟩ : Fin 128)) ?_).trans (hu _)
    intro b
    match b with
    | ⟨0, _⟩ => rfl
    | ⟨1, _⟩ => rfl
  · rw [dif_neg hi]
    refine (concatenate_pair_apply_right 1 u v h (ix2 (0 : Fin 1) i) rfl rfl
      (ix2 (0 : Fin 1) (⟨i.val - 128, by omega⟩ : Fin 128)) ?_ ?_).trans (hv _)
    · intro b hb
      match b, hb with
      | ⟨0, _⟩, _ => rfl
      | ⟨1, _⟩, hb => exact absurd rfl hb
    · show (i.val - 128) + 128 = i.val
      omega

/-! ## The layer norm over the 256 lanes of a row -/

section LayerNorm
variable (hred : S1x256.Reduces [1] S1) (hacc : (0x00000000#32 : BitVec 32) = 0x00000000#32)
  (hsc : S1.ShapeCasts S1x1) (hbc : S1x1.Broadcasts S1x256)

/-- The mean of a row: its lane sum divided by 256. -/
def meanV (x : FVec Ideal S1x256 .f32) : FVec Ideal S1x1 .f32 :=
  divf (shapeCast S1x1 (multiReduction .add [1] S1 x 0x00000000#32 hred (.inl rfl) hacc) hsc)
    (broadcast S1x1 (Scalar.ofBits (F := Ideal) .f32 0x43800000#32))

/-- The row less its mean. -/
def cenV (x : FVec Ideal S1x256 .f32) : FVec Ideal S1x256 .f32 :=
  subf x (broadcastTo S1x256 (meanV hred hacc hsc x) hbc)

/-- The reciprocal square root of the variance (the mean of the squared deviations) plus the offset. -/
def rstdV (x : FVec Ideal S1x256 .f32) : FVec Ideal S1x1 .f32 :=
  rsqrt (addf (divf (shapeCast S1x1 (multiReduction .add [1] S1 (mulf (cenV hred hacc hsc hbc x) (cenV hred hacc hsc hbc x))
      0x00000000#32 hred (.inl rfl) hacc) hsc) (broadcast S1x1 (Scalar.ofBits (F := Ideal) .f32 0x43800000#32)))
    (broadcast S1x1 (Scalar.ofBits (F := Ideal) .f32 0x3727C5AC#32)))

/-- The normalised row, scaled and shifted. -/
def lnV (x s b : FVec Ideal S1x256 .f32) : FVec Ideal S1x256 .f32 :=
  addf (mulf (mulf (cenV hred hacc hsc hbc x) (broadcastTo S1x256 (rstdV hred hacc hsc hbc x) hbc)) s) b

variable {x s b : FVec Ideal S1x256 .f32} {f sc sh : Fin 256 → ℝ}

theorem meanV_holds (hx : HoldsRow x f) : Holds11 (meanV hred hacc hsc x) (mean256 f) :=
  one_div256 (one_rowSum hx hred hacc hsc)

theorem cenV_holds (hx : HoldsRow x f) : HoldsRow (cenV hred hacc hsc hbc x) (fun j => f j - mean256 f) :=
  row_sub_bcast hx (meanV_holds hred hacc hsc hx) hbc

/-- The variance is a mean of squares, so it is not negative. -/
theorem var256_nonneg (f : Fin 256 → ℝ) : 0 ≤ var256 f :=
  div_nonneg (Finset.sum_nonneg fun i _ => mul_self_nonneg _) (by norm_num)

theorem rstdV_holds (hx : HoldsRow x f) :
    Holds11 (rstdV hred hacc hsc hbc x) ((Real.sqrt (var256 f + epsR))⁻¹) :=
  have hc := cenV_holds hred hacc hsc hbc hx
  one_rsqrt (one_addEps (one_div256 (one_rowSum (row_mul hc hc) hred hacc hsc)))
    (add_pos_of_nonneg_of_pos (var256_nonneg f) epsR_pos)

/-- The layer norm of a row that holds `f`, with scale and shift rows holding `sc` and `sh`, holds `layerNorm f sc sh`. -/
theorem lnV_holds (hx : HoldsRow x f) (hs : HoldsRow s sc) (hb : HoldsRow b sh) :
    HoldsRow (lnV hred hacc hsc hbc x s b) (layerNorm f sc sh) :=
  row_add (row_mul (row_mul_bcast (cenV_holds hred hacc hsc hbc hx) (rstdV_holds hred hacc hsc hbc hx) hbc) hs) hb

end LayerNorm

/-! ## The first grid point: the two offset rows and the reset rows -/

section First
variable {g s b : Fin 256 → ℝ} {W : Fin 256 → Fin 128 → ℝ} {c bl br : Fin 128 → ℝ} {Wr : Fin 128 → Fin 128 → ℝ}
  {vg vs vb : FVec Ideal S1x256 .f32} {vW : FVec Ideal S256x128 .f32} {vc vbl vbr : FVec Ideal S1x128 .f32}
  {vWr : FVec Ideal S128x128 .f32}

/-- The target vector `relu (LN g) · W + c` of a family. -/
theorem target_holds (hg : HoldsRow vg g) (hs : HoldsRow vs s) (hb : HoldsRow vb b) (hW : Holds2 vW W)
    (hc : HoldsRow vc c) : HoldsRow (k0_pay8 vg vs vb vW vc) (proj g s b W c) :=
  row_add (row_matmul _ rfl rfl rfl rfl rfl rfl
    (row_relu (lnV_holds _ _ _ _ hg (row_cast hs _) (row_cast hb _))) hW) (row_cast hc _)

/-- The target vector's image `p · Wr`: the same target vector, then the product with `Wr`. -/
theorem targetImage_holds (hg : HoldsRow vg g) (hs : HoldsRow vs s) (hb : HoldsRow vb b) (hW : Holds2 vW W)
    (hc : HoldsRow vc c) (hWr : Holds2 vWr Wr) :
    HoldsRow (k0_pay6 vg vs vb vW vc vWr) (tgt (proj g s b W c) Wr) :=
  row_matmul _ rfl rfl rfl rfl rfl rfl (target_holds hg hs hb hW hc) hWr

/-- The row stored into the first family's offset scratch is `(bl + p · Wr) + br` with `p` the target vector. -/
theorem offset1 (hg : HoldsRow vg g) (hs : HoldsRow vs s) (hb : HoldsRow vb b) (hW : Holds2 vW W)
    (hc : HoldsRow vc c) (hbl : HoldsRow vbl bl) (hWr : Holds2 vWr Wr) (hbr : HoldsRow vbr br) :
    HoldsRow (k0_pay7 (k0_pay5 vbl) (k0_pay6 vg vs vb vW vc vWr) vbr) (offS bl br (proj g s b W c) Wr) :=
  row_cast (row_add (row_add (row_cast hbl _) (targetImage_holds hg hs hb hW hc hWr)) (row_cast hbr _)) _

/-- The same for the second family. -/
theorem offset2 (hg : HoldsRow vg g) (hs : HoldsRow vs s) (hb : HoldsRow vb b) (hW : Holds2 vW W)
    (hc : HoldsRow vc c) (hbl : HoldsRow vbl bl) (hWr : Holds2 vWr Wr) (hbr : HoldsRow vbr br) :
    HoldsRow (k0_pay9 (k0_pay8 vg vs vb vW vc) vbl vWr vbr) (offS bl br (proj g s b W c) Wr) :=
  row_cast (row_add (row_add (row_cast hbl _)
    (row_matmul _ rfl rfl rfl rfl rfl rfl (target_holds hg hs hb hW hc) hWr)) (row_cast hbr _)) _

end First

/-- The word stored into the two running shifts denotes `−∞`. -/
theorem neg_row (k : Fin 128) :
    (k0_pay11 (F := Ideal)) (ix2 (0 : Fin 1) k) = (⊥ : EReal) ∧ (k0_pay12 (F := Ideal)) (ix2 (0 : Fin 1) k) = (⊥ : EReal) := by
  unfold k0_pay11 k0_pay12 k0_pay10
  rw [shapeCast_self]
  exact ⟨ofBits_neg_inf, ofBits_neg_inf⟩

/-- The word stored into the four running sums denotes `0`. -/
theorem zero_row (k : Fin 128) :
    (k0_pay14 (F := Ideal)) (ix2 (0 : Fin 1) k) = 0 ∧ (k0_pay15 (F := Ideal)) (ix2 (0 : Fin 1) k) = 0
      ∧ (k0_pay16 (F := Ideal)) (ix2 (0 : Fin 1) k) = 0 ∧ (k0_pay17 (F := Ideal)) (ix2 (0 : Fin 1) k) = 0 := by
  unfold k0_pay14 k0_pay15 k0_pay16 k0_pay17 k0_pay13
  rw [shapeCast_self]
  exact ⟨Ideal.ofBits_zero_f32, Ideal.ofBits_zero_f32, Ideal.ofBits_zero_f32, Ideal.ofBits_zero_f32⟩

/-! ## The last grid point: the output row -/

section Last

/-- One family's aggregate from its final running sums: the weighted sum over the normaliser (a positive real, a sum of
    exponentials over all rows) is the weighted mean, and `bl + bias` is added. -/
theorem agg_holds {vw vs vbb : FVec Ideal S1x128 .f32} {μ : Fin 128 → ℝ} {X : Fin 100000 → Fin 128 → ℝ}
    {p : Fin 128 → ℝ} {Wl Wr : Fin 128 → Fin 128 → ℝ} {bl br : Fin 128 → ℝ} {att : Fin 8 → Fin 16 → ℝ} {bias : Fin 128 → ℝ}
    (hw : HoldsRow vw (fun k => partW 100000 (μ k) (fun n => logitS X Wl (offS bl br p Wr) att n k) (fun n => feat X Wl n k)))
    (hs : HoldsRow vs (fun k => partS 100000 (μ k) (fun n => logitS X Wl (offS bl br p Wr) att n k)))
    (hbb : HoldsRow vbb (fun k => bl k + bias k)) (hc : S1x128.ShapeCasts S1x128) :
    HoldsRow (addf (divf vw vs) (shapeCast S1x128 vbb hc)) (aggS μ X p Wl Wr bl br att bias) :=
  row_congr (row_add (row_div hw hs fun k => (partS_pos 100000 (by norm_num) _ _).ne') (row_cast hbb hc)) fun k => by
    show _ = aggS μ X p Wl Wr bl br att bias k
    unfold aggS
    rw [wavg_eq_part]

variable {vw1 vs1 vbb1 vw2 vs2 vbb2 : FVec Ideal S1x128 .f32} {vg vs3 vb3 vc3 : FVec Ideal S1x256 .f32}
  {vW3 : FVec Ideal S256x256 .f32} {g : Fin 256 → ℝ} {a1 a2 : Fin 128 → ℝ}

/-- The row `g` plus the two aggregates side by side. -/
theorem joined_holds (hg : HoldsRow vg g)
    (h1 : ∀ hc, HoldsRow (addf (divf vw1 vs1) (shapeCast S1x128 vbb1 hc)) a1)
    (h2 : ∀ hc, HoldsRow (addf (divf vw2 vs2) (shapeCast S1x128 vbb2 hc)) a2) :
    HoldsRow (k0_pay18 vw1 vs1 vbb1 vw2 vs2 vbb2 vg) (joined g a1 a2) :=
  row_add hg (row_concat (h1 _) (h2 _) _)

variable {xr : Fin 256 → ℝ}

theorem centred_holds (hx : HoldsRow (k0_pay18 vw1 vs1 vbb1 vw2 vs2 vbb2 vg) xr) :
    HoldsRow (k0_pay22 vw1 vs1 vbb1 vw2 vs2 vbb2 vg) (fun j => xr j - mean256 xr) :=
  cenV_holds _ _ _ _ hx

theorem rstd_holds (hx : HoldsRow (k0_pay18 vw1 vs1 vbb1 vw2 vs2 vbb2 vg) xr) :
    Holds11 (k0_pay23 vw1 vs1 vbb1 vw2 vs2 vbb2 vg) ((Real.sqrt (var256 xr + epsR))⁻¹) :=
  rstdV_holds _ _ _ _ hx

/-- The closing block applied to a row `x`, given the row, its centred form and its reciprocal deviation. -/
theorem closing_holds {v102 v104 v106 v121 vc : FVec Ideal S1x256 .f32} {v124 : FVec Ideal S1x1 .f32}
    {vW : FVec Ideal S256x256 .f32} {s b cen c : Fin 256 → ℝ} {r : ℝ} {W : Fin 256 → Fin 256 → ℝ}
    (hx : HoldsRow v102 xr) (hs : HoldsRow v104 s) (hb : HoldsRow v106 b) (hcen : HoldsRow v121 cen)
    (hr : Holds11 v124 r) (hW : Holds2 vW W) (hc : HoldsRow vc c) :
    HoldsRow (k0_pay4 v102 v104 v106 v121 v124 vW vc)
      (fun i => xr i + ((∑ j, max (cen j * r * s j + b j) 0 * W j i) + c i)) :=
  row_add hx (row_add (row_matmul _ rfl rfl rfl rfl rfl rfl
    (row_relu (row_add (row_mul (row_mul_bcast hcen hr _) hs) hb)) hW) (row_cast hc _))

/-- The output row of the last point is the streamed result `A.outS μ₁ μ₂`, when the six running rows hold the full
    sums over all 100000 source rows (with shifts `μ₁`, `μ₂`) and the argument rows hold `A`'s fields. -/
theorem final_out (A : Args) (μ₁ μ₂ : Fin 128 → ℝ)
    (hw1 : HoldsRow vw1 (fun k => partW 100000 (μ₁ k)
      (fun n => logitS A.X1 A.Wl1 (offS A.bl1 A.br1 A.p1 A.Wr1) A.att1 n k) (fun n => feat A.X1 A.Wl1 n k)))
    (hs1 : HoldsRow vs1 (fun k => partS 100000 (μ₁ k)
      (fun n => logitS A.X1 A.Wl1 (offS A.bl1 A.br1 A.p1 A.Wr1) A.att1 n k)))
    (hbb1 : HoldsRow vbb1 (fun k => A.bl1 k + A.bias1 k))
    (hw2 : HoldsRow vw2 (fun k => partW 100000 (μ₂ k)
      (fun n => logitS A.X2 A.Wl2 (offS A.bl2 A.br2 A.p2 A.Wr2) A.att2 n k) (fun n => feat A.X2 A.Wl2 n k)))
    (hs2 : HoldsRow vs2 (fun k => partS 100000 (μ₂ k)
      (fun n => logitS A.X2 A.Wl2 (offS A.bl2 A.br2 A.p2 A.Wr2) A.att2 n k)))
    (hbb2 : HoldsRow vbb2 (fun k => A.bl2 k + A.bias2 k))
    (hg : HoldsRow vg A.g) (hs3 : HoldsRow vs3 A.s3) (hb3 : HoldsRow vb3 A.b3) (hW3 : Holds2 vW3 A.W3)
    (hc3 : HoldsRow vc3 A.c3) :
    HoldsRow (k0_pay4 (k0_pay18 vw1 vs1 vbb1 vw2 vs2 vbb2 vg) (k0_pay19 vs3) (k0_pay20 vb3)
        (k0_pay22 vw1 vs1 vbb1 vw2 vs2 vbb2 vg) (k0_pay23 vw1 vs1 vbb1 vw2 vs2 vbb2 vg) vW3 vc3)
      (A.outS μ₁ μ₂) :=
  have hx := joined_holds hg (fun hc => agg_holds hw1 hs1 hbb1 hc) (fun hc => agg_holds hw2 hs2 hbb2 hc)
  closing_holds hx (row_cast hs3 _) (row_cast hb3 _) (centred_holds hx) (rstd_holds hx) hW3 hc3

end Last

end StarAttn.KEnds

end
-- ==== Proof.KHost.lean ====
/-
  What the region finds in its input windows, as real functions.

  Before the region the program reshapes the 1-D parameters into rows, adds the two bias vectors of each family,
  and builds, for each family, the head-block-diagonal matrix `(j, k) ↦ [j / 16 = k / 16] · att (j / 16) (j % 16)`
  (lane numbers divided by 16, compared pairwise, the outcome as `1` or `0`, times the attention vector laid out over
  the 128 lanes). The region then reads 27 windows at each of its 20 grid points: windows 0 and 1 walk the two
  100000-row source matrices 5000 rows at a time; every other window is a whole array at every point. This module
  proves, for launched arrays that hold the real arguments `A`, that each window's block holds the corresponding real
  function of `A` (Spec.lean's names, Repr.lean's "holds").
-/
import proofs.«165745_g33088428049086_cont_sun_c4_530_12_alg».proof.Proof.Gen.KernelIdeal.Frame.Runs
import proofs.«165745_g33088428049086_cont_sun_c4_530_12_alg».proof.Proof.Repr
import Idealize.ShloMosaic.Lib.ValueLayout
import Idealize.ShloMosaic.Lib.StableHlo.Predicate

noncomputable section

namespace StarAttn.KHost

open Idealize.ShloMosaic Idealize.ShloMosaic.TcCoe Idealize.ShloMosaic.ValueIdx
open Idealize.ShloMosaic.StableHlo.Predicate
open Cert.KernelIdeal Cert.KernelIdeal.Gen

variable (m : (ℓ : Loc nD τ sig) → Buf (Elt Ideal) ℓ) (c : Dev nD)

/-- The 27 argument arrays, as launched on device `c`, hold the real arguments `A`. -/
abbrev ArgsAt (A : Args) : Prop :=
  ArgsHold A (m ((c : Thread nD τ).loc main_arg0))
    (m ((c : Thread nD τ).loc main_arg1))
    (m ((c : Thread nD τ).loc main_arg2))
    (m ((c : Thread nD τ).loc main_arg3))
    (m ((c : Thread nD τ).loc main_arg4))
    (m ((c : Thread nD τ).loc main_arg5))
    (m ((c : Thread nD τ).loc main_arg6))
    (m ((c : Thread nD τ).loc main_arg7))
    (m ((c : Thread nD τ).loc main_arg8))
    (m ((c : Thread nD τ).loc main_arg9))
    (m ((c : Thread nD τ).loc main_arg10))
    (m ((c : Thread nD τ).loc main_arg11))
    (m ((c : Thread nD τ).loc main_arg12))
    (m ((c : Thread nD τ).loc main_arg13))
    (m ((c : Thread nD τ).loc main_arg14))
    (m ((c : Thread nD τ).loc main_arg15))
    (m ((c : Thread nD τ).loc main_arg16))
    (m ((c : Thread nD τ).loc main_arg17))
    (m ((c : Thread nD τ).loc main_arg18))
    (m ((c : Thread nD τ).loc main_arg19))
    (m ((c : Thread nD τ).loc main_arg20))
    (m ((c : Thread nD τ).loc main_arg21))
    (m ((c : Thread nD τ).loc main_arg22))
    (m ((c : Thread nD τ).loc main_arg23))
    (m ((c : Thread nD τ).loc main_arg24))
    (m ((c : Thread nD τ).loc main_arg25))
    (m ((c : Thread nD τ).loc main_arg26))

/-- A grid point's number is below 20. -/
theorem lt20 (t : Fin cfg0.N) : t.val < 20 := lt_of_lt_of_eq t.isLt N_0

/-! ## Arrays a host operation wrote before the region

Each of these is one of the 1-D parameters laid out as a `[1, n]` row (a reshape keeps the row-major order, so entry
`(0, j)` of the row is entry `j` of the parameter), or the sum of two parameters laid out so. -/

/-- The contents the region finds at a host-written array, as the host operations' term over the launched contents. -/
local macro "host_term" : tactic =>
  `(tactic| (dsimp only [Gen.V]
             simp only [Gen.hostOps0, Gen.hostOps0_1, Gen.hostOps0_2, List.flatten_cons, List.flatten_nil,
               List.append_nil, List.cons_append, List.nil_append]
             after_results_simp))

/-- `main_v20` is `main_arg3` as a row. -/
theorem V20_apply (j : Fin 256) : (V m c main_v20 : S1x256.Idx → EReal) (ix2 0 j)
    = (m ((c : Thread nD τ).loc main_arg3) : S256.Idx → EReal) (ix1 j) := by
  have e : (V m c main_v20 : S1x256.Idx → EReal) = fun i =>
      shapeCast S1x256 (m ((c : Thread nD τ).loc main_arg3) : S256.Idx → EReal) shapeCasts_S256_S1x256 i := by
    host_term; rfl
  rw [e]; exact shapeCast_a_1a_apply _ _ 0 j

/-- `main_v21` is `main_arg4` as a row. -/
theorem V21_apply (j : Fin 256) : (V m c main_v21 : S1x256.Idx → EReal) (ix2 0 j)
    = (m ((c : Thread nD τ).loc main_arg4) : S256.Idx → EReal) (ix1 j) := by
  have e : (V m c main_v21 : S1x256.Idx → EReal) = fun i =>
      shapeCast S1x256 (m ((c : Thread nD τ).loc main_arg4) : S256.Idx → EReal) shapeCasts_S256_S1x256 i := by
    host_term; rfl
  rw [e]; exact shapeCast_a_1a_apply _ _ 0 j

/-- `main_v22` is `main_arg6` as a row. -/
theorem V22_apply (j : Fin 128) : (V m c main_v22 : S1x128.Idx → EReal) (ix2 0 j)
    = (m ((c : Thread nD τ).loc main_arg6) : S128.Idx → EReal) (ix1 j) := by
  have e : (V m c main_v22 : S1x128.Idx → EReal) = fun i =>
      shapeCast S1x128 (m ((c : Thread nD τ).loc main_arg6) : S128.Idx → EReal) shapeCasts_S128_S1x128 i := by
    host_term; rfl
  rw [e]; exact shapeCast_a_1a_apply _ _ 0 j

/-- `main_v23` is `main_arg8` as a row. -/
theorem V23_apply (j : Fin 128) : (V m c main_v23 : S1x128.Idx → EReal) (ix2 0 j)
    = (m ((c : Thread nD τ).loc main_arg8) : S128.Idx → EReal) (ix1 j) := by
  have e : (V m c main_v23 : S1x128.Idx → EReal) = fun i =>
      shapeCast S1x128 (m ((c : Thread nD τ).loc main_arg8) : S128.Idx → EReal) shapeCasts_S128_S1x128 i := by
    host_term; rfl
  rw [e]; exact shapeCast_a_1a_apply _ _ 0 j

/-- `main_v24` is `main_arg10` as a row. -/
theorem V24_apply (j : Fin 128) : (V m c main_v24 : S1x128.Idx → EReal) (ix2 0 j)
    = (m ((c : Thread nD τ).loc main_arg10) : S128.Idx → EReal) (ix1 j) := by
  have e : (V m c main_v24 : S1x128.Idx → EReal) = fun i =>
      shapeCast S1x128 (m ((c : Thread nD τ).loc main_arg10) : S128.Idx → EReal) shapeCasts_S128_S1x128 i := by
    host_term; rfl
  rw [e]; exact shapeCast_a_1a_apply _ _ 0 j

/-- `main_v25` is `main_arg13` as a row. -/
theorem V25_apply (j : Fin 256) : (V m c main_v25 : S1x256.Idx → EReal) (ix2 0 j)
    = (m ((c : Thread nD τ).loc main_arg13) : S256.Idx → EReal) (ix1 j) := by
  have e : (V m c main_v25 : S1x256.Idx → EReal) = fun i =>
      shapeCast S1x256 (m ((c : Thread nD τ).loc main_arg13) : S256.Idx → EReal) shapeCasts_S256_S1x256 i := by
    host_term; rfl
  rw [e]; exact shapeCast_a_1a_apply _ _ 0 j

/-- `main_v26` is `main_arg14` as a row. -/
theorem V26_apply (j : Fin 256) : (V m c main_v26 : S1x256.Idx → EReal) (ix2 0 j)
    = (m ((c : Thread nD τ).loc main_arg14) : S256.Idx → EReal) (ix1 j) := by
  have e : (V m c main_v26 : S1x256.Idx → EReal) = fun i =>
      shapeCast S1x256 (m ((c : Thread nD τ).loc main_arg14) : S256.Idx → EReal) shapeCasts_S256_S1x256 i := by
    host_term; rfl
  rw [e]; exact shapeCast_a_1a_apply _ _ 0 j

/-- `main_v27` is `main_arg16` as a row. -/
theorem V27_apply (j : Fin 128) : (V m c main_v27 : S1x128.Idx → EReal) (ix2 0 j)
    = (m ((c : Thread nD τ).loc main_arg16) : S128.Idx → EReal) (ix1 j) := by
  have e : (V m c main_v27 : S1x128.Idx → EReal) = fun i =>
      shapeCast S1x128 (m ((c : Thread nD τ).loc main_arg16) : S128.Idx → EReal) shapeCasts_S128_S1x128 i := by
    host_term; rfl
  rw [e]; exact shapeCast_a_1a_apply _ _ 0 j

/-- `main_v28` is `main_arg18` as a row. -/
theorem V28_apply (j : Fin 128) : (V m c main_v28 : S1x128.Idx → EReal) (ix2 0 j)
    = (m ((c : Thread nD τ).loc main_arg18) : S128.Idx → EReal) (ix1 j) := by
  have e : (V m c main_v28 : S1x128.Idx → EReal) = fun i =>
      shapeCast S1x128 (m ((c : Thread nD τ).loc main_arg18) : S128.Idx → EReal) shapeCasts_S128_S1x128 i := by
    host_term; rfl
  rw [e]; exact shapeCast_a_1a_apply _ _ 0 j

/-- `main_v29` is `main_arg20` as a row. -/
theorem V29_apply (j : Fin 128) : (V m c main_v29 : S1x128.Idx → EReal) (ix2 0 j)
    = (m ((c : Thread nD τ).loc main_arg20) : S128.Idx → EReal) (ix1 j) := by
  have e : (V m c main_v29 : S1x128.Idx → EReal) = fun i =>
      shapeCast S1x128 (m ((c : Thread nD τ).loc main_arg20) : S128.Idx → EReal) shapeCasts_S128_S1x128 i := by
    host_term; rfl
  rw [e]; exact shapeCast_a_1a_apply _ _ 0 j

/-- `main_v30` is `main_arg23` as a row. -/
theorem V30_apply (j : Fin 256) : (V m c main_v30 : S1x256.Idx → EReal) (ix2 0 j)
    = (m ((c : Thread nD τ).loc main_arg23) : S256.Idx → EReal) (ix1 j) := by
  have e : (V m c main_v30 : S1x256.Idx → EReal) = fun i =>
      shapeCast S1x256 (m ((c : Thread nD τ).loc main_arg23) : S256.Idx → EReal) shapeCasts_S256_S1x256 i := by
    host_term; rfl
  rw [e]; exact shapeCast_a_1a_apply _ _ 0 j

/-- `main_v31` is `main_arg24` as a row. -/
theorem V31_apply (j : Fin 256) : (V m c main_v31 : S1x256.Idx → EReal) (ix2 0 j)
    = (m ((c : Thread nD τ).loc main_arg24) : S256.Idx → EReal) (ix1 j) := by
  have e : (V m c main_v31 : S1x256.Idx → EReal) = fun i =>
      shapeCast S1x256 (m ((c : Thread nD τ).loc main_arg24) : S256.Idx → EReal) shapeCasts_S256_S1x256 i := by
    host_term; rfl
  rw [e]; exact shapeCast_a_1a_apply _ _ 0 j

/-- `main_v32` is `main_arg26` as a row. -/
theorem V32_apply (j : Fin 256) : (V m c main_v32 : S1x256.Idx → EReal) (ix2 0 j)
    = (m ((c : Thread nD τ).loc main_arg26) : S256.Idx → EReal) (ix1 j) := by
  have e : (V m c main_v32 : S1x256.Idx → EReal) = fun i =>
      shapeCast S1x256 (m ((c : Thread nD τ).loc main_arg26) : S256.Idx → EReal) shapeCasts_S256_S1x256 i := by
    host_term; rfl
  rw [e]; exact shapeCast_a_1a_apply _ _ 0 j

/-- `main_v17` is the sum `main_arg8 + main_arg12` as a row. -/
theorem V17_apply (j : Fin 128) : (V m c main_v17 : S1x128.Idx → EReal) (ix2 0 j)
    = addf (F := Ideal) (s := S128) (φ := .f32) (m ((c : Thread nD τ).loc main_arg8))
        (m ((c : Thread nD τ).loc main_arg12)) (ix1 j) := by
  have e : (V m c main_v17 : S1x128.Idx → EReal) = fun i =>
      shapeCast S1x128 (addf (F := Ideal) (s := S128) (φ := .f32) (m ((c : Thread nD τ).loc main_arg8))
        (m ((c : Thread nD τ).loc main_arg12))) shapeCasts_S128_S1x128 i := by
    host_term; rfl
  rw [e]; exact shapeCast_a_1a_apply _ _ 0 j

/-- `main_v19` is the sum `main_arg18 + main_arg22` as a row. -/
theorem V19_apply (j : Fin 128) : (V m c main_v19 : S1x128.Idx → EReal) (ix2 0 j)
    = addf (F := Ideal) (s := S128) (φ := .f32) (m ((c : Thread nD τ).loc main_arg18))
        (m ((c : Thread nD τ).loc main_arg22)) (ix1 j) := by
  have e : (V m c main_v19 : S1x128.Idx → EReal) = fun i =>
      shapeCast S1x128 (addf (F := Ideal) (s := S128) (φ := .f32) (m ((c : Thread nD τ).loc main_arg18))
        (m ((c : Thread nD τ).loc main_arg22))) shapeCasts_S128_S1x128 i := by
    host_term; rfl
  rw [e]; exact shapeCast_a_1a_apply _ _ 0 j

/-! ## The head-block-diagonal matrices

The host numbers the 128 lanes, divides each number by 16 (rounding toward minus infinity), compares the quotient
of lane `j` (constant along row `j`) with the quotient of lane `k` (constant down column `k`), turns the outcome
into `1` or `0`, and multiplies by the attention vector laid out over the 128 lanes (`[8, 16]` in row-major order:
lane `j` is head `j / 16`, channel `j % 16`) and held constant along each row. -/

/-- The lane number divided by 16, rounded toward minus infinity, as the host computes it: the truncated quotient,
    lowered by one where the operands' signs differ and the remainder is not zero. -/
def headsW : S128.Idx → BitVec 32 :=
  select
    (andi
      (cmpi .ne (signi (iotaInDim S128 32 0)) (broadcastInDim S128 ![] bcast_S_S128 (signi (constantI S_ 32 16#32))))
      (cmpi .ne (Host.remsi (iotaInDim S128 32 0) (broadcastInDim S128 ![] bcast_S_S128 (constantI S_ 32 16#32)))
        (broadcastInDim S128 ![] bcast_S_S128 (constantI S_ 32 0#32))))
    (subi (Host.divsi (iotaInDim S128 32 0) (broadcastInDim S128 ![] bcast_S_S128 (constantI S_ 32 16#32)))
      (broadcastInDim S128 ![] bcast_S_S128 (constantI S_ 32 1#32)))
    (Host.divsi (iotaInDim S128 32 0) (broadcastInDim S128 ![] bcast_S_S128 (constantI S_ 32 16#32)))

/-- On each of the 128 lanes that is the natural quotient (lane numbers are non-negative: no correction applies). -/
theorem headsW_apply : ∀ p : Fin 128, headsW (ix1 p) = BitVec.ofNat 32 (p.val / 16) := by
  decide +kernel

/-- The rank-1 index at a coordinate, in either spelling. -/
theorem ofFin_eq_ix1 {n : Nat} (p : Fin n) : Shape.Idx.ofFin p = ix1 p := by
  funext a; match a with | ⟨0, _⟩ => rfl

/-- Two quotients below 8 are the same word exactly when they are the same number. -/
theorem ofNat_div16_inj (j k : Fin 128) (e : BitVec.ofNat 32 (j.val / 16) = BitVec.ofNat 32 (k.val / 16)) :
    j.val / 16 = k.val / 16 := by
  have h := congrArg BitVec.toNat e
  rw [BitVec.toNat_ofNat, BitVec.toNat_ofNat] at h
  have hj := j.isLt
  have hk := k.isLt
  omega

/-- The indicator of "same head" as the host computes it: the row and column broadcasts of the quotients, compared,
    as a float. -/
def sameHead : S128x128.Idx → EReal :=
  uitofp (F := Ideal) .f32
    (cmpi .eq
      (broadcastInDim S128x128 ![0, 1] bcast_S128x1_S128x128_0_1 (broadcastInDim S128x1 ![0] bcast_S128_S128x1_0 headsW))
      (broadcastInDim S128x128 ![0, 1] bcast_S1x128_S128x128_0_1 (broadcastInDim S1x128 ![1] bcast_S128_S1x128_1 headsW)))

/-- At `(j, k)` it is `1` when `j / 16 = k / 16`, else `0`. -/
theorem sameHead_apply (j k : Fin 128) :
    sameHead (ix2 j k) = (((if j.val / 16 = k.val / 16 then 1 else 0 : ℝ) : ℝ) : EReal) := by
  have hj : headsW (Shape.Idx.ofFin j) = BitVec.ofNat 32 (j.val / 16) := by
    rw [ofFin_eq_ix1]; exact headsW_apply j
  have hk : headsW (Shape.Idx.ofFin k) = BitVec.ofNat 32 (k.val / 16) := by
    rw [ofFin_eq_ix1]; exact headsW_apply k
  show (((IntOp.cmpi .eq
      (broadcastInDim S128x128 ![0, 1] bcast_S128x1_S128x128_0_1
        (broadcastInDim S128x1 ![0] bcast_S128_S128x1_0 headsW) (ij j k))
      (broadcastInDim S128x128 ![0, 1] bcast_S1x128_S128x128_0_1
        (broadcastInDim S1x128 ![1] bcast_S128_S1x128_1 headsW) (ij j k))).toNat : ℝ) : EReal) = _
  rw [bcast_rows, bcast_cols, hj, hk]
  by_cases h : j.val / 16 = k.val / 16
  · rw [if_pos h, h, cmpi_eq_iff.mpr rfl]
    show (((1 : ℕ) : ℝ) : EReal) = _
    rw [Nat.cast_one]
  · have h0 : IntOp.cmpi .eq (BitVec.ofNat 32 (j.val / 16)) (BitVec.ofNat 32 (k.val / 16)) = 0#1 :=
      eq_zero_of_ne_one fun e1 => h (ofNat_div16_inj j k (cmpi_eq_iff.mp e1))
    rw [if_neg h, h0]
    show (((0 : ℕ) : ℝ) : EReal) = _
    rw [Nat.cast_zero]

/-- An attention vector `[8, 16]` laid out over the 128 lanes and held constant along each row reads, at `(j, k)`,
    head `j / 16`, channel `j % 16`. -/
theorem attRows_apply (a : S8x16.Idx → EReal) (att : Fin 8 → Fin 16 → ℝ) (h : Holds2 a att) (j k : Fin 128) :
    broadcastInDim S128x128 ![0, 1] bcast_S128x1_S128x128_0_1 (broadcastInDim S128x1 ![0] bcast_S128_S128x1_0
      (fun i => shapeCast S128 a shapeCasts_S8x16_S128 i)) (ix2 j k) = ((att (headOf j) (chanOf j) : ℝ) : EReal) := by
  refine (bcast_rows bcast_S128_S128x1_0 bcast_S128x1_S128x128_0_1 _ j k).trans ?_
  show shapeCast S128 a shapeCasts_S8x16_S128 (Shape.Idx.ofFin j) = _
  rw [ofFin_eq_ix1]
  refine (shapeCast_apply a shapeCasts_S8x16_S128 (ix1 j) (ix2 (headOf j) (chanOf j)) ?_).trans (h (headOf j) (chanOf j))
  rw [Shape.rowMajor_val_two, Shape.rowMajor_val_one]
  show j.val / 16 * 16 + j.val % 16 = j.val
  omega

/-- `main_v11` at `(j, k)` is the block-diagonal entry built from the first family's attention vector. -/
theorem V11_apply (att : Fin 8 → Fin 16 → ℝ) (h : Holds2 (m ((c : Thread nD τ).loc main_arg11)) att) (j k : Fin 128) :
    (V m c main_v11 : S128x128.Idx → EReal) (ix2 j k) = ((blockAtt att j k : ℝ) : EReal) := by
  have e : (V m c main_v11 : S128x128.Idx → EReal)
      = mulf (F := Ideal) (s := S128x128) (φ := .f32) sameHead
          (broadcastInDim S128x128 ![0, 1] bcast_S128x1_S128x128_0_1 (broadcastInDim S128x1 ![0] bcast_S128_S128x1_0
            (fun i => shapeCast S128 (m ((c : Thread nD τ).loc main_arg11) : S8x16.Idx → EReal) shapeCasts_S8x16_S128 i))) := by
    host_term; rfl
  rw [e, mulf_apply, sameHead_apply, attRows_apply _ att h j k]
  unfold blockAtt
  rw [EReal.coe_mul]

/-- `main_v15` at `(j, k)` is the block-diagonal entry built from the second family's attention vector. -/
theorem V15_apply (att : Fin 8 → Fin 16 → ℝ) (h : Holds2 (m ((c : Thread nD τ).loc main_arg21)) att) (j k : Fin 128) :
    (V m c main_v15 : S128x128.Idx → EReal) (ix2 j k) = ((blockAtt att j k : ℝ) : EReal) := by
  have e : (V m c main_v15 : S128x128.Idx → EReal)
      = mulf (F := Ideal) (s := S128x128) (φ := .f32) sameHead
          (broadcastInDim S128x128 ![0, 1] bcast_S128x1_S128x128_0_1 (broadcastInDim S128x1 ![0] bcast_S128_S128x1_0
            (fun i => shapeCast S128 (m ((c : Thread nD τ).loc main_arg21) : S8x16.Idx → EReal) shapeCasts_S8x16_S128 i))) := by
    host_term; rfl
  rw [e, mulf_apply, sameHead_apply, attRows_apply _ att h j k]
  unfold blockAtt
  rw [EReal.coe_mul]

/-! ## What a window's block reads, for ANY contents `W` of the device's arrays

Where a block's entries sit in its array does not depend on what the arrays hold: the statements are over an
arbitrary family `W` of array contents. An element of a window's block sits, along each axis, at the block's index times
the block's extent plus the coordinate inside the block. Windows 0 and 1 step through their array 5000 rows at a
time (block index `t` along the rows); every other window's block is its whole array (block index `0` on both axes). -/

section Reads

variable (W : (b : Ref sig .tc) → Buf (Elt Ideal) ((c : Thread nD τ).loc b))

theorem idx0 : ∀ t : Fin cfg0.N, win0_0.index t 0 = t.val ∧ win0_0.index t 1 = 0 :=
  (by decide +kernel : ∀ t : Fin grid0.N, _)

theorem read0 (t : Fin cfg0.N) (r : Fin 5000) (j : Fin 128) :
    (((cfg0.win 0).blk t).view.read (Elt Ideal) (W (Pipeline.arrRef spec0 0)) : Vec Ideal S5000x128 .f32) (ix2 r j)
      = (W main_arg0 : S100000x128.Idx → EReal) (ix2 (blockRow t.val (lt20 t) r) j) := by
  rw [View.read_apply]
  show W main_arg0 _ = _
  refine congrArg (W main_arg0 : S100000x128.Idx → EReal) ?_
  funext x
  apply Fin.ext
  match x with
  | ⟨0, _⟩ => show win0_0.index t 0 * 5000 + 1 * r.val = 5000 * t.val + r.val; rw [(idx0 t).1]; omega
  | ⟨1, _⟩ => show win0_0.index t 1 * 128 + 1 * j.val = j.val; rw [(idx0 t).2]; omega

theorem idx1 : ∀ t : Fin cfg0.N, win0_1.index t 0 = t.val ∧ win0_1.index t 1 = 0 :=
  (by decide +kernel : ∀ t : Fin grid0.N, _)

theorem read1 (t : Fin cfg0.N) (r : Fin 5000) (j : Fin 128) :
    (((cfg0.win 1).blk t).view.read (Elt Ideal) (W (Pipeline.arrRef spec0 1)) : Vec Ideal S5000x128 .f32) (ix2 r j)
      = (W main_arg1 : S100000x128.Idx → EReal) (ix2 (blockRow t.val (lt20 t) r) j) := by
  rw [View.read_apply]
  show W main_arg1 _ = _
  refine congrArg (W main_arg1 : S100000x128.Idx → EReal) ?_
  funext x
  apply Fin.ext
  match x with
  | ⟨0, _⟩ => show win0_1.index t 0 * 5000 + 1 * r.val = 5000 * t.val + r.val; rw [(idx1 t).1]; omega
  | ⟨1, _⟩ => show win0_1.index t 1 * 128 + 1 * j.val = j.val; rw [(idx1 t).2]; omega

theorem idx2 (t : Fin cfg0.N) : win0_2.index t 0 = 0 ∧ win0_2.index t 1 = 0 := ⟨rfl, rfl⟩

theorem read2 (t : Fin cfg0.N) (j : Fin 256) :
    (((cfg0.win 2).blk t).view.read (Elt Ideal) (W (Pipeline.arrRef spec0 2)) : Vec Ideal S1x256 .f32) (ix2 0 j)
      = (W main_arg2 : S1x256.Idx → EReal) (ix2 0 j) := by
  rw [View.read_apply]
  show W main_arg2 _ = _
  refine congrArg (W main_arg2 : S1x256.Idx → EReal) ?_
  funext x
  apply Fin.ext
  match x with
  | ⟨0, _⟩ => show win0_2.index t 0 * 1 + 1 * (0 : Fin 1).val = (0 : Fin 1).val; rw [(idx2 t).1]; rfl
  | ⟨1, _⟩ => show win0_2.index t 1 * 256 + 1 * j.val = j.val; rw [(idx2 t).2]; omega

theorem idx3 (t : Fin cfg0.N) : win0_3.index t 0 = 0 ∧ win0_3.index t 1 = 0 := ⟨rfl, rfl⟩

theorem read3 (t : Fin cfg0.N) (j : Fin 256) :
    (((cfg0.win 3).blk t).view.read (Elt Ideal) (W (Pipeline.arrRef spec0 3)) : Vec Ideal S1x256 .f32) (ix2 0 j)
      = (W main_v20 : S1x256.Idx → EReal) (ix2 0 j) := by
  rw [View.read_apply]
  show W main_v20 _ = _
  refine congrArg (W main_v20 : S1x256.Idx → EReal) ?_
  funext x
  apply Fin.ext
  match x with
  | ⟨0, _⟩ => show win0_3.index t 0 * 1 + 1 * (0 : Fin 1).val = (0 : Fin 1).val; rw [(idx3 t).1]; rfl
  | ⟨1, _⟩ => show win0_3.index t 1 * 256 + 1 * j.val = j.val; rw [(idx3 t).2]; omega

theorem idx4 (t : Fin cfg0.N) : win0_4.index t 0 = 0 ∧ win0_4.index t 1 = 0 := ⟨rfl, rfl⟩

theorem read4 (t : Fin cfg0.N) (j : Fin 256) :
    (((cfg0.win 4).blk t).view.read (Elt Ideal) (W (Pipeline.arrRef spec0 4)) : Vec Ideal S1x256 .f32) (ix2 0 j)
      = (W main_v21 : S1x256.Idx → EReal) (ix2 0 j) := by
  rw [View.read_apply]
  show W main_v21 _ = _
  refine congrArg (W main_v21 : S1x256.Idx → EReal) ?_
  funext x
  apply Fin.ext
  match x with
  | ⟨0, _⟩ => show win0_4.index t 0 * 1 + 1 * (0 : Fin 1).val = (0 : Fin 1).val; rw [(idx4 t).1]; rfl
  | ⟨1, _⟩ => show win0_4.index t 1 * 256 + 1 * j.val = j.val; rw [(idx4 t).2]; omega

theorem idx5 (t : Fin cfg0.N) : win0_5.index t 0 = 0 ∧ win0_5.index t 1 = 0 := ⟨rfl, rfl⟩

theorem read5 (t : Fin cfg0.N) (i : Fin 256) (j : Fin 128) :
    (((cfg0.win 5).blk t).view.read (Elt Ideal) (W (Pipeline.arrRef spec0 5)) : Vec Ideal S256x128 .f32) (ix2 i j)
      = (W main_arg5 : S256x128.Idx → EReal) (ix2 i j) := by
  rw [View.read_apply]
  show W main_arg5 _ = _
  refine congrArg (W main_arg5 : S256x128.Idx → EReal) ?_
  funext x
  apply Fin.ext
  match x with
  | ⟨0, _⟩ => show win0_5.index t 0 * 256 + 1 * i.val = i.val; rw [(idx5 t).1]; omega
  | ⟨1, _⟩ => show win0_5.index t 1 * 128 + 1 * j.val = j.val; rw [(idx5 t).2]; omega

theorem idx6 (t : Fin cfg0.N) : win0_6.index t 0 = 0 ∧ win0_6.index t 1 = 0 := ⟨rfl, rfl⟩

theorem read6 (t : Fin cfg0.N) (j : Fin 128) :
    (((cfg0.win 6).blk t).view.read (Elt Ideal) (W (Pipeline.arrRef spec0 6)) : Vec Ideal S1x128 .f32) (ix2 0 j)
      = (W main_v22 : S1x128.Idx → EReal) (ix2 0 j) := by
  rw [View.read_apply]
  show W main_v22 _ = _
  refine congrArg (W main_v22 : S1x128.Idx → EReal) ?_
  funext x
  apply Fin.ext
  match x with
  | ⟨0, _⟩ => show win0_6.index t 0 * 1 + 1 * (0 : Fin 1).val = (0 : Fin 1).val; rw [(idx6 t).1]; rfl
  | ⟨1, _⟩ => show win0_6.index t 1 * 128 + 1 * j.val = j.val; rw [(idx6 t).2]; omega

theorem idx7 (t : Fin cfg0.N) : win0_7.index t 0 = 0 ∧ win0_7.index t 1 = 0 := ⟨rfl, rfl⟩

theorem read7 (t : Fin cfg0.N) (i j : Fin 128) :
    (((cfg0.win 7).blk t).view.read (Elt Ideal) (W (Pipeline.arrRef spec0 7)) : Vec Ideal S128x128 .f32) (ix2 i j)
      = (W main_arg7 : S128x128.Idx → EReal) (ix2 i j) := by
  rw [View.read_apply]
  show W main_arg7 _ = _
  refine congrArg (W main_arg7 : S128x128.Idx → EReal) ?_
  funext x
  apply Fin.ext
  match x with
  | ⟨0, _⟩ => show win0_7.index t 0 * 128 + 1 * i.val = i.val; rw [(idx7 t).1]; omega
  | ⟨1, _⟩ => show win0_7.index t 1 * 128 + 1 * j.val = j.val; rw [(idx7 t).2]; omega

theorem idx8 (t : Fin cfg0.N) : win0_8.index t 0 = 0 ∧ win0_8.index t 1 = 0 := ⟨rfl, rfl⟩

theorem read8 (t : Fin cfg0.N) (j : Fin 128) :
    (((cfg0.win 8).blk t).view.read (Elt Ideal) (W (Pipeline.arrRef spec0 8)) : Vec Ideal S1x128 .f32) (ix2 0 j)
      = (W main_v23 : S1x128.Idx → EReal) (ix2 0 j) := by
  rw [View.read_apply]
  show W main_v23 _ = _
  refine congrArg (W main_v23 : S1x128.Idx → EReal) ?_
  funext x
  apply Fin.ext
  match x with
  | ⟨0, _⟩ => show win0_8.index t 0 * 1 + 1 * (0 : Fin 1).val = (0 : Fin 1).val; rw [(idx8 t).1]; rfl
  | ⟨1, _⟩ => show win0_8.index t 1 * 128 + 1 * j.val = j.val; rw [(idx8 t).2]; omega

theorem idx9 (t : Fin cfg0.N) : win0_9.index t 0 = 0 ∧ win0_9.index t 1 = 0 := ⟨rfl, rfl⟩

theorem read9 (t : Fin cfg0.N) (i j : Fin 128) :
    (((cfg0.win 9).blk t).view.read (Elt Ideal) (W (Pipeline.arrRef spec0 9)) : Vec Ideal S128x128 .f32) (ix2 i j)
      = (W main_arg9 : S128x128.Idx → EReal) (ix2 i j) := by
  rw [View.read_apply]
  show W main_arg9 _ = _
  refine congrArg (W main_arg9 : S128x128.Idx → EReal) ?_
  funext x
  apply Fin.ext
  match x with
  | ⟨0, _⟩ => show win0_9.index t 0 * 128 + 1 * i.val = i.val; rw [(idx9 t).1]; omega
  | ⟨1, _⟩ => show win0_9.index t 1 * 128 + 1 * j.val = j.val; rw [(idx9 t).2]; omega

theorem idx10 (t : Fin cfg0.N) : win0_10.index t 0 = 0 ∧ win0_10.index t 1 = 0 := ⟨rfl, rfl⟩

theorem read10 (t : Fin cfg0.N) (j : Fin 128) :
    (((cfg0.win 10).blk t).view.read (Elt Ideal) (W (Pipeline.arrRef spec0 10)) : Vec Ideal S1x128 .f32) (ix2 0 j)
      = (W main_v24 : S1x128.Idx → EReal) (ix2 0 j) := by
  rw [View.read_apply]
  show W main_v24 _ = _
  refine congrArg (W main_v24 : S1x128.Idx → EReal) ?_
  funext x
  apply Fin.ext
  match x with
  | ⟨0, _⟩ => show win0_10.index t 0 * 1 + 1 * (0 : Fin 1).val = (0 : Fin 1).val; rw [(idx10 t).1]; rfl
  | ⟨1, _⟩ => show win0_10.index t 1 * 128 + 1 * j.val = j.val; rw [(idx10 t).2]; omega

theorem idx11 (t : Fin cfg0.N) : win0_11.index t 0 = 0 ∧ win0_11.index t 1 = 0 := ⟨rfl, rfl⟩

theorem read11 (t : Fin cfg0.N) (i j : Fin 128) :
    (((cfg0.win 11).blk t).view.read (Elt Ideal) (W (Pipeline.arrRef spec0 11)) : Vec Ideal S128x128 .f32) (ix2 i j)
      = (W main_v11 : S128x128.Idx → EReal) (ix2 i j) := by
  rw [View.read_apply]
  show W main_v11 _ = _
  refine congrArg (W main_v11 : S128x128.Idx → EReal) ?_
  funext x
  apply Fin.ext
  match x with
  | ⟨0, _⟩ => show win0_11.index t 0 * 128 + 1 * i.val = i.val; rw [(idx11 t).1]; omega
  | ⟨1, _⟩ => show win0_11.index t 1 * 128 + 1 * j.val = j.val; rw [(idx11 t).2]; omega

theorem idx12 (t : Fin cfg0.N) : win0_12.index t 0 = 0 ∧ win0_12.index t 1 = 0 := ⟨rfl, rfl⟩

theorem read12 (t : Fin cfg0.N) (j : Fin 128) :
    (((cfg0.win 12).blk t).view.read (Elt Ideal) (W (Pipeline.arrRef spec0 12)) : Vec Ideal S1x128 .f32) (ix2 0 j)
      = (W main_v17 : S1x128.Idx → EReal) (ix2 0 j) := by
  rw [View.read_apply]
  show W main_v17 _ = _
  refine congrArg (W main_v17 : S1x128.Idx → EReal) ?_
  funext x
  apply Fin.ext
  match x with
  | ⟨0, _⟩ => show win0_12.index t 0 * 1 + 1 * (0 : Fin 1).val = (0 : Fin 1).val; rw [(idx12 t).1]; rfl
  | ⟨1, _⟩ => show win0_12.index t 1 * 128 + 1 * j.val = j.val; rw [(idx12 t).2]; omega

theorem idx13 (t : Fin cfg0.N) : win0_13.index t 0 = 0 ∧ win0_13.index t 1 = 0 := ⟨rfl, rfl⟩

theorem read13 (t : Fin cfg0.N) (j : Fin 256) :
    (((cfg0.win 13).blk t).view.read (Elt Ideal) (W (Pipeline.arrRef spec0 13)) : Vec Ideal S1x256 .f32) (ix2 0 j)
      = (W main_v25 : S1x256.Idx → EReal) (ix2 0 j) := by
  rw [View.read_apply]
  show W main_v25 _ = _
  refine congrArg (W main_v25 : S1x256.Idx → EReal) ?_
  funext x
  apply Fin.ext
  match x with
  | ⟨0, _⟩ => show win0_13.index t 0 * 1 + 1 * (0 : Fin 1).val = (0 : Fin 1).val; rw [(idx13 t).1]; rfl
  | ⟨1, _⟩ => show win0_13.index t 1 * 256 + 1 * j.val = j.val; rw [(idx13 t).2]; omega

theorem idx14 (t : Fin cfg0.N) : win0_14.index t 0 = 0 ∧ win0_14.index t 1 = 0 := ⟨rfl, rfl⟩

theorem read14 (t : Fin cfg0.N) (j : Fin 256) :
    (((cfg0.win 14).blk t).view.read (Elt Ideal) (W (Pipeline.arrRef spec0 14)) : Vec Ideal S1x256 .f32) (ix2 0 j)
      = (W main_v26 : S1x256.Idx → EReal) (ix2 0 j) := by
  rw [View.read_apply]
  show W main_v26 _ = _
  refine congrArg (W main_v26 : S1x256.Idx → EReal) ?_
  funext x
  apply Fin.ext
  match x with
  | ⟨0, _⟩ => show win0_14.index t 0 * 1 + 1 * (0 : Fin 1).val = (0 : Fin 1).val; rw [(idx14 t).1]; rfl
  | ⟨1, _⟩ => show win0_14.index t 1 * 256 + 1 * j.val = j.val; rw [(idx14 t).2]; omega

theorem idx15 (t : Fin cfg0.N) : win0_15.index t 0 = 0 ∧ win0_15.index t 1 = 0 := ⟨rfl, rfl⟩

theorem read15 (t : Fin cfg0.N) (i : Fin 256) (j : Fin 128) :
    (((cfg0.win 15).blk t).view.read (Elt Ideal) (W (Pipeline.arrRef spec0 15)) : Vec Ideal S256x128 .f32) (ix2 i j)
      = (W main_arg15 : S256x128.Idx → EReal) (ix2 i j) := by
  rw [View.read_apply]
  show W main_arg15 _ = _
  refine congrArg (W main_arg15 : S256x128.Idx → EReal) ?_
  funext x
  apply Fin.ext
  match x with
  | ⟨0, _⟩ => show win0_15.index t 0 * 256 + 1 * i.val = i.val; rw [(idx15 t).1]; omega
  | ⟨1, _⟩ => show win0_15.index t 1 * 128 + 1 * j.val = j.val; rw [(idx15 t).2]; omega

theorem idx16 (t : Fin cfg0.N) : win0_16.index t 0 = 0 ∧ win0_16.index t 1 = 0 := ⟨rfl, rfl⟩

theorem read16 (t : Fin cfg0.N) (j : Fin 128) :
    (((cfg0.win 16).blk t).view.read (Elt Ideal) (W (Pipeline.arrRef spec0 16)) : Vec Ideal S1x128 .f32) (ix2 0 j)
      = (W main_v27 : S1x128.Idx → EReal) (ix2 0 j) := by
  rw [View.read_apply]
  show W main_v27 _ = _
  refine congrArg (W main_v27 : S1x128.Idx → EReal) ?_
  funext x
  apply Fin.ext
  match x with
  | ⟨0, _⟩ => show win0_16.index t 0 * 1 + 1 * (0 : Fin 1).val = (0 : Fin 1).val; rw [(idx16 t).1]; rfl
  | ⟨1, _⟩ => show win0_16.index t 1 * 128 + 1 * j.val = j.val; rw [(idx16 t).2]; omega

theorem idx17 (t : Fin cfg0.N) : win0_17.index t 0 = 0 ∧ win0_17.index t 1 = 0 := ⟨rfl, rfl⟩

theorem read17 (t : Fin cfg0.N) (i j : Fin 128) :
    (((cfg0.win 17).blk t).view.read (Elt Ideal) (W (Pipeline.arrRef spec0 17)) : Vec Ideal S128x128 .f32) (ix2 i j)
      = (W main_arg17 : S128x128.Idx → EReal) (ix2 i j) := by
  rw [View.read_apply]
  show W main_arg17 _ = _
  refine congrArg (W main_arg17 : S128x128.Idx → EReal) ?_
  funext x
  apply Fin.ext
  match x with
  | ⟨0, _⟩ => show win0_17.index t 0 * 128 + 1 * i.val = i.val; rw [(idx17 t).1]; omega
  | ⟨1, _⟩ => show win0_17.index t 1 * 128 + 1 * j.val = j.val; rw [(idx17 t).2]; omega

theorem idx18 (t : Fin cfg0.N) : win0_18.index t 0 = 0 ∧ win0_18.index t 1 = 0 := ⟨rfl, rfl⟩

theorem read18 (t : Fin cfg0.N) (j : Fin 128) :
    (((cfg0.win 18).blk t).view.read (Elt Ideal) (W (Pipeline.arrRef spec0 18)) : Vec Ideal S1x128 .f32) (ix2 0 j)
      = (W main_v28 : S1x128.Idx → EReal) (ix2 0 j) := by
  rw [View.read_apply]
  show W main_v28 _ = _
  refine congrArg (W main_v28 : S1x128.Idx → EReal) ?_
  funext x
  apply Fin.ext
  match x with
  | ⟨0, _⟩ => show win0_18.index t 0 * 1 + 1 * (0 : Fin 1).val = (0 : Fin 1).val; rw [(idx18 t).1]; rfl
  | ⟨1, _⟩ => show win0_18.index t 1 * 128 + 1 * j.val = j.val; rw [(idx18 t).2]; omega

theorem idx19 (t : Fin cfg0.N) : win0_19.index t 0 = 0 ∧ win0_19.index t 1 = 0 := ⟨rfl, rfl⟩

theorem read19 (t : Fin cfg0.N) (i j : Fin 128) :
    (((cfg0.win 19).blk t).view.read (Elt Ideal) (W (Pipeline.arrRef spec0 19)) : Vec Ideal S128x128 .f32) (ix2 i j)
      = (W main_arg19 : S128x128.Idx → EReal) (ix2 i j) := by
  rw [View.read_apply]
  show W main_arg19 _ = _
  refine congrArg (W main_arg19 : S128x128.Idx → EReal) ?_
  funext x
  apply Fin.ext
  match x with
  | ⟨0, _⟩ => show win0_19.index t 0 * 128 + 1 * i.val = i.val; rw [(idx19 t).1]; omega
  | ⟨1, _⟩ => show win0_19.index t 1 * 128 + 1 * j.val = j.val; rw [(idx19 t).2]; omega

theorem idx20 (t : Fin cfg0.N) : win0_20.index t 0 = 0 ∧ win0_20.index t 1 = 0 := ⟨rfl, rfl⟩

theorem read20 (t : Fin cfg0.N) (j : Fin 128) :
    (((cfg0.win 20).blk t).view.read (Elt Ideal) (W (Pipeline.arrRef spec0 20)) : Vec Ideal S1x128 .f32) (ix2 0 j)
      = (W main_v29 : S1x128.Idx → EReal) (ix2 0 j) := by
  rw [View.read_apply]
  show W main_v29 _ = _
  refine congrArg (W main_v29 : S1x128.Idx → EReal) ?_
  funext x
  apply Fin.ext
  match x with
  | ⟨0, _⟩ => show win0_20.index t 0 * 1 + 1 * (0 : Fin 1).val = (0 : Fin 1).val; rw [(idx20 t).1]; rfl
  | ⟨1, _⟩ => show win0_20.index t 1 * 128 + 1 * j.val = j.val; rw [(idx20 t).2]; omega

theorem idx21 (t : Fin cfg0.N) : win0_21.index t 0 = 0 ∧ win0_21.index t 1 = 0 := ⟨rfl, rfl⟩

theorem read21 (t : Fin cfg0.N) (i j : Fin 128) :
    (((cfg0.win 21).blk t).view.read (Elt Ideal) (W (Pipeline.arrRef spec0 21)) : Vec Ideal S128x128 .f32) (ix2 i j)
      = (W main_v15 : S128x128.Idx → EReal) (ix2 i j) := by
  rw [View.read_apply]
  show W main_v15 _ = _
  refine congrArg (W main_v15 : S128x128.Idx → EReal) ?_
  funext x
  apply Fin.ext
  match x with
  | ⟨0, _⟩ => show win0_21.index t 0 * 128 + 1 * i.val = i.val; rw [(idx21 t).1]; omega
  | ⟨1, _⟩ => show win0_21.index t 1 * 128 + 1 * j.val = j.val; rw [(idx21 t).2]; omega

theorem idx22 (t : Fin cfg0.N) : win0_22.index t 0 = 0 ∧ win0_22.index t 1 = 0 := ⟨rfl, rfl⟩

theorem read22 (t : Fin cfg0.N) (j : Fin 128) :
    (((cfg0.win 22).blk t).view.read (Elt Ideal) (W (Pipeline.arrRef spec0 22)) : Vec Ideal S1x128 .f32) (ix2 0 j)
      = (W main_v19 : S1x128.Idx → EReal) (ix2 0 j) := by
  rw [View.read_apply]
  show W main_v19 _ = _
  refine congrArg (W main_v19 : S1x128.Idx → EReal) ?_
  funext x
  apply Fin.ext
  match x with
  | ⟨0, _⟩ => show win0_22.index t 0 * 1 + 1 * (0 : Fin 1).val = (0 : Fin 1).val; rw [(idx22 t).1]; rfl
  | ⟨1, _⟩ => show win0_22.index t 1 * 128 + 1 * j.val = j.val; rw [(idx22 t).2]; omega

theorem idx23 (t : Fin cfg0.N) : win0_23.index t 0 = 0 ∧ win0_23.index t 1 = 0 := ⟨rfl, rfl⟩

theorem read23 (t : Fin cfg0.N) (j : Fin 256) :
    (((cfg0.win 23).blk t).view.read (Elt Ideal) (W (Pipeline.arrRef spec0 23)) : Vec Ideal S1x256 .f32) (ix2 0 j)
      = (W main_v30 : S1x256.Idx → EReal) (ix2 0 j) := by
  rw [View.read_apply]
  show W main_v30 _ = _
  refine congrArg (W main_v30 : S1x256.Idx → EReal) ?_
  funext x
  apply Fin.ext
  match x with
  | ⟨0, _⟩ => show win0_23.index t 0 * 1 + 1 * (0 : Fin 1).val = (0 : Fin 1).val; rw [(idx23 t).1]; rfl
  | ⟨1, _⟩ => show win0_23.index t 1 * 256 + 1 * j.val = j.val; rw [(idx23 t).2]; omega

theorem idx24 (t : Fin cfg0.N) : win0_24.index t 0 = 0 ∧ win0_24.index t 1 = 0 := ⟨rfl, rfl⟩

theorem read24 (t : Fin cfg0.N) (j : Fin 256) :
    (((cfg0.win 24).blk t).view.read (Elt Ideal) (W (Pipeline.arrRef spec0 24)) : Vec Ideal S1x256 .f32) (ix2 0 j)
      = (W main_v31 : S1x256.Idx → EReal) (ix2 0 j) := by
  rw [View.read_apply]
  show W main_v31 _ = _
  refine congrArg (W main_v31 : S1x256.Idx → EReal) ?_
  funext x
  apply Fin.ext
  match x with
  | ⟨0, _⟩ => show win0_24.index t 0 * 1 + 1 * (0 : Fin 1).val = (0 : Fin 1).val; rw [(idx24 t).1]; rfl
  | ⟨1, _⟩ => show win0_24.index t 1 * 256 + 1 * j.val = j.val; rw [(idx24 t).2]; omega

theorem idx25 (t : Fin cfg0.N) : win0_25.index t 0 = 0 ∧ win0_25.index t 1 = 0 := ⟨rfl, rfl⟩

theorem read25 (t : Fin cfg0.N) (i j : Fin 256) :
    (((cfg0.win 25).blk t).view.read (Elt Ideal) (W (Pipeline.arrRef spec0 25)) : Vec Ideal S256x256 .f32) (ix2 i j)
      = (W main_arg25 : S256x256.Idx → EReal) (ix2 i j) := by
  rw [View.read_apply]
  show W main_arg25 _ = _
  refine congrArg (W main_arg25 : S256x256.Idx → EReal) ?_
  funext x
  apply Fin.ext
  match x with
  | ⟨0, _⟩ => show win0_25.index t 0 * 256 + 1 * i.val = i.val; rw [(idx25 t).1]; omega
  | ⟨1, _⟩ => show win0_25.index t 1 * 256 + 1 * j.val = j.val; rw [(idx25 t).2]; omega

theorem idx26 (t : Fin cfg0.N) : win0_26.index t 0 = 0 ∧ win0_26.index t 1 = 0 := ⟨rfl, rfl⟩

theorem read26 (t : Fin cfg0.N) (j : Fin 256) :
    (((cfg0.win 26).blk t).view.read (Elt Ideal) (W (Pipeline.arrRef spec0 26)) : Vec Ideal S1x256 .f32) (ix2 0 j)
      = (W main_v32 : S1x256.Idx → EReal) (ix2 0 j) := by
  rw [View.read_apply]
  show W main_v32 _ = _
  refine congrArg (W main_v32 : S1x256.Idx → EReal) ?_
  funext x
  apply Fin.ext
  match x with
  | ⟨0, _⟩ => show win0_26.index t 0 * 1 + 1 * (0 : Fin 1).val = (0 : Fin 1).val; rw [(idx26 t).1]; rfl
  | ⟨1, _⟩ => show win0_26.index t 1 * 256 + 1 * j.val = j.val; rw [(idx26 t).2]; omega

end Reads

/-! ## The windows hold the real arguments

Each window's block at grid point `t`, read at an entry, is the region's array at the corresponding entry (the reads
above, with `W` the contents the region finds); that array is a launched argument, unchanged by the host operations,
or one of the host-written arrays above; and the launched arguments hold `A`. -/

theorem blk0 (A : Args) (hA : ArgsAt m c A) (t : Fin cfg0.N) :
    HoldsBlock (iblk m c 0 t : Vec Ideal S5000x128 .f32) A.X1 t.val (lt20 t) := by
  intro r j
  refine (read0 c (V m c) t r j).trans ?_
  rw [V_main_arg0]
  exact hA.h0 (blockRow t.val (lt20 t) r) j

theorem blk1 (A : Args) (hA : ArgsAt m c A) (t : Fin cfg0.N) :
    HoldsBlock (iblk m c 1 t : Vec Ideal S5000x128 .f32) A.X2 t.val (lt20 t) := by
  intro r j
  refine (read1 c (V m c) t r j).trans ?_
  rw [V_main_arg1]
  exact hA.h1 (blockRow t.val (lt20 t) r) j

theorem blk2 (A : Args) (hA : ArgsAt m c A) (t : Fin cfg0.N) :
    HoldsRow (iblk m c 2 t : Vec Ideal S1x256 .f32) A.g := by
  intro j
  refine (read2 c (V m c) t j).trans ?_
  rw [V_main_arg2]
  exact hA.h2 j

theorem blk3 (A : Args) (hA : ArgsAt m c A) (t : Fin cfg0.N) :
    HoldsRow (iblk m c 3 t : Vec Ideal S1x256 .f32) A.s1 := by
  intro j
  exact (read3 c (V m c) t j).trans ((V20_apply m c j).trans (hA.h3 j))

theorem blk4 (A : Args) (hA : ArgsAt m c A) (t : Fin cfg0.N) :
    HoldsRow (iblk m c 4 t : Vec Ideal S1x256 .f32) A.b1 := by
  intro j
  exact (read4 c (V m c) t j).trans ((V21_apply m c j).trans (hA.h4 j))

theorem blk5 (A : Args) (hA : ArgsAt m c A) (t : Fin cfg0.N) :
    Holds2 (iblk m c 5 t : Vec Ideal S256x128 .f32) A.W1 := by
  intro i j
  refine (read5 c (V m c) t i j).trans ?_
  rw [V_main_arg5]
  exact hA.h5 i j

theorem blk6 (A : Args) (hA : ArgsAt m c A) (t : Fin cfg0.N) :
    HoldsRow (iblk m c 6 t : Vec Ideal S1x128 .f32) A.c1 := by
  intro j
  exact (read6 c (V m c) t j).trans ((V22_apply m c j).trans (hA.h6 j))

theorem blk7 (A : Args) (hA : ArgsAt m c A) (t : Fin cfg0.N) :
    Holds2 (iblk m c 7 t : Vec Ideal S128x128 .f32) A.Wl1 := by
  intro i j
  refine (read7 c (V m c) t i j).trans ?_
  rw [V_main_arg7]
  exact hA.h7 i j

theorem blk8 (A : Args) (hA : ArgsAt m c A) (t : Fin cfg0.N) :
    HoldsRow (iblk m c 8 t : Vec Ideal S1x128 .f32) A.bl1 := by
  intro j
  exact (read8 c (V m c) t j).trans ((V23_apply m c j).trans (hA.h8 j))

theorem blk9 (A : Args) (hA : ArgsAt m c A) (t : Fin cfg0.N) :
    Holds2 (iblk m c 9 t : Vec Ideal S128x128 .f32) A.Wr1 := by
  intro i j
  refine (read9 c (V m c) t i j).trans ?_
  rw [V_main_arg9]
  exact hA.h9 i j

theorem blk10 (A : Args) (hA : ArgsAt m c A) (t : Fin cfg0.N) :
    HoldsRow (iblk m c 10 t : Vec Ideal S1x128 .f32) A.br1 := by
  intro j
  exact (read10 c (V m c) t j).trans ((V24_apply m c j).trans (hA.h10 j))

theorem blk11 (A : Args) (hA : ArgsAt m c A) (t : Fin cfg0.N) :
    Holds2 (iblk m c 11 t : Vec Ideal S128x128 .f32) (blockAtt A.att1) := by
  intro i j
  exact (read11 c (V m c) t i j).trans (V11_apply m c A.att1 hA.h11 i j)

theorem blk12 (A : Args) (hA : ArgsAt m c A) (t : Fin cfg0.N) :
    HoldsRow (iblk m c 12 t : Vec Ideal S1x128 .f32) (fun k => A.bl1 k + A.bias1 k) := by
  intro j
  refine (read12 c (V m c) t j).trans ((V17_apply m c j).trans ?_)
  show _ = ((A.bl1 j + A.bias1 j : ℝ) : EReal)
  rw [addf_apply, hA.h8 j, hA.h12 j, EReal.coe_add]

theorem blk13 (A : Args) (hA : ArgsAt m c A) (t : Fin cfg0.N) :
    HoldsRow (iblk m c 13 t : Vec Ideal S1x256 .f32) A.s2 := by
  intro j
  exact (read13 c (V m c) t j).trans ((V25_apply m c j).trans (hA.h13 j))

theorem blk14 (A : Args) (hA : ArgsAt m c A) (t : Fin cfg0.N) :
    HoldsRow (iblk m c 14 t : Vec Ideal S1x256 .f32) A.b2 := by
  intro j
  exact (read14 c (V m c) t j).trans ((V26_apply m c j).trans (hA.h14 j))

theorem blk15 (A : Args) (hA : ArgsAt m c A) (t : Fin cfg0.N) :
    Holds2 (iblk m c 15 t : Vec Ideal S256x128 .f32) A.W2 := by
  intro i j
  refine (read15 c (V m c) t i j).trans ?_
  rw [V_main_arg15]
  exact hA.h15 i j

theorem blk16 (A : Args) (hA : ArgsAt m c A) (t : Fin cfg0.N) :
    HoldsRow (iblk m c 16 t : Vec Ideal S1x128 .f32) A.c2 := by
  intro j
  exact (read16 c (V m c) t j).trans ((V27_apply m c j).trans (hA.h16 j))

theorem blk17 (A : Args) (hA : ArgsAt m c A) (t : Fin cfg0.N) :
    Holds2 (iblk m c 17 t : Vec Ideal S128x128 .f32) A.Wl2 := by
  intro i j
  refine (read17 c (V m c) t i j).trans ?_
  rw [V_main_arg17]
  exact hA.h17 i j

theorem blk18 (A : Args) (hA : ArgsAt m c A) (t : Fin cfg0.N) :
    HoldsRow (iblk m c 18 t : Vec Ideal S1x128 .f32) A.bl2 := by
  intro j
  exact (read18 c (V m c) t j).trans ((V28_apply m c j).trans (hA.h18 j))

theorem blk19 (A : Args) (hA : ArgsAt m c A) (t : Fin cfg0.N) :
    Holds2 (iblk m c 19 t : Vec Ideal S128x128 .f32) A.Wr2 := by
  intro i j
  refine (read19 c (V m c) t i j).trans ?_
  rw [V_main_arg19]
  exact hA.h19 i j

theorem blk20 (A : Args) (hA : ArgsAt m c A) (t : Fin cfg0.N) :
    HoldsRow (iblk m c 20 t : Vec Ideal S1x128 .f32) A.br2 := by
  intro j
  exact (read20 c (V m c) t j).trans ((V29_apply m c j).trans (hA.h20 j))

theorem blk21 (A : Args) (hA : ArgsAt m c A) (t : Fin cfg0.N) :
    Holds2 (iblk m c 21 t : Vec Ideal S128x128 .f32) (blockAtt A.att2) := by
  intro i j
  exact (read21 c (V m c) t i j).trans (V15_apply m c A.att2 hA.h21 i j)

theorem blk22 (A : Args) (hA : ArgsAt m c A) (t : Fin cfg0.N) :
    HoldsRow (iblk m c 22 t : Vec Ideal S1x128 .f32) (fun k => A.bl2 k + A.bias2 k) := by
  intro j
  refine (read22 c (V m c) t j).trans ((V19_apply m c j).trans ?_)
  show _ = ((A.bl2 j + A.bias2 j : ℝ) : EReal)
  rw [addf_apply, hA.h18 j, hA.h22 j, EReal.coe_add]

theorem blk23 (A : Args) (hA : ArgsAt m c A) (t : Fin cfg0.N) :
    HoldsRow (iblk m c 23 t : Vec Ideal S1x256 .f32) A.s3 := by
  intro j
  exact (read23 c (V m c) t j).trans ((V30_apply m c j).trans (hA.h23 j))

theorem blk24 (A : Args) (hA : ArgsAt m c A) (t : Fin cfg0.N) :
    HoldsRow (iblk m c 24 t : Vec Ideal S1x256 .f32) A.b3 := by
  intro j
  exact (read24 c (V m c) t j).trans ((V31_apply m c j).trans (hA.h24 j))

theorem blk25 (A : Args) (hA : ArgsAt m c A) (t : Fin cfg0.N) :
    Holds2 (iblk m c 25 t : Vec Ideal S256x256 .f32) A.W3 := by
  intro i j
  refine (read25 c (V m c) t i j).trans ?_
  rw [V_main_arg25]
  exact hA.h25 i j

theorem blk26 (A : Args) (hA : ArgsAt m c A) (t : Fin cfg0.N) :
    HoldsRow (iblk m c 26 t : Vec Ideal S1x256 .f32) A.c3 := by
  intro j
  exact (read26 c (V m c) t j).trans ((V32_apply m c j).trans (hA.h26 j))

end StarAttn.KHost

end
-- ==== Proof.KInduct.lean ====
/-
  The scratch rows of the idealized kernel, point by point.

  After grid point `n` (blocks `0 … n` of both families streamed) there are shifts `μ₁ μ₂ : Fin 128 → ℝ` such that, per
  family, the shift row holds `μ`, the normaliser row holds `∑_{rows < 5000 (n+1)} exp (l − μ)`, the weighted-sum row
  holds `∑_{rows < 5000 (n+1)} exp (l − μ) · y` (the logits `l` and features `y` of the specification's streamed
  arrangement), and the offset row holds `(bl + p·Wr) + br`.  The first point starts from the rows it has just reset
  (−∞, 0, 0) and the offsets it has just computed; every later point starts from what the point before left.  At the
  last point the output row is the closing residual block of the two aggregates, i.e. the streamed result.
-/
import proofs.«165745_g33088428049086_cont_sun_c4_530_12_alg».proof.Proof.KPieces
import proofs.«165745_g33088428049086_cont_sun_c4_530_12_alg».proof.Proof.KStream
import proofs.«165745_g33088428049086_cont_sun_c4_530_12_alg».proof.Proof.KEnds
import proofs.«165745_g33088428049086_cont_sun_c4_530_12_alg».proof.Proof.KHost

noncomputable section

namespace StarAttn.KInduct

open Idealize.ShloMosaic Idealize.ShloMosaic.TcCoe Idealize.ShloMosaic.ValueIdx
open Cert.KernelIdeal Cert.KernelIdeal.Gen Cert.KernelIdeal.GenP Cert.KernelIdeal.KPieces

variable (m : (ℓ : Loc nD τ sig) → Buf (Elt Ideal) ℓ) (c : Dev nD)

/-- The output block and the eight carried rows, as the frame's point-by-point contents list them. -/
abbrev Rows : Type :=
  Vec Ideal S1x256 .f32 × Vec Ideal S1x128 .f32 × Vec Ideal S1x128 .f32 × Vec Ideal S1x128 .f32 × Vec Ideal S1x128 .f32
    × Vec Ideal S1x128 .f32 × Vec Ideal S1x128 .f32 × Vec Ideal S1x128 .f32 × Vec Ideal S1x128 .f32

/-- The carried rows `P` hold the running sums over the first `rows` source rows, with shifts `μ₁ μ₂`. -/
structure InvAt (A : Args) (P : Rows) (rows : ℕ) (μ₁ μ₂ : Fin 128 → ℝ) : Prop where
  sh1 : HoldsRow P.2.1 μ₁
  nm1 : HoldsRow P.2.2.1 (fun k => partS rows (μ₁ k) (fun n => logitS A.X1 A.Wl1 (offS A.bl1 A.br1 A.p1 A.Wr1) A.att1 n k))
  ws1 : HoldsRow P.2.2.2.1 (fun k => partW rows (μ₁ k) (fun n => logitS A.X1 A.Wl1 (offS A.bl1 A.br1 A.p1 A.Wr1) A.att1 n k) (fun n => feat A.X1 A.Wl1 n k))
  of1 : HoldsRow P.2.2.2.2.1 (offS A.bl1 A.br1 A.p1 A.Wr1)
  sh2 : HoldsRow P.2.2.2.2.2.1 μ₂
  nm2 : HoldsRow P.2.2.2.2.2.2.1 (fun k => partS rows (μ₂ k) (fun n => logitS A.X2 A.Wl2 (offS A.bl2 A.br2 A.p2 A.Wr2) A.att2 n k))
  ws2 : HoldsRow P.2.2.2.2.2.2.2.1 (fun k => partW rows (μ₂ k) (fun n => logitS A.X2 A.Wl2 (offS A.bl2 A.br2 A.p2 A.Wr2) A.att2 n k) (fun n => feat A.X2 A.Wl2 n k))
  of2 : HoldsRow P.2.2.2.2.2.2.2.2 (offS A.bl2 A.br2 A.p2 A.Wr2)

/-- One later point: from rows `P` good up to `5000 t` source rows, the rows `Q` the point leaves (the body's step
    applied to the point's blocks and `P`) are good up to `5000 (t + 1)`. -/
theorem step (A : Args) (hA : KHost.ArgsAt m c A) (t : Fin cfg0.N) (P Q : Rows) (μ₁ μ₂ : Fin 128 → ℝ)
    (hP : InvAt A P (5000 * t.val) μ₁ μ₂)
    (e0 : Q.2.1 = shift1 (iblk m c 0 t) (iblk m c 7 t) P.2.2.2.2.1 (iblk m c 11 t) P.2.1)
    (e1 : Q.2.2.1 = norm1 (iblk m c 0 t) (iblk m c 7 t) P.2.2.2.2.1 (iblk m c 11 t) P.2.1 P.2.2.1)
    (e2 : Q.2.2.2.1 = wsum1 (iblk m c 0 t) (iblk m c 7 t) P.2.2.2.2.1 (iblk m c 11 t) P.2.1 P.2.2.2.1)
    (e3 : Q.2.2.2.2.1 = P.2.2.2.2.1)
    (e4 : Q.2.2.2.2.2.1 = shift2 (iblk m c 1 t) (iblk m c 17 t) P.2.2.2.2.2.2.2.2 (iblk m c 21 t) P.2.2.2.2.2.1)
    (e5 : Q.2.2.2.2.2.2.1 = norm2 (iblk m c 1 t) (iblk m c 17 t) P.2.2.2.2.2.2.2.2 (iblk m c 21 t) P.2.2.2.2.2.1 P.2.2.2.2.2.2.1)
    (e6 : Q.2.2.2.2.2.2.2.1 = wsum2 (iblk m c 1 t) (iblk m c 17 t) P.2.2.2.2.2.2.2.2 (iblk m c 21 t) P.2.2.2.2.2.1 P.2.2.2.2.2.2.2.1)
    (e7 : Q.2.2.2.2.2.2.2.2 = P.2.2.2.2.2.2.2.2) :
    ∃ μ₁' μ₂' : Fin 128 → ℝ, InvAt A Q (5000 * (t.val + 1)) μ₁' μ₂' := by
  obtain ⟨μ₁', a0, a1, a2⟩ := stream1_step t.val (KHost.lt20 t) A.X1 A.Wl1 (offS A.bl1 A.br1 A.p1 A.Wr1) A.att1 μ₁
    (iblk m c 0 t) (iblk m c 7 t) (iblk m c 11 t) P.2.2.2.2.1 P.2.1 P.2.2.1 P.2.2.2.1
    (KHost.blk0 m c A hA t) (KHost.blk7 m c A hA t) hP.of1 (KHost.blk11 m c A hA t) hP.sh1 hP.nm1 hP.ws1
  obtain ⟨μ₂', b0, b1, b2⟩ := stream2_step t.val (KHost.lt20 t) A.X2 A.Wl2 (offS A.bl2 A.br2 A.p2 A.Wr2) A.att2 μ₂
    (iblk m c 1 t) (iblk m c 17 t) (iblk m c 21 t) P.2.2.2.2.2.2.2.2 P.2.2.2.2.2.1 P.2.2.2.2.2.2.1 P.2.2.2.2.2.2.2.1
    (KHost.blk1 m c A hA t) (KHost.blk17 m c A hA t) hP.of2 (KHost.blk21 m c A hA t) hP.sh2 hP.nm2 hP.ws2
  exact ⟨μ₁', μ₂', ⟨by rw [e0]; exact a0, by rw [e1]; exact a1, by rw [e2]; exact a2, by rw [e3]; exact hP.of1,
    by rw [e4]; exact b0, by rw [e5]; exact b1, by rw [e6]; exact b2, by rw [e7]; exact hP.of2⟩⟩

/-- The first point: from the rows it has just reset and the offsets it has just computed. -/
theorem first (A : Args) (hA : KHost.ArgsAt m c A) (t : Fin cfg0.N) (ht : t.val = 0) (Q : Rows)
    (e0 : Q.2.1 = shift1 (iblk m c 0 t) (iblk m c 7 t) (off1 (iblk m c 2 t) (iblk m c 3 t) (iblk m c 4 t) (iblk m c 5 t) (iblk m c 6 t) (iblk m c 8 t) (iblk m c 9 t) (iblk m c 10 t)) (iblk m c 11 t) shiftInit1)
    (e1 : Q.2.2.1 = norm1 (iblk m c 0 t) (iblk m c 7 t) (off1 (iblk m c 2 t) (iblk m c 3 t) (iblk m c 4 t) (iblk m c 5 t) (iblk m c 6 t) (iblk m c 8 t) (iblk m c 9 t) (iblk m c 10 t)) (iblk m c 11 t) shiftInit1 normInit1)
    (e2 : Q.2.2.2.1 = wsum1 (iblk m c 0 t) (iblk m c 7 t) (off1 (iblk m c 2 t) (iblk m c 3 t) (iblk m c 4 t) (iblk m c 5 t) (iblk m c 6 t) (iblk m c 8 t) (iblk m c 9 t) (iblk m c 10 t)) (iblk m c 11 t) shiftInit1 wsumInit1)
    (e3 : Q.2.2.2.2.1 = off1 (iblk m c 2 t) (iblk m c 3 t) (iblk m c 4 t) (iblk m c 5 t) (iblk m c 6 t) (iblk m c 8 t) (iblk m c 9 t) (iblk m c 10 t))
    (e4 : Q.2.2.2.2.2.1 = shift2 (iblk m c 1 t) (iblk m c 17 t) (off2 (iblk m c 2 t) (iblk m c 13 t) (iblk m c 14 t) (iblk m c 15 t) (iblk m c 16 t) (iblk m c 18 t) (iblk m c 19 t) (iblk m c 20 t)) (iblk m c 21 t) shiftInit2)
    (e5 : Q.2.2.2.2.2.2.1 = norm2 (iblk m c 1 t) (iblk m c 17 t) (off2 (iblk m c 2 t) (iblk m c 13 t) (iblk m c 14 t) (iblk m c 15 t) (iblk m c 16 t) (iblk m c 18 t) (iblk m c 19 t) (iblk m c 20 t)) (iblk m c 21 t) shiftInit2 normInit2)
    (e6 : Q.2.2.2.2.2.2.2.1 = wsum2 (iblk m c 1 t) (iblk m c 17 t) (off2 (iblk m c 2 t) (iblk m c 13 t) (iblk m c 14 t) (iblk m c 15 t) (iblk m c 16 t) (iblk m c 18 t) (iblk m c 19 t) (iblk m c 20 t)) (iblk m c 21 t) shiftInit2 wsumInit2)
    (e7 : Q.2.2.2.2.2.2.2.2 = off2 (iblk m c 2 t) (iblk m c 13 t) (iblk m c 14 t) (iblk m c 15 t) (iblk m c 16 t) (iblk m c 18 t) (iblk m c 19 t) (iblk m c 20 t)) :
    ∃ μ₁ μ₂ : Fin 128 → ℝ, InvAt A Q (5000 * (0 + 1)) μ₁ μ₂ := by
  have o1 : HoldsRow (off1 (iblk m c 2 t) (iblk m c 3 t) (iblk m c 4 t) (iblk m c 5 t) (iblk m c 6 t) (iblk m c 8 t) (iblk m c 9 t) (iblk m c 10 t)) (offS A.bl1 A.br1 A.p1 A.Wr1) :=
    KEnds.offset1 (KHost.blk2 m c A hA t) (KHost.blk3 m c A hA t) (KHost.blk4 m c A hA t) (KHost.blk5 m c A hA t) (KHost.blk6 m c A hA t)
      (KHost.blk8 m c A hA t) (KHost.blk9 m c A hA t) (KHost.blk10 m c A hA t)
  have o2 : HoldsRow (off2 (iblk m c 2 t) (iblk m c 13 t) (iblk m c 14 t) (iblk m c 15 t) (iblk m c 16 t) (iblk m c 18 t) (iblk m c 19 t) (iblk m c 20 t)) (offS A.bl2 A.br2 A.p2 A.Wr2) :=
    KEnds.offset2 (KHost.blk2 m c A hA t) (KHost.blk13 m c A hA t) (KHost.blk14 m c A hA t) (KHost.blk15 m c A hA t) (KHost.blk16 m c A hA t)
      (KHost.blk18 m c A hA t) (KHost.blk19 m c A hA t) (KHost.blk20 m c A hA t)
  have hx1 : HoldsBlock (iblk m c 0 t : Vec Ideal S5000x128 .f32) A.X1 0 (by norm_num) := fun r j => by
    have h := KHost.blk0 m c A hA t r j
    simpa only [blockRow, ht] using h
  have hx2 : HoldsBlock (iblk m c 1 t : Vec Ideal S5000x128 .f32) A.X2 0 (by norm_num) := fun r j => by
    have h := KHost.blk1 m c A hA t r j
    simpa only [blockRow, ht] using h
  obtain ⟨μ₁, a0, a1, a2⟩ := stream1_first A.X1 A.Wl1 (offS A.bl1 A.br1 A.p1 A.Wr1) A.att1
    (iblk m c 0 t) (iblk m c 7 t) (iblk m c 11 t) _ shiftInit1 normInit1 wsumInit1
    hx1 (KHost.blk7 m c A hA t) o1 (KHost.blk11 m c A hA t)
    (fun k => (KEnds.neg_row k).1) (fun k => (KEnds.zero_row k).1) (fun k => (KEnds.zero_row k).2.2.1)
  obtain ⟨μ₂, b0, b1, b2⟩ := stream2_first A.X2 A.Wl2 (offS A.bl2 A.br2 A.p2 A.Wr2) A.att2
    (iblk m c 1 t) (iblk m c 17 t) (iblk m c 21 t) _ shiftInit2 normInit2 wsumInit2
    hx2 (KHost.blk17 m c A hA t) o2 (KHost.blk21 m c A hA t)
    (fun k => (KEnds.neg_row k).2) (fun k => (KEnds.zero_row k).2.1) (fun k => (KEnds.zero_row k).2.2.2)
  exact ⟨μ₁, μ₂, ⟨by rw [e0]; exact a0, by rw [e1]; exact a1, by rw [e2]; exact a2, by rw [e3]; exact o1,
    by rw [e4]; exact b0, by rw [e5]; exact b1, by rw [e6]; exact b2, by rw [e7]; exact o2⟩⟩

/-- Every point leaves good rows. -/
theorem inv_all (A : Args) (hA : KHost.ArgsAt m c A) :
    ∀ (n : ℕ) (hn : n < cfg0.N), ∃ μ₁ μ₂ : Fin 128 → ℝ, InvAt A (outsAt0 (F := Ideal) m c n hn) (5000 * (n + 1)) μ₁ μ₂
  | 0, hn => by
    have h0 : (⟨0, hn⟩ : Fin cfg0.N).val % 20 = 0 := rfl
    have h1 : ¬(⟨0, hn⟩ : Fin cfg0.N).val % 20 = 19 := by show ¬(0 % 20 = 19); decide
    exact first m c A hA ⟨0, hn⟩ rfl _ (at_A_s0 m c ⟨0, hn⟩ h0 h1) (at_A_s1 m c ⟨0, hn⟩ h0 h1) (at_A_s2 m c ⟨0, hn⟩ h0 h1)
      (at_A_s3 m c ⟨0, hn⟩ h0 h1) (at_A_s4 m c ⟨0, hn⟩ h0 h1) (at_A_s5 m c ⟨0, hn⟩ h0 h1) (at_A_s6 m c ⟨0, hn⟩ h0 h1) (at_A_s7 m c ⟨0, hn⟩ h0 h1)
  | n + 1, hn => by
    obtain ⟨μ₁, μ₂, ih⟩ := inv_all A hA n (Nat.lt_of_succ_lt hn)
    have h20 : n + 1 < 20 := KHost.lt20 ⟨n + 1, hn⟩
    have h0 : ¬(⟨n + 1, hn⟩ : Fin cfg0.N).val % 20 = 0 := by show ¬((n + 1) % 20 = 0); omega
    by_cases h1 : (⟨n + 1, hn⟩ : Fin cfg0.N).val % 20 = 19
    · exact step m c A hA ⟨n + 1, hn⟩ (outsAt0 (F := Ideal) m c n (Nat.lt_of_succ_lt hn)) _ μ₁ μ₂ ih
        (at_C_s0 m c ⟨n + 1, hn⟩ h0 h1) (at_C_s1 m c ⟨n + 1, hn⟩ h0 h1) (at_C_s2 m c ⟨n + 1, hn⟩ h0 h1) (at_C_s3 m c ⟨n + 1, hn⟩ h0 h1)
        (at_C_s4 m c ⟨n + 1, hn⟩ h0 h1) (at_C_s5 m c ⟨n + 1, hn⟩ h0 h1) (at_C_s6 m c ⟨n + 1, hn⟩ h0 h1) (at_C_s7 m c ⟨n + 1, hn⟩ h0 h1)
    · exact step m c A hA ⟨n + 1, hn⟩ (outsAt0 (F := Ideal) m c n (Nat.lt_of_succ_lt hn)) _ μ₁ μ₂ ih
        (at_B_s0 m c ⟨n + 1, hn⟩ h0 h1) (at_B_s1 m c ⟨n + 1, hn⟩ h0 h1) (at_B_s2 m c ⟨n + 1, hn⟩ h0 h1) (at_B_s3 m c ⟨n + 1, hn⟩ h0 h1)
        (at_B_s4 m c ⟨n + 1, hn⟩ h0 h1) (at_B_s5 m c ⟨n + 1, hn⟩ h0 h1) (at_B_s6 m c ⟨n + 1, hn⟩ h0 h1) (at_B_s7 m c ⟨n + 1, hn⟩ h0 h1)

/-- The last point's output row is the streamed result. -/
theorem out_last (A : Args) (hA : KHost.ArgsAt m c A) (t : Fin cfg0.N) (h0 : ¬t.val % 20 = 0) (h1 : t.val % 20 = 19) :
    ∃ μ₁ μ₂ : Fin 128 → ℝ, HoldsRow (outsAt0 (F := Ideal) m c t.val t.isLt).1 (A.outS μ₁ μ₂) := by
  obtain ⟨μ₁, μ₂, inv⟩ := inv_all m c A hA t.val t.isLt
  have h20 : t.val < 20 := KHost.lt20 t
  have hr : 5000 * (t.val + 1) = 100000 := by omega
  rw [hr] at inv
  refine ⟨μ₁, μ₂, ?_⟩
  rw [at_C_out m c t h0 h1]
  exact KEnds.final_out A μ₁ μ₂
    (by rw [← at_C_s2 m c t h0 h1]; exact inv.ws1) (by rw [← at_C_s1 m c t h0 h1]; exact inv.nm1) (KHost.blk12 m c A hA t)
    (by rw [← at_C_s6 m c t h0 h1]; exact inv.ws2) (by rw [← at_C_s5 m c t h0 h1]; exact inv.nm2) (KHost.blk22 m c A hA t)
    (KHost.blk2 m c A hA t) (KHost.blk23 m c A hA t) (KHost.blk24 m c A hA t) (KHost.blk25 m c A hA t) (KHost.blk26 m c A hA t)

end StarAttn.KInduct

end
-- ==== Proof.KFinal.lean ====
/-
  The result array of the idealized kernel after its run.

  The kernel has one output window: a single block of shape [1, 256] whose block index is (0, 0) at every one of the 20
  grid points, written back to the result array at the last point only.  So the result array after the run is exactly
  the output row that the last point leaves: every index of the [1, 256] array lies in that one block, and no other
  point writes anything back.  The last point's output row holds the streamed result `A.outS μ₁ μ₂` for some shifts
  `μ₁ μ₂`, hence so does the result array; the 27 argument arrays are as they were at launch.
-/
import proofs.«165745_g33088428049086_cont_sun_c4_530_12_alg».proof.Proof.KInduct
import proofs.«165745_g33088428049086_cont_sun_c4_530_12_alg».proof.Proof.PatchedKernelIdealValue

noncomputable section

namespace StarAttn.KFinal

open Idealize.ShloMosaic Idealize.ShloMosaic.TcCoe Idealize.ShloMosaic.ValueIdx Idealize.SL.Sem
open Cert.KernelIdeal Cert.KernelIdeal.Gen Cert.KernelIdeal.GenP
open Idealize.ShloMosaic.Pipeline (Dat)

variable (m : (ℓ : Loc nD τ sig) → Buf (Elt Ideal) ℓ) (ρ : Dev nD → PrngReg)

/-! ## Where the output block goes, and when -/

/-- The output window is written back at no point other than point 19 (decided over the 20 points). -/
theorem flush_iff_last : ∀ t : Fin cfg0.N, (cfg0.win 28).flush t = true → t.val = 19 :=
  (by decide +kernel : ∀ t : Fin grid0.N, win0_28.flush t = true → t.val = 19)

theorem last_lt : 19 < cfg0.N := (by decide : 19 < grid0.N)

/-- The last grid point. -/
abbrev last : Fin cfg0.N := ⟨19, last_lt⟩

/-- … and at point 19 it is written back. -/
theorem flush_last : (cfg0.win 28).flush last = true :=
  (by decide +kernel : win0_28.flush (⟨19, by decide⟩ : Fin grid0.N) = true)

/-- The output window's block index is (0, 0) at every point (decided over the 20 points). -/
theorem index_zero : ∀ t : Fin cfg0.N, win0_28.index t (0 : Fin 2) = 0 ∧ win0_28.index t (1 : Fin 2) = 0 :=
  (by decide +kernel : ∀ t : Fin grid0.N, _)

/-- The block is the whole array: what a write-back moves out of block contents `X` is `X` read through the block's
    place in the array, because the block sits at offset `0 · 1 + j₀`, `0 · 256 + j₁`. -/
theorem cut_eq_read (t : Fin cfg0.N) (X : Vec Ideal S1x256 .f32) :
    (cfg0.win 28).cut (grid0.coords t) X = ((cfg0.win 28).blk t).view.read (Elt Ideal) X := by
  obtain ⟨e0, e1⟩ := index_zero t
  funext j
  show X ((cfg0.win 28).xinj (grid0.coords t) j) = X (((cfg0.win 28).blk t).view.emb j)
  congr 1
  funext a; apply Fin.ext
  match a with
  | ⟨0, _⟩ => show (j 0).val = win0_28.index t (0 : Fin 2) * 1 + 1 * (j 0).val; omega
  | ⟨1, _⟩ => show (j 1).val = win0_28.index t (1 : Fin 2) * 256 + 1 * (j 1).val; omega

/-- An index of the array is in point `t`'s block iff each coordinate is in the block's range on its axis. -/
theorem mem_blk (t : Fin cfg0.N) (i : S1x256.Idx) :
    i ∈ ((cfg0.win 28).blk t).view.set ↔ ∀ a : Fin 2, win0_28.index t a * S1x256.size a ≤ (i a).val ∧ (i a).val < win0_28.index t a * S1x256.size a + S1x256.size a := by
  show i ∈ ((View.whole main_v34).slice (win0_28.rect t)).set ↔ _
  rw [View.set_slice_whole, Rect.mem_set_unit]
  exact Iff.rfl

/-- Every index of the [1, 256] array lies in the last point's block, which is written back. -/
theorem cover (i : S1x256.Idx) : ∃ t : Fin cfg0.N, (cfg0.win 28).flush t = true ∧ i ∈ ((cfg0.win 28).blk t).view.set := by
  refine ⟨last, flush_last, ?_⟩
  rw [mem_blk]
  obtain ⟨e0, e1⟩ := index_zero last
  intro a
  match a with
  | ⟨0, _⟩ => show win0_28.index last (0 : Fin 2) * 1 ≤ (i 0).val ∧ (i 0).val < win0_28.index last (0 : Fin 2) * 1 + 1; have hi : (i 0).val < 1 := (i 0).isLt; omega
  | ⟨1, _⟩ => show win0_28.index last (1 : Fin 2) * 256 ≤ (i 1).val ∧ (i 1).val < win0_28.index last (1 : Fin 2) * 256 + 256; have hi : (i 1).val < 256 := (i 1).isLt; omega

/-! ## The result array -/

/-- The result array after the run is the output row the last point leaves. -/
theorem final_eq (c : Dev nD) :
    (dats (F := Ideal) m 0 c).arrAt 28 cfg0.N = (outsAt0 (F := Ideal) m c last.val last.isLt).1 :=
  (dats (F := Ideal) m 0 c).arrAt_eq_of_cover 28 _
    (fun t hf => by
      obtain rfl : t = last := Fin.ext (flush_iff_last t hf)
      rw [ValueP.flushed28]
      exact cut_eq_read last _)
    cover

/-- The result array after the run holds the streamed result. -/
theorem final_array (A : Args) (c : Dev nD) (hA : KHost.ArgsAt m c A) :
    ∃ μ₁ μ₂ : Fin 128 → ℝ, HoldsRow ((dats (F := Ideal) m 0 c).arrAt 28 cfg0.N) (A.outS μ₁ μ₂) := by
  obtain ⟨μ₁, μ₂, h⟩ := KInduct.out_last m c A hA last (by decide) (by decide)
  exact ⟨μ₁, μ₂, by rw [final_eq]; exact h⟩

/-! ## The run, read -/

/-- The kernel's run: the result array holds the streamed result, the arguments are unchanged. -/
theorem run_value (A : Dev nD → Args) (hA : ∀ c, KHost.ArgsAt m c (A c)) :
    θ_run defs (onTc (τ := τ) (main (F := Ideal))) ⟨m, fun _ => 0, ρ⟩ fun r => ∀ c : Dev nD,
      (∃ μ₁ μ₂ : Fin 128 → ℝ, HoldsRow (r.2.mem ((c : Thread nD τ).loc main_v34)) ((A c).outS μ₁ μ₂))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26) :=
  (θ_run defs _ _).mono
    (fun r h c => ⟨by rw [(h c).1]; exact final_array m (A c) c (hA c), (h c).2⟩)
    (ValueP.run_blocks m ρ)

end StarAttn.KFinal

end
-- ==== Proof.RefTable.lean ====
/- The reference program's values as pure terms. For every value of the program (and of each callee body, at the call
   that runs it) the term that the statement defining it computes from the terms of its operands: `res_<buffer>` is a
   function of the twenty-seven argument arrays alone, the chain reads as the program does, and `res_out` is the
   value the program returns. -/
import proofs.«165745_g33088428049086_cont_sun_c4_530_12_alg».proof.Proof.Gen.ReferenceIdeal

noncomputable section

namespace Cert.ReferenceIdeal.HandRun

open Cert.ReferenceIdeal Cert.ReferenceIdeal.Gen Idealize.ShloMosaic

variable {F : FTy → Type} [FloatOps F]

/-- The program's twenty-seven argument arrays. -/
structure Args (F : FTy → Type) where
  a0 : FVec F S100000x128 .f32
  a1 : FVec F S100000x128 .f32
  a2 : FVec F S1x256 .f32
  a3 : FVec F S256 .f32
  a4 : FVec F S256 .f32
  a5 : FVec F S256x128 .f32
  a6 : FVec F S128 .f32
  a7 : FVec F S128x128 .f32
  a8 : FVec F S128 .f32
  a9 : FVec F S128x128 .f32
  a10 : FVec F S128 .f32
  a11 : FVec F S8x16 .f32
  a12 : FVec F S128 .f32
  a13 : FVec F S256 .f32
  a14 : FVec F S256 .f32
  a15 : FVec F S256x128 .f32
  a16 : FVec F S128 .f32
  a17 : FVec F S128x128 .f32
  a18 : FVec F S128 .f32
  a19 : FVec F S128x128 .f32
  a20 : FVec F S128 .f32
  a21 : FVec F S8x16 .f32
  a22 : FVec F S128 .f32
  a23 : FVec F S256 .f32
  a24 : FVec F S256 .f32
  a25 : FVec F S256x256 .f32
  a26 : FVec F S256 .f32

def res_cst (A : Args F) : FVec F S_ .f32 :=
  constant S_ .f32 0x00000000#32
def res_v0 (A : Args F) : FVec F S1 .f32 :=
  Host.reduceAdd A.a2 (res_cst A) reducesTo_S1x256_S1_d1 h_S_
def res_v1 (A : Args F) : FVec F S1x1 .f32 :=
  broadcastInDim S1x1 ![0] bcast_S1_S1x1_0 (res_v0 A)
def res_cst_0 (A : Args F) : FVec F S_ .f32 :=
  constant S_ .f32 0x43800000#32
def res_v2 (A : Args F) : FVec F S1x1 .f32 :=
  broadcastInDim S1x1 ![] bcast_S_S1x1 (res_cst_0 A)
def res_v3 (A : Args F) : FVec F S1x1 .f32 :=
  Host.divf (res_v1 A) (res_v2 A)
def res_c (A : Args F) : IVec S_ 32 :=
  constantI S_ 32 0#32
def res_call0_cst (A : Args F) : FVec F S_ .f32 :=
  constant S_ .f32 0x00000000#32
def res_call0_v0 (A : Args F) : FVec F S1 .f32 :=
  Host.reduceAdd A.a2 (res_call0_cst A) reducesTo_S1x256_S1_d1 h_S_
def res_call0_v1 (A : Args F) : FVec F S1x1 .f32 :=
  broadcastInDim S1x1 ![0] bcast_S1_S1x1_0 (res_call0_v0 A)
def res_call0_cst_0 (A : Args F) : FVec F S_ .f32 :=
  constant S_ .f32 0x43800000#32
def res_call0_v2 (A : Args F) : FVec F S1x1 .f32 :=
  broadcastInDim S1x1 ![] bcast_S_S1x1 (res_call0_cst_0 A)
def res_call0_v3 (A : Args F) : FVec F S1x1 .f32 :=
  Host.divf (res_call0_v1 A) (res_call0_v2 A)
def res_call0_v4 (A : Args F) : FVec F S1x256 .f32 :=
  broadcastInDim S1x256 ![0, 1] bcast_S1x1_S1x256_0_1 (res_call0_v3 A)
def res_call0_v5 (A : Args F) : FVec F S1x256 .f32 :=
  subf A.a2 (res_call0_v4 A)
def res_call0_v6 (A : Args F) : FVec F S1x256 .f32 :=
  mulf (res_call0_v5 A) (res_call0_v5 A)
def res_call0_v7 (A : Args F) : FVec F S_ .f32 :=
  sitofp .f32 (res_c A)
def res_call0_cst_1 (A : Args F) : FVec F S_ .f32 :=
  constant S_ .f32 0x43800000#32
def res_call0_v8 (A : Args F) : FVec F S_ .f32 :=
  subf (res_call0_cst_1 A) (res_call0_v7 A)
def res_call0_cst_2 (A : Args F) : FVec F S_ .f32 :=
  constant S_ .f32 0x00000000#32
def res_call0_v9 (A : Args F) : FVec F S1 .f32 :=
  Host.reduceAdd (res_call0_v6 A) (res_call0_cst_2 A) reducesTo_S1x256_S1_d1 h_S_
def res_call0_v10 (A : Args F) : FVec F S1x1 .f32 :=
  broadcastInDim S1x1 ![0] bcast_S1_S1x1_0 (res_call0_v9 A)
def res_call0_v11 (A : Args F) : FVec F S1x1 .f32 :=
  broadcastInDim S1x1 ![] bcast_S_S1x1 (res_call0_v8 A)
def res_call0_v12 (A : Args F) : FVec F S1x1 .f32 :=
  Host.divf (res_call0_v10 A) (res_call0_v11 A)
def res_call0_cst_3 (A : Args F) : FVec F S_ .f32 :=
  constant S_ .f32 0x00000000#32
def res_call0_v13 (A : Args F) : IVec S_ 1 :=
  cmpf .ogt (res_call0_v8 A) (res_call0_cst_3 A)
def res_call0_cst_4 (A : Args F) : FVec F S_ .f32 :=
  constant S_ .f32 0x7FC00000#32
def res_call0_call0_v0 (A : Args F) : FVec F S_ .f32 :=
  id (res_call0_cst_4 A)
def res_call0_call0_v1 (A : Args F) : FVec F S1x1 .f32 :=
  broadcastInDim S1x1 ![] bcast_S_S1x1 (res_call0_call0_v0 A)
def res_v4 (A : Args F) : FVec F S1x1 .f32 :=
  select (broadcastInDim S1x1 ![] bcast_S_S1x1 (res_call0_v13 A)) (res_call0_v12 A) (res_call0_call0_v1 A)
def res_v5 (A : Args F) : FVec F S1x256 .f32 :=
  broadcastInDim S1x256 ![0, 1] bcast_S1x1_S1x256_0_1 (res_v3 A)
def res_v6 (A : Args F) : FVec F S1x256 .f32 :=
  subf A.a2 (res_v5 A)
def res_cst_1 (A : Args F) : FVec F S_ .f32 :=
  constant S_ .f32 0x3727C5AC#32
def res_v7 (A : Args F) : FVec F S1x1 .f32 :=
  broadcastInDim S1x1 ![] bcast_S_S1x1 (res_cst_1 A)
def res_v8 (A : Args F) : FVec F S1x1 .f32 :=
  addf (res_v4 A) (res_v7 A)
def res_v9 (A : Args F) : FVec F S1x1 .f32 :=
  Host.rsqrt (res_v8 A)
def res_v10 (A : Args F) : FVec F S1x256 .f32 :=
  broadcastInDim S1x256 ![0, 1] bcast_S1x1_S1x256_0_1 (res_v9 A)
def res_v11 (A : Args F) : FVec F S1x256 .f32 :=
  mulf (res_v6 A) (res_v10 A)
def res_v12 (A : Args F) : FVec F S1x256 .f32 :=
  broadcastInDim S1x256 ![1] bcast_S256_S1x256_1 A.a3
def res_v13 (A : Args F) : FVec F S1x256 .f32 :=
  mulf (res_v11 A) (res_v12 A)
def res_v14 (A : Args F) : FVec F S1x256 .f32 :=
  broadcastInDim S1x256 ![1] bcast_S256_S1x256_1 A.a4
def res_v15 (A : Args F) : FVec F S1x256 .f32 :=
  addf (res_v13 A) (res_v14 A)
def res_call1_cst (A : Args F) : FVec F S_ .f32 :=
  constant S_ .f32 0x00000000#32
def res_call1_v0 (A : Args F) : FVec F S1x256 .f32 :=
  broadcastInDim S1x256 ![] bcast_S_S1x256 (res_call1_cst A)
def res_v16 (A : Args F) : FVec F S1x256 .f32 :=
  maximumf (res_v15 A) (res_call1_v0 A)
def res_v17 (A : Args F) : FVec F S1x128 .f32 :=
  Host.dotGeneral dot_S1x256_S256x128_S1x128_1_0_0_1_n_n none (res_v16 A) A.a5
def res_v18 (A : Args F) : FVec F S1x128 .f32 :=
  broadcastInDim S1x128 ![1] bcast_S128_S1x128_1 A.a6
def res_v19 (A : Args F) : FVec F S1x128 .f32 :=
  addf (res_v17 A) (res_v18 A)
def res_v20 (A : Args F) : FVec F S100000x128 .f32 :=
  Host.dotGeneral dot_S100000x128_S128x128_S100000x128_1_0_0_1_n_n none A.a0 A.a7
def res_v21 (A : Args F) : FVec F S1x128 .f32 :=
  broadcastInDim S1x128 ![1] bcast_S128_S1x128_1 A.a8
def res_v22 (A : Args F) : FVec F S100000x128 .f32 :=
  broadcastInDim S100000x128 ![0, 1] bcast_S1x128_S100000x128_0_1 (res_v21 A)
def res_v23 (A : Args F) : FVec F S100000x128 .f32 :=
  addf (res_v20 A) (res_v22 A)
def res_v24 (A : Args F) : FVec F S100000x8x16 .f32 :=
  shapeCast S100000x8x16 (res_v23 A) shapeCasts_S100000x128_S100000x8x16
def res_v25 (A : Args F) : FVec F S1x128 .f32 :=
  Host.dotGeneral dot_S1x128_S128x128_S1x128_1_0_0_1_n_n none (res_v19 A) A.a9
def res_v26 (A : Args F) : FVec F S1x128 .f32 :=
  broadcastInDim S1x128 ![1] bcast_S128_S1x128_1 A.a10
def res_v27 (A : Args F) : FVec F S1x128 .f32 :=
  addf (res_v25 A) (res_v26 A)
def res_v28 (A : Args F) : FVec F S1x8x16 .f32 :=
  shapeCast S1x8x16 (res_v27 A) shapeCasts_S1x128_S1x8x16
def res_v29 (A : Args F) : FVec F S100000x8x16 .f32 :=
  broadcastInDim S100000x8x16 ![0, 1, 2] bcast_S1x8x16_S100000x8x16_0_1_2 (res_v28 A)
def res_v30 (A : Args F) : FVec F S100000x8x16 .f32 :=
  addf (res_v24 A) (res_v29 A)
def res_cst_2 (A : Args F) : FVec F S_ .f32 :=
  constant S_ .f32 0x3E4CCCCD#32
def res_call2_cst (A : Args F) : FVec F S_ .f32 :=
  constant S_ .f32 0x00000000#32
def res_call2_v0 (A : Args F) : FVec F S100000x8x16 .f32 :=
  broadcastInDim S100000x8x16 ![] bcast_S_S100000x8x16 (res_call2_cst A)
def res_call2_v1 (A : Args F) : IVec S100000x8x16 1 :=
  cmpf .oge (res_v30 A) (res_call2_v0 A)
def res_call2_v2 (A : Args F) : FVec F S_ .f32 :=
  id (res_cst_2 A)
def res_call2_v3 (A : Args F) : FVec F S100000x8x16 .f32 :=
  broadcastInDim S100000x8x16 ![] bcast_S_S100000x8x16 (res_call2_v2 A)
def res_call2_v4 (A : Args F) : FVec F S100000x8x16 .f32 :=
  mulf (res_call2_v3 A) (res_v30 A)
def res_v31 (A : Args F) : FVec F S100000x8x16 .f32 :=
  select (res_call2_v1 A) (res_v30 A) (res_call2_v4 A)
def res_v32 (A : Args F) : FVec F S1x8x16 .f32 :=
  broadcastInDim S1x8x16 ![1, 2] bcast_S8x16_S1x8x16_1_2 A.a11
def res_v33 (A : Args F) : FVec F S100000x8x16 .f32 :=
  broadcastInDim S100000x8x16 ![0, 1, 2] bcast_S1x8x16_S100000x8x16_0_1_2 (res_v32 A)
def res_v34 (A : Args F) : FVec F S100000x8x16 .f32 :=
  mulf (res_v31 A) (res_v33 A)
def res_cst_3 (A : Args F) : FVec F S_ .f32 :=
  constant S_ .f32 0x00000000#32
def res_v35 (A : Args F) : FVec F S100000x8 .f32 :=
  Host.reduceAdd (res_v34 A) (res_cst_3 A) reducesTo_S100000x8x16_S100000x8_d2 h_S_
def res_cst_4 (A : Args F) : FVec F S_ .f32 :=
  constant S_ .f32 0xFF800000#32
def res_v36 (A : Args F) : FVec F S8 .f32 :=
  Host.reduce FloatOps.maximumf (res_v35 A) (res_cst_4 A) reducesTo_S100000x8_S8_d0 h_S_
def res_cst_5 (A : Args F) : FVec F S_ .f32 :=
  constant S_ .f32 0xFF800000#32
def res_v37 (A : Args F) : FVec F S8 .f32 :=
  broadcastInDim S8 ![] bcast_S_S8 (res_cst_5 A)
def res_v38 (A : Args F) : FVec F S8 .f32 :=
  maximumf (res_v37 A) (res_v36 A)
def res_v39 (A : Args F) : FVec F S1x8 .f32 :=
  broadcastInDim S1x8 ![1] bcast_S8_S1x8_1 (res_v38 A)
def res_v40 (A : Args F) : FVec F S100000x8 .f32 :=
  broadcastInDim S100000x8 ![0, 1] bcast_S1x8_S100000x8_0_1 (res_v39 A)
def res_v41 (A : Args F) : FVec F S100000x8 .f32 :=
  subf (res_v35 A) (res_v40 A)
def res_v42 (A : Args F) : FVec F S100000x8 .f32 :=
  Host.exp (res_v41 A)
def res_cst_6 (A : Args F) : FVec F S_ .f32 :=
  constant S_ .f32 0x00000000#32
def res_v43 (A : Args F) : FVec F S8 .f32 :=
  Host.reduceAdd (res_v42 A) (res_cst_6 A) reducesTo_S100000x8_S8_d0 h_S_
def res_v44 (A : Args F) : FVec F S1x8 .f32 :=
  broadcastInDim S1x8 ![1] bcast_S8_S1x8_1 (res_v43 A)
def res_v45 (A : Args F) : FVec F S100000x8 .f32 :=
  broadcastInDim S100000x8 ![0, 1] bcast_S1x8_S100000x8_0_1 (res_v44 A)
def res_v46 (A : Args F) : FVec F S100000x8 .f32 :=
  Host.divf (res_v42 A) (res_v45 A)
def res_v47 (A : Args F) : FVec F S100000x8x1 .f32 :=
  broadcastInDim S100000x8x1 ![0, 1] bcast_S100000x8_S100000x8x1_0_1 (res_v46 A)
def res_v48 (A : Args F) : FVec F S100000x8x16 .f32 :=
  broadcastInDim S100000x8x16 ![0, 1, 2] bcast_S100000x8x1_S100000x8x16_0_1_2 (res_v47 A)
def res_v49 (A : Args F) : FVec F S100000x8x16 .f32 :=
  mulf (res_v48 A) (res_v24 A)
def res_cst_7 (A : Args F) : FVec F S_ .f32 :=
  constant S_ .f32 0x00000000#32
def res_v50 (A : Args F) : FVec F S8x16 .f32 :=
  Host.reduceAdd (res_v49 A) (res_cst_7 A) reducesTo_S100000x8x16_S8x16_d0 h_S_
def res_v51 (A : Args F) : FVec F S1x128 .f32 :=
  shapeCast S1x128 (res_v50 A) shapeCasts_S8x16_S1x128
def res_v52 (A : Args F) : FVec F S1x128 .f32 :=
  broadcastInDim S1x128 ![1] bcast_S128_S1x128_1 A.a12
def res_v53 (A : Args F) : FVec F S1x128 .f32 :=
  addf (res_v51 A) (res_v52 A)
def res_cst_8 (A : Args F) : FVec F S_ .f32 :=
  constant S_ .f32 0x00000000#32
def res_v54 (A : Args F) : FVec F S1 .f32 :=
  Host.reduceAdd A.a2 (res_cst_8 A) reducesTo_S1x256_S1_d1 h_S_
def res_v55 (A : Args F) : FVec F S1x1 .f32 :=
  broadcastInDim S1x1 ![0] bcast_S1_S1x1_0 (res_v54 A)
def res_cst_9 (A : Args F) : FVec F S_ .f32 :=
  constant S_ .f32 0x43800000#32
def res_v56 (A : Args F) : FVec F S1x1 .f32 :=
  broadcastInDim S1x1 ![] bcast_S_S1x1 (res_cst_9 A)
def res_v57 (A : Args F) : FVec F S1x1 .f32 :=
  Host.divf (res_v55 A) (res_v56 A)
def res_c_10 (A : Args F) : IVec S_ 32 :=
  constantI S_ 32 0#32
def res_call3_cst (A : Args F) : FVec F S_ .f32 :=
  constant S_ .f32 0x00000000#32
def res_call3_v0 (A : Args F) : FVec F S1 .f32 :=
  Host.reduceAdd A.a2 (res_call3_cst A) reducesTo_S1x256_S1_d1 h_S_
def res_call3_v1 (A : Args F) : FVec F S1x1 .f32 :=
  broadcastInDim S1x1 ![0] bcast_S1_S1x1_0 (res_call3_v0 A)
def res_call3_cst_0 (A : Args F) : FVec F S_ .f32 :=
  constant S_ .f32 0x43800000#32
def res_call3_v2 (A : Args F) : FVec F S1x1 .f32 :=
  broadcastInDim S1x1 ![] bcast_S_S1x1 (res_call3_cst_0 A)
def res_call3_v3 (A : Args F) : FVec F S1x1 .f32 :=
  Host.divf (res_call3_v1 A) (res_call3_v2 A)
def res_call3_v4 (A : Args F) : FVec F S1x256 .f32 :=
  broadcastInDim S1x256 ![0, 1] bcast_S1x1_S1x256_0_1 (res_call3_v3 A)
def res_call3_v5 (A : Args F) : FVec F S1x256 .f32 :=
  subf A.a2 (res_call3_v4 A)
def res_call3_v6 (A : Args F) : FVec F S1x256 .f32 :=
  mulf (res_call3_v5 A) (res_call3_v5 A)
def res_call3_v7 (A : Args F) : FVec F S_ .f32 :=
  sitofp .f32 (res_c_10 A)
def res_call3_cst_1 (A : Args F) : FVec F S_ .f32 :=
  constant S_ .f32 0x43800000#32
def res_call3_v8 (A : Args F) : FVec F S_ .f32 :=
  subf (res_call3_cst_1 A) (res_call3_v7 A)
def res_call3_cst_2 (A : Args F) : FVec F S_ .f32 :=
  constant S_ .f32 0x00000000#32
def res_call3_v9 (A : Args F) : FVec F S1 .f32 :=
  Host.reduceAdd (res_call3_v6 A) (res_call3_cst_2 A) reducesTo_S1x256_S1_d1 h_S_
def res_call3_v10 (A : Args F) : FVec F S1x1 .f32 :=
  broadcastInDim S1x1 ![0] bcast_S1_S1x1_0 (res_call3_v9 A)
def res_call3_v11 (A : Args F) : FVec F S1x1 .f32 :=
  broadcastInDim S1x1 ![] bcast_S_S1x1 (res_call3_v8 A)
def res_call3_v12 (A : Args F) : FVec F S1x1 .f32 :=
  Host.divf (res_call3_v10 A) (res_call3_v11 A)
def res_call3_cst_3 (A : Args F) : FVec F S_ .f32 :=
  constant S_ .f32 0x00000000#32
def res_call3_v13 (A : Args F) : IVec S_ 1 :=
  cmpf .ogt (res_call3_v8 A) (res_call3_cst_3 A)
def res_call3_cst_4 (A : Args F) : FVec F S_ .f32 :=
  constant S_ .f32 0x7FC00000#32
def res_call3_call0_v0 (A : Args F) : FVec F S_ .f32 :=
  id (res_call3_cst_4 A)
def res_call3_call0_v1 (A : Args F) : FVec F S1x1 .f32 :=
  broadcastInDim S1x1 ![] bcast_S_S1x1 (res_call3_call0_v0 A)
def res_v58 (A : Args F) : FVec F S1x1 .f32 :=
  select (broadcastInDim S1x1 ![] bcast_S_S1x1 (res_call3_v13 A)) (res_call3_v12 A) (res_call3_call0_v1 A)
def res_v59 (A : Args F) : FVec F S1x256 .f32 :=
  broadcastInDim S1x256 ![0, 1] bcast_S1x1_S1x256_0_1 (res_v57 A)
def res_v60 (A : Args F) : FVec F S1x256 .f32 :=
  subf A.a2 (res_v59 A)
def res_cst_11 (A : Args F) : FVec F S_ .f32 :=
  constant S_ .f32 0x3727C5AC#32
def res_v61 (A : Args F) : FVec F S1x1 .f32 :=
  broadcastInDim S1x1 ![] bcast_S_S1x1 (res_cst_11 A)
def res_v62 (A : Args F) : FVec F S1x1 .f32 :=
  addf (res_v58 A) (res_v61 A)
def res_v63 (A : Args F) : FVec F S1x1 .f32 :=
  Host.rsqrt (res_v62 A)
def res_v64 (A : Args F) : FVec F S1x256 .f32 :=
  broadcastInDim S1x256 ![0, 1] bcast_S1x1_S1x256_0_1 (res_v63 A)
def res_v65 (A : Args F) : FVec F S1x256 .f32 :=
  mulf (res_v60 A) (res_v64 A)
def res_v66 (A : Args F) : FVec F S1x256 .f32 :=
  broadcastInDim S1x256 ![1] bcast_S256_S1x256_1 A.a13
def res_v67 (A : Args F) : FVec F S1x256 .f32 :=
  mulf (res_v65 A) (res_v66 A)
def res_v68 (A : Args F) : FVec F S1x256 .f32 :=
  broadcastInDim S1x256 ![1] bcast_S256_S1x256_1 A.a14
def res_v69 (A : Args F) : FVec F S1x256 .f32 :=
  addf (res_v67 A) (res_v68 A)
def res_call4_cst (A : Args F) : FVec F S_ .f32 :=
  constant S_ .f32 0x00000000#32
def res_call4_v0 (A : Args F) : FVec F S1x256 .f32 :=
  broadcastInDim S1x256 ![] bcast_S_S1x256 (res_call4_cst A)
def res_v70 (A : Args F) : FVec F S1x256 .f32 :=
  maximumf (res_v69 A) (res_call4_v0 A)
def res_v71 (A : Args F) : FVec F S1x128 .f32 :=
  Host.dotGeneral dot_S1x256_S256x128_S1x128_1_0_0_1_n_n none (res_v70 A) A.a15
def res_v72 (A : Args F) : FVec F S1x128 .f32 :=
  broadcastInDim S1x128 ![1] bcast_S128_S1x128_1 A.a16
def res_v73 (A : Args F) : FVec F S1x128 .f32 :=
  addf (res_v71 A) (res_v72 A)
def res_v74 (A : Args F) : FVec F S100000x128 .f32 :=
  Host.dotGeneral dot_S100000x128_S128x128_S100000x128_1_0_0_1_n_n none A.a1 A.a17
def res_v75 (A : Args F) : FVec F S1x128 .f32 :=
  broadcastInDim S1x128 ![1] bcast_S128_S1x128_1 A.a18
def res_v76 (A : Args F) : FVec F S100000x128 .f32 :=
  broadcastInDim S100000x128 ![0, 1] bcast_S1x128_S100000x128_0_1 (res_v75 A)
def res_v77 (A : Args F) : FVec F S100000x128 .f32 :=
  addf (res_v74 A) (res_v76 A)
def res_v78 (A : Args F) : FVec F S100000x8x16 .f32 :=
  shapeCast S100000x8x16 (res_v77 A) shapeCasts_S100000x128_S100000x8x16
def res_v79 (A : Args F) : FVec F S1x128 .f32 :=
  Host.dotGeneral dot_S1x128_S128x128_S1x128_1_0_0_1_n_n none (res_v73 A) A.a19
def res_v80 (A : Args F) : FVec F S1x128 .f32 :=
  broadcastInDim S1x128 ![1] bcast_S128_S1x128_1 A.a20
def res_v81 (A : Args F) : FVec F S1x128 .f32 :=
  addf (res_v79 A) (res_v80 A)
def res_v82 (A : Args F) : FVec F S1x8x16 .f32 :=
  shapeCast S1x8x16 (res_v81 A) shapeCasts_S1x128_S1x8x16
def res_v83 (A : Args F) : FVec F S100000x8x16 .f32 :=
  broadcastInDim S100000x8x16 ![0, 1, 2] bcast_S1x8x16_S100000x8x16_0_1_2 (res_v82 A)
def res_v84 (A : Args F) : FVec F S100000x8x16 .f32 :=
  addf (res_v78 A) (res_v83 A)
def res_cst_12 (A : Args F) : FVec F S_ .f32 :=
  constant S_ .f32 0x3E4CCCCD#32
def res_call5_cst (A : Args F) : FVec F S_ .f32 :=
  constant S_ .f32 0x00000000#32
def res_call5_v0 (A : Args F) : FVec F S100000x8x16 .f32 :=
  broadcastInDim S100000x8x16 ![] bcast_S_S100000x8x16 (res_call5_cst A)
def res_call5_v1 (A : Args F) : IVec S100000x8x16 1 :=
  cmpf .oge (res_v84 A) (res_call5_v0 A)
def res_call5_v2 (A : Args F) : FVec F S_ .f32 :=
  id (res_cst_12 A)
def res_call5_v3 (A : Args F) : FVec F S100000x8x16 .f32 :=
  broadcastInDim S100000x8x16 ![] bcast_S_S100000x8x16 (res_call5_v2 A)
def res_call5_v4 (A : Args F) : FVec F S100000x8x16 .f32 :=
  mulf (res_call5_v3 A) (res_v84 A)
def res_v85 (A : Args F) : FVec F S100000x8x16 .f32 :=
  select (res_call5_v1 A) (res_v84 A) (res_call5_v4 A)
def res_v86 (A : Args F) : FVec F S1x8x16 .f32 :=
  broadcastInDim S1x8x16 ![1, 2] bcast_S8x16_S1x8x16_1_2 A.a21
def res_v87 (A : Args F) : FVec F S100000x8x16 .f32 :=
  broadcastInDim S100000x8x16 ![0, 1, 2] bcast_S1x8x16_S100000x8x16_0_1_2 (res_v86 A)
def res_v88 (A : Args F) : FVec F S100000x8x16 .f32 :=
  mulf (res_v85 A) (res_v87 A)
def res_cst_13 (A : Args F) : FVec F S_ .f32 :=
  constant S_ .f32 0x00000000#32
def res_v89 (A : Args F) : FVec F S100000x8 .f32 :=
  Host.reduceAdd (res_v88 A) (res_cst_13 A) reducesTo_S100000x8x16_S100000x8_d2 h_S_
def res_cst_14 (A : Args F) : FVec F S_ .f32 :=
  constant S_ .f32 0xFF800000#32
def res_v90 (A : Args F) : FVec F S8 .f32 :=
  Host.reduce FloatOps.maximumf (res_v89 A) (res_cst_14 A) reducesTo_S100000x8_S8_d0 h_S_
def res_cst_15 (A : Args F) : FVec F S_ .f32 :=
  constant S_ .f32 0xFF800000#32
def res_v91 (A : Args F) : FVec F S8 .f32 :=
  broadcastInDim S8 ![] bcast_S_S8 (res_cst_15 A)
def res_v92 (A : Args F) : FVec F S8 .f32 :=
  maximumf (res_v91 A) (res_v90 A)
def res_v93 (A : Args F) : FVec F S1x8 .f32 :=
  broadcastInDim S1x8 ![1] bcast_S8_S1x8_1 (res_v92 A)
def res_v94 (A : Args F) : FVec F S100000x8 .f32 :=
  broadcastInDim S100000x8 ![0, 1] bcast_S1x8_S100000x8_0_1 (res_v93 A)
def res_v95 (A : Args F) : FVec F S100000x8 .f32 :=
  subf (res_v89 A) (res_v94 A)
def res_v96 (A : Args F) : FVec F S100000x8 .f32 :=
  Host.exp (res_v95 A)
def res_cst_16 (A : Args F) : FVec F S_ .f32 :=
  constant S_ .f32 0x00000000#32
def res_v97 (A : Args F) : FVec F S8 .f32 :=
  Host.reduceAdd (res_v96 A) (res_cst_16 A) reducesTo_S100000x8_S8_d0 h_S_
def res_v98 (A : Args F) : FVec F S1x8 .f32 :=
  broadcastInDim S1x8 ![1] bcast_S8_S1x8_1 (res_v97 A)
def res_v99 (A : Args F) : FVec F S100000x8 .f32 :=
  broadcastInDim S100000x8 ![0, 1] bcast_S1x8_S100000x8_0_1 (res_v98 A)
def res_v100 (A : Args F) : FVec F S100000x8 .f32 :=
  Host.divf (res_v96 A) (res_v99 A)
def res_v101 (A : Args F) : FVec F S100000x8x1 .f32 :=
  broadcastInDim S100000x8x1 ![0, 1] bcast_S100000x8_S100000x8x1_0_1 (res_v100 A)
def res_v102 (A : Args F) : FVec F S100000x8x16 .f32 :=
  broadcastInDim S100000x8x16 ![0, 1, 2] bcast_S100000x8x1_S100000x8x16_0_1_2 (res_v101 A)
def res_v103 (A : Args F) : FVec F S100000x8x16 .f32 :=
  mulf (res_v102 A) (res_v78 A)
def res_cst_17 (A : Args F) : FVec F S_ .f32 :=
  constant S_ .f32 0x00000000#32
def res_v104 (A : Args F) : FVec F S8x16 .f32 :=
  Host.reduceAdd (res_v103 A) (res_cst_17 A) reducesTo_S100000x8x16_S8x16_d0 h_S_
def res_v105 (A : Args F) : FVec F S1x128 .f32 :=
  shapeCast S1x128 (res_v104 A) shapeCasts_S8x16_S1x128
def res_v106 (A : Args F) : FVec F S1x128 .f32 :=
  broadcastInDim S1x128 ![1] bcast_S128_S1x128_1 A.a22
def res_v107 (A : Args F) : FVec F S1x128 .f32 :=
  addf (res_v105 A) (res_v106 A)
def res_v108 (A : Args F) : FVec F S1x256 .f32 :=
  concatenate S1x256 1 [⟨S1x128, (res_v53 A)⟩, ⟨S1x128, (res_v107 A)⟩] concatenates_S1x128_S1x128_S1x256_d1
def res_v109 (A : Args F) : FVec F S1x256 .f32 :=
  addf A.a2 (res_v108 A)
def res_cst_18 (A : Args F) : FVec F S_ .f32 :=
  constant S_ .f32 0x00000000#32
def res_v110 (A : Args F) : FVec F S1 .f32 :=
  Host.reduceAdd (res_v109 A) (res_cst_18 A) reducesTo_S1x256_S1_d1 h_S_
def res_v111 (A : Args F) : FVec F S1x1 .f32 :=
  broadcastInDim S1x1 ![0] bcast_S1_S1x1_0 (res_v110 A)
def res_cst_19 (A : Args F) : FVec F S_ .f32 :=
  constant S_ .f32 0x43800000#32
def res_v112 (A : Args F) : FVec F S1x1 .f32 :=
  broadcastInDim S1x1 ![] bcast_S_S1x1 (res_cst_19 A)
def res_v113 (A : Args F) : FVec F S1x1 .f32 :=
  Host.divf (res_v111 A) (res_v112 A)
def res_c_20 (A : Args F) : IVec S_ 32 :=
  constantI S_ 32 0#32
def res_call6_cst (A : Args F) : FVec F S_ .f32 :=
  constant S_ .f32 0x00000000#32
def res_call6_v0 (A : Args F) : FVec F S1 .f32 :=
  Host.reduceAdd (res_v109 A) (res_call6_cst A) reducesTo_S1x256_S1_d1 h_S_
def res_call6_v1 (A : Args F) : FVec F S1x1 .f32 :=
  broadcastInDim S1x1 ![0] bcast_S1_S1x1_0 (res_call6_v0 A)
def res_call6_cst_0 (A : Args F) : FVec F S_ .f32 :=
  constant S_ .f32 0x43800000#32
def res_call6_v2 (A : Args F) : FVec F S1x1 .f32 :=
  broadcastInDim S1x1 ![] bcast_S_S1x1 (res_call6_cst_0 A)
def res_call6_v3 (A : Args F) : FVec F S1x1 .f32 :=
  Host.divf (res_call6_v1 A) (res_call6_v2 A)
def res_call6_v4 (A : Args F) : FVec F S1x256 .f32 :=
  broadcastInDim S1x256 ![0, 1] bcast_S1x1_S1x256_0_1 (res_call6_v3 A)
def res_call6_v5 (A : Args F) : FVec F S1x256 .f32 :=
  subf (res_v109 A) (res_call6_v4 A)
def res_call6_v6 (A : Args F) : FVec F S1x256 .f32 :=
  mulf (res_call6_v5 A) (res_call6_v5 A)
def res_call6_v7 (A : Args F) : FVec F S_ .f32 :=
  sitofp .f32 (res_c_20 A)
def res_call6_cst_1 (A : Args F) : FVec F S_ .f32 :=
  constant S_ .f32 0x43800000#32
def res_call6_v8 (A : Args F) : FVec F S_ .f32 :=
  subf (res_call6_cst_1 A) (res_call6_v7 A)
def res_call6_cst_2 (A : Args F) : FVec F S_ .f32 :=
  constant S_ .f32 0x00000000#32
def res_call6_v9 (A : Args F) : FVec F S1 .f32 :=
  Host.reduceAdd (res_call6_v6 A) (res_call6_cst_2 A) reducesTo_S1x256_S1_d1 h_S_
def res_call6_v10 (A : Args F) : FVec F S1x1 .f32 :=
  broadcastInDim S1x1 ![0] bcast_S1_S1x1_0 (res_call6_v9 A)
def res_call6_v11 (A : Args F) : FVec F S1x1 .f32 :=
  broadcastInDim S1x1 ![] bcast_S_S1x1 (res_call6_v8 A)
def res_call6_v12 (A : Args F) : FVec F S1x1 .f32 :=
  Host.divf (res_call6_v10 A) (res_call6_v11 A)
def res_call6_cst_3 (A : Args F) : FVec F S_ .f32 :=
  constant S_ .f32 0x00000000#32
def res_call6_v13 (A : Args F) : IVec S_ 1 :=
  cmpf .ogt (res_call6_v8 A) (res_call6_cst_3 A)
def res_call6_cst_4 (A : Args F) : FVec F S_ .f32 :=
  constant S_ .f32 0x7FC00000#32
def res_call6_call0_v0 (A : Args F) : FVec F S_ .f32 :=
  id (res_call6_cst_4 A)
def res_call6_call0_v1 (A : Args F) : FVec F S1x1 .f32 :=
  broadcastInDim S1x1 ![] bcast_S_S1x1 (res_call6_call0_v0 A)
def res_v114 (A : Args F) : FVec F S1x1 .f32 :=
  select (broadcastInDim S1x1 ![] bcast_S_S1x1 (res_call6_v13 A)) (res_call6_v12 A) (res_call6_call0_v1 A)
def res_v115 (A : Args F) : FVec F S1x256 .f32 :=
  broadcastInDim S1x256 ![0, 1] bcast_S1x1_S1x256_0_1 (res_v113 A)
def res_v116 (A : Args F) : FVec F S1x256 .f32 :=
  subf (res_v109 A) (res_v115 A)
def res_cst_21 (A : Args F) : FVec F S_ .f32 :=
  constant S_ .f32 0x3727C5AC#32
def res_v117 (A : Args F) : FVec F S1x1 .f32 :=
  broadcastInDim S1x1 ![] bcast_S_S1x1 (res_cst_21 A)
def res_v118 (A : Args F) : FVec F S1x1 .f32 :=
  addf (res_v114 A) (res_v117 A)
def res_v119 (A : Args F) : FVec F S1x1 .f32 :=
  Host.rsqrt (res_v118 A)
def res_v120 (A : Args F) : FVec F S1x256 .f32 :=
  broadcastInDim S1x256 ![0, 1] bcast_S1x1_S1x256_0_1 (res_v119 A)
def res_v121 (A : Args F) : FVec F S1x256 .f32 :=
  mulf (res_v116 A) (res_v120 A)
def res_v122 (A : Args F) : FVec F S1x256 .f32 :=
  broadcastInDim S1x256 ![1] bcast_S256_S1x256_1 A.a23
def res_v123 (A : Args F) : FVec F S1x256 .f32 :=
  mulf (res_v121 A) (res_v122 A)
def res_v124 (A : Args F) : FVec F S1x256 .f32 :=
  broadcastInDim S1x256 ![1] bcast_S256_S1x256_1 A.a24
def res_v125 (A : Args F) : FVec F S1x256 .f32 :=
  addf (res_v123 A) (res_v124 A)
def res_call7_cst (A : Args F) : FVec F S_ .f32 :=
  constant S_ .f32 0x00000000#32
def res_call7_v0 (A : Args F) : FVec F S1x256 .f32 :=
  broadcastInDim S1x256 ![] bcast_S_S1x256 (res_call7_cst A)
def res_v126 (A : Args F) : FVec F S1x256 .f32 :=
  maximumf (res_v125 A) (res_call7_v0 A)
def res_v127 (A : Args F) : FVec F S1x256 .f32 :=
  Host.dotGeneral dot_S1x256_S256x256_S1x256_1_0_0_1_n_n none (res_v126 A) A.a25
def res_v128 (A : Args F) : FVec F S1x256 .f32 :=
  broadcastInDim S1x256 ![1] bcast_S256_S1x256_1 A.a26
def res_v129 (A : Args F) : FVec F S1x256 .f32 :=
  addf (res_v127 A) (res_v128 A)
def res_v130 (A : Args F) : FVec F S1x256 .f32 :=
  addf (res_v109 A) (res_v129 A)

/-- The value the program returns. -/
def res_out (A : Args F) : FVec F S1x256 .f32 := res_v130 A

end Cert.ReferenceIdeal.HandRun

end
-- ==== Proof.RefOps.lean ====
/- The reference program's operations in program order, cut into 19 consecutive windows (a call's callee operations
   stand at the call site over that call's buffers), and the buffers each window writes. -/
import proofs.«165745_g33088428049086_cont_sun_c4_530_12_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Operations 1 … 7 of 239 (in `main_part0`). -/
abbrev w0 : List (HloOp τ sig (Elt F)) :=
  [ nullary main_cst (constant S_ .f32 0x00000000#32),
    binary main_arg2 main_cst main_v0 ((fun x v => Host.reduceAdd x v reducesTo_S1x256_S1_d1 h_S_) : (⟨S1x256, .f32⟩ : BufTy).Contents (Elt F) → (⟨S_, .f32⟩ : BufTy).Contents (Elt F) → (⟨S1, .f32⟩ : BufTy).Contents (Elt F)),
    unary main_v0 main_v1 (broadcastInDim S1x1 ![0] bcast_S1_S1x1_0 : (⟨S1, .f32⟩ : BufTy).Contents (Elt F) → (⟨S1x1, .f32⟩ : BufTy).Contents (Elt F)),
    nullary main_cst_0 (constant S_ .f32 0x43800000#32),
    unary main_cst_0 main_v2 (broadcastInDim S1x1 ![] bcast_S_S1x1 : (⟨S_, .f32⟩ : BufTy).Contents (Elt F) → (⟨S1x1, .f32⟩ : BufTy).Contents (Elt F)),
    binary main_v1 main_v2 main_v3 (Host.divf : (⟨S1x1, .f32⟩ : BufTy).Contents (Elt F) → (⟨S1x1, .f32⟩ : BufTy).Contents (Elt F) → (⟨S1x1, .f32⟩ : BufTy).Contents (Elt F)),
    nullary main_c (constantI S_ 32 0#32) ]
/-- The buffers window 0 writes. -/
abbrev w0_W : List (Ref sig .tc) := [main_cst, main_v0, main_v1, main_cst_0, main_v2, main_v3, main_c]

/-- Operations 8 … 30 of 239 (in `main_part0`). -/
abbrev w1 : List (HloOp τ sig (Elt F)) :=
  [ TRef.nullary main_call0.cst (constant S_ .f32 0x00000000#32),
    TRef.binary (.of main_arg2) main_call0.cst main_call0.v0 (fun x v => Host.reduceAdd x v reducesTo_S1x256_S1_d1 h_S_),
    TRef.unary main_call0.v0 main_call0.v1 (broadcastInDim S1x1 ![0] bcast_S1_S1x1_0),
    TRef.nullary main_call0.cst_0 (constant S_ .f32 0x43800000#32),
    TRef.unary main_call0.cst_0 main_call0.v2 (broadcastInDim S1x1 ![] bcast_S_S1x1),
    TRef.binary main_call0.v1 main_call0.v2 main_call0.v3 Host.divf,
    TRef.unary main_call0.v3 main_call0.v4 (broadcastInDim S1x256 ![0, 1] bcast_S1x1_S1x256_0_1),
    TRef.binary (.of main_arg2) main_call0.v4 main_call0.v5 subf,
    TRef.binary main_call0.v5 main_call0.v5 main_call0.v6 mulf,
    TRef.unary (.of main_c) main_call0.v7 (sitofp .f32),
    TRef.nullary main_call0.cst_1 (constant S_ .f32 0x43800000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S1x256_S1_d1 h_S_),
    TRef.unary main_call0.v9 main_call0.v10 (broadcastInDim S1x1 ![0] bcast_S1_S1x1_0),
    TRef.unary main_call0.v8 main_call0.v11 (broadcastInDim S1x1 ![] bcast_S_S1x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S1x1 ![] bcast_S_S1x1),
    TRef.ternary main_call0.v13 main_call0.v12 main_call0.call0.v1 main_call0.call0.v2 (fun p a b => select (broadcastInDim S1x1 ![] bcast_S_S1x1 p) a b) ]
/-- The buffers window 1 writes. -/
abbrev w1_W : List (Ref sig .tc) := [main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v4]

/-- Operations 31 … 45 of 239 (in `main_part0`). -/
abbrev w2 : List (HloOp τ sig (Elt F)) :=
  [ unary main_v3 main_v5 (broadcastInDim S1x256 ![0, 1] bcast_S1x1_S1x256_0_1 : (⟨S1x1, .f32⟩ : BufTy).Contents (Elt F) → (⟨S1x256, .f32⟩ : BufTy).Contents (Elt F)),
    binary main_arg2 main_v5 main_v6 (subf : (⟨S1x256, .f32⟩ : BufTy).Contents (Elt F) → (⟨S1x256, .f32⟩ : BufTy).Contents (Elt F) → (⟨S1x256, .f32⟩ : BufTy).Contents (Elt F)),
    nullary main_cst_1 (constant S_ .f32 0x3727C5AC#32),
    unary main_cst_1 main_v7 (broadcastInDim S1x1 ![] bcast_S_S1x1 : (⟨S_, .f32⟩ : BufTy).Contents (Elt F) → (⟨S1x1, .f32⟩ : BufTy).Contents (Elt F)),
    binary main_v4 main_v7 main_v8 (addf : (⟨S1x1, .f32⟩ : BufTy).Contents (Elt F) → (⟨S1x1, .f32⟩ : BufTy).Contents (Elt F) → (⟨S1x1, .f32⟩ : BufTy).Contents (Elt F)),
    unary main_v8 main_v9 (Host.rsqrt : (⟨S1x1, .f32⟩ : BufTy).Contents (Elt F) → (⟨S1x1, .f32⟩ : BufTy).Contents (Elt F)),
    unary main_v9 main_v10 (broadcastInDim S1x256 ![0, 1] bcast_S1x1_S1x256_0_1 : (⟨S1x1, .f32⟩ : BufTy).Contents (Elt F) → (⟨S1x256, .f32⟩ : BufTy).Contents (Elt F)),
    binary main_v6 main_v10 main_v11 (mulf : (⟨S1x256, .f32⟩ : BufTy).Contents (Elt F) → (⟨S1x256, .f32⟩ : BufTy).Contents (Elt F) → (⟨S1x256, .f32⟩ : BufTy).Contents (Elt F)),
    unary main_arg3 main_v12 (broadcastInDim S1x256 ![1] bcast_S256_S1x256_1 : (⟨S256, .f32⟩ : BufTy).Contents (Elt F) → (⟨S1x256, .f32⟩ : BufTy).Contents (Elt F)),
    binary main_v11 main_v12 main_v13 (mulf : (⟨S1x256, .f32⟩ : BufTy).Contents (Elt F) → (⟨S1x256, .f32⟩ : BufTy).Contents (Elt F) → (⟨S1x256, .f32⟩ : BufTy).Contents (Elt F)),
    unary main_arg4 main_v14 (broadcastInDim S1x256 ![1] bcast_S256_S1x256_1 : (⟨S256, .f32⟩ : BufTy).Contents (Elt F) → (⟨S1x256, .f32⟩ : BufTy).Contents (Elt F)),
    binary main_v13 main_v14 main_v15 (addf : (⟨S1x256, .f32⟩ : BufTy).Contents (Elt F) → (⟨S1x256, .f32⟩ : BufTy).Contents (Elt F) → (⟨S1x256, .f32⟩ : BufTy).Contents (Elt F)),
    TRef.nullary main_call1.cst (constant S_ .f32 0x00000000#32),
    TRef.unary main_call1.cst main_call1.v0 (broadcastInDim S1x256 ![] bcast_S_S1x256),
    TRef.binary (.of main_v15) main_call1.v0 main_call1.v1 maximumf ]
/-- The buffers window 2 writes. -/
abbrev w2_W : List (Ref sig .tc) := [main_v5, main_v6, main_cst_1, main_v7, main_v8, main_v9, main_v10, main_v11, main_v12, main_v13, main_v14, main_v15, main_call1_cst, main_call1_v0, main_v16]

/-- Operations 46 … 53 of 239 (in `main_part0`). -/
abbrev w3 : List (HloOp τ sig (Elt F)) :=
  [ binary main_v16 main_arg5 main_v17 ((fun l r => Host.dotGeneral dot_S1x256_S256x128_S1x128_1_0_0_1_n_n none l r) : (⟨S1x256, .f32⟩ : BufTy).Contents (Elt F) → (⟨S256x128, .f32⟩ : BufTy).Contents (Elt F) → (⟨S1x128, .f32⟩ : BufTy).Contents (Elt F)),
    unary main_arg6 main_v18 (broadcastInDim S1x128 ![1] bcast_S128_S1x128_1 : (⟨S128, .f32⟩ : BufTy).Contents (Elt F) → (⟨S1x128, .f32⟩ : BufTy).Contents (Elt F)),
    binary main_v17 main_v18 main_v19 (addf : (⟨S1x128, .f32⟩ : BufTy).Contents (Elt F) → (⟨S1x128, .f32⟩ : BufTy).Contents (Elt F) → (⟨S1x128, .f32⟩ : BufTy).Contents (Elt F)),
    binary main_arg0 main_arg7 main_v20 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg8 main_v21 (broadcastInDim S1x128 ![1] bcast_S128_S1x128_1 : (⟨S128, .f32⟩ : BufTy).Contents (Elt F) → (⟨S1x128, .f32⟩ : BufTy).Contents (Elt F)),
    unary main_v21 main_v22 (broadcastInDim S100000x128 ![0, 1] bcast_S1x128_S100000x128_0_1 : (⟨S1x128, .f32⟩ : BufTy).Contents (Elt F) → (⟨S100000x128, .f32⟩ : BufTy).Contents (Elt F)),
    binary main_v20 main_v22 main_v23 (addf : (⟨S100000x128, .f32⟩ : BufTy).Contents (Elt F) → (⟨S100000x128, .f32⟩ : BufTy).Contents (Elt F) → (⟨S100000x128, .f32⟩ : BufTy).Contents (Elt F)),
    reshape main_v23 main_v24 rfl shapeCasts_S100000x128_S100000x8x16 ]
/-- The buffers window 3 writes. -/
abbrev w3_W : List (Ref sig .tc) := [main_v17, main_v18, main_v19, main_v20, main_v21, main_v22, main_v23, main_v24]

/-- Operations 54 … 67 of 239 (in `main_part0`). -/
abbrev w4 : List (HloOp τ sig (Elt F)) :=
  [ binary main_v19 main_arg9 main_v25 ((fun l r => Host.dotGeneral dot_S1x128_S128x128_S1x128_1_0_0_1_n_n none l r) : (⟨S1x128, .f32⟩ : BufTy).Contents (Elt F) → (⟨S128x128, .f32⟩ : BufTy).Contents (Elt F) → (⟨S1x128, .f32⟩ : BufTy).Contents (Elt F)),
    unary main_arg10 main_v26 (broadcastInDim S1x128 ![1] bcast_S128_S1x128_1 : (⟨S128, .f32⟩ : BufTy).Contents (Elt F) → (⟨S1x128, .f32⟩ : BufTy).Contents (Elt F)),
    binary main_v25 main_v26 main_v27 (addf : (⟨S1x128, .f32⟩ : BufTy).Contents (Elt F) → (⟨S1x128, .f32⟩ : BufTy).Contents (Elt F) → (⟨S1x128, .f32⟩ : BufTy).Contents (Elt F)),
    reshape main_v27 main_v28 rfl shapeCasts_S1x128_S1x8x16,
    unary main_v28 main_v29 (broadcastInDim S100000x8x16 ![0, 1, 2] bcast_S1x8x16_S100000x8x16_0_1_2 : (⟨S1x8x16, .f32⟩ : BufTy).Contents (Elt F) → (⟨S100000x8x16, .f32⟩ : BufTy).Contents (Elt F)),
    binary main_v24 main_v29 main_v30 (addf : (⟨S100000x8x16, .f32⟩ : BufTy).Contents (Elt F) → (⟨S100000x8x16, .f32⟩ : BufTy).Contents (Elt F) → (⟨S100000x8x16, .f32⟩ : BufTy).Contents (Elt F)),
    nullary main_cst_2 (constant S_ .f32 0x3E4CCCCD#32),
    TRef.nullary main_call2.cst (constant S_ .f32 0x00000000#32),
    TRef.unary main_call2.cst main_call2.v0 (broadcastInDim S100000x8x16 ![] bcast_S_S100000x8x16),
    TRef.binary (.of main_v30) main_call2.v0 main_call2.v1 (cmpf .oge),
    TRef.unary (.of main_cst_2) main_call2.v2 id,
    TRef.unary main_call2.v2 main_call2.v3 (broadcastInDim S100000x8x16 ![] bcast_S_S100000x8x16),
    TRef.binary main_call2.v3 (.of main_v30) main_call2.v4 mulf,
    TRef.ternary main_call2.v1 (.of main_v30) main_call2.v4 main_call2.call0.v0 select ]
/-- The buffers window 4 writes. -/
abbrev w4_W : List (Ref sig .tc) := [main_v25, main_v26, main_v27, main_v28, main_v29, main_v30, main_cst_2, main_call2_cst, main_call2_v0, main_call2_v1, main_call2_v2, main_call2_v3, main_call2_v4, main_v31]

/-- Operations 68 … 81 of 239 (in `main_part0`). -/
abbrev w5 : List (HloOp τ sig (Elt F)) :=
  [ unary main_arg11 main_v32 (broadcastInDim S1x8x16 ![1, 2] bcast_S8x16_S1x8x16_1_2 : (⟨S8x16, .f32⟩ : BufTy).Contents (Elt F) → (⟨S1x8x16, .f32⟩ : BufTy).Contents (Elt F)),
    unary main_v32 main_v33 (broadcastInDim S100000x8x16 ![0, 1, 2] bcast_S1x8x16_S100000x8x16_0_1_2 : (⟨S1x8x16, .f32⟩ : BufTy).Contents (Elt F) → (⟨S100000x8x16, .f32⟩ : BufTy).Contents (Elt F)),
    binary main_v31 main_v33 main_v34 (mulf : (⟨S100000x8x16, .f32⟩ : BufTy).Contents (Elt F) → (⟨S100000x8x16, .f32⟩ : BufTy).Contents (Elt F) → (⟨S100000x8x16, .f32⟩ : BufTy).Contents (Elt F)),
    nullary main_cst_3 (constant S_ .f32 0x00000000#32),
    binary main_v34 main_cst_3 main_v35 ((fun x v => Host.reduceAdd x v reducesTo_S100000x8x16_S100000x8_d2 h_S_) : (⟨S100000x8x16, .f32⟩ : BufTy).Contents (Elt F) → (⟨S_, .f32⟩ : BufTy).Contents (Elt F) → (⟨S100000x8, .f32⟩ : BufTy).Contents (Elt F)),
    nullary main_cst_4 (constant S_ .f32 0xFF800000#32),
    binary main_v35 main_cst_4 main_v36 ((fun x v => Host.reduce FloatOps.maximumf x v reducesTo_S100000x8_S8_d0 h_S_) : (⟨S100000x8, .f32⟩ : BufTy).Contents (Elt F) → (⟨S_, .f32⟩ : BufTy).Contents (Elt F) → (⟨S8, .f32⟩ : BufTy).Contents (Elt F)),
    nullary main_cst_5 (constant S_ .f32 0xFF800000#32),
    unary main_cst_5 main_v37 (broadcastInDim S8 ![] bcast_S_S8 : (⟨S_, .f32⟩ : BufTy).Contents (Elt F) → (⟨S8, .f32⟩ : BufTy).Contents (Elt F)),
    binary main_v37 main_v36 main_v38 (maximumf : (⟨S8, .f32⟩ : BufTy).Contents (Elt F) → (⟨S8, .f32⟩ : BufTy).Contents (Elt F) → (⟨S8, .f32⟩ : BufTy).Contents (Elt F)),
    unary main_v38 main_v39 (broadcastInDim S1x8 ![1] bcast_S8_S1x8_1 : (⟨S8, .f32⟩ : BufTy).Contents (Elt F) → (⟨S1x8, .f32⟩ : BufTy).Contents (Elt F)),
    unary main_v39 main_v40 (broadcastInDim S100000x8 ![0, 1] bcast_S1x8_S100000x8_0_1 : (⟨S1x8, .f32⟩ : BufTy).Contents (Elt F) → (⟨S100000x8, .f32⟩ : BufTy).Contents (Elt F)),
    binary main_v35 main_v40 main_v41 (subf : (⟨S100000x8, .f32⟩ : BufTy).Contents (Elt F) → (⟨S100000x8, .f32⟩ : BufTy).Contents (Elt F) → (⟨S100000x8, .f32⟩ : BufTy).Contents (Elt F)),
    unary main_v41 main_v42 (Host.exp : (⟨S100000x8, .f32⟩ : BufTy).Contents (Elt F) → (⟨S100000x8, .f32⟩ : BufTy).Contents (Elt F)) ]
/-- The buffers window 5 writes. -/
abbrev w5_W : List (Ref sig .tc) := [main_v32, main_v33, main_v34, main_cst_3, main_v35, main_cst_4, main_v36, main_cst_5, main_v37, main_v38, main_v39, main_v40, main_v41, main_v42]

/-- Operations 82 … 90 of 239 (in `main_part0`). -/
abbrev w6 : List (HloOp τ sig (Elt F)) :=
  [ nullary main_cst_6 (constant S_ .f32 0x00000000#32),
    binary main_v42 main_cst_6 main_v43 ((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)),
    unary main_v43 main_v44 (broadcastInDim S1x8 ![1] bcast_S8_S1x8_1 : (⟨S8, .f32⟩ : BufTy).Contents (Elt F) → (⟨S1x8, .f32⟩ : BufTy).Contents (Elt F)),
    unary main_v44 main_v45 (broadcastInDim S100000x8 ![0, 1] bcast_S1x8_S100000x8_0_1 : (⟨S1x8, .f32⟩ : BufTy).Contents (Elt F) → (⟨S100000x8, .f32⟩ : BufTy).Contents (Elt F)),
    binary main_v42 main_v45 main_v46 (Host.divf : (⟨S100000x8, .f32⟩ : BufTy).Contents (Elt F) → (⟨S100000x8, .f32⟩ : BufTy).Contents (Elt F) → (⟨S100000x8, .f32⟩ : BufTy).Contents (Elt F)),
    unary main_v46 main_v47 (broadcastInDim S100000x8x1 ![0, 1] bcast_S100000x8_S100000x8x1_0_1 : (⟨S100000x8, .f32⟩ : BufTy).Contents (Elt F) → (⟨S100000x8x1, .f32⟩ : BufTy).Contents (Elt F)),
    unary main_v47 main_v48 (broadcastInDim S100000x8x16 ![0, 1, 2] bcast_S100000x8x1_S100000x8x16_0_1_2 : (⟨S100000x8x1, .f32⟩ : BufTy).Contents (Elt F) → (⟨S100000x8x16, .f32⟩ : BufTy).Contents (Elt F)),
    binary main_v48 main_v24 main_v49 (mulf : (⟨S100000x8x16, .f32⟩ : BufTy).Contents (Elt F) → (⟨S100000x8x16, .f32⟩ : BufTy).Contents (Elt F) → (⟨S100000x8x16, .f32⟩ : BufTy).Contents (Elt F)),
    nullary main_cst_7 (constant S_ .f32 0x00000000#32) ]
/-- The buffers window 6 writes. -/
abbrev w6_W : List (Ref sig .tc) := [main_cst_6, main_v43, main_v44, main_v45, main_v46, main_v47, main_v48, main_v49, main_cst_7]

/-- Operations 91 … 101 of 239 (in `main_part1`). -/
abbrev w7 : List (HloOp τ sig (Elt F)) :=
  [ binary main_v49 main_cst_7 main_v50 ((fun x v => Host.reduceAdd x v reducesTo_S100000x8x16_S8x16_d0 h_S_) : (⟨S100000x8x16, .f32⟩ : BufTy).Contents (Elt F) → (⟨S_, .f32⟩ : BufTy).Contents (Elt F) → (⟨S8x16, .f32⟩ : BufTy).Contents (Elt F)),
    reshape main_v50 main_v51 rfl shapeCasts_S8x16_S1x128,
    unary main_arg12 main_v52 (broadcastInDim S1x128 ![1] bcast_S128_S1x128_1 : (⟨S128, .f32⟩ : BufTy).Contents (Elt F) → (⟨S1x128, .f32⟩ : BufTy).Contents (Elt F)),
    binary main_v51 main_v52 main_v53 (addf : (⟨S1x128, .f32⟩ : BufTy).Contents (Elt F) → (⟨S1x128, .f32⟩ : BufTy).Contents (Elt F) → (⟨S1x128, .f32⟩ : BufTy).Contents (Elt F)),
    nullary main_cst_8 (constant S_ .f32 0x00000000#32),
    binary main_arg2 main_cst_8 main_v54 ((fun x v => Host.reduceAdd x v reducesTo_S1x256_S1_d1 h_S_) : (⟨S1x256, .f32⟩ : BufTy).Contents (Elt F) → (⟨S_, .f32⟩ : BufTy).Contents (Elt F) → (⟨S1, .f32⟩ : BufTy).Contents (Elt F)),
    unary main_v54 main_v55 (broadcastInDim S1x1 ![0] bcast_S1_S1x1_0 : (⟨S1, .f32⟩ : BufTy).Contents (Elt F) → (⟨S1x1, .f32⟩ : BufTy).Contents (Elt F)),
    nullary main_cst_9 (constant S_ .f32 0x43800000#32),
    unary main_cst_9 main_v56 (broadcastInDim S1x1 ![] bcast_S_S1x1 : (⟨S_, .f32⟩ : BufTy).Contents (Elt F) → (⟨S1x1, .f32⟩ : BufTy).Contents (Elt F)),
    binary main_v55 main_v56 main_v57 (Host.divf : (⟨S1x1, .f32⟩ : BufTy).Contents (Elt F) → (⟨S1x1, .f32⟩ : BufTy).Contents (Elt F) → (⟨S1x1, .f32⟩ : BufTy).Contents (Elt F)),
    nullary main_c_10 (constantI S_ 32 0#32) ]
/-- The buffers window 7 writes. -/
abbrev w7_W : List (Ref sig .tc) := [main_v50, main_v51, main_v52, main_v53, main_cst_8, main_v54, main_v55, main_cst_9, main_v56, main_v57, main_c_10]

/-- Operations 102 … 124 of 239 (in `main_part1`). -/
abbrev w8 : List (HloOp τ sig (Elt F)) :=
  [ TRef.nullary main_call3.cst (constant S_ .f32 0x00000000#32),
    TRef.binary (.of main_arg2) main_call3.cst main_call3.v0 (fun x v => Host.reduceAdd x v reducesTo_S1x256_S1_d1 h_S_),
    TRef.unary main_call3.v0 main_call3.v1 (broadcastInDim S1x1 ![0] bcast_S1_S1x1_0),
    TRef.nullary main_call3.cst_0 (constant S_ .f32 0x43800000#32),
    TRef.unary main_call3.cst_0 main_call3.v2 (broadcastInDim S1x1 ![] bcast_S_S1x1),
    TRef.binary main_call3.v1 main_call3.v2 main_call3.v3 Host.divf,
    TRef.unary main_call3.v3 main_call3.v4 (broadcastInDim S1x256 ![0, 1] bcast_S1x1_S1x256_0_1),
    TRef.binary (.of main_arg2) main_call3.v4 main_call3.v5 subf,
    TRef.binary main_call3.v5 main_call3.v5 main_call3.v6 mulf,
    TRef.unary (.of main_c_10) main_call3.v7 (sitofp .f32),
    TRef.nullary main_call3.cst_1 (constant S_ .f32 0x43800000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S1x256_S1_d1 h_S_),
    TRef.unary main_call3.v9 main_call3.v10 (broadcastInDim S1x1 ![0] bcast_S1_S1x1_0),
    TRef.unary main_call3.v8 main_call3.v11 (broadcastInDim S1x1 ![] bcast_S_S1x1),
    TRef.binary main_call3.v10 main_call3.v11 main_call3.v12 Host.divf,
    TRef.nullary main_call3.cst_3 (constant S_ .f32 0x00000000#32),
    TRef.binary main_call3.v8 main_call3.cst_3 main_call3.v13 (cmpf .ogt),
    TRef.nullary main_call3.cst_4 (constant S_ .f32 0x7FC00000#32),
    TRef.unary main_call3.cst_4 main_call3.call0.v0 id,
    TRef.unary main_call3.call0.v0 main_call3.call0.v1 (broadcastInDim S1x1 ![] bcast_S_S1x1),
    TRef.ternary main_call3.v13 main_call3.v12 main_call3.call0.v1 main_call3.call0.v2 (fun p a b => select (broadcastInDim S1x1 ![] bcast_S_S1x1 p) a b) ]
/-- The buffers window 8 writes. -/
abbrev w8_W : List (Ref sig .tc) := [main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v58]

/-- Operations 125 … 139 of 239 (in `main_part1`). -/
abbrev w9 : List (HloOp τ sig (Elt F)) :=
  [ unary main_v57 main_v59 (broadcastInDim S1x256 ![0, 1] bcast_S1x1_S1x256_0_1 : (⟨S1x1, .f32⟩ : BufTy).Contents (Elt F) → (⟨S1x256, .f32⟩ : BufTy).Contents (Elt F)),
    binary main_arg2 main_v59 main_v60 (subf : (⟨S1x256, .f32⟩ : BufTy).Contents (Elt F) → (⟨S1x256, .f32⟩ : BufTy).Contents (Elt F) → (⟨S1x256, .f32⟩ : BufTy).Contents (Elt F)),
    nullary main_cst_11 (constant S_ .f32 0x3727C5AC#32),
    unary main_cst_11 main_v61 (broadcastInDim S1x1 ![] bcast_S_S1x1 : (⟨S_, .f32⟩ : BufTy).Contents (Elt F) → (⟨S1x1, .f32⟩ : BufTy).Contents (Elt F)),
    binary main_v58 main_v61 main_v62 (addf : (⟨S1x1, .f32⟩ : BufTy).Contents (Elt F) → (⟨S1x1, .f32⟩ : BufTy).Contents (Elt F) → (⟨S1x1, .f32⟩ : BufTy).Contents (Elt F)),
    unary main_v62 main_v63 (Host.rsqrt : (⟨S1x1, .f32⟩ : BufTy).Contents (Elt F) → (⟨S1x1, .f32⟩ : BufTy).Contents (Elt F)),
    unary main_v63 main_v64 (broadcastInDim S1x256 ![0, 1] bcast_S1x1_S1x256_0_1 : (⟨S1x1, .f32⟩ : BufTy).Contents (Elt F) → (⟨S1x256, .f32⟩ : BufTy).Contents (Elt F)),
    binary main_v60 main_v64 main_v65 (mulf : (⟨S1x256, .f32⟩ : BufTy).Contents (Elt F) → (⟨S1x256, .f32⟩ : BufTy).Contents (Elt F) → (⟨S1x256, .f32⟩ : BufTy).Contents (Elt F)),
    unary main_arg13 main_v66 (broadcastInDim S1x256 ![1] bcast_S256_S1x256_1 : (⟨S256, .f32⟩ : BufTy).Contents (Elt F) → (⟨S1x256, .f32⟩ : BufTy).Contents (Elt F)),
    binary main_v65 main_v66 main_v67 (mulf : (⟨S1x256, .f32⟩ : BufTy).Contents (Elt F) → (⟨S1x256, .f32⟩ : BufTy).Contents (Elt F) → (⟨S1x256, .f32⟩ : BufTy).Contents (Elt F)),
    unary main_arg14 main_v68 (broadcastInDim S1x256 ![1] bcast_S256_S1x256_1 : (⟨S256, .f32⟩ : BufTy).Contents (Elt F) → (⟨S1x256, .f32⟩ : BufTy).Contents (Elt F)),
    binary main_v67 main_v68 main_v69 (addf : (⟨S1x256, .f32⟩ : BufTy).Contents (Elt F) → (⟨S1x256, .f32⟩ : BufTy).Contents (Elt F) → (⟨S1x256, .f32⟩ : BufTy).Contents (Elt F)),
    TRef.nullary main_call4.cst (constant S_ .f32 0x00000000#32),
    TRef.unary main_call4.cst main_call4.v0 (broadcastInDim S1x256 ![] bcast_S_S1x256),
    TRef.binary (.of main_v69) main_call4.v0 main_call4.v1 maximumf ]
/-- The buffers window 9 writes. -/
abbrev w9_W : List (Ref sig .tc) := [main_v59, main_v60, main_cst_11, main_v61, main_v62, main_v63, main_v64, main_v65, main_v66, main_v67, main_v68, main_v69, main_call4_cst, main_call4_v0, main_v70]

/-- Operations 140 … 147 of 239 (in `main_part1`). -/
abbrev w10 : List (HloOp τ sig (Elt F)) :=
  [ binary main_v70 main_arg15 main_v71 ((fun l r => Host.dotGeneral dot_S1x256_S256x128_S1x128_1_0_0_1_n_n none l r) : (⟨S1x256, .f32⟩ : BufTy).Contents (Elt F) → (⟨S256x128, .f32⟩ : BufTy).Contents (Elt F) → (⟨S1x128, .f32⟩ : BufTy).Contents (Elt F)),
    unary main_arg16 main_v72 (broadcastInDim S1x128 ![1] bcast_S128_S1x128_1 : (⟨S128, .f32⟩ : BufTy).Contents (Elt F) → (⟨S1x128, .f32⟩ : BufTy).Contents (Elt F)),
    binary main_v71 main_v72 main_v73 (addf : (⟨S1x128, .f32⟩ : BufTy).Contents (Elt F) → (⟨S1x128, .f32⟩ : BufTy).Contents (Elt F) → (⟨S1x128, .f32⟩ : BufTy).Contents (Elt F)),
    binary main_arg1 main_arg17 main_v74 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg18 main_v75 (broadcastInDim S1x128 ![1] bcast_S128_S1x128_1 : (⟨S128, .f32⟩ : BufTy).Contents (Elt F) → (⟨S1x128, .f32⟩ : BufTy).Contents (Elt F)),
    unary main_v75 main_v76 (broadcastInDim S100000x128 ![0, 1] bcast_S1x128_S100000x128_0_1 : (⟨S1x128, .f32⟩ : BufTy).Contents (Elt F) → (⟨S100000x128, .f32⟩ : BufTy).Contents (Elt F)),
    binary main_v74 main_v76 main_v77 (addf : (⟨S100000x128, .f32⟩ : BufTy).Contents (Elt F) → (⟨S100000x128, .f32⟩ : BufTy).Contents (Elt F) → (⟨S100000x128, .f32⟩ : BufTy).Contents (Elt F)),
    reshape main_v77 main_v78 rfl shapeCasts_S100000x128_S100000x8x16 ]
/-- The buffers window 10 writes. -/
abbrev w10_W : List (Ref sig .tc) := [main_v71, main_v72, main_v73, main_v74, main_v75, main_v76, main_v77, main_v78]

/-- Operations 148 … 161 of 239 (in `main_part1`). -/
abbrev w11 : List (HloOp τ sig (Elt F)) :=
  [ binary main_v73 main_arg19 main_v79 ((fun l r => Host.dotGeneral dot_S1x128_S128x128_S1x128_1_0_0_1_n_n none l r) : (⟨S1x128, .f32⟩ : BufTy).Contents (Elt F) → (⟨S128x128, .f32⟩ : BufTy).Contents (Elt F) → (⟨S1x128, .f32⟩ : BufTy).Contents (Elt F)),
    unary main_arg20 main_v80 (broadcastInDim S1x128 ![1] bcast_S128_S1x128_1 : (⟨S128, .f32⟩ : BufTy).Contents (Elt F) → (⟨S1x128, .f32⟩ : BufTy).Contents (Elt F)),
    binary main_v79 main_v80 main_v81 (addf : (⟨S1x128, .f32⟩ : BufTy).Contents (Elt F) → (⟨S1x128, .f32⟩ : BufTy).Contents (Elt F) → (⟨S1x128, .f32⟩ : BufTy).Contents (Elt F)),
    reshape main_v81 main_v82 rfl shapeCasts_S1x128_S1x8x16,
    unary main_v82 main_v83 (broadcastInDim S100000x8x16 ![0, 1, 2] bcast_S1x8x16_S100000x8x16_0_1_2 : (⟨S1x8x16, .f32⟩ : BufTy).Contents (Elt F) → (⟨S100000x8x16, .f32⟩ : BufTy).Contents (Elt F)),
    binary main_v78 main_v83 main_v84 (addf : (⟨S100000x8x16, .f32⟩ : BufTy).Contents (Elt F) → (⟨S100000x8x16, .f32⟩ : BufTy).Contents (Elt F) → (⟨S100000x8x16, .f32⟩ : BufTy).Contents (Elt F)),
    nullary main_cst_12 (constant S_ .f32 0x3E4CCCCD#32),
    TRef.nullary main_call5.cst (constant S_ .f32 0x00000000#32),
    TRef.unary main_call5.cst main_call5.v0 (broadcastInDim S100000x8x16 ![] bcast_S_S100000x8x16),
    TRef.binary (.of main_v84) main_call5.v0 main_call5.v1 (cmpf .oge),
    TRef.unary (.of main_cst_12) main_call5.v2 id,
    TRef.unary main_call5.v2 main_call5.v3 (broadcastInDim S100000x8x16 ![] bcast_S_S100000x8x16),
    TRef.binary main_call5.v3 (.of main_v84) main_call5.v4 mulf,
    TRef.ternary main_call5.v1 (.of main_v84) main_call5.v4 main_call5.call0.v0 select ]
/-- The buffers window 11 writes. -/
abbrev w11_W : List (Ref sig .tc) := [main_v79, main_v80, main_v81, main_v82, main_v83, main_v84, main_cst_12, main_call5_cst, main_call5_v0, main_call5_v1, main_call5_v2, main_call5_v3, main_call5_v4, main_v85]

/-- Operations 162 … 175 of 239 (in `main_part1`). -/
abbrev w12 : List (HloOp τ sig (Elt F)) :=
  [ unary main_arg21 main_v86 (broadcastInDim S1x8x16 ![1, 2] bcast_S8x16_S1x8x16_1_2 : (⟨S8x16, .f32⟩ : BufTy).Contents (Elt F) → (⟨S1x8x16, .f32⟩ : BufTy).Contents (Elt F)),
    unary main_v86 main_v87 (broadcastInDim S100000x8x16 ![0, 1, 2] bcast_S1x8x16_S100000x8x16_0_1_2 : (⟨S1x8x16, .f32⟩ : BufTy).Contents (Elt F) → (⟨S100000x8x16, .f32⟩ : BufTy).Contents (Elt F)),
    binary main_v85 main_v87 main_v88 (mulf : (⟨S100000x8x16, .f32⟩ : BufTy).Contents (Elt F) → (⟨S100000x8x16, .f32⟩ : BufTy).Contents (Elt F) → (⟨S100000x8x16, .f32⟩ : BufTy).Contents (Elt F)),
    nullary main_cst_13 (constant S_ .f32 0x00000000#32),
    binary main_v88 main_cst_13 main_v89 ((fun x v => Host.reduceAdd x v reducesTo_S100000x8x16_S100000x8_d2 h_S_) : (⟨S100000x8x16, .f32⟩ : BufTy).Contents (Elt F) → (⟨S_, .f32⟩ : BufTy).Contents (Elt F) → (⟨S100000x8, .f32⟩ : BufTy).Contents (Elt F)),
    nullary main_cst_14 (constant S_ .f32 0xFF800000#32),
    binary main_v89 main_cst_14 main_v90 ((fun x v => Host.reduce FloatOps.maximumf x v reducesTo_S100000x8_S8_d0 h_S_) : (⟨S100000x8, .f32⟩ : BufTy).Contents (Elt F) → (⟨S_, .f32⟩ : BufTy).Contents (Elt F) → (⟨S8, .f32⟩ : BufTy).Contents (Elt F)),
    nullary main_cst_15 (constant S_ .f32 0xFF800000#32),
    unary main_cst_15 main_v91 (broadcastInDim S8 ![] bcast_S_S8 : (⟨S_, .f32⟩ : BufTy).Contents (Elt F) → (⟨S8, .f32⟩ : BufTy).Contents (Elt F)),
    binary main_v91 main_v90 main_v92 (maximumf : (⟨S8, .f32⟩ : BufTy).Contents (Elt F) → (⟨S8, .f32⟩ : BufTy).Contents (Elt F) → (⟨S8, .f32⟩ : BufTy).Contents (Elt F)),
    unary main_v92 main_v93 (broadcastInDim S1x8 ![1] bcast_S8_S1x8_1 : (⟨S8, .f32⟩ : BufTy).Contents (Elt F) → (⟨S1x8, .f32⟩ : BufTy).Contents (Elt F)),
    unary main_v93 main_v94 (broadcastInDim S100000x8 ![0, 1] bcast_S1x8_S100000x8_0_1 : (⟨S1x8, .f32⟩ : BufTy).Contents (Elt F) → (⟨S100000x8, .f32⟩ : BufTy).Contents (Elt F)),
    binary main_v89 main_v94 main_v95 (subf : (⟨S100000x8, .f32⟩ : BufTy).Contents (Elt F) → (⟨S100000x8, .f32⟩ : BufTy).Contents (Elt F) → (⟨S100000x8, .f32⟩ : BufTy).Contents (Elt F)),
    unary main_v95 main_v96 (Host.exp : (⟨S100000x8, .f32⟩ : BufTy).Contents (Elt F) → (⟨S100000x8, .f32⟩ : BufTy).Contents (Elt F)) ]
/-- The buffers window 12 writes. -/
abbrev w12_W : List (Ref sig .tc) := [main_v86, main_v87, main_v88, main_cst_13, main_v89, main_cst_14, main_v90, main_cst_15, main_v91, main_v92, main_v93, main_v94, main_v95, main_v96]

/-- Operations 176 … 180 of 239 (in `main_part1`). -/
abbrev w13 : List (HloOp τ sig (Elt F)) :=
  [ nullary main_cst_16 (constant S_ .f32 0x00000000#32),
    binary main_v96 main_cst_16 main_v97 ((fun x v => Host.reduceAdd x v reducesTo_S100000x8_S8_d0 h_S_) : (⟨S100000x8, .f32⟩ : BufTy).Contents (Elt F) → (⟨S_, .f32⟩ : BufTy).Contents (Elt F) → (⟨S8, .f32⟩ : BufTy).Contents (Elt F)),
    unary main_v97 main_v98 (broadcastInDim S1x8 ![1] bcast_S8_S1x8_1 : (⟨S8, .f32⟩ : BufTy).Contents (Elt F) → (⟨S1x8, .f32⟩ : BufTy).Contents (Elt F)),
    unary main_v98 main_v99 (broadcastInDim S100000x8 ![0, 1] bcast_S1x8_S100000x8_0_1 : (⟨S1x8, .f32⟩ : BufTy).Contents (Elt F) → (⟨S100000x8, .f32⟩ : BufTy).Contents (Elt F)),
    binary main_v96 main_v99 main_v100 (Host.divf : (⟨S100000x8, .f32⟩ : BufTy).Contents (Elt F) → (⟨S100000x8, .f32⟩ : BufTy).Contents (Elt F) → (⟨S100000x8, .f32⟩ : BufTy).Contents (Elt F)) ]
/-- The buffers window 13 writes. -/
abbrev w13_W : List (Ref sig .tc) := [main_cst_16, main_v97, main_v98, main_v99, main_v100]

/-- Operations 181 … 190 of 239 (in `main_part2`). -/
abbrev w14 : List (HloOp τ sig (Elt F)) :=
  [ unary main_v100 main_v101 (broadcastInDim S100000x8x1 ![0, 1] bcast_S100000x8_S100000x8x1_0_1 : (⟨S100000x8, .f32⟩ : BufTy).Contents (Elt F) → (⟨S100000x8x1, .f32⟩ : BufTy).Contents (Elt F)),
    unary main_v101 main_v102 (broadcastInDim S100000x8x16 ![0, 1, 2] bcast_S100000x8x1_S100000x8x16_0_1_2 : (⟨S100000x8x1, .f32⟩ : BufTy).Contents (Elt F) → (⟨S100000x8x16, .f32⟩ : BufTy).Contents (Elt F)),
    binary main_v102 main_v78 main_v103 (mulf : (⟨S100000x8x16, .f32⟩ : BufTy).Contents (Elt F) → (⟨S100000x8x16, .f32⟩ : BufTy).Contents (Elt F) → (⟨S100000x8x16, .f32⟩ : BufTy).Contents (Elt F)),
    nullary main_cst_17 (constant S_ .f32 0x00000000#32),
    binary main_v103 main_cst_17 main_v104 ((fun x v => Host.reduceAdd x v reducesTo_S100000x8x16_S8x16_d0 h_S_) : (⟨S100000x8x16, .f32⟩ : BufTy).Contents (Elt F) → (⟨S_, .f32⟩ : BufTy).Contents (Elt F) → (⟨S8x16, .f32⟩ : BufTy).Contents (Elt F)),
    reshape main_v104 main_v105 rfl shapeCasts_S8x16_S1x128,
    unary main_arg22 main_v106 (broadcastInDim S1x128 ![1] bcast_S128_S1x128_1 : (⟨S128, .f32⟩ : BufTy).Contents (Elt F) → (⟨S1x128, .f32⟩ : BufTy).Contents (Elt F)),
    binary main_v105 main_v106 main_v107 (addf : (⟨S1x128, .f32⟩ : BufTy).Contents (Elt F) → (⟨S1x128, .f32⟩ : BufTy).Contents (Elt F) → (⟨S1x128, .f32⟩ : BufTy).Contents (Elt F)),
    binary main_v53 main_v107 main_v108 ((fun a b => concatenate S1x256 1 [⟨S1x128, a⟩, ⟨S1x128, b⟩] concatenates_S1x128_S1x128_S1x256_d1) : (⟨S1x128, .f32⟩ : BufTy).Contents (Elt F) → (⟨S1x128, .f32⟩ : BufTy).Contents (Elt F) → (⟨S1x256, .f32⟩ : BufTy).Contents (Elt F)),
    binary main_arg2 main_v108 main_v109 (addf : (⟨S1x256, .f32⟩ : BufTy).Contents (Elt F) → (⟨S1x256, .f32⟩ : BufTy).Contents (Elt F) → (⟨S1x256, .f32⟩ : BufTy).Contents (Elt F)) ]
/-- The buffers window 14 writes. -/
abbrev w14_W : List (Ref sig .tc) := [main_v101, main_v102, main_v103, main_cst_17, main_v104, main_v105, main_v106, main_v107, main_v108, main_v109]

/-- Operations 191 … 197 of 239 (in `main_part2`). -/
abbrev w15 : List (HloOp τ sig (Elt F)) :=
  [ nullary main_cst_18 (constant S_ .f32 0x00000000#32),
    binary main_v109 main_cst_18 main_v110 ((fun x v => Host.reduceAdd x v reducesTo_S1x256_S1_d1 h_S_) : (⟨S1x256, .f32⟩ : BufTy).Contents (Elt F) → (⟨S_, .f32⟩ : BufTy).Contents (Elt F) → (⟨S1, .f32⟩ : BufTy).Contents (Elt F)),
    unary main_v110 main_v111 (broadcastInDim S1x1 ![0] bcast_S1_S1x1_0 : (⟨S1, .f32⟩ : BufTy).Contents (Elt F) → (⟨S1x1, .f32⟩ : BufTy).Contents (Elt F)),
    nullary main_cst_19 (constant S_ .f32 0x43800000#32),
    unary main_cst_19 main_v112 (broadcastInDim S1x1 ![] bcast_S_S1x1 : (⟨S_, .f32⟩ : BufTy).Contents (Elt F) → (⟨S1x1, .f32⟩ : BufTy).Contents (Elt F)),
    binary main_v111 main_v112 main_v113 (Host.divf : (⟨S1x1, .f32⟩ : BufTy).Contents (Elt F) → (⟨S1x1, .f32⟩ : BufTy).Contents (Elt F) → (⟨S1x1, .f32⟩ : BufTy).Contents (Elt F)),
    nullary main_c_20 (constantI S_ 32 0#32) ]
/-- The buffers window 15 writes. -/
abbrev w15_W : List (Ref sig .tc) := [main_cst_18, main_v110, main_v111, main_cst_19, main_v112, main_v113, main_c_20]

/-- Operations 198 … 220 of 239 (in `main_part2`). -/
abbrev w16 : List (HloOp τ sig (Elt F)) :=
  [ TRef.nullary main_call6.cst (constant S_ .f32 0x00000000#32),
    TRef.binary (.of main_v109) main_call6.cst main_call6.v0 (fun x v => Host.reduceAdd x v reducesTo_S1x256_S1_d1 h_S_),
    TRef.unary main_call6.v0 main_call6.v1 (broadcastInDim S1x1 ![0] bcast_S1_S1x1_0),
    TRef.nullary main_call6.cst_0 (constant S_ .f32 0x43800000#32),
    TRef.unary main_call6.cst_0 main_call6.v2 (broadcastInDim S1x1 ![] bcast_S_S1x1),
    TRef.binary main_call6.v1 main_call6.v2 main_call6.v3 Host.divf,
    TRef.unary main_call6.v3 main_call6.v4 (broadcastInDim S1x256 ![0, 1] bcast_S1x1_S1x256_0_1),
    TRef.binary (.of main_v109) main_call6.v4 main_call6.v5 subf,
    TRef.binary main_call6.v5 main_call6.v5 main_call6.v6 mulf,
    TRef.unary (.of main_c_20) main_call6.v7 (sitofp .f32),
    TRef.nullary main_call6.cst_1 (constant S_ .f32 0x43800000#32),
    TRef.binary main_call6.cst_1 main_call6.v7 main_call6.v8 subf,
    TRef.nullary main_call6.cst_2 (constant S_ .f32 0x00000000#32),
    TRef.binary main_call6.v6 main_call6.cst_2 main_call6.v9 (fun x v => Host.reduceAdd x v reducesTo_S1x256_S1_d1 h_S_),
    TRef.unary main_call6.v9 main_call6.v10 (broadcastInDim S1x1 ![0] bcast_S1_S1x1_0),
    TRef.unary main_call6.v8 main_call6.v11 (broadcastInDim S1x1 ![] bcast_S_S1x1),
    TRef.binary main_call6.v10 main_call6.v11 main_call6.v12 Host.divf,
    TRef.nullary main_call6.cst_3 (constant S_ .f32 0x00000000#32),
    TRef.binary main_call6.v8 main_call6.cst_3 main_call6.v13 (cmpf .ogt),
    TRef.nullary main_call6.cst_4 (constant S_ .f32 0x7FC00000#32),
    TRef.unary main_call6.cst_4 main_call6.call0.v0 id,
    TRef.unary main_call6.call0.v0 main_call6.call0.v1 (broadcastInDim S1x1 ![] bcast_S_S1x1),
    TRef.ternary main_call6.v13 main_call6.v12 main_call6.call0.v1 main_call6.call0.v2 (fun p a b => select (broadcastInDim S1x1 ![] bcast_S_S1x1 p) a b) ]
/-- The buffers window 16 writes. -/
abbrev w16_W : List (Ref sig .tc) := [main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_v12, main_call6_cst_3, main_call6_v13, main_call6_cst_4, main_call6_call0_v0, main_call6_call0_v1, main_v114]

/-- Operations 221 … 235 of 239 (in `main_part2`). -/
abbrev w17 : List (HloOp τ sig (Elt F)) :=
  [ unary main_v113 main_v115 (broadcastInDim S1x256 ![0, 1] bcast_S1x1_S1x256_0_1 : (⟨S1x1, .f32⟩ : BufTy).Contents (Elt F) → (⟨S1x256, .f32⟩ : BufTy).Contents (Elt F)),
    binary main_v109 main_v115 main_v116 (subf : (⟨S1x256, .f32⟩ : BufTy).Contents (Elt F) → (⟨S1x256, .f32⟩ : BufTy).Contents (Elt F) → (⟨S1x256, .f32⟩ : BufTy).Contents (Elt F)),
    nullary main_cst_21 (constant S_ .f32 0x3727C5AC#32),
    unary main_cst_21 main_v117 (broadcastInDim S1x1 ![] bcast_S_S1x1 : (⟨S_, .f32⟩ : BufTy).Contents (Elt F) → (⟨S1x1, .f32⟩ : BufTy).Contents (Elt F)),
    binary main_v114 main_v117 main_v118 (addf : (⟨S1x1, .f32⟩ : BufTy).Contents (Elt F) → (⟨S1x1, .f32⟩ : BufTy).Contents (Elt F) → (⟨S1x1, .f32⟩ : BufTy).Contents (Elt F)),
    unary main_v118 main_v119 (Host.rsqrt : (⟨S1x1, .f32⟩ : BufTy).Contents (Elt F) → (⟨S1x1, .f32⟩ : BufTy).Contents (Elt F)),
    unary main_v119 main_v120 (broadcastInDim S1x256 ![0, 1] bcast_S1x1_S1x256_0_1 : (⟨S1x1, .f32⟩ : BufTy).Contents (Elt F) → (⟨S1x256, .f32⟩ : BufTy).Contents (Elt F)),
    binary main_v116 main_v120 main_v121 (mulf : (⟨S1x256, .f32⟩ : BufTy).Contents (Elt F) → (⟨S1x256, .f32⟩ : BufTy).Contents (Elt F) → (⟨S1x256, .f32⟩ : BufTy).Contents (Elt F)),
    unary main_arg23 main_v122 (broadcastInDim S1x256 ![1] bcast_S256_S1x256_1 : (⟨S256, .f32⟩ : BufTy).Contents (Elt F) → (⟨S1x256, .f32⟩ : BufTy).Contents (Elt F)),
    binary main_v121 main_v122 main_v123 (mulf : (⟨S1x256, .f32⟩ : BufTy).Contents (Elt F) → (⟨S1x256, .f32⟩ : BufTy).Contents (Elt F) → (⟨S1x256, .f32⟩ : BufTy).Contents (Elt F)),
    unary main_arg24 main_v124 (broadcastInDim S1x256 ![1] bcast_S256_S1x256_1 : (⟨S256, .f32⟩ : BufTy).Contents (Elt F) → (⟨S1x256, .f32⟩ : BufTy).Contents (Elt F)),
    binary main_v123 main_v124 main_v125 (addf : (⟨S1x256, .f32⟩ : BufTy).Contents (Elt F) → (⟨S1x256, .f32⟩ : BufTy).Contents (Elt F) → (⟨S1x256, .f32⟩ : BufTy).Contents (Elt F)),
    TRef.nullary main_call7.cst (constant S_ .f32 0x00000000#32),
    TRef.unary main_call7.cst main_call7.v0 (broadcastInDim S1x256 ![] bcast_S_S1x256),
    TRef.binary (.of main_v125) main_call7.v0 main_call7.v1 maximumf ]
/-- The buffers window 17 writes. -/
abbrev w17_W : List (Ref sig .tc) := [main_v115, main_v116, main_cst_21, main_v117, main_v118, main_v119, main_v120, main_v121, main_v122, main_v123, main_v124, main_v125, main_call7_cst, main_call7_v0, main_v126]

/-- Operations 236 … 239 of 239 (in `main_part2`). -/
abbrev w18 : List (HloOp τ sig (Elt F)) :=
  [ binary main_v126 main_arg25 main_v127 ((fun l r => Host.dotGeneral dot_S1x256_S256x256_S1x256_1_0_0_1_n_n none l r) : (⟨S1x256, .f32⟩ : BufTy).Contents (Elt F) → (⟨S256x256, .f32⟩ : BufTy).Contents (Elt F) → (⟨S1x256, .f32⟩ : BufTy).Contents (Elt F)),
    unary main_arg26 main_v128 (broadcastInDim S1x256 ![1] bcast_S256_S1x256_1 : (⟨S256, .f32⟩ : BufTy).Contents (Elt F) → (⟨S1x256, .f32⟩ : BufTy).Contents (Elt F)),
    binary main_v127 main_v128 main_v129 (addf : (⟨S1x256, .f32⟩ : BufTy).Contents (Elt F) → (⟨S1x256, .f32⟩ : BufTy).Contents (Elt F) → (⟨S1x256, .f32⟩ : BufTy).Contents (Elt F)),
    binary main_v109 main_v129 main_v130 (addf : (⟨S1x256, .f32⟩ : BufTy).Contents (Elt F) → (⟨S1x256, .f32⟩ : BufTy).Contents (Elt F) → (⟨S1x256, .f32⟩ : BufTy).Contents (Elt F)) ]
/-- The buffers window 18 writes. -/
abbrev w18_W : List (Ref sig .tc) := [main_v127, main_v128, main_v129, main_v130]

/-- The operations of `main_part0`. -/
abbrev ops_main_part0 : List (HloOp τ sig (Elt F)) := w0 ++ w1 ++ w2 ++ w3 ++ w4 ++ w5 ++ w6

/-- The operations of `main_part1`. -/
abbrev ops_main_part1 : List (HloOp τ sig (Elt F)) := w7 ++ w8 ++ w9 ++ w10 ++ w11 ++ w12 ++ w13

/-- The operations of `main_part2`. -/
abbrev ops_main_part2 : List (HloOp τ sig (Elt F)) := w14 ++ w15 ++ w16 ++ w17 ++ w18

/-- The whole program's operations, in order. -/
abbrev ops : List (HloOp τ sig (Elt F)) := ops_main_part0 ++ ops_main_part1 ++ ops_main_part2

/-- Every buffer some operation writes. -/
abbrev Wall : List (Ref sig .tc) := w0_W ++ w1_W ++ w2_W ++ w3_W ++ w4_W ++ w5_W ++ w6_W ++ w7_W ++ w8_W ++ w9_W ++ w10_W ++ w11_W ++ w12_W ++ w13_W ++ w14_W ++ w15_W ++ w16_W ++ w17_W ++ w18_W

end Cert.ReferenceIdeal.HandRun

end
-- ==== Proof.RefRun.lean ====
/- The run of the reference program, read back. The program is a straight line of operations (each call's callee
   operations at the call site), so every weakly fair execution ends with each buffer at the fold of the operations'
   results over the launch contents. That fold is read window by window: after each window, every buffer a later
   window reads holds the pure term of the argument arrays that the table names for it; no operation writes an
   argument array. Hence the returned buffer ends at the term named for the returned value, and the arguments unchanged. -/
import proofs.«165745_g33088428049086_cont_sun_c4_530_12_alg».proof.Proof.RefTable
import proofs.«165745_g33088428049086_cont_sun_c4_530_12_alg».proof.Proof.RefOps

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-! ## Lists of operations -/

/-- The contents after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih _

/-- What holds of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun a ha =>
    (List.mem_append.mp ha).elim (List.forall_iff_forall_mem.mp h₁ a) (List.forall_iff_forall_mem.mp h₂ a)

/-- Every operation of a literal window names device buffers only. -/
macro "window_sub" : tactic =>
  `(tactic| simp only [List.Forall, nullary_bufs_sub, unary_bufs_sub, binary_bufs_sub, ternary_bufs_sub, reshape_bufs_sub,
      and_self])

/-- Every operation of a literal window determines what it writes. -/
macro "window_fresh" : tactic =>
  `(tactic| (simp only [List.Forall]
             repeat' apply And.intro
             all_goals rfl))

/-- Each operation of a literal window writes one buffer of the window's list. -/
macro "window_writes" : tactic =>
  `(tactic| (simp only [List.Forall, nullary_writes, unary_writes, binary_writes, ternary_writes, reshape_writes,
               Finset.singleton_subset_iff, List.mem_toFinset]
             repeat' apply And.intro
             all_goals exact List.mem_map_of_mem (by decide)))

/-! ## The program is its list of operations

Each printed part of the program is the line of its windows: the callees' definitions unfold at their calls, and both
sides are one chain of steps once sequencing is reassociated. -/

theorem main_part0_eq (c : Dev nD) : main_part0 (F := F) c = seq ops_main_part0 := by
  simp only [main_part0, fn_var.body, fn_where.body, fn_relu.body, fn_leaky_relu.body, fn_where_0.body,
    ops_main_part0, w0, w1, w2, w3, w4, w5, w6, seq_append, seq, bind_assoc, pure_bind]
  rfl

theorem main_part1_eq (c : Dev nD) : main_part1 (F := F) c = seq ops_main_part1 := by
  simp only [main_part1, fn_var.body, fn_where.body, fn_relu.body, fn_leaky_relu.body, fn_where_0.body,
    ops_main_part1, w7, w8, w9, w10, w11, w12, w13, seq_append, seq, bind_assoc, pure_bind]
  rfl

theorem main_part2_eq (c : Dev nD) : main_part2 (F := F) c = seq ops_main_part2 := by
  simp only [main_part2, fn_var_1.body, fn_where.body, fn_relu.body,
    ops_main_part2, w14, w15, w16, w17, w18, seq_append, seq, bind_assoc, pure_bind]

theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

/-! ## The windows read back

`valK V0` is the contents after the first K windows from contents `V0`. A window leaves alone every buffer it does not
write (`valK_keep`), so an argument array, which no window writes, still holds its launch contents (`valK_arg`); and
each buffer a later window reads holds the table's term of the argument arrays (`valK_‹buffer›`): the window's
operations compose to that term over what the window read, which the previous window's lemmas name. -/

/-- The argument arrays as buffer contents hold them. -/
def argsOf (V : Valuation τ sig (Elt F)) : Args F where
  a0 := V (Proc.devRef .tc main_arg0)
  a1 := V (Proc.devRef .tc main_arg1)
  a2 := V (Proc.devRef .tc main_arg2)
  a3 := V (Proc.devRef .tc main_arg3)
  a4 := V (Proc.devRef .tc main_arg4)
  a5 := V (Proc.devRef .tc main_arg5)
  a6 := V (Proc.devRef .tc main_arg6)
  a7 := V (Proc.devRef .tc main_arg7)
  a8 := V (Proc.devRef .tc main_arg8)
  a9 := V (Proc.devRef .tc main_arg9)
  a10 := V (Proc.devRef .tc main_arg10)
  a11 := V (Proc.devRef .tc main_arg11)
  a12 := V (Proc.devRef .tc main_arg12)
  a13 := V (Proc.devRef .tc main_arg13)
  a14 := V (Proc.devRef .tc main_arg14)
  a15 := V (Proc.devRef .tc main_arg15)
  a16 := V (Proc.devRef .tc main_arg16)
  a17 := V (Proc.devRef .tc main_arg17)
  a18 := V (Proc.devRef .tc main_arg18)
  a19 := V (Proc.devRef .tc main_arg19)
  a20 := V (Proc.devRef .tc main_arg20)
  a21 := V (Proc.devRef .tc main_arg21)
  a22 := V (Proc.devRef .tc main_arg22)
  a23 := V (Proc.devRef .tc main_arg23)
  a24 := V (Proc.devRef .tc main_arg24)
  a25 := V (Proc.devRef .tc main_arg25)
  a26 := V (Proc.devRef .tc main_arg26)

variable (V0 : Valuation τ sig (Elt F))

/-- The contents before the first window. -/
def val0 : Valuation τ sig (Elt F) := V0
theorem val0_arg (r : Ref sig .tc) (h : r ∉ Wall) : val0 V0 (no_index (Proc.devRef .tc r)) = V0 (Proc.devRef .tc r) := rfl

/-! ### Window 0: the mean of argument 2, and the integer zero the first call takes -/

/-- The contents after window 0. -/
def val1 : Valuation τ sig (Elt F) := after w0 (val0 V0)
theorem w0_sub : (w0 : List (HloOp τ sig (Elt F))).Forall fun op => op.bufs ⊆ tcRefs τ sig := by window_sub
theorem w0_fresh : (w0 : List (HloOp τ sig (Elt F))).Forall fun op => op.fresh = ∅ := by window_fresh
theorem w0_writes : (w0 : List (HloOp τ sig (Elt F))).Forall fun op =>
    op.writes ⊆ (w0_W.map (Proc.devRef (τ := τ) .tc)).toFinset := by window_writes
theorem val1_keep (r : Ref sig .tc) (h : r ∉ w0_W) : val1 V0 (Proc.devRef .tc r) = val0 V0 (Proc.devRef .tc r) :=
  after_of_writes_sub w0 _ w0_writes h
theorem val1_arg (r : Ref sig .tc) (h : r ∉ Wall) : val1 V0 (no_index (Proc.devRef .tc r)) = V0 (Proc.devRef .tc r) :=
  (val1_keep V0 r fun hm => h (by simp only [Wall, List.mem_append, hm, true_or, or_true])).trans (val0_arg V0 r h)
theorem val1_v3 : val1 V0 (no_index (Proc.devRef .tc main_v3)) = res_v3 (argsOf V0) := by
  unfold val1
  simp only [w0]
  after_results_simp
  simp (disch := decide) only [val0_arg]
  rfl
theorem val1_c : val1 V0 (no_index (Proc.devRef .tc main_c)) = res_c (argsOf V0) := by
  unfold val1
  simp only [w0]
  after_results_simp
  rfl

/-! ### Window 1: the first call's body: the mean squared deviation of argument 2 from its mean -/

/-- The contents after window 1. -/
def val2 : Valuation τ sig (Elt F) := after w1 (val1 V0)
theorem w1_sub : (w1 : List (HloOp τ sig (Elt F))).Forall fun op => op.bufs ⊆ tcRefs τ sig := by window_sub
theorem w1_fresh : (w1 : List (HloOp τ sig (Elt F))).Forall fun op => op.fresh = ∅ := by window_fresh
theorem w1_writes : (w1 : List (HloOp τ sig (Elt F))).Forall fun op =>
    op.writes ⊆ (w1_W.map (Proc.devRef (τ := τ) .tc)).toFinset := by window_writes
theorem val2_keep (r : Ref sig .tc) (h : r ∉ w1_W) : val2 V0 (Proc.devRef .tc r) = val1 V0 (Proc.devRef .tc r) :=
  after_of_writes_sub w1 _ w1_writes h
theorem val2_arg (r : Ref sig .tc) (h : r ∉ Wall) : val2 V0 (no_index (Proc.devRef .tc r)) = V0 (Proc.devRef .tc r) :=
  (val2_keep V0 r fun hm => h (by simp only [Wall, List.mem_append, hm, true_or, or_true])).trans (val1_arg V0 r h)
theorem val2_v3 : val2 V0 (no_index (Proc.devRef .tc main_v3)) = res_v3 (argsOf V0) :=
  (val2_keep V0 main_v3 (by decide)).trans (val1_v3 V0)
theorem val2_v4 : val2 V0 (no_index (Proc.devRef .tc main_v4)) = res_v4 (argsOf V0) := by
  unfold val2
  simp only [w1]
  after_results_simp
  simp (disch := decide) only [val1_arg, val1_c]
  rfl

/-! ### Window 2: argument 2 centred, times the reciprocal root of that variance plus a constant, times argument 3, plus
argument 4; then the second call's body, its positive part -/

/-- The contents after window 2. -/
def val3 : Valuation τ sig (Elt F) := after w2 (val2 V0)
theorem w2_sub : (w2 : List (HloOp τ sig (Elt F))).Forall fun op => op.bufs ⊆ tcRefs τ sig := by window_sub
theorem w2_fresh : (w2 : List (HloOp τ sig (Elt F))).Forall fun op => op.fresh = ∅ := by window_fresh
theorem w2_writes : (w2 : List (HloOp τ sig (Elt F))).Forall fun op =>
    op.writes ⊆ (w2_W.map (Proc.devRef (τ := τ) .tc)).toFinset := by window_writes
theorem val3_keep (r : Ref sig .tc) (h : r ∉ w2_W) : val3 V0 (Proc.devRef .tc r) = val2 V0 (Proc.devRef .tc r) :=
  after_of_writes_sub w2 _ w2_writes h
theorem val3_arg (r : Ref sig .tc) (h : r ∉ Wall) : val3 V0 (no_index (Proc.devRef .tc r)) = V0 (Proc.devRef .tc r) :=
  (val3_keep V0 r fun hm => h (by simp only [Wall, List.mem_append, hm, true_or, or_true])).trans (val2_arg V0 r h)
theorem val3_v16 : val3 V0 (no_index (Proc.devRef .tc main_v16)) = res_v16 (argsOf V0) := by
  unfold val3
  simp only [w2]
  after_results_simp
  simp (disch := decide) only [val2_arg, val2_v3, val2_v4]
  rfl

/-! ### Window 3: that row times argument 5 plus argument 6; and argument 0 times argument 7 plus argument 8, as 100000×8×16 -/

/-- The contents after window 3. -/
def val4 : Valuation τ sig (Elt F) := after w3 (val3 V0)
theorem w3_sub : (w3 : List (HloOp τ sig (Elt F))).Forall fun op => op.bufs ⊆ tcRefs τ sig := by window_sub
theorem w3_fresh : (w3 : List (HloOp τ sig (Elt F))).Forall fun op => op.fresh = ∅ := by window_fresh
theorem w3_writes : (w3 : List (HloOp τ sig (Elt F))).Forall fun op =>
    op.writes ⊆ (w3_W.map (Proc.devRef (τ := τ) .tc)).toFinset := by window_writes
theorem val4_keep (r : Ref sig .tc) (h : r ∉ w3_W) : val4 V0 (Proc.devRef .tc r) = val3 V0 (Proc.devRef .tc r) :=
  after_of_writes_sub w3 _ w3_writes h
theorem val4_arg (r : Ref sig .tc) (h : r ∉ Wall) : val4 V0 (no_index (Proc.devRef .tc r)) = V0 (Proc.devRef .tc r) :=
  (val4_keep V0 r fun hm => h (by simp only [Wall, List.mem_append, hm, true_or, or_true])).trans (val3_arg V0 r h)
theorem val4_v19 : val4 V0 (no_index (Proc.devRef .tc main_v19)) = res_v19 (argsOf V0) := by
  unfold val4
  simp only [w3]
  after_results_simp
  simp (disch := decide) only [val3_arg, val3_v16]
  rfl
theorem val4_v24 : val4 V0 (no_index (Proc.devRef .tc main_v24)) = res_v24 (argsOf V0) := by
  unfold val4
  simp only [w3]
  after_results_simp
  simp (disch := decide) only [val3_arg]
  rfl

/-! ### Window 4: the row times argument 9 plus argument 10, as 1×8×16, added to every row of the array; then the third
call's body, the sum where it is nonnegative and a constant multiple of it elsewhere -/

/-- The contents after window 4. -/
def val5 : Valuation τ sig (Elt F) := after w4 (val4 V0)
theorem w4_sub : (w4 : List (HloOp τ sig (Elt F))).Forall fun op => op.bufs ⊆ tcRefs τ sig := by window_sub
theorem w4_fresh : (w4 : List (HloOp τ sig (Elt F))).Forall fun op => op.fresh = ∅ := by window_fresh
theorem w4_writes : (w4 : List (HloOp τ sig (Elt F))).Forall fun op =>
    op.writes ⊆ (w4_W.map (Proc.devRef (τ := τ) .tc)).toFinset := by window_writes
theorem val5_keep (r : Ref sig .tc) (h : r ∉ w4_W) : val5 V0 (Proc.devRef .tc r) = val4 V0 (Proc.devRef .tc r) :=
  after_of_writes_sub w4 _ w4_writes h
theorem val5_arg (r : Ref sig .tc) (h : r ∉ Wall) : val5 V0 (no_index (Proc.devRef .tc r)) = V0 (Proc.devRef .tc r) :=
  (val5_keep V0 r fun hm => h (by simp only [Wall, List.mem_append, hm, true_or, or_true])).trans (val4_arg V0 r h)
theorem val5_v24 : val5 V0 (no_index (Proc.devRef .tc main_v24)) = res_v24 (argsOf V0) :=
  (val5_keep V0 main_v24 (by decide)).trans (val4_v24 V0)
theorem val5_v31 : val5 V0 (no_index (Proc.devRef .tc main_v31)) = res_v31 (argsOf V0) := by
  unfold val5
  simp only [w4]
  after_results_simp
  simp (disch := decide) only [val4_arg, val4_v19, val4_v24]
  rfl

/-! ### Window 5: that times argument 11, summed along the last axis; minus the maxima over the rows; the exponentials -/

/-- The contents after window 5. -/
def val6 : Valuation τ sig (Elt F) := after w5 (val5 V0)
theorem w5_sub : (w5 : List (HloOp τ sig (Elt F))).Forall fun op => op.bufs ⊆ tcRefs τ sig := by window_sub
theorem w5_fresh : (w5 : List (HloOp τ sig (Elt F))).Forall fun op => op.fresh = ∅ := by window_fresh
theorem w5_writes : (w5 : List (HloOp τ sig (Elt F))).Forall fun op =>
    op.writes ⊆ (w5_W.map (Proc.devRef (τ := τ) .tc)).toFinset := by window_writes
theorem val6_keep (r : Ref sig .tc) (h : r ∉ w5_W) : val6 V0 (Proc.devRef .tc r) = val5 V0 (Proc.devRef .tc r) :=
  after_of_writes_sub w5 _ w5_writes h
theorem val6_arg (r : Ref sig .tc) (h : r ∉ Wall) : val6 V0 (no_index (Proc.devRef .tc r)) = V0 (Proc.devRef .tc r) :=
  (val6_keep V0 r fun hm => h (by simp only [Wall, List.mem_append, hm, true_or, or_true])).trans (val5_arg V0 r h)
theorem val6_v24 : val6 V0 (no_index (Proc.devRef .tc main_v24)) = res_v24 (argsOf V0) :=
  (val6_keep V0 main_v24 (by decide)).trans (val5_v24 V0)
theorem val6_v42 : val6 V0 (no_index (Proc.devRef .tc main_v42)) = res_v42 (argsOf V0) := by
  unfold val6
  simp only [w5]
  after_results_simp
  simp (disch := decide) only [val5_arg, val5_v31]
  rfl

/-! ### Window 6: the exponentials over their sums over the rows, times the array of window 3 -/

/-- The contents after window 6. -/
def val7 : Valuation τ sig (Elt F) := after w6 (val6 V0)
theorem w6_sub : (w6 : List (HloOp τ sig (Elt F))).Forall fun op => op.bufs ⊆ tcRefs τ sig := by window_sub
theorem w6_fresh : (w6 : List (HloOp τ sig (Elt F))).Forall fun op => op.fresh = ∅ := by window_fresh
theorem w6_writes : (w6 : List (HloOp τ sig (Elt F))).Forall fun op =>
    op.writes ⊆ (w6_W.map (Proc.devRef (τ := τ) .tc)).toFinset := by window_writes
theorem val7_keep (r : Ref sig .tc) (h : r ∉ w6_W) : val7 V0 (Proc.devRef .tc r) = val6 V0 (Proc.devRef .tc r) :=
  after_of_writes_sub w6 _ w6_writes h
theorem val7_arg (r : Ref sig .tc) (h : r ∉ Wall) : val7 V0 (no_index (Proc.devRef .tc r)) = V0 (Proc.devRef .tc r) :=
  (val7_keep V0 r fun hm => h (by simp only [Wall, List.mem_append, hm, true_or, or_true])).trans (val6_arg V0 r h)
theorem val7_v49 : val7 V0 (no_index (Proc.devRef .tc main_v49)) = res_v49 (argsOf V0) := by
  unfold val7
  simp only [w6]
  after_results_simp
  simp only [val6_v42, val6_v24]
  rfl
theorem val7_cst_7 : val7 V0 (no_index (Proc.devRef .tc main_cst_7)) = res_cst_7 (argsOf V0) := by
  unfold val7
  simp only [w6]
  after_results_simp
  rfl

/-! ### Window 7: that summed over the rows, as one row, plus argument 12; and the mean of argument 2 again -/

/-- The contents after window 7. -/
def val8 : Valuation τ sig (Elt F) := after w7 (val7 V0)
theorem w7_sub : (w7 : List (HloOp τ sig (Elt F))).Forall fun op => op.bufs ⊆ tcRefs τ sig := by window_sub
theorem w7_fresh : (w7 : List (HloOp τ sig (Elt F))).Forall fun op => op.fresh = ∅ := by window_fresh
theorem w7_writes : (w7 : List (HloOp τ sig (Elt F))).Forall fun op =>
    op.writes ⊆ (w7_W.map (Proc.devRef (τ := τ) .tc)).toFinset := by window_writes
theorem val8_keep (r : Ref sig .tc) (h : r ∉ w7_W) : val8 V0 (Proc.devRef .tc r) = val7 V0 (Proc.devRef .tc r) :=
  after_of_writes_sub w7 _ w7_writes h
theorem val8_arg (r : Ref sig .tc) (h : r ∉ Wall) : val8 V0 (no_index (Proc.devRef .tc r)) = V0 (Proc.devRef .tc r) :=
  (val8_keep V0 r fun hm => h (by simp only [Wall, List.mem_append, hm, true_or, or_true])).trans (val7_arg V0 r h)
theorem val8_v53 : val8 V0 (no_index (Proc.devRef .tc main_v53)) = res_v53 (argsOf V0) := by
  unfold val8
  simp only [w7]
  after_results_simp
  simp (disch := decide) only [val7_arg, val7_v49, val7_cst_7]
  rfl
theorem val8_v57 : val8 V0 (no_index (Proc.devRef .tc main_v57)) = res_v57 (argsOf V0) := by
  unfold val8
  simp only [w7]
  after_results_simp
  simp (disch := decide) only [val7_arg]
  rfl
theorem val8_c_10 : val8 V0 (no_index (Proc.devRef .tc main_c_10)) = res_c_10 (argsOf V0) := by
  unfold val8
  simp only [w7]
  after_results_simp
  rfl

/-! ### Window 8: the fourth call's body: the mean squared deviation of argument 2 again -/

/-- The contents after window 8. -/
def val9 : Valuation τ sig (Elt F) := after w8 (val8 V0)
theorem w8_sub : (w8 : List (HloOp τ sig (Elt F))).Forall fun op => op.bufs ⊆ tcRefs τ sig := by window_sub
theorem w8_fresh : (w8 : List (HloOp τ sig (Elt F))).Forall fun op => op.fresh = ∅ := by window_fresh
theorem w8_writes : (w8 : List (HloOp τ sig (Elt F))).Forall fun op =>
    op.writes ⊆ (w8_W.map (Proc.devRef (τ := τ) .tc)).toFinset := by window_writes
theorem val9_keep (r : Ref sig .tc) (h : r ∉ w8_W) : val9 V0 (Proc.devRef .tc r) = val8 V0 (Proc.devRef .tc r) :=
  after_of_writes_sub w8 _ w8_writes h
theorem val9_arg (r : Ref sig .tc) (h : r ∉ Wall) : val9 V0 (no_index (Proc.devRef .tc r)) = V0 (Proc.devRef .tc r) :=
  (val9_keep V0 r fun hm => h (by simp only [Wall, List.mem_append, hm, true_or, or_true])).trans (val8_arg V0 r h)
theorem val9_v53 : val9 V0 (no_index (Proc.devRef .tc main_v53)) = res_v53 (argsOf V0) :=
  (val9_keep V0 main_v53 (by decide)).trans (val8_v53 V0)
theorem val9_v57 : val9 V0 (no_index (Proc.devRef .tc main_v57)) = res_v57 (argsOf V0) :=
  (val9_keep V0 main_v57 (by decide)).trans (val8_v57 V0)
theorem val9_v58 : val9 V0 (no_index (Proc.devRef .tc main_v58)) = res_v58 (argsOf V0) := by
  unfold val9
  simp only [w8]
  after_results_simp
  simp (disch := decide) only [val8_arg, val8_c_10]
  rfl

/-! ### Window 9: argument 2 centred and scaled as in window 2, times argument 13, plus argument 14; then the fifth call's
body, its positive part -/

/-- The contents after window 9. -/
def val10 : Valuation τ sig (Elt F) := after w9 (val9 V0)
theorem w9_sub : (w9 : List (HloOp τ sig (Elt F))).Forall fun op => op.bufs ⊆ tcRefs τ sig := by window_sub
theorem w9_fresh : (w9 : List (HloOp τ sig (Elt F))).Forall fun op => op.fresh = ∅ := by window_fresh
theorem w9_writes : (w9 : List (HloOp τ sig (Elt F))).Forall fun op =>
    op.writes ⊆ (w9_W.map (Proc.devRef (τ := τ) .tc)).toFinset := by window_writes
theorem val10_keep (r : Ref sig .tc) (h : r ∉ w9_W) : val10 V0 (Proc.devRef .tc r) = val9 V0 (Proc.devRef .tc r) :=
  after_of_writes_sub w9 _ w9_writes h
theorem val10_arg (r : Ref sig .tc) (h : r ∉ Wall) : val10 V0 (no_index (Proc.devRef .tc r)) = V0 (Proc.devRef .tc r) :=
  (val10_keep V0 r fun hm => h (by simp only [Wall, List.mem_append, hm, true_or, or_true])).trans (val9_arg V0 r h)
theorem val10_v53 : val10 V0 (no_index (Proc.devRef .tc main_v53)) = res_v53 (argsOf V0) :=
  (val10_keep V0 main_v53 (by decide)).trans (val9_v53 V0)
theorem val10_v70 : val10 V0 (no_index (Proc.devRef .tc main_v70)) = res_v70 (argsOf V0) := by
  unfold val10
  simp only [w9]
  after_results_simp
  simp (disch := decide) only [val9_arg, val9_v57, val9_v58]
  rfl

/-! ### Window 10: that row times argument 15 plus argument 16; and argument 1 times argument 17 plus argument 18, as 100000×8×16 -/

/-- The contents after window 10. -/
def val11 : Valuation τ sig (Elt F) := after w10 (val10 V0)
theorem w10_sub : (w10 : List (HloOp τ sig (Elt F))).Forall fun op => op.bufs ⊆ tcRefs τ sig := by window_sub
theorem w10_fresh : (w10 : List (HloOp τ sig (Elt F))).Forall fun op => op.fresh = ∅ := by window_fresh
theorem w10_writes : (w10 : List (HloOp τ sig (Elt F))).Forall fun op =>
    op.writes ⊆ (w10_W.map (Proc.devRef (τ := τ) .tc)).toFinset := by window_writes
theorem val11_keep (r : Ref sig .tc) (h : r ∉ w10_W) : val11 V0 (Proc.devRef .tc r) = val10 V0 (Proc.devRef .tc r) :=
  after_of_writes_sub w10 _ w10_writes h
theorem val11_arg (r : Ref sig .tc) (h : r ∉ Wall) : val11 V0 (no_index (Proc.devRef .tc r)) = V0 (Proc.devRef .tc r) :=
  (val11_keep V0 r fun hm => h (by simp only [Wall, List.mem_append, hm, true_or, or_true])).trans (val10_arg V0 r h)
theorem val11_v53 : val11 V0 (no_index (Proc.devRef .tc main_v53)) = res_v53 (argsOf V0) :=
  (val11_keep V0 main_v53 (by decide)).trans (val10_v53 V0)
theorem val11_v73 : val11 V0 (no_index (Proc.devRef .tc main_v73)) = res_v73 (argsOf V0) := by
  unfold val11
  simp only [w10]
  after_results_simp
  simp (disch := decide) only [val10_arg, val10_v70]
  rfl
theorem val11_v78 : val11 V0 (no_index (Proc.devRef .tc main_v78)) = res_v78 (argsOf V0) := by
  unfold val11
  simp only [w10]
  after_results_simp
  simp (disch := decide) only [val10_arg]
  rfl

/-! ### Window 11: the row times argument 19 plus argument 20, as 1×8×16, added to every row of the array; then the sixth
call's body, as the third's -/

/-- The contents after window 11. -/
def val12 : Valuation τ sig (Elt F) := after w11 (val11 V0)
theorem w11_sub : (w11 : List (HloOp τ sig (Elt F))).Forall fun op => op.bufs ⊆ tcRefs τ sig := by window_sub
theorem w11_fresh : (w11 : List (HloOp τ sig (Elt F))).Forall fun op => op.fresh = ∅ := by window_fresh
theorem w11_writes : (w11 : List (HloOp τ sig (Elt F))).Forall fun op =>
    op.writes ⊆ (w11_W.map (Proc.devRef (τ := τ) .tc)).toFinset := by window_writes
theorem val12_keep (r : Ref sig .tc) (h : r ∉ w11_W) : val12 V0 (Proc.devRef .tc r) = val11 V0 (Proc.devRef .tc r) :=
  after_of_writes_sub w11 _ w11_writes h
theorem val12_arg (r : Ref sig .tc) (h : r ∉ Wall) : val12 V0 (no_index (Proc.devRef .tc r)) = V0 (Proc.devRef .tc r) :=
  (val12_keep V0 r fun hm => h (by simp only [Wall, List.mem_append, hm, true_or, or_true])).trans (val11_arg V0 r h)
theorem val12_v53 : val12 V0 (no_index (Proc.devRef .tc main_v53)) = res_v53 (argsOf V0) :=
  (val12_keep V0 main_v53 (by decide)).trans (val11_v53 V0)
theorem val12_v78 : val12 V0 (no_index (Proc.devRef .tc main_v78)) = res_v78 (argsOf V0) :=
  (val12_keep V0 main_v78 (by decide)).trans (val11_v78 V0)
theorem val12_v85 : val12 V0 (no_index (Proc.devRef .tc main_v85)) = res_v85 (argsOf V0) := by
  unfold val12
  simp only [w11]
  after_results_simp
  simp (disch := decide) only [val11_arg, val11_v73, val11_v78]
  rfl

/-! ### Window 12: that times argument 21, summed along the last axis; minus the maxima over the rows; the exponentials -/

/-- The contents after window 12. -/
def val13 : Valuation τ sig (Elt F) := after w12 (val12 V0)
theorem w12_sub : (w12 : List (HloOp τ sig (Elt F))).Forall fun op => op.bufs ⊆ tcRefs τ sig := by window_sub
theorem w12_fresh : (w12 : List (HloOp τ sig (Elt F))).Forall fun op => op.fresh = ∅ := by window_fresh
theorem w12_writes : (w12 : List (HloOp τ sig (Elt F))).Forall fun op =>
    op.writes ⊆ (w12_W.map (Proc.devRef (τ := τ) .tc)).toFinset := by window_writes
theorem val13_keep (r : Ref sig .tc) (h : r ∉ w12_W) : val13 V0 (Proc.devRef .tc r) = val12 V0 (Proc.devRef .tc r) :=
  after_of_writes_sub w12 _ w12_writes h
theorem val13_arg (r : Ref sig .tc) (h : r ∉ Wall) : val13 V0 (no_index (Proc.devRef .tc r)) = V0 (Proc.devRef .tc r) :=
  (val13_keep V0 r fun hm => h (by simp only [Wall, List.mem_append, hm, true_or, or_true])).trans (val12_arg V0 r h)
theorem val13_v53 : val13 V0 (no_index (Proc.devRef .tc main_v53)) = res_v53 (argsOf V0) :=
  (val13_keep V0 main_v53 (by decide)).trans (val12_v53 V0)
theorem val13_v78 : val13 V0 (no_index (Proc.devRef .tc main_v78)) = res_v78 (argsOf V0) :=
  (val13_keep V0 main_v78 (by decide)).trans (val12_v78 V0)
theorem val13_v96 : val13 V0 (no_index (Proc.devRef .tc main_v96)) = res_v96 (argsOf V0) := by
  unfold val13
  simp only [w12]
  after_results_simp
  simp (disch := decide) only [val12_arg, val12_v85]
  rfl

/-! ### Window 13: the exponentials over their sums over the rows -/

/-- The contents after window 13. -/
def val14 : Valuation τ sig (Elt F) := after w13 (val13 V0)
theorem w13_sub : (w13 : List (HloOp τ sig (Elt F))).Forall fun op => op.bufs ⊆ tcRefs τ sig := by window_sub
theorem w13_fresh : (w13 : List (HloOp τ sig (Elt F))).Forall fun op => op.fresh = ∅ := by window_fresh
theorem w13_writes : (w13 : List (HloOp τ sig (Elt F))).Forall fun op =>
    op.writes ⊆ (w13_W.map (Proc.devRef (τ := τ) .tc)).toFinset := by window_writes
theorem val14_keep (r : Ref sig .tc) (h : r ∉ w13_W) : val14 V0 (Proc.devRef .tc r) = val13 V0 (Proc.devRef .tc r) :=
  after_of_writes_sub w13 _ w13_writes h
theorem val14_arg (r : Ref sig .tc) (h : r ∉ Wall) : val14 V0 (no_index (Proc.devRef .tc r)) = V0 (Proc.devRef .tc r) :=
  (val14_keep V0 r fun hm => h (by simp only [Wall, List.mem_append, hm, true_or, or_true])).trans (val13_arg V0 r h)
theorem val14_v53 : val14 V0 (no_index (Proc.devRef .tc main_v53)) = res_v53 (argsOf V0) :=
  (val14_keep V0 main_v53 (by decide)).trans (val13_v53 V0)
theorem val14_v78 : val14 V0 (no_index (Proc.devRef .tc main_v78)) = res_v78 (argsOf V0) :=
  (val14_keep V0 main_v78 (by decide)).trans (val13_v78 V0)
theorem val14_v100 : val14 V0 (no_index (Proc.devRef .tc main_v100)) = res_v100 (argsOf V0) := by
  unfold val14
  simp only [w13]
  after_results_simp
  simp only [val13_v96]
  rfl

/-! ### Window 14: those times the array of window 10, summed over the rows, as one row, plus argument 22; the row of
window 7 and this one side by side, added to argument 2 -/

/-- The contents after window 14. -/
def val15 : Valuation τ sig (Elt F) := after w14 (val14 V0)
theorem w14_sub : (w14 : List (HloOp τ sig (Elt F))).Forall fun op => op.bufs ⊆ tcRefs τ sig := by window_sub
theorem w14_fresh : (w14 : List (HloOp τ sig (Elt F))).Forall fun op => op.fresh = ∅ := by window_fresh
theorem w14_writes : (w14 : List (HloOp τ sig (Elt F))).Forall fun op =>
    op.writes ⊆ (w14_W.map (Proc.devRef (τ := τ) .tc)).toFinset := by window_writes
theorem val15_keep (r : Ref sig .tc) (h : r ∉ w14_W) : val15 V0 (Proc.devRef .tc r) = val14 V0 (Proc.devRef .tc r) :=
  after_of_writes_sub w14 _ w14_writes h
theorem val15_arg (r : Ref sig .tc) (h : r ∉ Wall) : val15 V0 (no_index (Proc.devRef .tc r)) = V0 (Proc.devRef .tc r) :=
  (val15_keep V0 r fun hm => h (by simp only [Wall, List.mem_append, hm, true_or, or_true])).trans (val14_arg V0 r h)
theorem val15_v109 : val15 V0 (no_index (Proc.devRef .tc main_v109)) = res_v109 (argsOf V0) := by
  unfold val15
  simp only [w14]
  after_results
  rw [val14_v100, val14_v78, val14_v53, val14_arg V0 main_arg22 (by decide), val14_arg V0 main_arg2 (by decide)]
  rfl

/-! ### Window 15: the mean of that sum, and the integer zero the seventh call takes -/

/-- The contents after window 15. -/
def val16 : Valuation τ sig (Elt F) := after w15 (val15 V0)
theorem w15_sub : (w15 : List (HloOp τ sig (Elt F))).Forall fun op => op.bufs ⊆ tcRefs τ sig := by window_sub
theorem w15_fresh : (w15 : List (HloOp τ sig (Elt F))).Forall fun op => op.fresh = ∅ := by window_fresh
theorem w15_writes : (w15 : List (HloOp τ sig (Elt F))).Forall fun op =>
    op.writes ⊆ (w15_W.map (Proc.devRef (τ := τ) .tc)).toFinset := by window_writes
theorem val16_keep (r : Ref sig .tc) (h : r ∉ w15_W) : val16 V0 (Proc.devRef .tc r) = val15 V0 (Proc.devRef .tc r) :=
  after_of_writes_sub w15 _ w15_writes h
theorem val16_arg (r : Ref sig .tc) (h : r ∉ Wall) : val16 V0 (no_index (Proc.devRef .tc r)) = V0 (Proc.devRef .tc r) :=
  (val16_keep V0 r fun hm => h (by simp only [Wall, List.mem_append, hm, true_or, or_true])).trans (val15_arg V0 r h)
theorem val16_v109 : val16 V0 (no_index (Proc.devRef .tc main_v109)) = res_v109 (argsOf V0) :=
  (val16_keep V0 main_v109 (by decide)).trans (val15_v109 V0)
theorem val16_v113 : val16 V0 (no_index (Proc.devRef .tc main_v113)) = res_v113 (argsOf V0) := by
  unfold val16
  simp only [w15]
  after_results_simp
  simp only [val15_v109]
  rfl
theorem val16_c_20 : val16 V0 (no_index (Proc.devRef .tc main_c_20)) = res_c_20 (argsOf V0) := by
  unfold val16
  simp only [w15]
  after_results_simp
  rfl

/-! ### Window 16: the seventh call's body: the mean squared deviation of that sum -/

/-- The contents after window 16. -/
def val17 : Valuation τ sig (Elt F) := after w16 (val16 V0)
theorem w16_sub : (w16 : List (HloOp τ sig (Elt F))).Forall fun op => op.bufs ⊆ tcRefs τ sig := by window_sub
theorem w16_fresh : (w16 : List (HloOp τ sig (Elt F))).Forall fun op => op.fresh = ∅ := by window_fresh
theorem w16_writes : (w16 : List (HloOp τ sig (Elt F))).Forall fun op =>
    op.writes ⊆ (w16_W.map (Proc.devRef (τ := τ) .tc)).toFinset := by window_writes
theorem val17_keep (r : Ref sig .tc) (h : r ∉ w16_W) : val17 V0 (Proc.devRef .tc r) = val16 V0 (Proc.devRef .tc r) :=
  after_of_writes_sub w16 _ w16_writes h
theorem val17_arg (r : Ref sig .tc) (h : r ∉ Wall) : val17 V0 (no_index (Proc.devRef .tc r)) = V0 (Proc.devRef .tc r) :=
  (val17_keep V0 r fun hm => h (by simp only [Wall, List.mem_append, hm, true_or, or_true])).trans (val16_arg V0 r h)
theorem val17_v109 : val17 V0 (no_index (Proc.devRef .tc main_v109)) = res_v109 (argsOf V0) :=
  (val17_keep V0 main_v109 (by decide)).trans (val16_v109 V0)
theorem val17_v113 : val17 V0 (no_index (Proc.devRef .tc main_v113)) = res_v113 (argsOf V0) :=
  (val17_keep V0 main_v113 (by decide)).trans (val16_v113 V0)
theorem val17_v114 : val17 V0 (no_index (Proc.devRef .tc main_v114)) = res_v114 (argsOf V0) := by
  unfold val17
  simp only [w16]
  after_results_simp
  simp only [val16_v109, val16_c_20]
  rfl

/-! ### Window 17: the sum centred and scaled as in window 2, times argument 23, plus argument 24; then the eighth call's
body, its positive part -/

/-- The contents after window 17. -/
def val18 : Valuation τ sig (Elt F) := after w17 (val17 V0)
theorem w17_sub : (w17 : List (HloOp τ sig (Elt F))).Forall fun op => op.bufs ⊆ tcRefs τ sig := by window_sub
theorem w17_fresh : (w17 : List (HloOp τ sig (Elt F))).Forall fun op => op.fresh = ∅ := by window_fresh
theorem w17_writes : (w17 : List (HloOp τ sig (Elt F))).Forall fun op =>
    op.writes ⊆ (w17_W.map (Proc.devRef (τ := τ) .tc)).toFinset := by window_writes
theorem val18_keep (r : Ref sig .tc) (h : r ∉ w17_W) : val18 V0 (Proc.devRef .tc r) = val17 V0 (Proc.devRef .tc r) :=
  after_of_writes_sub w17 _ w17_writes h
theorem val18_arg (r : Ref sig .tc) (h : r ∉ Wall) : val18 V0 (no_index (Proc.devRef .tc r)) = V0 (Proc.devRef .tc r) :=
  (val18_keep V0 r fun hm => h (by simp only [Wall, List.mem_append, hm, true_or, or_true])).trans (val17_arg V0 r h)
theorem val18_v109 : val18 V0 (no_index (Proc.devRef .tc main_v109)) = res_v109 (argsOf V0) :=
  (val18_keep V0 main_v109 (by decide)).trans (val17_v109 V0)
theorem val18_v126 : val18 V0 (no_index (Proc.devRef .tc main_v126)) = res_v126 (argsOf V0) := by
  unfold val18
  simp only [w17]
  after_results_simp
  simp (disch := decide) only [val17_arg, val17_v113, val17_v109, val17_v114]
  rfl

/-! ### Window 18: that row times argument 25 plus argument 26, added to the sum of window 14: the returned value -/

/-- The contents after window 18: after the whole program. -/
def val19 : Valuation τ sig (Elt F) := after w18 (val18 V0)
theorem w18_sub : (w18 : List (HloOp τ sig (Elt F))).Forall fun op => op.bufs ⊆ tcRefs τ sig := by window_sub
theorem w18_fresh : (w18 : List (HloOp τ sig (Elt F))).Forall fun op => op.fresh = ∅ := by window_fresh
theorem w18_writes : (w18 : List (HloOp τ sig (Elt F))).Forall fun op =>
    op.writes ⊆ (w18_W.map (Proc.devRef (τ := τ) .tc)).toFinset := by window_writes
theorem val19_keep (r : Ref sig .tc) (h : r ∉ w18_W) : val19 V0 (Proc.devRef .tc r) = val18 V0 (Proc.devRef .tc r) :=
  after_of_writes_sub w18 _ w18_writes h
theorem val19_arg (r : Ref sig .tc) (h : r ∉ Wall) : val19 V0 (no_index (Proc.devRef .tc r)) = V0 (Proc.devRef .tc r) :=
  (val19_keep V0 r fun hm => h (by simp only [Wall, List.mem_append, hm, true_or, or_true])).trans (val18_arg V0 r h)
theorem val19_v130 : val19 V0 (no_index (Proc.devRef .tc main_v130)) = res_v130 (argsOf V0) := by
  unfold val19
  simp only [w18]
  after_results_simp
  simp (disch := decide) only [val18_arg, val18_v126, val18_v109]
  rfl

/-! ## The whole line -/

/-- The fold over the whole program is the contents after the last window. -/
theorem after_ops : after ops V0 = val19 V0 := by
  simp only [ops, ops_main_part0, ops_main_part1, ops_main_part2, after_append]
  rfl

/-- After the program the returned buffer holds the table's term for the returned value. -/
theorem after_ops_v130 : after ops V0 (Proc.devRef .tc main_v130) = res_out (argsOf V0) := by
  rw [after_ops]
  exact val19_v130 V0

/-- After the program a buffer no operation writes holds what it held. -/
theorem after_ops_arg (r : Ref sig .tc) (h : r ∉ Wall) : after ops V0 (Proc.devRef .tc r) = V0 (Proc.devRef .tc r) := by
  rw [after_ops]
  exact val19_arg V0 r h

omit V0

theorem ops_sub : (ops : List (HloOp τ sig (Elt F))).Forall fun op => op.bufs ⊆ tcRefs τ sig :=
  forall_append
    (forall_append
      (forall_append (forall_append (forall_append (forall_append (forall_append (forall_append w0_sub w1_sub) w2_sub) w3_sub) w4_sub) w5_sub) w6_sub)
      (forall_append (forall_append (forall_append (forall_append (forall_append (forall_append w7_sub w8_sub) w9_sub) w10_sub) w11_sub) w12_sub) w13_sub))
    (forall_append (forall_append (forall_append (forall_append w14_sub w15_sub) w16_sub) w17_sub) w18_sub)

theorem ops_fresh : (ops : List (HloOp τ sig (Elt F))).Forall fun op => op.fresh = ∅ :=
  forall_append
    (forall_append
      (forall_append (forall_append (forall_append (forall_append (forall_append (forall_append w0_fresh w1_fresh) w2_fresh) w3_fresh) w4_fresh) w5_fresh) w6_fresh)
      (forall_append (forall_append (forall_append (forall_append (forall_append (forall_append w7_fresh w8_fresh) w9_fresh) w10_fresh) w11_fresh) w12_fresh) w13_fresh))
    (forall_append (forall_append (forall_append (forall_append w14_fresh w15_fresh) w16_fresh) w17_fresh) w18_fresh)

/-- On every device, for any float values, from any memory with zero counters: every weakly fair execution of the
    program terminates with the returned buffer at the table's term of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v130) =
        res_out ⟨m ((c.tc : Thread nD τ).loc main_arg0),
          m ((c.tc : Thread nD τ).loc main_arg1),
          m ((c.tc : Thread nD τ).loc main_arg2),
          m ((c.tc : Thread nD τ).loc main_arg3),
          m ((c.tc : Thread nD τ).loc main_arg4),
          m ((c.tc : Thread nD τ).loc main_arg5),
          m ((c.tc : Thread nD τ).loc main_arg6),
          m ((c.tc : Thread nD τ).loc main_arg7),
          m ((c.tc : Thread nD τ).loc main_arg8),
          m ((c.tc : Thread nD τ).loc main_arg9),
          m ((c.tc : Thread nD τ).loc main_arg10),
          m ((c.tc : Thread nD τ).loc main_arg11),
          m ((c.tc : Thread nD τ).loc main_arg12),
          m ((c.tc : Thread nD τ).loc main_arg13),
          m ((c.tc : Thread nD τ).loc main_arg14),
          m ((c.tc : Thread nD τ).loc main_arg15),
          m ((c.tc : Thread nD τ).loc main_arg16),
          m ((c.tc : Thread nD τ).loc main_arg17),
          m ((c.tc : Thread nD τ).loc main_arg18),
          m ((c.tc : Thread nD τ).loc main_arg19),
          m ((c.tc : Thread nD τ).loc main_arg20),
          m ((c.tc : Thread nD τ).loc main_arg21),
          m ((c.tc : Thread nD τ).loc main_arg22),
          m ((c.tc : Thread nD τ).loc main_arg23),
          m ((c.tc : Thread nD τ).loc main_arg24),
          m ((c.tc : Thread nD τ).loc main_arg25),
          m ((c.tc : Thread nD τ).loc main_arg26)⟩
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun _ h c => ⟨(h c main_v130).trans (after_ops_v130 (launchContents m c)),
      (h c main_arg0).trans (after_ops_arg (launchContents m c) main_arg0 (by decide)),
      (h c main_arg1).trans (after_ops_arg (launchContents m c) main_arg1 (by decide)),
      (h c main_arg2).trans (after_ops_arg (launchContents m c) main_arg2 (by decide)),
      (h c main_arg3).trans (after_ops_arg (launchContents m c) main_arg3 (by decide)),
      (h c main_arg4).trans (after_ops_arg (launchContents m c) main_arg4 (by decide)),
      (h c main_arg5).trans (after_ops_arg (launchContents m c) main_arg5 (by decide)),
      (h c main_arg6).trans (after_ops_arg (launchContents m c) main_arg6 (by decide)),
      (h c main_arg7).trans (after_ops_arg (launchContents m c) main_arg7 (by decide)),
      (h c main_arg8).trans (after_ops_arg (launchContents m c) main_arg8 (by decide)),
      (h c main_arg9).trans (after_ops_arg (launchContents m c) main_arg9 (by decide)),
      (h c main_arg10).trans (after_ops_arg (launchContents m c) main_arg10 (by decide)),
      (h c main_arg11).trans (after_ops_arg (launchContents m c) main_arg11 (by decide)),
      (h c main_arg12).trans (after_ops_arg (launchContents m c) main_arg12 (by decide)),
      (h c main_arg13).trans (after_ops_arg (launchContents m c) main_arg13 (by decide)),
      (h c main_arg14).trans (after_ops_arg (launchContents m c) main_arg14 (by decide)),
      (h c main_arg15).trans (after_ops_arg (launchContents m c) main_arg15 (by decide)),
      (h c main_arg16).trans (after_ops_arg (launchContents m c) main_arg16 (by decide)),
      (h c main_arg17).trans (after_ops_arg (launchContents m c) main_arg17 (by decide)),
      (h c main_arg18).trans (after_ops_arg (launchContents m c) main_arg18 (by decide)),
      (h c main_arg19).trans (after_ops_arg (launchContents m c) main_arg19 (by decide)),
      (h c main_arg20).trans (after_ops_arg (launchContents m c) main_arg20 (by decide)),
      (h c main_arg21).trans (after_ops_arg (launchContents m c) main_arg21 (by decide)),
      (h c main_arg22).trans (after_ops_arg (launchContents m c) main_arg22 (by decide)),
      (h c main_arg23).trans (after_ops_arg (launchContents m c) main_arg23 (by decide)),
      (h c main_arg24).trans (after_ops_arg (launchContents m c) main_arg24 (by decide)),
      (h c main_arg25).trans (after_ops_arg (launchContents m c) main_arg25 (by decide)),
      (h c main_arg26).trans (after_ops_arg (launchContents m c) main_arg26 (by decide))⟩)
    (run_seq scopedRefs_eq scopedSems_eq defs main (fun _ => ops) main_eq (fun _ => ops_sub) m ρ
      (fun _ => List.forall_iff_forall_mem.mp ops_fresh))

end Cert.ReferenceIdeal.HandRun

end
-- ==== Proof.RefGatOps.lean ====
/-
  The operations of the attention stretch of the reference, read at an index over the extended reals, for arrays
  that hold real functions: a sum, difference, product, exponential and quotient of arrays holding reals hold the
  real sum, difference, product, exponential and quotient (the divisor nonzero); a broadcast repeats its operand
  along the new or stretched axis; a reshape between `[a, 128]` and `[a, 8, 16]` re-reads lane `16 h + c` as
  `(h, c)`; a sum-reduction over one axis holds the finite sum over that axis's coordinate; a max-reduction over a
  nonempty axis from `-∞` holds some real; a matrix product holds the sums of products; and the rectifier written as
  a comparison with zero and a select holds the piecewise rectifier.
-/
import Idealize.ShloMosaic.Lib.ValueIdx
import Idealize.ShloMosaic.Lib.Pipeline.Value
import Idealize.ShloMosaic.Lib.StackMember
import Idealize.ShloMosaic.PureOps.Ideal.Laws
import proofs.«165745_g33088428049086_cont_sun_c4_530_12_alg».proof.Proof.Repr
import proofs.«165745_g33088428049086_cont_sun_c4_530_12_alg».proof.Proof.Math

noncomputable section

namespace StarAttn.RefGat

open Idealize.ShloMosaic Idealize.ShloMosaic.ValueIdx

/-- The rank-3 array `v` of shape `[a, b, c]` holds the real function `f`. -/
def Holds3 {a b c : ℕ} (v : FVec Ideal (⟨3, ![a, b, c]⟩ : Shape) .f32) (f : Fin a → Fin b → Fin c → ℝ) : Prop :=
  ∀ (i : Fin a) (j : Fin b) (k : Fin c), v (ix3 i j k) = ((f i j k : ℝ) : EReal)

/-- The coercion of a finite sum of reals is the sum of the coercions. -/
theorem coe_sum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem holdsRow_iff {b : ℕ} {v : FVec Ideal (⟨2, ![1, b]⟩ : Shape) .f32} {f : Fin b → ℝ} :
    HoldsRow v f ↔ Holds2 v (fun _ j => f j) := by
  constructor
  · intro h i j
    obtain rfl : i = 0 := Subsingleton.elim _ _
    exact h j
  · intro h j; exact h 0 j

/-! ## Elementwise operations -/

theorem holds2_add {a b : ℕ} {x y : FVec Ideal (⟨2, ![a, b]⟩ : Shape) .f32} {f g : Fin a → Fin b → ℝ}
    (hx : Holds2 x f) (hy : Holds2 y g) : Holds2 (addf x y) (fun i j => f i j + g i j) := fun i j => by
  rw [addf_apply, hx i j, hy i j, EReal.coe_add]

theorem holdsRow_add {b : ℕ} {x y : FVec Ideal (⟨2, ![1, b]⟩ : Shape) .f32} {f g : Fin b → ℝ}
    (hx : HoldsRow x f) (hy : HoldsRow y g) : HoldsRow (addf x y) (fun j => f j + g j) := fun j => by
  rw [addf_apply, hx j, hy j, EReal.coe_add]

theorem holds3_add {a b c : ℕ} {x y : FVec Ideal (⟨3, ![a, b, c]⟩ : Shape) .f32} {f g : Fin a → Fin b → Fin c → ℝ}
    (hx : Holds3 x f) (hy : Holds3 y g) : Holds3 (addf x y) (fun i j k => f i j k + g i j k) := fun i j k => by
  rw [addf_apply, hx i j k, hy i j k, EReal.coe_add]

theorem holds3_mul {a b c : ℕ} {x y : FVec Ideal (⟨3, ![a, b, c]⟩ : Shape) .f32} {f g : Fin a → Fin b → Fin c → ℝ}
    (hx : Holds3 x f) (hy : Holds3 y g) : Holds3 (mulf x y) (fun i j k => f i j k * g i j k) := fun i j k => by
  rw [mulf_apply, hx i j k, hy i j k, EReal.coe_mul]

theorem holds2_sub {a b : ℕ} {x y : FVec Ideal (⟨2, ![a, b]⟩ : Shape) .f32} {f g : Fin a → Fin b → ℝ}
    (hx : Holds2 x f) (hy : Holds2 y g) : Holds2 (subf x y) (fun i j => f i j - g i j) := fun i j => by
  rw [subf_apply, hx i j, hy i j, EReal.coe_sub]

theorem holds2_exp {a b : ℕ} {x : FVec Ideal (⟨2, ![a, b]⟩ : Shape) .f32} {f : Fin a → Fin b → ℝ}
    (hx : Holds2 x f) : Holds2 (Host.exp x) (fun i j => Real.exp (f i j)) := fun i j => by
  show Ideal.exp (x (ix2 i j)) = _
  rw [hx i j]; rfl

/-- A quotient by an array holding nonzero reals holds the real quotient. -/
theorem holds2_div {a b : ℕ} {x y : FVec Ideal (⟨2, ![a, b]⟩ : Shape) .f32} {f g : Fin a → Fin b → ℝ}
    (hx : Holds2 x f) (hy : Holds2 y g) (hg : ∀ i j, g i j ≠ 0) :
    Holds2 (Host.divf x y) (fun i j => f i j / g i j) := fun i j => by
  show Ideal.div (x (ix2 i j)) (y (ix2 i j)) = _
  rw [hx i j, hy i j]
  unfold Ideal.div
  rw [if_neg (by exact_mod_cast hg i j), ← EReal.coe_inv, ← EReal.coe_mul]
  show ((f i j * (g i j)⁻¹ : ℝ) : EReal) = ((f i j / g i j : ℝ) : EReal)
  rw [div_eq_mul_inv]

/-- The maximum with an array of `-∞` changes nothing. -/
theorem holds1_max_bot {a : ℕ} {x y : FVec Ideal (⟨1, ![a]⟩ : Shape) .f32} {f : Fin a → ℝ}
    (hx : ∀ i, x i = ⊥) (hy : Holds1 y f) : Holds1 (maximumf x y) f := fun i => by
  rw [maximumf_apply, hx, hy i]; exact max_eq_right bot_le

/-! ## The rectifier -/

/-- On a real `z`: the select on `z ≥ 0` between `z` and `σ z` is the piecewise rectifier. -/
theorem leaky_scalar (z : ℝ) :
    Scalar.select (FloatOps.cmpf (F := Ideal) (φ := .f32) .oge ((z : ℝ) : EReal) (Ideal.ofBits .f32 0x00000000#32))
      ((z : ℝ) : EReal) (Ideal.ofBits .f32 0x3E4CCCCD#32 * ((z : ℝ) : EReal)) = ((actD z : ℝ) : EReal) := by
  unfold actD
  rw [Ideal.cmpf_def, Ideal.ofBits_zero_f32, ofBits_slope]
  by_cases h : 0 ≤ z
  · have h' : (0 : EReal) ≤ ((z : ℝ) : EReal) := EReal.coe_nonneg.2 h
    simp [Ideal.cmp, Scalar.select, h, h']
  · have h' : ¬ (0 : EReal) ≤ ((z : ℝ) : EReal) := fun hh => h (EReal.coe_nonneg.1 hh)
    simp [Ideal.cmp, Scalar.select, h, h']

/-! ## Matrix products -/

theorem holds2_dot {m k n : ℕ} {A : FVec Ideal (⟨2, ![m, k]⟩ : Shape) .f32} {B : FVec Ideal (⟨2, ![k, n]⟩ : Shape) .f32}
    {f : Fin m → Fin k → ℝ} {g : Fin k → Fin n → ℝ} (hA : Holds2 A f) (hB : Holds2 B g)
    (D : DotDims ⟨2, ![m, k]⟩ ⟨2, ![k, n]⟩ ⟨2, ![m, n]⟩) (hD : D = DotDims.plain m k n) :
    Holds2 (Host.dotGeneral D none A B) (fun i j => ∑ c, f i c * g c j) := by
  subst hD
  intro i j
  rw [StackMember.dotGeneral_plain_apply, coe_sum]
  refine Finset.sum_congr rfl fun c _ => ?_
  rw [hA i c, hB c j, EReal.coe_mul]

theorem holdsRow_dot {k n : ℕ} {A : FVec Ideal (⟨2, ![1, k]⟩ : Shape) .f32} {B : FVec Ideal (⟨2, ![k, n]⟩ : Shape) .f32}
    {p : Fin k → ℝ} {g : Fin k → Fin n → ℝ} (hA : HoldsRow A p) (hB : Holds2 B g)
    (D : DotDims ⟨2, ![1, k]⟩ ⟨2, ![k, n]⟩ ⟨2, ![1, n]⟩) (hD : D = DotDims.plain 1 k n) :
    HoldsRow (Host.dotGeneral D none A B) (fun j => ∑ c, p c * g c j) :=
  holdsRow_iff.2 (holds2_dot (holdsRow_iff.1 hA) hB D hD)

/-! ## Broadcasts -/

/-- A broadcast scalar reads its one value everywhere. -/
theorem bcast_scalar_apply {α : Type} {t : Shape} (h : (⟨0, ![]⟩ : Shape).BroadcastsInDim t ![])
    (x : (⟨0, ![]⟩ : Shape).Idx → α) (j : t.Idx) : broadcastInDim t ![] h x j = x ix0 :=
  broadcastInDim_apply ![] h x j ix0 (fun a => a.elim0)

/-- A vector `[b]` as the row `[1, b]`. -/
theorem holdsRow_bcast_vec {b : ℕ} {v : FVec Ideal (⟨1, ![b]⟩ : Shape) .f32} {f : Fin b → ℝ} (hv : Holds1 v f)
    (h : (⟨1, ![b]⟩ : Shape).BroadcastsInDim ⟨2, ![1, b]⟩ ![1]) :
    HoldsRow (broadcastInDim ⟨2, ![1, b]⟩ ![1] h v) f := fun j => by
  rw [broadcastInDim_apply ![1] h v (ix2 0 j) (ix1 j) (fun a => by
    match a with
    | ⟨0, _⟩ =>
      show j.val = if b = 1 then 0 else j.val
      split_ifs with hb
      · have := j.isLt; omega
      · rfl)]
  exact hv j

/-- A row `[1, b]` repeated down `a` rows. -/
theorem holds2_bcast_row {a b : ℕ} {v : FVec Ideal (⟨2, ![1, b]⟩ : Shape) .f32} {f : Fin b → ℝ} (hv : HoldsRow v f)
    (h : (⟨2, ![1, b]⟩ : Shape).BroadcastsInDim ⟨2, ![a, b]⟩ ![0, 1]) :
    Holds2 (broadcastInDim ⟨2, ![a, b]⟩ ![0, 1] h v) (fun _ j => f j) := fun i j => by
  rw [broadcastInDim_apply ![0, 1] h v (ix2 i j) (ix2 0 j) (fun a => by
    match a with
    | ⟨0, _⟩ => rfl
    | ⟨1, _⟩ =>
      show j.val = if b = 1 then 0 else j.val
      split_ifs with hb
      · have := j.isLt; omega
      · rfl)]
  exact hv j

/-- A block `[1, b, c]` repeated along the leading axis. -/
theorem holds3_bcast_lead {a b c : ℕ} {v : FVec Ideal (⟨3, ![1, b, c]⟩ : Shape) .f32} {f : Fin 1 → Fin b → Fin c → ℝ}
    (hv : Holds3 v f) (h : (⟨3, ![1, b, c]⟩ : Shape).BroadcastsInDim ⟨3, ![a, b, c]⟩ ![0, 1, 2]) :
    Holds3 (broadcastInDim ⟨3, ![a, b, c]⟩ ![0, 1, 2] h v) (fun _ j k => f 0 j k) := fun i j k => by
  rw [broadcastInDim_apply ![0, 1, 2] h v (ix3 i j k) (ix3 0 j k) (fun d => by
    match d with
    | ⟨0, _⟩ => rfl
    | ⟨1, _⟩ =>
      show j.val = if b = 1 then 0 else j.val
      split_ifs with hb
      · have := j.isLt; omega
      · rfl
    | ⟨2, _⟩ =>
      show k.val = if c = 1 then 0 else k.val
      split_ifs with hc
      · have := k.isLt; omega
      · rfl)]
  exact hv 0 j k

/-- A matrix `[b, c]` as the block `[1, b, c]`. -/
theorem holds3_bcast_mat {b c : ℕ} {v : FVec Ideal (⟨2, ![b, c]⟩ : Shape) .f32} {f : Fin b → Fin c → ℝ}
    (hv : Holds2 v f) (h : (⟨2, ![b, c]⟩ : Shape).BroadcastsInDim ⟨3, ![1, b, c]⟩ ![1, 2]) :
    Holds3 (broadcastInDim ⟨3, ![1, b, c]⟩ ![1, 2] h v) (fun _ j k => f j k) := fun i j k => by
  rw [broadcastInDim_apply ![1, 2] h v (ix3 i j k) (ix2 j k) (fun d => by
    match d with
    | ⟨0, _⟩ =>
      show j.val = if b = 1 then 0 else j.val
      split_ifs with hb
      · have := j.isLt; omega
      · rfl
    | ⟨1, _⟩ =>
      show k.val = if c = 1 then 0 else k.val
      split_ifs with hc
      · have := k.isLt; omega
      · rfl)]
  exact hv j k

/-- A matrix `[a, b]` with a trailing unit axis. -/
theorem holds3_bcast_unit {a b : ℕ} {v : FVec Ideal (⟨2, ![a, b]⟩ : Shape) .f32} {f : Fin a → Fin b → ℝ}
    (hv : Holds2 v f) (h : (⟨2, ![a, b]⟩ : Shape).BroadcastsInDim ⟨3, ![a, b, 1]⟩ ![0, 1]) :
    Holds3 (broadcastInDim ⟨3, ![a, b, 1]⟩ ![0, 1] h v) (fun i j _ => f i j) := fun i j k => by
  rw [broadcastInDim_apply ![0, 1] h v (ix3 i j k) (ix2 i j) (fun d => by
    match d with
    | ⟨0, _⟩ =>
      show i.val = if a = 1 then 0 else i.val
      split_ifs with ha
      · have := i.isLt; omega
      · rfl
    | ⟨1, _⟩ =>
      show j.val = if b = 1 then 0 else j.val
      split_ifs with hb
      · have := j.isLt; omega
      · rfl)]
  exact hv i j

/-- A block `[a, b, 1]` repeated along the trailing axis. -/
theorem holds3_bcast_trail {a b c : ℕ} {v : FVec Ideal (⟨3, ![a, b, 1]⟩ : Shape) .f32} {f : Fin a → Fin b → Fin 1 → ℝ}
    (hv : Holds3 v f) (h : (⟨3, ![a, b, 1]⟩ : Shape).BroadcastsInDim ⟨3, ![a, b, c]⟩ ![0, 1, 2]) :
    Holds3 (broadcastInDim ⟨3, ![a, b, c]⟩ ![0, 1, 2] h v) (fun i j _ => f i j 0) := fun i j k => by
  rw [broadcastInDim_apply ![0, 1, 2] h v (ix3 i j k) (ix3 i j 0) (fun d => by
    match d with
    | ⟨0, _⟩ =>
      show i.val = if a = 1 then 0 else i.val
      split_ifs with ha
      · have := i.isLt; omega
      · rfl
    | ⟨1, _⟩ =>
      show j.val = if b = 1 then 0 else j.val
      split_ifs with hb
      · have := j.isLt; omega
      · rfl
    | ⟨2, _⟩ => rfl)]
  exact hv i j 0

/-! ## Reshapes -/

/-- `[a, 128] → [a, 8, 16]`: entry `(n, h, c)` is entry `(n, 16 h + c)`. -/
theorem holds3_cast_lanes {a : ℕ} {v : FVec Ideal (⟨2, ![a, 128]⟩ : Shape) .f32} {f : Fin a → Fin 128 → ℝ}
    (hv : Holds2 v f) (h : (⟨2, ![a, 128]⟩ : Shape).ShapeCasts ⟨3, ![a, 8, 16]⟩) :
    Holds3 (shapeCast ⟨3, ![a, 8, 16]⟩ v h) (fun n hd c => f n (lane hd c)) := fun n hd c => by
  rw [shapeCast_apply v h (ix3 n hd c) (ix2 n (lane hd c)) (by
    rw [Shape.rowMajor_val_two, Shape.rowMajor_val_three]
    show n.val * 128 + (16 * hd.val + c.val) = (n.val * 8 + hd.val) * 16 + c.val
    omega)]
  exact hv n (lane hd c)

/-- `[8, 16] → [1, 128]`: lane `k` is entry `(k / 16, k % 16)`. -/
theorem holdsRow_cast_lanes {v : FVec Ideal (⟨2, ![8, 16]⟩ : Shape) .f32} {f : Fin 8 → Fin 16 → ℝ}
    (hv : Holds2 v f) (h : (⟨2, ![8, 16]⟩ : Shape).ShapeCasts ⟨2, ![1, 128]⟩) :
    HoldsRow (shapeCast ⟨2, ![1, 128]⟩ v h) (fun k => f (headOf k) (chanOf k)) := fun k => by
  rw [shapeCast_apply v h (ix2 0 k) (ix2 (headOf k) (chanOf k)) (by
    rw [Shape.rowMajor_val_two, Shape.rowMajor_val_two]
    show k.val / 16 * 16 + k.val % 16 = 0 * 128 + k.val
    omega)]
  exact hv (headOf k) (chanOf k)

/-! ## Reductions -/

/-- The sum over the trailing axis of `[a, b, c]`, from zero. -/
theorem holds2_reduceAdd_trail {a b c : ℕ} {v : FVec Ideal (⟨3, ![a, b, c]⟩ : Shape) .f32} {f : Fin a → Fin b → Fin c → ℝ}
    (hv : Holds3 v f) (h' : (⟨3, ![a, b, c]⟩ : Shape).ReducesTo [2] ⟨2, ![a, b]⟩) (hu : 0 < (⟨0, ![]⟩ : Shape).numel) :
    Holds2 (Host.reduceAdd v (constant ⟨0, ![]⟩ .f32 0x00000000#32) h' hu) (fun i j => ∑ k, f i j k) := fun i j => by
  have h : (⟨3, ![a, b, c]⟩ : Shape).Reduces [2] ⟨2, ![a, b]⟩ := ⟨h'.1, Nat.two_pos, h'.2⟩
  show Ideal.hostReduceAdd h' v (Ideal.ofBits .f32 0x00000000#32) (ix2 i j) = _
  rw [Ideal.hostReduceAdd_single h' h, Ideal.ofBits_zero_f32, zero_add, coe_sum]
  show ∑ k : Fin c, v (h.lift (ix2 i j) k) = _
  refine Finset.sum_congr rfl fun k _ => ?_
  have e : h.lift (ix2 i j) k = ix3 i j k := by
    funext d; apply Fin.ext
    match d with
    | ⟨0, _⟩ => rfl
    | ⟨1, _⟩ => rfl
    | ⟨2, _⟩ => rfl
  rw [e]; exact hv i j k

/-- The sum down the rows of `[a, b]`, from zero. -/
theorem holds1_reduceAdd_rows {a b : ℕ} {v : FVec Ideal (⟨2, ![a, b]⟩ : Shape) .f32} {f : Fin a → Fin b → ℝ}
    (hv : Holds2 v f) (h' : (⟨2, ![a, b]⟩ : Shape).ReducesTo [0] ⟨1, ![b]⟩) (hu : 0 < (⟨0, ![]⟩ : Shape).numel) :
    Holds1 (Host.reduceAdd v (constant ⟨0, ![]⟩ .f32 0x00000000#32) h' hu) (fun j => ∑ i, f i j) := fun j => by
  have h : (⟨2, ![a, b]⟩ : Shape).Reduces [0] ⟨1, ![b]⟩ := ⟨h'.1, Nat.one_pos, h'.2⟩
  show Ideal.hostReduceAdd h' v (Ideal.ofBits .f32 0x00000000#32) (ix1 j) = _
  rw [Ideal.hostReduceAdd_single h' h, Ideal.ofBits_zero_f32, zero_add, coe_sum]
  show ∑ i : Fin a, v (h.lift (ix1 j) i) = _
  refine Finset.sum_congr rfl fun i _ => ?_
  have e : h.lift (ix1 j) i = ix2 i j := by
    funext d; apply Fin.ext
    match d with
    | ⟨0, _⟩ => rfl
    | ⟨1, _⟩ => rfl
  rw [e]; exact hv i j

/-- The sum over the leading axis of `[a, b, c]`, from zero. -/
theorem holds2_reduceAdd_lead {a b c : ℕ} {v : FVec Ideal (⟨3, ![a, b, c]⟩ : Shape) .f32} {f : Fin a → Fin b → Fin c → ℝ}
    (hv : Holds3 v f) (h' : (⟨3, ![a, b, c]⟩ : Shape).ReducesTo [0] ⟨2, ![b, c]⟩) (hu : 0 < (⟨0, ![]⟩ : Shape).numel) :
    Holds2 (Host.reduceAdd v (constant ⟨0, ![]⟩ .f32 0x00000000#32) h' hu) (fun j k => ∑ i, f i j k) := fun j k => by
  have h : (⟨3, ![a, b, c]⟩ : Shape).Reduces [0] ⟨2, ![b, c]⟩ := ⟨h'.1, Nat.two_pos, h'.2⟩
  show Ideal.hostReduceAdd h' v (Ideal.ofBits .f32 0x00000000#32) (ix2 j k) = _
  rw [Ideal.hostReduceAdd_single h' h, Ideal.ofBits_zero_f32, zero_add, coe_sum]
  show ∑ i : Fin a, v (h.lift (ix2 j k) i) = _
  refine Finset.sum_congr rfl fun i _ => ?_
  have e : h.lift (ix2 j k) i = ix3 i j k := by
    funext d; apply Fin.ext
    match d with
    | ⟨0, _⟩ => rfl
    | ⟨1, _⟩ => rfl
    | ⟨2, _⟩ => rfl
  rw [e]; exact hv i j k

/-- The maximum of finitely many reals, at least one, started from `-∞`, is a real: it is below `+∞` because every
    term is, and above `-∞` because it is at least the first term. -/
theorem fold_max_bot_coe {n : ℕ} (hn : 0 < n) (g : Fin n → ℝ) :
    ∃ r : ℝ, (Finset.univ : Finset (Fin n)).fold max (⊥ : EReal) (fun i => ((g i : ℝ) : EReal)) = ((r : ℝ) : EReal) := by
  refine ⟨_, (EReal.coe_toReal ?_ ?_).symm⟩
  · exact ne_of_lt ((Finset.fold_max_lt _).2 ⟨bot_lt_top, fun x _ => EReal.coe_lt_top _⟩)
  · exact ne_of_gt (lt_of_lt_of_le (EReal.bot_lt_coe (g ⟨0, hn⟩))
      ((Finset.le_fold_max _).2 (Or.inr ⟨⟨0, hn⟩, Finset.mem_univ _, le_rfl⟩)))

/-- The maximum down the (nonempty) rows of `[a, b]`, from `-∞`, holds some real vector. -/
theorem exists_holds1_reduceMax {a b : ℕ} (ha : 0 < a) {v : FVec Ideal (⟨2, ![a, b]⟩ : Shape) .f32} {f : Fin a → Fin b → ℝ}
    (hv : Holds2 v f) (h' : (⟨2, ![a, b]⟩ : Shape).ReducesTo [0] ⟨1, ![b]⟩) (hu : 0 < (⟨0, ![]⟩ : Shape).numel) :
    ∃ M : Fin b → ℝ,
      Holds1 (Host.reduce FloatOps.maximumf v (constant (F := Ideal) ⟨0, ![]⟩ .f32 0xFF800000#32) h' hu) M := by
  have h : (⟨2, ![a, b]⟩ : Shape).Reduces [0] ⟨1, ![b]⟩ := ⟨h'.1, Nat.one_pos, h'.2⟩
  have key : ∀ j : Fin b, ∃ r : ℝ,
      Host.reduce FloatOps.maximumf v (constant (F := Ideal) ⟨0, ![]⟩ .f32 0xFF800000#32) h' hu (ix1 j) = ((r : ℝ) : EReal) := by
    intro j
    obtain ⟨r, hr⟩ := fold_max_bot_coe ha (fun i => f i j)
    refine ⟨r, ?_⟩
    rw [Host.reduce_eq_fold_single FloatOps.maximumf v _ h' h hu (ix1 j), ← hr]
    show (Finset.univ : Finset (Fin a)).fold max (Ideal.ofBits .f32 0xFF800000#32) (v ∘ h.lift (ix1 j)) = _
    rw [ofBits_neg_inf]
    refine Finset.fold_congr fun i _ => ?_
    have e : h.lift (ix1 j) i = ix2 i j := by
      funext d; apply Fin.ext
      match d with
      | ⟨0, _⟩ => rfl
      | ⟨1, _⟩ => rfl
    show v (h.lift (ix1 j) i) = _
    rw [e]; exact hv i j
  choose M hM using key
  exact ⟨M, hM⟩

end StarAttn.RefGat

end
-- ==== Proof.RefGat.lean ====
/-
  The attention part of the reference is the direct arrangement of the specification: for each of the two families
  the chain of values from the source features to the biased aggregate, read one operation at a time over arrays that
  hold real functions, ends in an array holding `aggD` with the shift the row-maximum of the logits.
-/
import proofs.«165745_g33088428049086_cont_sun_c4_530_12_alg».proof.Proof.RefGatOps
import proofs.«165745_g33088428049086_cont_sun_c4_530_12_alg».proof.Proof.RefTable

noncomputable section

namespace StarAttn.RefGat

open Cert.ReferenceIdeal Cert.ReferenceIdeal.Gen Cert.ReferenceIdeal.HandRun Idealize.ShloMosaic Idealize.ShloMosaic.ValueIdx

/-- Lane `k` is lane `16 (k / 16) + k % 16`. -/
private theorem lane_head_chan (k : Fin 128) : lane (headOf k) (chanOf k) = k := by
  apply Fin.ext; simp only [headOf, chanOf, lane]; omega

/-- The attention aggregate of family 1 (the views): the value `res_v53` of the reference holds the direct arrangement `aggD` of the
    specification, the shift `M h` being the real the row-maximum of head `h`'s logits is. The chain is followed one
    value at a time: source features plus `bl`, reshaped per head; the target's image plus `br`; the rectifier; the
    logits as sums over the 16 channels; the row maximum (a real, the rows being nonempty); the exponentials, their
    sum (positive), the quotient; the weighted sum over the rows; the reshape back to 128 lanes; the bias. -/
theorem gat1_holds (A : HandRun.Args Ideal) (R : StarAttn.Args)
    (H : ArgsHold R A.a0 A.a1 A.a2 A.a3 A.a4 A.a5 A.a6 A.a7 A.a8 A.a9 A.a10 A.a11 A.a12 A.a13 A.a14 A.a15 A.a16 A.a17 A.a18 A.a19 A.a20 A.a21 A.a22 A.a23 A.a24 A.a25 A.a26)
    (hp : HoldsRow (res_v19 A) R.p1) :
    ∃ M : Fin 8 → ℝ, HoldsRow (res_v53 A) (aggD M R.X1 R.p1 R.Wl1 R.Wr1 R.bl1 R.br1 R.att1 R.bias1) := by
  have h20 : Holds2 (res_v20 A) (feat R.X1 R.Wl1) := by
    unfold res_v20; exact holds2_dot H.h0 H.h7 _ rfl
  have h21 : HoldsRow (res_v21 A) R.bl1 := by
    unfold res_v21; exact holdsRow_bcast_vec H.h8 _
  have h22 : Holds2 (res_v22 A) (fun _ k => R.bl1 k) := by
    unfold res_v22; exact holds2_bcast_row h21 _
  have h23 : Holds2 (res_v23 A) (fun n k => feat R.X1 R.Wl1 n k + R.bl1 k) := by
    unfold res_v23; exact holds2_add h20 h22
  have h24 : Holds3 (res_v24 A) (fun n h c => feat R.X1 R.Wl1 n (lane h c) + R.bl1 (lane h c)) := by
    unfold res_v24; exact holds3_cast_lanes h23 _
  have h25 : HoldsRow (res_v25 A) (tgt R.p1 R.Wr1) := by
    unfold res_v25; exact holdsRow_dot hp H.h9 _ rfl
  have h26 : HoldsRow (res_v26 A) R.br1 := by
    unfold res_v26; exact holdsRow_bcast_vec H.h10 _
  have h27 : HoldsRow (res_v27 A) (fun k => tgt R.p1 R.Wr1 k + R.br1 k) := by
    unfold res_v27; exact holdsRow_add h25 h26
  have h28 : Holds3 (res_v28 A) (fun _ h c => tgt R.p1 R.Wr1 (lane h c) + R.br1 (lane h c)) := by
    unfold res_v28; exact holds3_cast_lanes (holdsRow_iff.1 h27) _
  have h29 : Holds3 (res_v29 A) (fun _ h c => tgt R.p1 R.Wr1 (lane h c) + R.br1 (lane h c)) := by
    unfold res_v29; exact holds3_bcast_lead h28 _
  have h30 : Holds3 (res_v30 A) (fun n h c => (feat R.X1 R.Wl1 n (lane h c) + R.bl1 (lane h c)) + (tgt R.p1 R.Wr1 (lane h c) + R.br1 (lane h c))) := by
    unfold res_v30; exact holds3_add h24 h29
  have h31 : Holds3 (res_v31 A) (fun n h c => actD ((feat R.X1 R.Wl1 n (lane h c) + R.bl1 (lane h c)) + (tgt R.p1 R.Wr1 (lane h c) + R.br1 (lane h c)))) := by
    intro n h c
    unfold res_v31 res_call2_v1 res_call2_v4 res_call2_v0 res_call2_v3 res_call2_v2 res_call2_cst res_cst_2
    rw [select_apply, cmpf_apply, mulf_apply, bcast_scalar_apply, bcast_scalar_apply, h30 n h c]
    exact leaky_scalar _
  have h32 : Holds3 (res_v32 A) (fun _ h c => R.att1 h c) := by
    unfold res_v32; exact holds3_bcast_mat H.h11 _
  have h33 : Holds3 (res_v33 A) (fun _ h c => R.att1 h c) := by
    unfold res_v33; exact holds3_bcast_lead h32 _
  have h34 : Holds3 (res_v34 A) (fun n h c => actD ((feat R.X1 R.Wl1 n (lane h c) + R.bl1 (lane h c)) + (tgt R.p1 R.Wr1 (lane h c) + R.br1 (lane h c))) * R.att1 h c) := by
    unfold res_v34; exact holds3_mul h31 h33
  have h35 : Holds2 (res_v35 A) (fun n h => logitD R.X1 R.Wl1 R.bl1 (fun k => tgt R.p1 R.Wr1 k + R.br1 k) R.att1 n h) := by
    unfold res_v35 res_cst_3; exact holds2_reduceAdd_trail h34 _ _
  obtain ⟨M, h36⟩ : ∃ M : Fin 8 → ℝ, Holds1 (res_v36 A) M := by
    unfold res_v36 res_cst_4; exact exists_holds1_reduceMax (by norm_num) h35 _ _
  have h37 : ∀ i, res_v37 A i = ⊥ := by
    intro i; unfold res_v37 res_cst_5; rw [bcast_scalar_apply]; exact ofBits_neg_inf
  have h38 : Holds1 (res_v38 A) M := by
    unfold res_v38; exact holds1_max_bot h37 h36
  have h39 : HoldsRow (res_v39 A) M := by
    unfold res_v39; exact holdsRow_bcast_vec h38 _
  have h40 : Holds2 (res_v40 A) (fun _ h => M h) := by
    unfold res_v40; exact holds2_bcast_row h39 _
  have h41 : Holds2 (res_v41 A) (fun n h => logitD R.X1 R.Wl1 R.bl1 (fun k => tgt R.p1 R.Wr1 k + R.br1 k) R.att1 n h - M h) := by
    unfold res_v41; exact holds2_sub h35 h40
  have h42 : Holds2 (res_v42 A) (fun n h => Real.exp (logitD R.X1 R.Wl1 R.bl1 (fun k => tgt R.p1 R.Wr1 k + R.br1 k) R.att1 n h - M h)) := by
    unfold res_v42; exact holds2_exp h41
  have h43 : Holds1 (res_v43 A) (fun h => ∑ n', Real.exp (logitD R.X1 R.Wl1 R.bl1 (fun k => tgt R.p1 R.Wr1 k + R.br1 k) R.att1 n' h - M h)) := by
    unfold res_v43 res_cst_6; exact holds1_reduceAdd_rows h42 _ _
  have h44 : HoldsRow (res_v44 A) (fun h => ∑ n', Real.exp (logitD R.X1 R.Wl1 R.bl1 (fun k => tgt R.p1 R.Wr1 k + R.br1 k) R.att1 n' h - M h)) := by
    unfold res_v44; exact holdsRow_bcast_vec h43 _
  have h45 : Holds2 (res_v45 A) (fun _ h => ∑ n', Real.exp (logitD R.X1 R.Wl1 R.bl1 (fun k => tgt R.p1 R.Wr1 k + R.br1 k) R.att1 n' h - M h)) := by
    unfold res_v45; exact holds2_bcast_row h44 _
  have hS : ∀ (_ : Fin 100000) (h : Fin 8), (∑ n', Real.exp (logitD R.X1 R.Wl1 R.bl1 (fun k => tgt R.p1 R.Wr1 k + R.br1 k) R.att1 n' h - M h)) ≠ 0 := fun _ h =>
    (Finset.sum_pos (fun n _ => Real.exp_pos _) ⟨⟨0, by norm_num⟩, Finset.mem_univ _⟩).ne'
  have h46 : Holds2 (res_v46 A) (fun n h => Real.exp (logitD R.X1 R.Wl1 R.bl1 (fun k => tgt R.p1 R.Wr1 k + R.br1 k) R.att1 n h - M h) / (∑ n', Real.exp (logitD R.X1 R.Wl1 R.bl1 (fun k => tgt R.p1 R.Wr1 k + R.br1 k) R.att1 n' h - M h))) := by
    unfold res_v46; exact holds2_div h42 h45 hS
  have h47 : Holds3 (res_v47 A) (fun n h _ => Real.exp (logitD R.X1 R.Wl1 R.bl1 (fun k => tgt R.p1 R.Wr1 k + R.br1 k) R.att1 n h - M h) / (∑ n', Real.exp (logitD R.X1 R.Wl1 R.bl1 (fun k => tgt R.p1 R.Wr1 k + R.br1 k) R.att1 n' h - M h))) := by
    unfold res_v47; exact holds3_bcast_unit h46 _
  have h48 : Holds3 (res_v48 A) (fun n h _ => Real.exp (logitD R.X1 R.Wl1 R.bl1 (fun k => tgt R.p1 R.Wr1 k + R.br1 k) R.att1 n h - M h) / (∑ n', Real.exp (logitD R.X1 R.Wl1 R.bl1 (fun k => tgt R.p1 R.Wr1 k + R.br1 k) R.att1 n' h - M h))) := by
    unfold res_v48; exact holds3_bcast_trail h47 _
  have h49 : Holds3 (res_v49 A) (fun n h c => Real.exp (logitD R.X1 R.Wl1 R.bl1 (fun k => tgt R.p1 R.Wr1 k + R.br1 k) R.att1 n h - M h) / (∑ n', Real.exp (logitD R.X1 R.Wl1 R.bl1 (fun k => tgt R.p1 R.Wr1 k + R.br1 k) R.att1 n' h - M h)) * (feat R.X1 R.Wl1 n (lane h c) + R.bl1 (lane h c))) := by
    unfold res_v49; exact holds3_mul h48 h24
  have h50 : Holds2 (res_v50 A) (fun h c => ∑ n, Real.exp (logitD R.X1 R.Wl1 R.bl1 (fun k => tgt R.p1 R.Wr1 k + R.br1 k) R.att1 n h - M h) / (∑ n', Real.exp (logitD R.X1 R.Wl1 R.bl1 (fun k => tgt R.p1 R.Wr1 k + R.br1 k) R.att1 n' h - M h)) * (feat R.X1 R.Wl1 n (lane h c) + R.bl1 (lane h c))) := by
    unfold res_v50 res_cst_7; exact holds2_reduceAdd_lead h49 _ _
  have h51 : HoldsRow (res_v51 A) (fun k => ∑ n, Real.exp (logitD R.X1 R.Wl1 R.bl1 (fun k => tgt R.p1 R.Wr1 k + R.br1 k) R.att1 n (headOf k) - M (headOf k)) / (∑ n', Real.exp (logitD R.X1 R.Wl1 R.bl1 (fun k => tgt R.p1 R.Wr1 k + R.br1 k) R.att1 n' (headOf k) - M (headOf k))) * (feat R.X1 R.Wl1 n (lane (headOf k) (chanOf k)) + R.bl1 (lane (headOf k) (chanOf k)))) := by
    unfold res_v51; exact holdsRow_cast_lanes h50 _
  have h52 : HoldsRow (res_v52 A) R.bias1 := by
    unfold res_v52; exact holdsRow_bcast_vec H.h12 _
  have h53 : HoldsRow (res_v53 A) (fun k => (∑ n, Real.exp (logitD R.X1 R.Wl1 R.bl1 (fun k => tgt R.p1 R.Wr1 k + R.br1 k) R.att1 n (headOf k) - M (headOf k)) / (∑ n', Real.exp (logitD R.X1 R.Wl1 R.bl1 (fun k => tgt R.p1 R.Wr1 k + R.br1 k) R.att1 n' (headOf k) - M (headOf k))) * (feat R.X1 R.Wl1 n (lane (headOf k) (chanOf k)) + R.bl1 (lane (headOf k) (chanOf k)))) + R.bias1 k) := by
    unfold res_v53; exact holdsRow_add h51 h52
  refine ⟨M, fun k => ?_⟩
  rw [h53 k]
  unfold aggD
  beta_reduce
  rw [lane_head_chan k]

/-- The attention aggregate of family 2 (the scene points): the value `res_v107` of the reference holds the direct arrangement `aggD` of the
    specification, the shift `M h` being the real the row-maximum of head `h`'s logits is. The chain is followed one
    value at a time: source features plus `bl`, reshaped per head; the target's image plus `br`; the rectifier; the
    logits as sums over the 16 channels; the row maximum (a real, the rows being nonempty); the exponentials, their
    sum (positive), the quotient; the weighted sum over the rows; the reshape back to 128 lanes; the bias. -/
theorem gat2_holds (A : HandRun.Args Ideal) (R : StarAttn.Args)
    (H : ArgsHold R A.a0 A.a1 A.a2 A.a3 A.a4 A.a5 A.a6 A.a7 A.a8 A.a9 A.a10 A.a11 A.a12 A.a13 A.a14 A.a15 A.a16 A.a17 A.a18 A.a19 A.a20 A.a21 A.a22 A.a23 A.a24 A.a25 A.a26)
    (hp : HoldsRow (res_v73 A) R.p2) :
    ∃ M : Fin 8 → ℝ, HoldsRow (res_v107 A) (aggD M R.X2 R.p2 R.Wl2 R.Wr2 R.bl2 R.br2 R.att2 R.bias2) := by
  have h20 : Holds2 (res_v74 A) (feat R.X2 R.Wl2) := by
    unfold res_v74; exact holds2_dot H.h1 H.h17 _ rfl
  have h21 : HoldsRow (res_v75 A) R.bl2 := by
    unfold res_v75; exact holdsRow_bcast_vec H.h18 _
  have h22 : Holds2 (res_v76 A) (fun _ k => R.bl2 k) := by
    unfold res_v76; exact holds2_bcast_row h21 _
  have h23 : Holds2 (res_v77 A) (fun n k => feat R.X2 R.Wl2 n k + R.bl2 k) := by
    unfold res_v77; exact holds2_add h20 h22
  have h24 : Holds3 (res_v78 A) (fun n h c => feat R.X2 R.Wl2 n (lane h c) + R.bl2 (lane h c)) := by
    unfold res_v78; exact holds3_cast_lanes h23 _
  have h25 : HoldsRow (res_v79 A) (tgt R.p2 R.Wr2) := by
    unfold res_v79; exact holdsRow_dot hp H.h19 _ rfl
  have h26 : HoldsRow (res_v80 A) R.br2 := by
    unfold res_v80; exact holdsRow_bcast_vec H.h20 _
  have h27 : HoldsRow (res_v81 A) (fun k => tgt R.p2 R.Wr2 k + R.br2 k) := by
    unfold res_v81; exact holdsRow_add h25 h26
  have h28 : Holds3 (res_v82 A) (fun _ h c => tgt R.p2 R.Wr2 (lane h c) + R.br2 (lane h c)) := by
    unfold res_v82; exact holds3_cast_lanes (holdsRow_iff.1 h27) _
  have h29 : Holds3 (res_v83 A) (fun _ h c => tgt R.p2 R.Wr2 (lane h c) + R.br2 (lane h c)) := by
    unfold res_v83; exact holds3_bcast_lead h28 _
  have h30 : Holds3 (res_v84 A) (fun n h c => (feat R.X2 R.Wl2 n (lane h c) + R.bl2 (lane h c)) + (tgt R.p2 R.Wr2 (lane h c) + R.br2 (lane h c))) := by
    unfold res_v84; exact holds3_add h24 h29
  have h31 : Holds3 (res_v85 A) (fun n h c => actD ((feat R.X2 R.Wl2 n (lane h c) + R.bl2 (lane h c)) + (tgt R.p2 R.Wr2 (lane h c) + R.br2 (lane h c)))) := by
    intro n h c
    unfold res_v85 res_call5_v1 res_call5_v4 res_call5_v0 res_call5_v3 res_call5_v2 res_call5_cst res_cst_12
    rw [select_apply, cmpf_apply, mulf_apply, bcast_scalar_apply, bcast_scalar_apply, h30 n h c]
    exact leaky_scalar _
  have h32 : Holds3 (res_v86 A) (fun _ h c => R.att2 h c) := by
    unfold res_v86; exact holds3_bcast_mat H.h21 _
  have h33 : Holds3 (res_v87 A) (fun _ h c => R.att2 h c) := by
    unfold res_v87; exact holds3_bcast_lead h32 _
  have h34 : Holds3 (res_v88 A) (fun n h c => actD ((feat R.X2 R.Wl2 n (lane h c) + R.bl2 (lane h c)) + (tgt R.p2 R.Wr2 (lane h c) + R.br2 (lane h c))) * R.att2 h c) := by
    unfold res_v88; exact holds3_mul h31 h33
  have h35 : Holds2 (res_v89 A) (fun n h => logitD R.X2 R.Wl2 R.bl2 (fun k => tgt R.p2 R.Wr2 k + R.br2 k) R.att2 n h) := by
    unfold res_v89 res_cst_13; exact holds2_reduceAdd_trail h34 _ _
  obtain ⟨M, h36⟩ : ∃ M : Fin 8 → ℝ, Holds1 (res_v90 A) M := by
    unfold res_v90 res_cst_14; exact exists_holds1_reduceMax (by norm_num) h35 _ _
  have h37 : ∀ i, res_v91 A i = ⊥ := by
    intro i; unfold res_v91 res_cst_15; rw [bcast_scalar_apply]; exact ofBits_neg_inf
  have h38 : Holds1 (res_v92 A) M := by
    unfold res_v92; exact holds1_max_bot h37 h36
  have h39 : HoldsRow (res_v93 A) M := by
    unfold res_v93; exact holdsRow_bcast_vec h38 _
  have h40 : Holds2 (res_v94 A) (fun _ h => M h) := by
    unfold res_v94; exact holds2_bcast_row h39 _
  have h41 : Holds2 (res_v95 A) (fun n h => logitD R.X2 R.Wl2 R.bl2 (fun k => tgt R.p2 R.Wr2 k + R.br2 k) R.att2 n h - M h) := by
    unfold res_v95; exact holds2_sub h35 h40
  have h42 : Holds2 (res_v96 A) (fun n h => Real.exp (logitD R.X2 R.Wl2 R.bl2 (fun k => tgt R.p2 R.Wr2 k + R.br2 k) R.att2 n h - M h)) := by
    unfold res_v96; exact holds2_exp h41
  have h43 : Holds1 (res_v97 A) (fun h => ∑ n', Real.exp (logitD R.X2 R.Wl2 R.bl2 (fun k => tgt R.p2 R.Wr2 k + R.br2 k) R.att2 n' h - M h)) := by
    unfold res_v97 res_cst_16; exact holds1_reduceAdd_rows h42 _ _
  have h44 : HoldsRow (res_v98 A) (fun h => ∑ n', Real.exp (logitD R.X2 R.Wl2 R.bl2 (fun k => tgt R.p2 R.Wr2 k + R.br2 k) R.att2 n' h - M h)) := by
    unfold res_v98; exact holdsRow_bcast_vec h43 _
  have h45 : Holds2 (res_v99 A) (fun _ h => ∑ n', Real.exp (logitD R.X2 R.Wl2 R.bl2 (fun k => tgt R.p2 R.Wr2 k + R.br2 k) R.att2 n' h - M h)) := by
    unfold res_v99; exact holds2_bcast_row h44 _
  have hS : ∀ (_ : Fin 100000) (h : Fin 8), (∑ n', Real.exp (logitD R.X2 R.Wl2 R.bl2 (fun k => tgt R.p2 R.Wr2 k + R.br2 k) R.att2 n' h - M h)) ≠ 0 := fun _ h =>
    (Finset.sum_pos (fun n _ => Real.exp_pos _) ⟨⟨0, by norm_num⟩, Finset.mem_univ _⟩).ne'
  have h46 : Holds2 (res_v100 A) (fun n h => Real.exp (logitD R.X2 R.Wl2 R.bl2 (fun k => tgt R.p2 R.Wr2 k + R.br2 k) R.att2 n h - M h) / (∑ n', Real.exp (logitD R.X2 R.Wl2 R.bl2 (fun k => tgt R.p2 R.Wr2 k + R.br2 k) R.att2 n' h - M h))) := by
    unfold res_v100; exact holds2_div h42 h45 hS
  have h47 : Holds3 (res_v101 A) (fun n h _ => Real.exp (logitD R.X2 R.Wl2 R.bl2 (fun k => tgt R.p2 R.Wr2 k + R.br2 k) R.att2 n h - M h) / (∑ n', Real.exp (logitD R.X2 R.Wl2 R.bl2 (fun k => tgt R.p2 R.Wr2 k + R.br2 k) R.att2 n' h - M h))) := by
    unfold res_v101; exact holds3_bcast_unit h46 _
  have h48 : Holds3 (res_v102 A) (fun n h _ => Real.exp (logitD R.X2 R.Wl2 R.bl2 (fun k => tgt R.p2 R.Wr2 k + R.br2 k) R.att2 n h - M h) / (∑ n', Real.exp (logitD R.X2 R.Wl2 R.bl2 (fun k => tgt R.p2 R.Wr2 k + R.br2 k) R.att2 n' h - M h))) := by
    unfold res_v102; exact holds3_bcast_trail h47 _
  have h49 : Holds3 (res_v103 A) (fun n h c => Real.exp (logitD R.X2 R.Wl2 R.bl2 (fun k => tgt R.p2 R.Wr2 k + R.br2 k) R.att2 n h - M h) / (∑ n', Real.exp (logitD R.X2 R.Wl2 R.bl2 (fun k => tgt R.p2 R.Wr2 k + R.br2 k) R.att2 n' h - M h)) * (feat R.X2 R.Wl2 n (lane h c) + R.bl2 (lane h c))) := by
    unfold res_v103; exact holds3_mul h48 h24
  have h50 : Holds2 (res_v104 A) (fun h c => ∑ n, Real.exp (logitD R.X2 R.Wl2 R.bl2 (fun k => tgt R.p2 R.Wr2 k + R.br2 k) R.att2 n h - M h) / (∑ n', Real.exp (logitD R.X2 R.Wl2 R.bl2 (fun k => tgt R.p2 R.Wr2 k + R.br2 k) R.att2 n' h - M h)) * (feat R.X2 R.Wl2 n (lane h c) + R.bl2 (lane h c))) := by
    unfold res_v104 res_cst_17; exact holds2_reduceAdd_lead h49 _ _
  have h51 : HoldsRow (res_v105 A) (fun k => ∑ n, Real.exp (logitD R.X2 R.Wl2 R.bl2 (fun k => tgt R.p2 R.Wr2 k + R.br2 k) R.att2 n (headOf k) - M (headOf k)) / (∑ n', Real.exp (logitD R.X2 R.Wl2 R.bl2 (fun k => tgt R.p2 R.Wr2 k + R.br2 k) R.att2 n' (headOf k) - M (headOf k))) * (feat R.X2 R.Wl2 n (lane (headOf k) (chanOf k)) + R.bl2 (lane (headOf k) (chanOf k)))) := by
    unfold res_v105; exact holdsRow_cast_lanes h50 _
  have h52 : HoldsRow (res_v106 A) R.bias2 := by
    unfold res_v106; exact holdsRow_bcast_vec H.h22 _
  have h53 : HoldsRow (res_v107 A) (fun k => (∑ n, Real.exp (logitD R.X2 R.Wl2 R.bl2 (fun k => tgt R.p2 R.Wr2 k + R.br2 k) R.att2 n (headOf k) - M (headOf k)) / (∑ n', Real.exp (logitD R.X2 R.Wl2 R.bl2 (fun k => tgt R.p2 R.Wr2 k + R.br2 k) R.att2 n' (headOf k) - M (headOf k))) * (feat R.X2 R.Wl2 n (lane (headOf k) (chanOf k)) + R.bl2 (lane (headOf k) (chanOf k)))) + R.bias2 k) := by
    unfold res_v107; exact holdsRow_add h51 h52
  refine ⟨M, fun k => ?_⟩
  rw [h53 k]
  unfold aggD
  beta_reduce
  rw [lane_head_chan k]

end StarAttn.RefGat

end
-- ==== Proof.RefEndsOps.lean ====
/-
  The operations of the reference's layer-norm blocks, each read at an index over the extended reals, for arrays whose
  entries are coercions of real numbers.

  A layer norm over 256 lanes is: the row's mean (a sum along the lanes over 256), the centred row, its variance (the
  mean of the squares of the centred row: the divisor `256 - 0` is `256`, and being positive it is the quotient the
  guarding choice returns), the reciprocal square root of the variance plus a positive offset (the real one, the
  argument being positive), a scale and a shift per lane.  After it come a rectifier `max · 0`, a row-by-matrix product
  plus a bias row, and, in the closing block, the sum of the global row with two half rows laid end to end.
  Every lemma says: if the operands hold real functions, the result holds the real function of Spec.lean.
-/
import proofs.«165745_g33088428049086_cont_sun_c4_530_12_alg».proof.ReferenceIdeal
import proofs.«165745_g33088428049086_cont_sun_c4_530_12_alg».proof.Proof.Repr
import proofs.«165745_g33088428049086_cont_sun_c4_530_12_alg».proof.Proof.Math
import Idealize.ShloMosaic.Lib.IdealHost
import Idealize.ShloMosaic.Lib.Pipeline.Value
import Idealize.ShloMosaic.Lib.StackMember

noncomputable section

namespace StarAttn.RefEnds

open Idealize.ShloMosaic Idealize.ShloMosaic.ValueIdx Cert.ReferenceIdeal

/-! ## Coercions -/

/-- The coercion of a finite sum of reals is the sum of the coercions. -/
theorem coe_sum {ι : Type} (s : Finset ι) (f : ι → ℝ) :
    ((∑ i ∈ s, f i : ℝ) : EReal) = ∑ i ∈ s, ((f i : ℝ) : EReal) := by
  classical
  refine Finset.induction_on s (by simp) fun a s ha ih => ?_
  rw [Finset.sum_insert ha, Finset.sum_insert ha, EReal.coe_add, ih]

/-- The coercion is monotone, so it commutes with the maximum. -/
theorem coe_max (x y : ℝ) : ((max x y : ℝ) : EReal) = max (x : EReal) (y : EReal) :=
  EReal.coe_strictMono.monotone.map_max

/-- A `[1,1]` array holds a real number. -/
def HoldsCell (v : FVec Ideal S1x1 .f32) (r : ℝ) : Prop := v (ix2 (0 : Fin 1) (0 : Fin 1)) = ((r : ℝ) : EReal)

/-! ## Pointwise operations on rows -/

section Pointwise
variable {b : ℕ} {u v : FVec Ideal (⟨2, ![1, b]⟩ : Shape) .f32} {f g : Fin b → ℝ}

theorem row_sub (hu : HoldsRow u f) (hv : HoldsRow v g) : HoldsRow (subf u v) (fun j => f j - g j) := fun j => by
  rw [subf_apply, hu j, hv j, EReal.coe_sub]
theorem row_add (hu : HoldsRow u f) (hv : HoldsRow v g) : HoldsRow (addf u v) (fun j => f j + g j) := fun j => by
  rw [addf_apply, hu j, hv j, EReal.coe_add]
theorem row_mul (hu : HoldsRow u f) (hv : HoldsRow v g) : HoldsRow (mulf u v) (fun j => f j * g j) := fun j => by
  rw [mulf_apply, hu j, hv j, EReal.coe_mul]
theorem row_max (hu : HoldsRow u f) (hv : HoldsRow v g) : HoldsRow (maximumf u v) (fun j => max (f j) (g j)) := fun j => by
  rw [maximumf_apply, hu j, hv j, coe_max]

end Pointwise

/-! ## Broadcasts -/

/-- A scalar constant broadcast to any shape reads the constant's value everywhere. -/
theorem bcast_const_apply {T : Shape} (h : S_.BroadcastsInDim T (![] : Fin 0 → Fin T.rank)) (w : BitVec 32) (j : T.Idx) :
    broadcastInDim T ![] h (constant (F := Ideal) S_ .f32 w) j = Ideal.ofBits .f32 w := by
  rw [broadcastInDim_scalar_apply, constant_apply]

/-- A scalar broadcast to a row of zeros' shape: the zero row. -/
theorem row_zero {b : ℕ} (h : S_.BroadcastsInDim (⟨2, ![1, b]⟩ : Shape) (![] : Fin 0 → Fin 2)) :
    HoldsRow (broadcastInDim (⟨2, ![1, b]⟩ : Shape) ![] h (constant (F := Ideal) S_ .f32 0x00000000#32)) (fun _ => (0 : ℝ)) := fun j => by
  rw [bcast_const_apply, Ideal.ofBits_zero_f32, EReal.coe_zero]

/-- A cell broadcast along the row reads the cell at every lane. -/
theorem row_of_cell {b : ℕ} {m : FVec Ideal S1x1 .f32} {μ : ℝ} (hm : HoldsCell m μ)
    (h : S1x1.BroadcastsInDim (⟨2, ![1, b]⟩ : Shape) (![0, 1] : Fin 2 → Fin 2)) :
    HoldsRow (broadcastInDim (⟨2, ![1, b]⟩ : Shape) ![0, 1] h m) (fun _ => μ) := fun j => by
  refine (broadcastInDim_apply ![0, 1] h m (ix2 (0 : Fin 1) j) (ix2 (0 : Fin 1) (0 : Fin 1)) ?_).trans hm
  intro a
  match a with
  | ⟨0, _⟩ => show (0 : ℕ) = if (1 : ℕ) = 1 then 0 else _; simp
  | ⟨1, _⟩ => show (0 : ℕ) = if (1 : ℕ) = 1 then 0 else _; simp

/-- A vector broadcast along axis 1 of a one-row matrix is the vector as a row. -/
theorem row_of_vec {b : ℕ} {v : FVec Ideal (⟨1, ![b]⟩ : Shape) .f32} {f : Fin b → ℝ} (hv : Holds1 v f)
    (h : (⟨1, ![b]⟩ : Shape).BroadcastsInDim (⟨2, ![1, b]⟩ : Shape) (![1] : Fin 1 → Fin 2)) :
    HoldsRow (broadcastInDim (⟨2, ![1, b]⟩ : Shape) ![1] h v) f := fun j => by
  refine (broadcastInDim_apply ![1] h v (ix2 (0 : Fin 1) j) (ix1 j) ?_).trans (hv j)
  intro a
  match a with
  | ⟨0, _⟩ =>
    show j.val = if b = 1 then 0 else j.val
    split
    · have := j.isLt; omega
    · rfl

/-! ## The row's sum, and quotients by 256 -/

/-- The sum along the lanes of a row, from the initial value zero, kept as a `[1,1]` cell. -/
theorem cell_rowSum {x : FVec Ideal S1x256 .f32} {xr : Fin 256 → ℝ} (hx : HoldsRow x xr)
    (hr : S1x256.ReducesTo [1] S1) (hn : 0 < S_.numel) (hb : S1.BroadcastsInDim S1x1 (![0] : Fin 1 → Fin S1x1.rank)) :
    HoldsCell (broadcastInDim S1x1 ![0] hb (Host.reduceAdd x (constant (F := Ideal) S_ .f32 0x00000000#32) hr hn)) (∑ i, xr i) := by
  unfold HoldsCell
  refine (broadcastInDim_apply ![0] hb _ (ix2 (0 : Fin 1) (0 : Fin 1)) (ix1 (0 : Fin 1)) ?_).trans ?_
  · intro a
    match a with
    | ⟨0, _⟩ => rfl
  · rw [hostReduceAdd_apply]
    have hR : S1x256.Reduces [1] S1 := by decide
    rw [Ideal.hostReduceAdd_single hr hR]
    rw [constant_apply, Ideal.ofBits_zero_f32, zero_add, coe_sum]
    refine Finset.sum_congr rfl fun k _ => ?_
    exact (congrArg x (funext fun a => by
      match a with
      | ⟨0, _⟩ => exact Fin.ext rfl
      | ⟨1, _⟩ => exact Fin.ext rfl)).trans (hx k)

/-- A cell divided by a scalar that denotes 256. -/
theorem cell_div {n : FVec Ideal S1x1 .f32} {r : ℝ} (hn : HoldsCell n r) {d : FVec Ideal S_ .f32}
    (hd : d ix0 = ((256 : ℝ) : EReal)) (hb : S_.BroadcastsInDim S1x1 (![] : Fin 0 → Fin S1x1.rank)) :
    HoldsCell (Host.divf n (broadcastInDim S1x1 ![] hb d)) (r / 256) := by
  unfold HoldsCell at hn ⊢
  rw [hostDivf_apply, hn, broadcastInDim_scalar_apply, hd, Ideal.div_coe (by norm_num), ← EReal.coe_mul]
  congr 1
  ring

/-- The single-precision word of 256. -/
theorem const256 : constant (F := Ideal) S_ .f32 0x43800000#32 ix0 = ((256 : ℝ) : EReal) := by
  rw [constant_apply, ofBits_256]

/-- The variance's divisor `256 - 0`, the `0` an integer made a float, is `256`. -/
theorem divisor256 :
    subf (constant (F := Ideal) S_ .f32 0x43800000#32) (sitofp (F := Ideal) .f32 (constantI S_ 32 0#32)) ix0
      = ((256 : ℝ) : EReal) := by
  rw [subf_apply, const256]
  show ((256 : ℝ) : EReal) - ((((0#32 : BitVec 32).toInt : ℝ)) : EReal) = _
  simp

/-- The mean of a row: its sum over 256. -/
theorem cell_mean {x : FVec Ideal S1x256 .f32} {xr : Fin 256 → ℝ} (hx : HoldsRow x xr)
    (hr : S1x256.ReducesTo [1] S1) (hn : 0 < S_.numel) (hb : S1.BroadcastsInDim S1x1 (![0] : Fin 1 → Fin S1x1.rank))
    (hb0 : S_.BroadcastsInDim S1x1 (![] : Fin 0 → Fin S1x1.rank)) :
    HoldsCell (Host.divf (broadcastInDim S1x1 ![0] hb (Host.reduceAdd x (constant (F := Ideal) S_ .f32 0x00000000#32) hr hn))
        (broadcastInDim S1x1 ![] hb0 (constant (F := Ideal) S_ .f32 0x43800000#32))) (mean256 xr) :=
  cell_div (cell_rowSum hx hr hn hb) const256 hb0

/-! ## The variance -/

/-- A choice on a scalar condition that is true returns its first arm. -/
theorem select_true_cell {p : IVec S_ 1} (hp : p ix0 = 1#1) (hb : S_.BroadcastsInDim S1x1 (![] : Fin 0 → Fin S1x1.rank))
    (a c : FVec Ideal S1x1 .f32) (j : S1x1.Idx) :
    select (broadcastInDim S1x1 ![] hb p) a c j = a j := by
  rw [select_apply, broadcastInDim_scalar_apply, hp, select_one]

/-- `256 > 0`. -/
theorem cmp_divisor_pos {d : FVec Ideal S_ .f32} (hd : d ix0 = ((256 : ℝ) : EReal)) :
    cmpf .ogt d (constant (F := Ideal) S_ .f32 0x00000000#32) ix0 = 1#1 := by
  rw [cmpf_apply, hd, constant_apply, Ideal.ofBits_zero_f32]
  show Ideal.cmp .ogt _ _ = _
  have h : (0 : EReal) < ((256 : ℝ) : EReal) := EReal.coe_pos.2 (by norm_num)
  simp [Ideal.cmp, h]

/-- The variance of a row as the reference computes it: the mean `m` recomputed, the row centred and squared, summed
    along the lanes, divided by `256 - 0`, behind a choice on `256 - 0 > 0` whose other arm `o` is never taken. -/
theorem cell_var {x : FVec Ideal S1x256 .f32} {xr : Fin 256 → ℝ} (hx : HoldsRow x xr)
    {m : FVec Ideal S1x1 .f32} (hm : HoldsCell m (mean256 xr)) (o : FVec Ideal S1x1 .f32)
    (hr : S1x256.ReducesTo [1] S1) (hn : 0 < S_.numel) (hb : S1.BroadcastsInDim S1x1 (![0] : Fin 1 → Fin S1x1.rank))
    (hb0 : S_.BroadcastsInDim S1x1 (![] : Fin 0 → Fin S1x1.rank))
    (hb2 : S1x1.BroadcastsInDim S1x256 (![0, 1] : Fin 2 → Fin S1x256.rank)) :
    HoldsCell
      (select
        (broadcastInDim S1x1 ![] hb0
          (cmpf .ogt
            (subf (constant (F := Ideal) S_ .f32 0x43800000#32) (sitofp (F := Ideal) .f32 (constantI S_ 32 0#32)))
            (constant (F := Ideal) S_ .f32 0x00000000#32)))
        (Host.divf
          (broadcastInDim S1x1 ![0] hb
            (Host.reduceAdd
              (mulf (subf x (broadcastInDim S1x256 ![0, 1] hb2 m)) (subf x (broadcastInDim S1x256 ![0, 1] hb2 m)))
              (constant (F := Ideal) S_ .f32 0x00000000#32) hr hn))
          (broadcastInDim S1x1 ![] hb0
            (subf (constant (F := Ideal) S_ .f32 0x43800000#32) (sitofp (F := Ideal) .f32 (constantI S_ 32 0#32)))))
        o)
      (var256 xr) := by
  have hc : HoldsRow (subf x (broadcastInDim S1x256 ![0, 1] hb2 m)) (fun i => xr i - mean256 xr) :=
    row_sub hx (row_of_cell hm hb2)
  have hq := cell_div (cell_rowSum (row_mul hc hc) hr hn hb) divisor256 hb0
  unfold HoldsCell
  rw [select_true_cell (cmp_divisor_pos divisor256) hb0]
  exact hq

theorem var256_nonneg (x : Fin 256 → ℝ) : 0 ≤ var256 x :=
  div_nonneg (Finset.sum_nonneg fun i _ => mul_self_nonneg _) (by norm_num)

/-! ## Normalisation, scale and shift, rectifier -/

/-- The reciprocal square root of the variance plus the offset: the argument is positive, so it is the real one. -/
theorem cell_rsqrt {v : FVec Ideal S1x1 .f32} {r : ℝ} (hv : HoldsCell v r) (hr : 0 ≤ r)
    (hb0 : S_.BroadcastsInDim S1x1 (![] : Fin 0 → Fin S1x1.rank)) :
    HoldsCell (Host.rsqrt (addf v (broadcastInDim S1x1 ![] hb0 (constant (F := Ideal) S_ .f32 0x3727C5AC#32))))
      ((Real.sqrt (r + epsR))⁻¹) := by
  unfold HoldsCell at hv ⊢
  have hpos : 0 < r + epsR := add_pos_of_nonneg_of_pos hr epsR_pos
  show Ideal.rsqrt (addf v (broadcastInDim S1x1 ![] hb0 (constant (F := Ideal) S_ .f32 0x3727C5AC#32)) (ix2 (0 : Fin 1) (0 : Fin 1))) = _
  rw [addf_apply, hv, bcast_const_apply, ofBits_eps, ← EReal.coe_add, Ideal.rsqrt_coe, if_neg (not_lt.2 hpos.le),
    if_neg hpos.ne']

/-- The layer norm of a row from its mean and variance cells: centre, multiply by the reciprocal root, scale, shift. -/
theorem row_layerNorm {x : FVec Ideal S1x256 .f32} {xr : Fin 256 → ℝ} (hx : HoldsRow x xr)
    {m v : FVec Ideal S1x1 .f32} (hm : HoldsCell m (mean256 xr)) (hv : HoldsCell v (var256 xr))
    {sc sh : FVec Ideal S256 .f32} {s b : Fin 256 → ℝ} (hs : Holds1 sc s) (hsh : Holds1 sh b)
    (hb0 : S_.BroadcastsInDim S1x1 (![] : Fin 0 → Fin S1x1.rank))
    (hb2 : S1x1.BroadcastsInDim S1x256 (![0, 1] : Fin 2 → Fin S1x256.rank))
    (hb1 : S256.BroadcastsInDim S1x256 (![1] : Fin 1 → Fin S1x256.rank)) :
    HoldsRow
      (addf
        (mulf
          (mulf (subf x (broadcastInDim S1x256 ![0, 1] hb2 m))
            (broadcastInDim S1x256 ![0, 1] hb2
              (Host.rsqrt (addf v (broadcastInDim S1x1 ![] hb0 (constant (F := Ideal) S_ .f32 0x3727C5AC#32))))))
          (broadcastInDim S1x256 ![1] hb1 sc))
        (broadcastInDim S1x256 ![1] hb1 sh))
      (layerNorm xr s b) :=
  row_add
    (row_mul
      (row_mul (row_sub hx (row_of_cell hm hb2)) (row_of_cell (cell_rsqrt hv (var256_nonneg xr) hb0) hb2))
      (row_of_vec hs hb1))
    (row_of_vec hsh hb1)

/-- The rectifier: the maximum with the zero row. -/
theorem row_relu {y : FVec Ideal S1x256 .f32} {yr : Fin 256 → ℝ} (hy : HoldsRow y yr)
    (h : S_.BroadcastsInDim S1x256 (![] : Fin 0 → Fin S1x256.rank)) :
    HoldsRow (maximumf y (broadcastInDim S1x256 ![] h (constant (F := Ideal) S_ .f32 0x00000000#32)))
      (fun i => max (yr i) 0) :=
  row_max hy (row_zero h)

/-! ## The row-by-matrix product plus a bias row -/

/-- A one-row matrix times a matrix, read at a lane: the sum over the contracted lane of the products. -/
theorem row_dot {k n : ℕ} {y : FVec Ideal (⟨2, ![1, k]⟩ : Shape) .f32} {yr : Fin k → ℝ} (hy : HoldsRow y yr)
    {W : FVec Ideal (⟨2, ![k, n]⟩ : Shape) .f32} {Wr : Fin k → Fin n → ℝ} (hW : Holds2 W Wr) :
    HoldsRow (Host.dotGeneral (DotDims.plain 1 k n) none y W) (fun j => ∑ c, yr c * Wr c j) := fun j => by
  rw [StackMember.dotGeneral_plain_apply, coe_sum]
  refine Finset.sum_congr rfl fun c _ => ?_
  rw [hy c, hW c j, EReal.coe_mul]

variable [Facts₀]

/-- Family projections: `[1,256] · [256,128]` plus the bias. -/
theorem row_affine128 {y : FVec Ideal S1x256 .f32} {yr : Fin 256 → ℝ} (hy : HoldsRow y yr)
    {W : FVec Ideal S256x128 .f32} {Wr : Fin 256 → Fin 128 → ℝ} (hW : Holds2 W Wr)
    {c : FVec Ideal S128 .f32} {cr : Fin 128 → ℝ} (hc : Holds1 c cr)
    (hb : S128.BroadcastsInDim S1x128 (![1] : Fin 1 → Fin S1x128.rank)) :
    HoldsRow (addf (Host.dotGeneral dot_S1x256_S256x128_S1x128_1_0_0_1_n_n none y W) (broadcastInDim S1x128 ![1] hb c))
      (fun k => (∑ j, yr j * Wr j k) + cr k) :=
  row_add (row_dot hy hW) (row_of_vec hc hb)

/-- The closing block's product: `[1,256] · [256,256]` plus the bias. -/
theorem row_affine256 {y : FVec Ideal S1x256 .f32} {yr : Fin 256 → ℝ} (hy : HoldsRow y yr)
    {W : FVec Ideal S256x256 .f32} {Wr : Fin 256 → Fin 256 → ℝ} (hW : Holds2 W Wr)
    {c : FVec Ideal S256 .f32} {cr : Fin 256 → ℝ} (hc : Holds1 c cr)
    (hb : S256.BroadcastsInDim S1x256 (![1] : Fin 1 → Fin S1x256.rank)) :
    HoldsRow (addf (Host.dotGeneral dot_S1x256_S256x256_S1x256_1_0_0_1_n_n none y W) (broadcastInDim S1x256 ![1] hb c))
      (fun k => (∑ j, yr j * Wr j k) + cr k) :=
  row_add (row_dot hy hW) (row_of_vec hc hb)

/-! ## Two half rows laid end to end, added to the global row -/

/-- The concatenation along the lanes: lanes `0 … 127` read the first half, lanes `128 … 255` the second. -/
theorem row_concat {v s : FVec Ideal S1x128 .f32} {vr sr : Fin 128 → ℝ} (hv : HoldsRow v vr) (hs : HoldsRow s sr)
    (h : Shape.Concatenates [S1x128, S1x128] S1x256 1) :
    HoldsRow (concatenate S1x256 1 [⟨S1x128, v⟩, ⟨S1x128, s⟩] h)
      (fun i => if hi : i.val < 128 then vr ⟨i.val, hi⟩ else sr ⟨i.val - 128, by omega⟩) := fun j => by
  beta_reduce
  by_cases hj : j.val < 128
  · rw [dif_pos hj]
    refine (concatenate_pair_apply_left (1 : Fin 2) v s h (ix2 (0 : Fin 1) j) rfl (ix2 (0 : Fin 1) (⟨j.val, hj⟩ : Fin 128)) ?_).trans
      (hv ⟨j.val, hj⟩)
    intro a
    match a with
    | ⟨0, _⟩ => rfl
    | ⟨1, _⟩ => rfl
  · rw [dif_neg hj]
    refine (concatenate_pair_apply_right (1 : Fin 2) v s h (ix2 (0 : Fin 1) j) rfl rfl
      (ix2 (0 : Fin 1) (⟨j.val - 128, by omega⟩ : Fin 128)) ?_ ?_).trans (hs ⟨j.val - 128, by omega⟩)
    · intro a ha
      match a with
      | ⟨0, _⟩ => rfl
      | ⟨1, _⟩ => exact absurd rfl ha
    · show j.val - 128 + 128 = j.val
      omega

/-- The closing block's input: the global row plus the two aggregates laid end to end. -/
theorem row_joined {x : FVec Ideal S1x256 .f32} {g : Fin 256 → ℝ} (hx : HoldsRow x g)
    {v s : FVec Ideal S1x128 .f32} {vr sr : Fin 128 → ℝ} (hv : HoldsRow v vr) (hs : HoldsRow s sr)
    (h : Shape.Concatenates [S1x128, S1x128] S1x256 1) :
    HoldsRow (addf x (concatenate S1x256 1 [⟨S1x128, v⟩, ⟨S1x128, s⟩] h)) (joined g vr sr) :=
  row_add hx (row_concat hv hs h)

end StarAttn.RefEnds

end
-- ==== Proof.RefEnds.lean ====
/-
  The layer-norm ends of the reference program are Spec.lean's `proj` and `residual ∘ joined`.

  The program's first stretch normalises the global row over its 256 lanes (mean, variance, reciprocal root of the
  variance plus the offset, scale and shift of family 1), rectifies it and maps it to 128 lanes: that is the target
  vector `p1`.  The same stretch with family 2's parameters gives `p2`.  The last stretch adds to the global row the
  two aggregates laid end to end, and passes the sum through the same layer norm, rectifier and a linear map to 256
  lanes, added back to the sum: that is `residual (joined g v s)` for whatever real rows `v`, `s` the aggregates hold.
  Each step is one operation lemma of RefEndsOps.lean applied to the program's term for that value.
-/
import proofs.«165745_g33088428049086_cont_sun_c4_530_12_alg».proof.Proof.RefTable
import proofs.«165745_g33088428049086_cont_sun_c4_530_12_alg».proof.Proof.RefEndsOps

noncomputable section

namespace StarAttn.RefEnds

open Idealize.ShloMosaic Idealize.ShloMosaic.ValueIdx Cert.ReferenceIdeal Cert.ReferenceIdeal.HandRun

variable {R : StarAttn.Args} {A : HandRun.Args Ideal}

/-- Family 1's target vector: the layer norm of the global row with `(s1, b1)`, rectified, times `W1`, plus `c1`. -/
theorem ref_p1 (hA : ArgsHold R A.a0 A.a1 A.a2 A.a3 A.a4 A.a5 A.a6 A.a7 A.a8 A.a9 A.a10 A.a11 A.a12 A.a13 A.a14 A.a15 A.a16 A.a17 A.a18 A.a19 A.a20 A.a21 A.a22 A.a23 A.a24 A.a25 A.a26) : HoldsRow (res_v19 A) R.p1 := by
  have hm : HoldsCell (res_v3 A) (mean256 R.g) := cell_mean hA.h2 _ _ _ _
  have hm' : HoldsCell (res_call0_v3 A) (mean256 R.g) := cell_mean hA.h2 _ _ _ _
  have hv : HoldsCell (res_v4 A) (var256 R.g) := cell_var hA.h2 hm' _ _ _ _ _ _
  have hln : HoldsRow (res_v15 A) (layerNorm R.g R.s1 R.b1) := row_layerNorm hA.h2 hm hv hA.h3 hA.h4 _ _ _
  have hre : HoldsRow (res_v16 A) (reluLN R.g R.s1 R.b1) := row_relu hln _
  exact row_affine128 hre hA.h5 hA.h6 _

/-- Family 2's target vector: the same with `(s2, b2)`, `W2`, `c2`. -/
theorem ref_p2 (hA : ArgsHold R A.a0 A.a1 A.a2 A.a3 A.a4 A.a5 A.a6 A.a7 A.a8 A.a9 A.a10 A.a11 A.a12 A.a13 A.a14 A.a15 A.a16 A.a17 A.a18 A.a19 A.a20 A.a21 A.a22 A.a23 A.a24 A.a25 A.a26) : HoldsRow (res_v73 A) R.p2 := by
  have hm : HoldsCell (res_v57 A) (mean256 R.g) := cell_mean hA.h2 _ _ _ _
  have hm' : HoldsCell (res_call3_v3 A) (mean256 R.g) := cell_mean hA.h2 _ _ _ _
  have hv : HoldsCell (res_v58 A) (var256 R.g) := cell_var hA.h2 hm' _ _ _ _ _ _
  have hln : HoldsRow (res_v69 A) (layerNorm R.g R.s2 R.b2) := row_layerNorm hA.h2 hm hv hA.h13 hA.h14 _ _ _
  have hre : HoldsRow (res_v70 A) (reluLN R.g R.s2 R.b2) := row_relu hln _
  exact row_affine128 hre hA.h15 hA.h16 _

/-- The closing block: whatever real rows `v` and `s` the two aggregates hold, the result holds
    `residual (joined g v s)` with `(s3, b3)`, `W3`, `c3`. -/
theorem ref_out (hA : ArgsHold R A.a0 A.a1 A.a2 A.a3 A.a4 A.a5 A.a6 A.a7 A.a8 A.a9 A.a10 A.a11 A.a12 A.a13 A.a14 A.a15 A.a16 A.a17 A.a18 A.a19 A.a20 A.a21 A.a22 A.a23 A.a24 A.a25 A.a26)
    {v s : Fin 128 → ℝ} (hv : HoldsRow (res_v53 A) v) (hs : HoldsRow (res_v107 A) s) :
    HoldsRow (res_v130 A) (residual (joined R.g v s) R.s3 R.b3 R.W3 R.c3) := by
  have hx : HoldsRow (res_v109 A) (joined R.g v s) := row_joined hA.h2 hv hs _
  have hm : HoldsCell (res_v113 A) (mean256 (joined R.g v s)) := cell_mean hx _ _ _ _
  have hm' : HoldsCell (res_call6_v3 A) (mean256 (joined R.g v s)) := cell_mean hx _ _ _ _
  have hvar : HoldsCell (res_v114 A) (var256 (joined R.g v s)) := cell_var hx hm' _ _ _ _ _ _
  have hln : HoldsRow (res_v125 A) (layerNorm (joined R.g v s) R.s3 R.b3) :=
    row_layerNorm hx hm hvar hA.h23 hA.h24 _ _ _
  have hre : HoldsRow (res_v126 A) (reluLN (joined R.g v s) R.s3 R.b3) := row_relu hln _
  have haf : HoldsRow (res_v129 A) (fun k => (∑ j, reluLN (joined R.g v s) R.s3 R.b3 j * R.W3 j k) + R.c3 k) :=
    row_affine256 hre hA.h25 hA.h26 _
  exact row_add hx haf

/-- The same for the returned value. -/
theorem ref_res_out (hA : ArgsHold R A.a0 A.a1 A.a2 A.a3 A.a4 A.a5 A.a6 A.a7 A.a8 A.a9 A.a10 A.a11 A.a12 A.a13 A.a14 A.a15 A.a16 A.a17 A.a18 A.a19 A.a20 A.a21 A.a22 A.a23 A.a24 A.a25 A.a26)
    {v s : Fin 128 → ℝ} (hv : HoldsRow (res_v53 A) v) (hs : HoldsRow (res_v107 A) s) :
    HoldsRow (res_out A) (residual (joined R.g v s) R.s3 R.b3 R.W3 R.c3) :=
  ref_out hA hv hs

end StarAttn.RefEnds

end
-- ==== Proof.RefFinal.lean ====
/-
  The reference's returned value holds the specification's direct arrangement: the target vectors of the two
  families, their attention aggregates and the closing block, put end to end; with two small facts the assembly
  uses — a row is determined by the real vector it holds, and holding the arguments is stable under equality of the
  arrays.
-/
import proofs.«165745_g33088428049086_cont_sun_c4_530_12_alg».proof.Proof.RefGat
import proofs.«165745_g33088428049086_cont_sun_c4_530_12_alg».proof.Proof.RefEnds

noncomputable section

namespace StarAttn.RefFinal

open Idealize.ShloMosaic Idealize.ShloMosaic.ValueIdx Cert.ReferenceIdeal Cert.ReferenceIdeal.HandRun

/-- Two rows holding the same real vector are the same array: every index of a `[1, b]` array is `(0, j)`. -/
theorem holdsRow_ext {b : ℕ} {u v : FVec Ideal (⟨2, ![1, b]⟩ : Shape) .f32} {f : Fin b → ℝ}
    (hu : HoldsRow u f) (hv : HoldsRow v f) : u = v := by
  funext i
  obtain ⟨r, c, rfl⟩ : ∃ (r : Fin 1) (c : Fin b), i = ix2 r c := ⟨i 0, i 1, eq_ix2 i⟩
  obtain rfl : r = 0 := Subsingleton.elim _ _
  exact (hu c).trans (hv c).symm

/-- The value the reference returns holds the direct arrangement of the specification, for the two shifts that are
    the row-maxima of the two families' logits: the target vectors, then the two attention aggregates, then the
    closing residual block. -/
theorem ref_value (A : HandRun.Args Ideal) (R : StarAttn.Args)
    (H : ArgsHold R A.a0 A.a1 A.a2 A.a3 A.a4 A.a5 A.a6 A.a7 A.a8 A.a9 A.a10 A.a11 A.a12 A.a13 A.a14 A.a15 A.a16 A.a17 A.a18 A.a19 A.a20 A.a21 A.a22 A.a23 A.a24 A.a25 A.a26) :
    ∃ M₁ M₂ : Fin 8 → ℝ, HoldsRow (res_out A) (R.outD M₁ M₂) := by
  obtain ⟨M₁, h1⟩ := RefGat.gat1_holds A R H (RefEnds.ref_p1 H)
  obtain ⟨M₂, h2⟩ := RefGat.gat2_holds A R H (RefEnds.ref_p2 H)
  exact ⟨M₁, M₂, RefEnds.ref_res_out H h1 h2⟩

/-- Arrays equal to arrays that hold the real arguments hold them too. -/
theorem argsHold_congr {R : StarAttn.Args}
    {a0 a0' : FVec Ideal (⟨2, ![100000, 128]⟩ : Shape) .f32}
    {a1 a1' : FVec Ideal (⟨2, ![100000, 128]⟩ : Shape) .f32}
    {a2 a2' : FVec Ideal (⟨2, ![1, 256]⟩ : Shape) .f32}
    {a3 a3' : FVec Ideal (⟨1, ![256]⟩ : Shape) .f32}
    {a4 a4' : FVec Ideal (⟨1, ![256]⟩ : Shape) .f32}
    {a5 a5' : FVec Ideal (⟨2, ![256, 128]⟩ : Shape) .f32}
    {a6 a6' : FVec Ideal (⟨1, ![128]⟩ : Shape) .f32}
    {a7 a7' : FVec Ideal (⟨2, ![128, 128]⟩ : Shape) .f32}
    {a8 a8' : FVec Ideal (⟨1, ![128]⟩ : Shape) .f32}
    {a9 a9' : FVec Ideal (⟨2, ![128, 128]⟩ : Shape) .f32}
    {a10 a10' : FVec Ideal (⟨1, ![128]⟩ : Shape) .f32}
    {a11 a11' : FVec Ideal (⟨2, ![8, 16]⟩ : Shape) .f32}
    {a12 a12' : FVec Ideal (⟨1, ![128]⟩ : Shape) .f32}
    {a13 a13' : FVec Ideal (⟨1, ![256]⟩ : Shape) .f32}
    {a14 a14' : FVec Ideal (⟨1, ![256]⟩ : Shape) .f32}
    {a15 a15' : FVec Ideal (⟨2, ![256, 128]⟩ : Shape) .f32}
    {a16 a16' : FVec Ideal (⟨1, ![128]⟩ : Shape) .f32}
    {a17 a17' : FVec Ideal (⟨2, ![128, 128]⟩ : Shape) .f32}
    {a18 a18' : FVec Ideal (⟨1, ![128]⟩ : Shape) .f32}
    {a19 a19' : FVec Ideal (⟨2, ![128, 128]⟩ : Shape) .f32}
    {a20 a20' : FVec Ideal (⟨1, ![128]⟩ : Shape) .f32}
    {a21 a21' : FVec Ideal (⟨2, ![8, 16]⟩ : Shape) .f32}
    {a22 a22' : FVec Ideal (⟨1, ![128]⟩ : Shape) .f32}
    {a23 a23' : FVec Ideal (⟨1, ![256]⟩ : Shape) .f32}
    {a24 a24' : FVec Ideal (⟨1, ![256]⟩ : Shape) .f32}
    {a25 a25' : FVec Ideal (⟨2, ![256, 256]⟩ : Shape) .f32}
    {a26 a26' : FVec Ideal (⟨1, ![256]⟩ : Shape) .f32}
    (H : ArgsHold R a0 a1 a2 a3 a4 a5 a6 a7 a8 a9 a10 a11 a12 a13 a14 a15 a16 a17 a18 a19 a20 a21 a22 a23 a24 a25 a26)
    (e0 : a0' = a0) (e1 : a1' = a1) (e2 : a2' = a2) (e3 : a3' = a3) (e4 : a4' = a4) (e5 : a5' = a5) (e6 : a6' = a6) (e7 : a7' = a7) (e8 : a8' = a8) (e9 : a9' = a9) (e10 : a10' = a10) (e11 : a11' = a11) (e12 : a12' = a12) (e13 : a13' = a13) (e14 : a14' = a14) (e15 : a15' = a15) (e16 : a16' = a16) (e17 : a17' = a17) (e18 : a18' = a18) (e19 : a19' = a19) (e20 : a20' = a20) (e21 : a21' = a21) (e22 : a22' = a22) (e23 : a23' = a23) (e24 : a24' = a24) (e25 : a25' = a25) (e26 : a26' = a26) :
    ArgsHold R a0' a1' a2' a3' a4' a5' a6' a7' a8' a9' a10' a11' a12' a13' a14' a15' a16' a17' a18' a19' a20' a21' a22' a23' a24' a25' a26' := by
  subst e0 e1 e2 e3 e4 e5 e6 e7 e8 e9 e10 e11 e12 e13 e14 e15 e16 e17 e18 e19 e20 e21 e22 e23 e24 e25 e26
  exact H

end StarAttn.RefFinal

end
-- ==== Proof.lean ====
/-
  The certificate: the streamed star-graph attention kernel against its direct reference, over the extended reals.

  Both programs compute, from a global feature `g` and two families of 100000 source rows, the residual block
  `x + (relu (LN x) · W₃ + c₃)` of `x = g + concat (agg₁, agg₂)`, where each aggregate is the per-head softmax-weighted
  mean of the source features plus biases (Spec.lean).  The kernel streams the rows in 20 blocks, keeping per lane a
  running shift, normaliser and weighted sum (KStream, KInduct), takes all 128 lanes' logits from one product with a
  head-block-diagonal matrix (KHost) and adds `bl` once at the end (KEnds); the reference is a plain softmax (RefGat,
  RefEnds over the reference's run RefRun).  Under the precondition every input is a real (PreReal), every
  intermediate of both programs is a real, and the two real results agree (Math: the weighted mean does not depend
  on the shift, and the softmax weights sum to one).  The three frames: the kernel's two are the generated frame
  certificates, the reference's is its run with the result dropped; `preserves` has no entry.
-/
import proofs.«165745_g33088428049086_cont_sun_c4_530_12_alg».proof.Defs
import proofs.«165745_g33088428049086_cont_sun_c4_530_12_alg».proof.Proof.Gen.Kernel
import proofs.«165745_g33088428049086_cont_sun_c4_530_12_alg».proof.Proof.Gen.KernelIdeal
import proofs.«165745_g33088428049086_cont_sun_c4_530_12_alg».proof.Proof.Gen.ReferenceIdeal
import proofs.«165745_g33088428049086_cont_sun_c4_530_12_alg».proof.Proof.Gen.Pre_finite_inputs
import proofs.«165745_g33088428049086_cont_sun_c4_530_12_alg».proof.Proof.PatchedKernelFrame
import proofs.«165745_g33088428049086_cont_sun_c4_530_12_alg».proof.Proof.PatchedKernelIdealFrame
import proofs.«165745_g33088428049086_cont_sun_c4_530_12_alg».proof.Proof.PatchedKernelIdealValue
import proofs.«165745_g33088428049086_cont_sun_c4_530_12_alg».proof.Proof.PreReal
import proofs.«165745_g33088428049086_cont_sun_c4_530_12_alg».proof.Proof.KFinal
import proofs.«165745_g33088428049086_cont_sun_c4_530_12_alg».proof.Proof.RefRun
import proofs.«165745_g33088428049086_cont_sun_c4_530_12_alg».proof.Proof.RefFinal
import Idealize.ShloMosaic.Adequacy
import Idealize.ShloMosaic.Init

noncomputable section

namespace Cert.Proof

open Idealize.ShloMosaic Idealize.ShloMosaic.TcCoe Idealize.SL.Sem StarAttn

/-- The word-level kernel runs and keeps its arguments: its generated frame certificate. -/
theorem frame_k : Cert.frame_Kernel (hKernel := Cert.Kernel.Gen.facts) (hPre_finite_inputs := Cert.Pre_finite_inputs.Gen.facts) :=
  fun m ρ _ => Cert.Kernel.GenP.frame m ρ

/-- The idealized kernel runs and keeps its arguments: its generated frame certificate. -/
theorem frame_ki : Cert.frame_KernelIdeal (hKernelIdeal := Cert.KernelIdeal.Gen.facts) (hPre_finite_inputs := Cert.Pre_finite_inputs.Gen.facts) :=
  fun m ρ _ => Cert.KernelIdeal.GenP.frame m ρ

/-- The reference runs and keeps its arguments: its run, with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.HandRun.run (F := Ideal) m ρ)

/-- From memories agreeing on the arguments, the idealized kernel's result array (the last grid point's output row)
    and the reference's result hold the same real vector: the streamed and the direct arrangement of one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (Cert.KernelIdeal.GenP.dats (F := Ideal) m 0 c).arrAt 28 Cert.KernelIdeal.cfg0.N,
    Cert.KernelIdeal.ValueP.run_blocks (F := Ideal) m ρ, ?_⟩
  refine (θ_run Cert.ReferenceIdeal.defs _ _).mono (fun r h c => ⟨(h c).1.trans ?_, (h c).2⟩)
    (Cert.ReferenceIdeal.HandRun.run (F := Ideal) m' ρ')
  obtain ⟨A, hA⟩ := StarAttn.args_of_pre m hpre c
  obtain ⟨μ₁, μ₂, hk⟩ := StarAttn.KFinal.final_array m A c hA
  have hg := hagree c
  have hA' := StarAttn.RefFinal.argsHold_congr hA
    hg.1
    hg.2.1
    hg.2.2.1
    hg.2.2.2.1
    hg.2.2.2.2.1
    hg.2.2.2.2.2.1
    hg.2.2.2.2.2.2.1
    hg.2.2.2.2.2.2.2.1
    hg.2.2.2.2.2.2.2.2.1
    hg.2.2.2.2.2.2.2.2.2.1
    hg.2.2.2.2.2.2.2.2.2.2.1
    hg.2.2.2.2.2.2.2.2.2.2.2.1
    hg.2.2.2.2.2.2.2.2.2.2.2.2.1
    hg.2.2.2.2.2.2.2.2.2.2.2.2.2.1
    hg.2.2.2.2.2.2.2.2.2.2.2.2.2.2.1
    hg.2.2.2.2.2.2.2.2.2.2.2.2.2.2.2.1
    hg.2.2.2.2.2.2.2.2.2.2.2.2.2.2.2.2.1
    hg.2.2.2.2.2.2.2.2.2.2.2.2.2.2.2.2.2.1
    hg.2.2.2.2.2.2.2.2.2.2.2.2.2.2.2.2.2.2.1
    hg.2.2.2.2.2.2.2.2.2.2.2.2.2.2.2.2.2.2.2.1
    hg.2.2.2.2.2.2.2.2.2.2.2.2.2.2.2.2.2.2.2.2.1
    hg.2.2.2.2.2.2.2.2.2.2.2.2.2.2.2.2.2.2.2.2.2.1
    hg.2.2.2.2.2.2.2.2.2.2.2.2.2.2.2.2.2.2.2.2.2.2.1
    hg.2.2.2.2.2.2.2.2.2.2.2.2.2.2.2.2.2.2.2.2.2.2.2.1
    hg.2.2.2.2.2.2.2.2.2.2.2.2.2.2.2.2.2.2.2.2.2.2.2.2.1
    hg.2.2.2.2.2.2.2.2.2.2.2.2.2.2.2.2.2.2.2.2.2.2.2.2.2.1
    hg.2.2.2.2.2.2.2.2.2.2.2.2.2.2.2.2.2.2.2.2.2.2.2.2.2.2
  obtain ⟨M₁, M₂, hr⟩ := StarAttn.RefFinal.ref_value
    (⟨m' ((c.tc : Thread Cert.ReferenceIdeal.nD Cert.ReferenceIdeal.τ).loc Cert.ReferenceIdeal.main_arg0),
      m' ((c.tc : Thread Cert.ReferenceIdeal.nD Cert.ReferenceIdeal.τ).loc Cert.ReferenceIdeal.main_arg1),
      m' ((c.tc : Thread Cert.ReferenceIdeal.nD Cert.ReferenceIdeal.τ).loc Cert.ReferenceIdeal.main_arg2),
      m' ((c.tc : Thread Cert.ReferenceIdeal.nD Cert.ReferenceIdeal.τ).loc Cert.ReferenceIdeal.main_arg3),
      m' ((c.tc : Thread Cert.ReferenceIdeal.nD Cert.ReferenceIdeal.τ).loc Cert.ReferenceIdeal.main_arg4),
      m' ((c.tc : Thread Cert.ReferenceIdeal.nD Cert.ReferenceIdeal.τ).loc Cert.ReferenceIdeal.main_arg5),
      m' ((c.tc : Thread Cert.ReferenceIdeal.nD Cert.ReferenceIdeal.τ).loc Cert.ReferenceIdeal.main_arg6),
      m' ((c.tc : Thread Cert.ReferenceIdeal.nD Cert.ReferenceIdeal.τ).loc Cert.ReferenceIdeal.main_arg7),
      m' ((c.tc : Thread Cert.ReferenceIdeal.nD Cert.ReferenceIdeal.τ).loc Cert.ReferenceIdeal.main_arg8),
      m' ((c.tc : Thread Cert.ReferenceIdeal.nD Cert.ReferenceIdeal.τ).loc Cert.ReferenceIdeal.main_arg9),
      m' ((c.tc : Thread Cert.ReferenceIdeal.nD Cert.ReferenceIdeal.τ).loc Cert.ReferenceIdeal.main_arg10),
      m' ((c.tc : Thread Cert.ReferenceIdeal.nD Cert.ReferenceIdeal.τ).loc Cert.ReferenceIdeal.main_arg11),
      m' ((c.tc : Thread Cert.ReferenceIdeal.nD Cert.ReferenceIdeal.τ).loc Cert.ReferenceIdeal.main_arg12),
      m' ((c.tc : Thread Cert.ReferenceIdeal.nD Cert.ReferenceIdeal.τ).loc Cert.ReferenceIdeal.main_arg13),
      m' ((c.tc : Thread Cert.ReferenceIdeal.nD Cert.ReferenceIdeal.τ).loc Cert.ReferenceIdeal.main_arg14),
      m' ((c.tc : Thread Cert.ReferenceIdeal.nD Cert.ReferenceIdeal.τ).loc Cert.ReferenceIdeal.main_arg15),
      m' ((c.tc : Thread Cert.ReferenceIdeal.nD Cert.ReferenceIdeal.τ).loc Cert.ReferenceIdeal.main_arg16),
      m' ((c.tc : Thread Cert.ReferenceIdeal.nD Cert.ReferenceIdeal.τ).loc Cert.ReferenceIdeal.main_arg17),
      m' ((c.tc : Thread Cert.ReferenceIdeal.nD Cert.ReferenceIdeal.τ).loc Cert.ReferenceIdeal.main_arg18),
      m' ((c.tc : Thread Cert.ReferenceIdeal.nD Cert.ReferenceIdeal.τ).loc Cert.ReferenceIdeal.main_arg19),
      m' ((c.tc : Thread Cert.ReferenceIdeal.nD Cert.ReferenceIdeal.τ).loc Cert.ReferenceIdeal.main_arg20),
      m' ((c.tc : Thread Cert.ReferenceIdeal.nD Cert.ReferenceIdeal.τ).loc Cert.ReferenceIdeal.main_arg21),
      m' ((c.tc : Thread Cert.ReferenceIdeal.nD Cert.ReferenceIdeal.τ).loc Cert.ReferenceIdeal.main_arg22),
      m' ((c.tc : Thread Cert.ReferenceIdeal.nD Cert.ReferenceIdeal.τ).loc Cert.ReferenceIdeal.main_arg23),
      m' ((c.tc : Thread Cert.ReferenceIdeal.nD Cert.ReferenceIdeal.τ).loc Cert.ReferenceIdeal.main_arg24),
      m' ((c.tc : Thread Cert.ReferenceIdeal.nD Cert.ReferenceIdeal.τ).loc Cert.ReferenceIdeal.main_arg25),
      m' ((c.tc : Thread Cert.ReferenceIdeal.nD Cert.ReferenceIdeal.τ).loc Cert.ReferenceIdeal.main_arg26)⟩ : Cert.ReferenceIdeal.HandRun.Args Ideal) A hA'
  rw [← StarAttn.outS_eq_outD A μ₁ μ₂ M₁ M₂] at hr
  exact StarAttn.RefFinal.holdsRow_ext hr hk

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
